-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S1024 : Shape := ⟨1, ![1024]⟩
abbrev S65x64 : Shape := ⟨2, ![65, 64]⟩
abbrev S17x64 : Shape := ⟨2, ![17, 64]⟩
abbrev S128x512 : Shape := ⟨2, ![128, 512]⟩
abbrev S128 : Shape := ⟨1, ![128]⟩
abbrev S65x128 : Shape := ⟨2, ![65, 128]⟩
abbrev S65 : Shape := ⟨1, ![65]⟩
abbrev S128x576 : Shape := ⟨2, ![128, 576]⟩
abbrev S17x128 : Shape := ⟨2, ![17, 128]⟩
abbrev S17 : Shape := ⟨1, ![17]⟩
abbrev S128x640 : Shape := ⟨2, ![128, 640]⟩
abbrev S128x704 : Shape := ⟨2, ![128, 704]⟩
abbrev S2x128 : Shape := ⟨2, ![2, 128]⟩
abbrev S2 : Shape := ⟨1, ![2]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S65x64 : S_.BroadcastsInDim S65x64 (![] : Fin 0 → Fin S65x64.rank)
  reducesTo_S65x64_S_d0_1 : S65x64.ReducesTo [0, 1] S_
  bcast_S_S17x64 : S_.BroadcastsInDim S17x64 (![] : Fin 0 → Fin S17x64.rank)
  reducesTo_S17x64_S_d0_1 : S17x64.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S65x128 : S_.BroadcastsInDim S65x128 (![] : Fin 0 → Fin S65x128.rank)
  reducesTo_S65x128_S_d0_1 : S65x128.ReducesTo [0, 1] S_
  bcast_S_S65 : S_.BroadcastsInDim S65 (![] : Fin 0 → Fin S65.rank)
  reducesTo_S65_S_d0 : S65.ReducesTo [0] S_
  bcast_S_S128x576 : S_.BroadcastsInDim S128x576 (![] : Fin 0 → Fin S128x576.rank)
  reducesTo_S128x576_S_d0_1 : S128x576.ReducesTo [0, 1] S_
  bcast_S_S17x128 : S_.BroadcastsInDim S17x128 (![] : Fin 0 → Fin S17x128.rank)
  reducesTo_S17x128_S_d0_1 : S17x128.ReducesTo [0, 1] S_
  bcast_S_S17 : S_.BroadcastsInDim S17 (![] : Fin 0 → Fin S17.rank)
  reducesTo_S17_S_d0 : S17.ReducesTo [0] S_
  bcast_S_S128x640 : S_.BroadcastsInDim S128x640 (![] : Fin 0 → Fin S128x640.rank)
  reducesTo_S128x640_S_d0_1 : S128x640.ReducesTo [0, 1] S_
  bcast_S_S128x704 : S_.BroadcastsInDim S128x704 (![] : Fin 0 → Fin S128x704.rank)
  reducesTo_S128x704_S_d0_1 : S128x704.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg22 : FVec F S2 .f32) (main_v83 : IVec S_ 1) (main_v84 : FVec F S2x128 .f32) (main_cst_32 : FVec F S_ .f32) : IVec S_ 1 :=
  let main_v85 : FVec F S2x128 .f32 := broadcastInDim S2x128 ![] bcast_S_S2x128 main_cst_32
  let main_v86 : IVec S2x128 1 := cmpf .olt main_v84 main_v85
  let main_c_33 : IVec S_ 1 := constantI S_ 1 1#1
  let main_v87 : IVec S_ 1 := (fun x v => Host.reduce IntOp.andi x v reducesTo_S2x128_S_d0_1 h_S_) main_v86 main_c_33
  let main_v88 : IVec S_ 1 := andi main_v83 main_v87
  let main_v89 : FVec F S2 .f32 := Host.absf main_arg22
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg18 : FVec F S17 .f32) (main_arg19 : FVec F S128x704 .f32) (main_arg20 : FVec F S128 .f32) (main_arg21 : FVec F S2x128 .f32) (main_arg22 : FVec F S2 .f32) (main_v63 : IVec S_ 1) (main_v67 : IVec S_ 1) : IVec S_ 1 :=
  let main_v68 : IVec S_ 1 := andi main_v63 main_v67
  let main_v69 : FVec F S17 .f32 := Host.absf main_arg18
  let main_cst_26 : FVec F S_ .f32 := constant S_ .f32 0x7F800000#32
  let main_v70 : FVec F S17 .f32 := broadcastInDim S17 ![] bcast_S_S17 main_cst_26
  let main_v71 : IVec S17 1 := cmpf .olt main_v69 main_v70
  let main_c_27 : IVec S_ 1 := constantI S_ 1 1#1
  let main_v72 : IVec S_ 1 := (fun x v => Host.reduce IntOp.andi x v reducesTo_S17_S_d0 h_S_) main_v71 main_c_27
  let main_v73 : IVec S_ 1 := andi main_v68 main_v72
  let main_v74 : FVec F S128x704 .f32 := Host.absf main_arg19
  let main_cst_28 : FVec F S_ .f32 := constant S_ .f32 0x7F800000#32
  let main_v75 : FVec F S128x704 .f32 := broadcastInDim S128x704 ![] bcast_S_S128x704 main_cst_28
  let main_v76 : IVec S128x704 1 := cmpf .olt main_v74 main_v75
  let main_c_29 : IVec S_ 1 := constantI S_ 1 1#1
  let main_v77 : IVec S_ 1 := (fun x v => Host.reduce IntOp.andi x v reducesTo_S128x704_S_d0_1 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S2x128 .f32 := Host.absf main_arg21
  let main_cst_32 : FVec F S_ .f32 := constant S_ .f32 0x7F800000#32
  fn_part5 (F := F) main_arg22 main_v83 main_v84 main_cst_32

def fn_part3 {F : FTy → Type} [FloatOps F] (main_arg15 : FVec F S128x640 .f32) (main_arg16 : FVec F S128 .f32) (main_arg17 : FVec F S17x128 .f32) (main_arg18 : FVec F S17 .f32) (main_arg19 : FVec F S128x704 .f32) (main_arg20 : FVec F S128 .f32) (main_arg21 : FVec F S2x128 .f32) (main_arg22 : FVec F S2 .f32) (main_v48 : IVec S_ 1) (main_v49 : FVec F S17 .f32) (main_v50 : FVec F S17 .f32) : IVec S_ 1 :=
  let main_v51 : IVec S17 1 := cmpf .olt main_v49 main_v50
  let main_c_19 : IVec S_ 1 := constantI S_ 1 1#1
  let main_v52 : IVec S_ 1 := (fun x v => Host.reduce IntOp.andi x v reducesTo_S17_S_d0 h_S_) main_v51 main_c_19
  let main_v53 : IVec S_ 1 := andi main_v48 main_v52
  let main_v54 : FVec F S128x640 .f32 := Host.absf main_arg15
  let main_cst_20 : FVec F S_ .f32 := constant S_ .f32 0x7F800000#32
  let main_v55 : FVec F S128x640 .f32 := broadcastInDim S128x640 ![] bcast_S_S128x640 main_cst_20
  let main_v56 : IVec S128x640 1 := cmpf .olt main_v54 main_v55
  let main_c_21 : IVec S_ 1 := constantI S_ 1 1#1
  let main_v57 : IVec S_ 1 := (fun x v => Host.reduce IntOp.andi x v reducesTo_S128x640_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S17x128 .f32 := Host.absf main_arg17
  let main_cst_24 : FVec F S_ .f32 := constant S_ .f32 0x7F800000#32
  let main_v65 : FVec F S17x128 .f32 := broadcastInDim S17x128 ![] bcast_S_S17x128 main_cst_24
  let main_v66 : IVec S17x128 1 := cmpf .olt main_v64 main_v65
  let main_c_25 : IVec S_ 1 := constantI S_ 1 1#1
  let main_v67 : IVec S_ 1 := (fun x v => Host.reduce IntOp.andi x v reducesTo_S17x128_S_d0_1 h_S_) main_v66 main_c_25
  fn_part4 (F := F) main_arg18 main_arg19 main_arg20 main_arg21 main_arg22 main_v63 main_v67

def fn_part2 {F : FTy → Type} [FloatOps F] (main_arg11 : FVec F S128x576 .f32) (main_arg12 : FVec F S128 .f32) (main_arg13 : FVec F S17x128 .f32) (main_arg14 : FVec F S17 .f32) (main_arg15 : FVec F S128x640 .f32) (main_arg16 : FVec F S128 .f32) (main_arg17 : FVec F S17x128 .f32) (main_arg18 : FVec F S17 .f32) (main_arg19 : FVec F S128x704 .f32) (main_arg20 : FVec F S128 .f32) (main_arg21 : FVec F S2x128 .f32) (main_arg22 : FVec F S2 .f32) (main_v33 : IVec S_ 1) : IVec S_ 1 :=
  let main_v34 : FVec F S128x576 .f32 := Host.absf main_arg11
  let main_cst_12 : FVec F S_ .f32 := constant S_ .f32 0x7F800000#32
  let main_v35 : FVec F S128x576 .f32 := broadcastInDim S128x576 ![] bcast_S_S128x576 main_cst_12
  let main_v36 : IVec S128x576 1 := cmpf .olt main_v34 main_v35
  let main_c_13 : IVec S_ 1 := constantI S_ 1 1#1
  let main_v37 : IVec S_ 1 := (fun x v => Host.reduce IntOp.andi x v reducesTo_S128x576_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S17x128 .f32 := Host.absf main_arg13
  let main_cst_16 : FVec F S_ .f32 := constant S_ .f32 0x7F800000#32
  let main_v45 : FVec F S17x128 .f32 := broadcastInDim S17x128 ![] bcast_S_S17x128 main_cst_16
  let main_v46 : IVec S17x128 1 := cmpf .olt main_v44 main_v45
  let main_c_17 : IVec S_ 1 := constantI S_ 1 1#1
  let main_v47 : IVec S_ 1 := (fun x v => Host.reduce IntOp.andi x v reducesTo_S17x128_S_d0_1 h_S_) main_v46 main_c_17
  let main_v48 : IVec S_ 1 := andi main_v43 main_v47
  let main_v49 : FVec F S17 .f32 := Host.absf main_arg14
  let main_cst_18 : FVec F S_ .f32 := constant S_ .f32 0x7F800000#32
  let main_v50 : FVec F S17 .f32 := broadcastInDim S17 ![] bcast_S_S17 main_cst_18
  fn_part3 (F := F) main_arg15 main_arg16 main_arg17 main_arg18 main_arg19 main_arg20 main_arg21 main_arg22 main_v48 main_v49 main_v50

def fn_part1 {F : FTy → Type} [FloatOps F] (main_arg8 : FVec F S128 .f32) (main_arg9 : FVec F S65x128 .f32) (main_arg10 : FVec F S65 .f32) (main_arg11 : FVec F S128x576 .f32) (main_arg12 : FVec F S128 .f32) (main_arg13 : FVec F S17x128 .f32) (main_arg14 : FVec F S17 .f32) (main_arg15 : FVec F S128x640 .f32) (main_arg16 : FVec F S128 .f32) (main_arg17 : FVec F S17x128 .f32) (main_arg18 : FVec F S17 .f32) (main_arg19 : FVec F S128x704 .f32) (main_arg20 : FVec F S128 .f32) (main_arg21 : FVec F S2x128 .f32) (main_arg22 : FVec F S2 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S65x128 .f32 := Host.absf main_arg9
  let main_cst_8 : FVec F S_ .f32 := constant S_ .f32 0x7F800000#32
  let main_v25 : FVec F S65x128 .f32 := broadcastInDim S65x128 ![] bcast_S_S65x128 main_cst_8
  let main_v26 : IVec S65x128 1 := cmpf .olt main_v24 main_v25
  let main_c_9 : IVec S_ 1 := constantI S_ 1 1#1
  let main_v27 : IVec S_ 1 := (fun x v => Host.reduce IntOp.andi x v reducesTo_S65x128_S_d0_1 h_S_) main_v26 main_c_9
  let main_v28 : IVec S_ 1 := andi main_v23 main_v27
  let main_v29 : FVec F S65 .f32 := Host.absf main_arg10
  let main_cst_10 : FVec F S_ .f32 := constant S_ .f32 0x7F800000#32
  let main_v30 : FVec F S65 .f32 := broadcastInDim S65 ![] bcast_S_S65 main_cst_10
  let main_v31 : IVec S65 1 := cmpf .olt main_v29 main_v30
  let main_c_11 : IVec S_ 1 := constantI S_ 1 1#1
  let main_v32 : IVec S_ 1 := (fun x v => Host.reduce IntOp.andi x v reducesTo_S65_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_v33

def fn {F : FTy → Type} [FloatOps F] (main_arg0 : FVec F S256x512 .f32) (main_arg1 : IVec S1024 32) (main_arg2 : IVec S1024 32) (main_arg3 : IVec S1024 32) (main_arg4 : IVec S1024 32) (main_arg5 : FVec F S65x64 .f32) (main_arg6 : FVec F S17x64 .f32) (main_arg7 : FVec F S128x512 .f32) (main_arg8 : FVec F S128 .f32) (main_arg9 : FVec F S65x128 .f32) (main_arg10 : FVec F S65 .f32) (main_arg11 : FVec F S128x576 .f32) (main_arg12 : FVec F S128 .f32) (main_arg13 : FVec F S17x128 .f32) (main_arg14 : FVec F S17 .f32) (main_arg15 : FVec F S128x640 .f32) (main_arg16 : FVec F S128 .f32) (main_arg17 : FVec F S17x128 .f32) (main_arg18 : FVec F S17 .f32) (main_arg19 : FVec F S128x704 .f32) (main_arg20 : FVec F S128 .f32) (main_arg21 : FVec F S2x128 .f32) (main_arg22 : FVec F S2 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S65x64 .f32 := Host.absf main_arg5
  let main_cst_0 : FVec F S_ .f32 := constant S_ .f32 0x7F800000#32
  let main_v5 : FVec F S65x64 .f32 := broadcastInDim S65x64 ![] bcast_S_S65x64 main_cst_0
  let main_v6 : IVec S65x64 1 := cmpf .olt main_v4 main_v5
  let main_c_1 : IVec S_ 1 := constantI S_ 1 1#1
  let main_v7 : IVec S_ 1 := (fun x v => Host.reduce IntOp.andi x v reducesTo_S65x64_S_d0_1 h_S_) main_v6 main_c_1
  let main_v8 : IVec S_ 1 := andi main_v3 main_v7
  let main_v9 : FVec F S17x64 .f32 := Host.absf main_arg6
  let main_cst_2 : FVec F S_ .f32 := constant S_ .f32 0x7F800000#32
  let main_v10 : FVec F S17x64 .f32 := broadcastInDim S17x64 ![] bcast_S_S17x64 main_cst_2
  let main_v11 : IVec S17x64 1 := cmpf .olt main_v9 main_v10
  let main_c_3 : IVec S_ 1 := constantI S_ 1 1#1
  let main_v12 : IVec S_ 1 := (fun x v => Host.reduce IntOp.andi x v reducesTo_S17x64_S_d0_1 h_S_) main_v11 main_c_3
  let main_v13 : IVec S_ 1 := andi main_v8 main_v12
  let main_v14 : FVec F S128x512 .f32 := Host.absf main_arg7
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_v13 main_v16
-- ==== Kernel.lean ====
abbrev S256x512 : Shape := ⟨2, ![256, 512]⟩
abbrev S1024 : Shape := ⟨1, ![1024]⟩
abbrev S65x64 : Shape := ⟨2, ![65, 64]⟩
abbrev S17x64 : Shape := ⟨2, ![17, 64]⟩
abbrev S128x512 : Shape := ⟨2, ![128, 512]⟩
abbrev S128 : Shape := ⟨1, ![128]⟩
abbrev S65x128 : Shape := ⟨2, ![65, 128]⟩
abbrev S65 : Shape := ⟨1, ![65]⟩
abbrev S128x576 : Shape := ⟨2, ![128, 576]⟩
abbrev S17x128 : Shape := ⟨2, ![17, 128]⟩
abbrev S17 : Shape := ⟨1, ![17]⟩
abbrev S128x640 : Shape := ⟨2, ![128, 640]⟩
abbrev S128x704 : Shape := ⟨2, ![128, 704]⟩
abbrev S2x128 : Shape := ⟨2, ![2, 128]⟩
abbrev S2 : Shape := ⟨1, ![2]⟩
abbrev S_ : Shape := ⟨0, ![]⟩
abbrev S1024x1 : Shape := ⟨2, ![1024, 1]⟩
abbrev S1024x64 : Shape := ⟨2, ![1024, 64]⟩
abbrev S512x128 : Shape := ⟨2, ![512, 128]⟩
abbrev S256x128 : Shape := ⟨2, ![256, 128]⟩
abbrev S1x128 : Shape := ⟨2, ![1, 128]⟩
abbrev S128x65 : Shape := ⟨2, ![128, 65]⟩
abbrev S256x65 : Shape := ⟨2, ![256, 65]⟩
abbrev S1x65 : Shape := ⟨2, ![1, 65]⟩
abbrev S256 : Shape := ⟨1, ![256]⟩
abbrev S256x1 : Shape := ⟨2, ![256, 1]⟩
abbrev S256x1024 : Shape := ⟨2, ![256, 1024]⟩
abbrev S128x64 : Shape := ⟨2, ![128, 64]⟩
abbrev S64x128 : Shape := ⟨2, ![64, 128]⟩
abbrev S128x17 : Shape := ⟨2, ![128, 17]⟩
abbrev S1x17 : Shape := ⟨2, ![1, 17]⟩
abbrev S1024x128 : Shape := ⟨2, ![1024, 128]⟩
abbrev S1 : Shape := ⟨1, ![1]⟩
abbrev S1x1 : Shape := ⟨2, ![1, 1]⟩
abbrev S1x1024 : Shape := ⟨2, ![1, 1024]⟩
abbrev S128x128 : Shape := ⟨2, ![128, 128]⟩
abbrev S1x1x128 : Shape := ⟨3, ![1, 1, 128]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S16384x17 : Shape := ⟨2, ![16384, 17]⟩
abbrev S128x128x17 : Shape := ⟨3, ![128, 128, 17]⟩
abbrev S1x1x17 : Shape := ⟨3, ![1, 1, 17]⟩
abbrev S128x128x1 : Shape := ⟨3, ![128, 128, 1]⟩

abbrev nBuf : Space → Nat
  | .hbm => 213
  | .vmem => 33
  | .smem => 0
  | _ => 0

abbrev hbmTy0_0 (i : Nat) : BufTy := match i % 128 with
  | 0 => ⟨S256x512, .f32⟩
  | 1 => ⟨S1024, .i32⟩
  | 2 => ⟨S1024, .i32⟩
  | 3 => ⟨S1024, .i32⟩
  | 4 => ⟨S1024, .i32⟩
  | 5 => ⟨S65x64, .f32⟩
  | 6 => ⟨S17x64, .f32⟩
  | 7 => ⟨S128x512, .f32⟩
  | 8 => ⟨S128, .f32⟩
  | 9 => ⟨S65x128, .f32⟩
  | 10 => ⟨S65, .f32⟩
  | 11 => ⟨S128x576, .f32⟩
  | 12 => ⟨S128, .f32⟩
  | 13 => ⟨S17x128, .f32⟩
  | 14 => ⟨S17, .f32⟩
  | 15 => ⟨S128x640, .f32⟩
  | 16 => ⟨S128, .f32⟩
  | 17 => ⟨S17x128, .f32⟩
  | 18 => ⟨S17, .f32⟩
  | 19 => ⟨S128x704, .f32⟩
  | 20 => ⟨S128, .f32⟩
  | 21 => ⟨S2x128, .f32⟩
  | 22 => ⟨S2, .f32⟩
  | 23 => ⟨S_, .i32⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i32⟩
  | 31 => ⟨S_, .i32⟩
  | 32 => ⟨S_, .i32⟩
  | 33 => ⟨S_, .i32⟩
  | 34 => ⟨S1024, .i32⟩
  | 35 => ⟨S1024, .i32⟩
  | 36 => ⟨S_, .i32⟩
  | 37 => ⟨S1024, .i32⟩
  | 38 => ⟨S1024, .i32⟩
  | 39 => ⟨S_, .i32⟩
  | 40 => ⟨S_, .i32⟩
  | 41 => ⟨S_, .i32⟩
  | 42 => ⟨S1024, .i32⟩
  | 43 => ⟨S1024, .i32⟩
  | 44 => ⟨S_, .i32⟩
  | 45 => ⟨S1024, .i32⟩
  | 46 => ⟨S1024, .i32⟩
  | 47 => ⟨S_, .i32⟩
  | 48 => ⟨S_, .i32⟩
  | 49 => ⟨S_, .i32⟩
  | 50 => ⟨S1024, .i32⟩
  | 51 => ⟨S1024, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S1024x64, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1024x64, .f32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S1024x64, .f32⟩
  | 82 => ⟨S512x128, .f32⟩
  | 83 => ⟨S256x128, .f32⟩
  | 84 => ⟨S1x128, .f32⟩
  | 85 => ⟨S256x128, .f32⟩
  | 86 => ⟨S256x128, .f32⟩
  | 87 => ⟨S_, .f32⟩
  | 88 => ⟨S256x128, .f32⟩
  | 89 => ⟨S256x128, .f32⟩
  | 90 => ⟨S128x65, .f32⟩
  | 91 => ⟨S256x65, .f32⟩
  | 92 => ⟨S1x65, .f32⟩
  | 93 => ⟨S256x65, .f32⟩
  | 94 => ⟨S256x65, .f32⟩
  | 95 => ⟨S_, .f32⟩
  | 96 => ⟨S256, .f32⟩
  | 97 => ⟨S_, .f32⟩
  | 98 => ⟨S256, .f32⟩
  | 99 => ⟨S256, .f32⟩
  | 100 => ⟨S256x1, .f32⟩
  | 101 => ⟨S256x65, .f32⟩
  | 102 => ⟨S256x65, .f32⟩
  | 103 => ⟨S256x65, .f32⟩
  | 104 => ⟨S_, .f32⟩
  | 105 => ⟨S256, .f32⟩
  | 106 => ⟨S256x1, .f32⟩
  | 107 => ⟨S256x1, .f32⟩
  | 108 => ⟨S256x65, .f32⟩
  | 109 => ⟨S256x65, .f32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S256x1024, .f32⟩
  | 119 => ⟨S128x512, .f32⟩
  | 120 => ⟨S512x128, .f32⟩
  | 121 => ⟨S256x128, .f32⟩
  | 122 => ⟨S1x128, .f32⟩
  | 123 => ⟨S256x128, .f32⟩
  | 124 => ⟨S256x128, .f32⟩
  | 125 => ⟨S128x512, .f32⟩
  | 126 => ⟨S512x128, .f32⟩
  | 127 => ⟨S256x128, .f32⟩
  | _ => ⟨S256x512, .f32⟩

abbrev hbmTy0_1 (i : Nat) : BufTy := match i % 128 with
  | 0 => ⟨S1x128, .f32⟩
  | 1 => ⟨S256x128, .f32⟩
  | 2 => ⟨S256x128, .f32⟩
  | 3 => ⟨S128x512, .f32⟩
  | 4 => ⟨S512x128, .f32⟩
  | 5 => ⟨S256x128, .f32⟩
  | 6 => ⟨S1x128, .f32⟩
  | 7 => ⟨S256x128, .f32⟩
  | 8 => ⟨S256x128, .f32⟩
  | 9 => ⟨S128x64, .f32⟩
  | 10 => ⟨S64x128, .f32⟩
  | 11 => ⟨S128x64, .f32⟩
  | 12 => ⟨S64x128, .f32⟩
  | 13 => ⟨S128x64, .f32⟩
  | 14 => ⟨S64x128, .f32⟩
  | 15 => ⟨S128x64, .f32⟩
  | 16 => ⟨S64x128, .f32⟩
  | 17 => ⟨S128x64, .f32⟩
  | 18 => ⟨S64x128, .f32⟩
  | 19 => ⟨S128x64, .f32⟩
  | 20 => ⟨S64x128, .f32⟩
  | 21 => ⟨S128x17, .f32⟩
  | 22 => ⟨S128x17, .f32⟩
  | 23 => ⟨S1x17, .f32⟩
  | 24 => ⟨S1x17, .f32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1024x128, .f32⟩
  | 34 => ⟨S_, .i32⟩
  | 35 => ⟨S1024, .i32⟩
  | 36 => ⟨S1024, .i1⟩
  | 37 => ⟨S_, .i32⟩
  | 38 => ⟨S1024, .i32⟩
  | 39 => ⟨S1024, .i32⟩
  | 40 => ⟨S1024, .i32⟩
  | 41 => ⟨S1024x1, .i32⟩
  | 42 => ⟨S1024, .f32⟩
  | 43 => ⟨S_, .i32⟩
  | 44 => ⟨S1024, .i32⟩
  | 45 => ⟨S1024, .i1⟩
  | 46 => ⟨S_, .i32⟩
  | 47 => ⟨S1024, .i32⟩
  | 48 => ⟨S1024, .i32⟩
  | 49 => ⟨S1024, .i32⟩
  | 50 => ⟨S1024x1, .i32⟩
  | 51 => ⟨S1024x128, .f32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S1024x1, .i32⟩
  | 60 => ⟨S1024, .f32⟩
  | 61 => ⟨S1x128, .f32⟩
  | 62 => ⟨S128, .f32⟩
  | 63 => ⟨S1x128, .f32⟩
  | 64 => ⟨S128, .f32⟩
  | 65 => ⟨S128, .f32⟩
  | 66 => ⟨S1x128, .f32⟩
  | 67 => ⟨S1, .f32⟩
  | 68 => ⟨S_, .f32⟩
  | 69 => ⟨S1, .f32⟩
  | 70 => ⟨S_, .f32⟩
  | 71 => ⟨S_, .f32⟩
  | 72 => ⟨S1x1, .f32⟩
  | 73 => ⟨S1024, .f32⟩
  | 74 => ⟨S_, .f32⟩
  | 75 => ⟨S1024, .f32⟩
  | 76 => ⟨S1024, .f32⟩
  | 77 => ⟨S_, .f32⟩
  | 78 => ⟨S1024, .f32⟩
  | 79 => ⟨S1024, .f32⟩
  | 80 => ⟨S1x1024, .f32⟩
  | 81 => ⟨S1x1024, .f32⟩
  | 82 => ⟨S1x1024, .f32⟩
  | 83 => ⟨S256x1024, .f32⟩
  | 84 => ⟨S256x1024, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S128x17, .f32⟩
  | .local _ .vmem, ⟨26, _⟩ => ⟨S1x17, .f32⟩
  | .local _ .vmem, ⟨27, _⟩ => ⟨S128x17, .f32⟩
  | .local _ .vmem, ⟨28, _⟩ => ⟨S1x17, .f32⟩
  | .local _ .vmem, ⟨29, _⟩ => ⟨S1x128, .f32⟩
  | .local _ .vmem, ⟨30, _⟩ => ⟨S1x1, .f32⟩
  | .local _ .vmem, ⟨31, _⟩ => ⟨S256x128, .f32⟩
  | .local _ .vmem, ⟨32, _⟩ => ⟨S256x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v0 : Ref sig .tc := ⟨.hbm, 30, rfl⟩
abbrev main_c_1 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v1 : Ref sig .tc := ⟨.hbm, 38, rfl⟩
abbrev main_c_3 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v2 : Ref sig .tc := ⟨.hbm, 46, rfl⟩
abbrev main_c_5 : Ref sig .tc := ⟨.hbm, 47, rfl⟩
abbrev main_c_6 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v3 : Ref sig .tc := ⟨.hbm, 54, rfl⟩
abbrev main_c_7 : Ref sig .tc := ⟨.hbm, 55, rfl⟩
abbrev main_v4 : Ref sig .tc := ⟨.hbm, 56, rfl⟩
abbrev main_v5 : Ref sig .tc := ⟨.hbm, 57, rfl⟩
abbrev main_c_8 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_c_9 : Ref sig .tc := ⟨.hbm, 64, rfl⟩
abbrev main_v11 : Ref sig .tc := ⟨.hbm, 65, rfl⟩
abbrev main_v12 : Ref sig .tc := ⟨.hbm, 66, rfl⟩
abbrev main_c_10 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_c_11 : Ref sig .tc := ⟨.hbm, 73, rfl⟩
abbrev main_v18 : Ref sig .tc := ⟨.hbm, 74, rfl⟩
abbrev main_v19 : Ref sig .tc := ⟨.hbm, 75, rfl⟩
abbrev main_c_12 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_call4_cst : Ref sig .tc := ⟨.hbm, 87, rfl⟩
abbrev main_call4_v0 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_call5_cst : Ref sig .tc := ⟨.hbm, 95, rfl⟩
abbrev main_call5_v0 : Ref sig .tc := ⟨.hbm, 96, rfl⟩
abbrev main_call5_cst_0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_v6 : Ref sig .tc := ⟨.hbm, 103, rfl⟩
abbrev main_call5_cst_1 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_v36 : Ref sig .tc := ⟨.hbm, 109, rfl⟩
abbrev main_c_13 : Ref sig .tc := ⟨.hbm, 110, rfl⟩
abbrev main_v37 : Ref sig .tc := ⟨.hbm, 111, rfl⟩
abbrev main_v38 : Ref sig .tc := ⟨.hbm, 112, rfl⟩
abbrev main_c_14 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_c_15 : Ref sig .tc := ⟨.hbm, 153, rfl⟩
abbrev main_v78 : Ref sig .tc := ⟨.hbm, 154, rfl⟩
abbrev main_v79 : Ref sig .tc := ⟨.hbm, 155, rfl⟩
abbrev main_c_16 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_c_17 : Ref sig .tc := ⟨.hbm, 162, rfl⟩
abbrev main_v85 : Ref sig .tc := ⟨.hbm, 163, rfl⟩
abbrev main_v86 : Ref sig .tc := ⟨.hbm, 164, rfl⟩
abbrev main_c_18 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_c_19 : Ref sig .tc := ⟨.hbm, 171, rfl⟩
abbrev main_v92 : Ref sig .tc := ⟨.hbm, 172, rfl⟩
abbrev main_v93 : Ref sig .tc := ⟨.hbm, 173, rfl⟩
abbrev main_c_20 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_c_21 : Ref sig .tc := ⟨.hbm, 180, rfl⟩
abbrev main_v99 : Ref sig .tc := ⟨.hbm, 181, rfl⟩
abbrev main_v100 : Ref sig .tc := ⟨.hbm, 182, rfl⟩
abbrev main_c_22 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_cst : Ref sig .tc := ⟨.hbm, 202, rfl⟩
abbrev main_v119 : Ref sig .tc := ⟨.hbm, 203, rfl⟩
abbrev main_v120 : Ref sig .tc := ⟨.hbm, 204, rfl⟩
abbrev main_cst_23 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg23_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem23_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x17 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x17 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x17 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x17 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S128x512_S512x128_1_0 : S128x512.Transposes [1, 0] S512x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  transposes_S65x128_S128x65_1_0 : S65x128.Transposes [1, 0] S128x65
  bcast_S65_S1x65_1 : S65.BroadcastsInDim S1x65 (![1] : Fin 1 → Fin S1x65.rank)
  bcast_S1x65_S256x65_0_1 : S1x65.BroadcastsInDim S256x65 (![0, 1] : Fin 2 → Fin S256x65.rank)
  reducesTo_S256x65_S256_d1 : S256x65.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x65_0_1 : S256x1.BroadcastsInDim S256x65 (![0, 1] : Fin 2 → Fin S256x65.rank)
  slices_S128x576_S128x512_0_0 : S128x576.Slices ![0, 0] S128x512
  slices_S128x640_S128x512_0_0 : S128x640.Slices ![0, 0] S128x512
  slices_S128x704_S128x512_0_0 : S128x704.Slices ![0, 0] S128x512
  slices_S128x576_S128x64_0_512 : S128x576.Slices ![0, 512] S128x64
  transposes_S128x64_S64x128_1_0 : S128x64.Transposes [1, 0] S64x128
  slices_S128x640_S128x64_0_512 : S128x640.Slices ![0, 512] S128x64
  slices_S128x640_S128x64_0_576 : S128x640.Slices ![0, 576] S128x64
  slices_S128x704_S128x64_0_512 : S128x704.Slices ![0, 512] S128x64
  slices_S128x704_S128x64_0_576 : S128x704.Slices ![0, 576] S128x64
  slices_S128x704_S128x64_0_640 : S128x704.Slices ![0, 640] S128x64
  transposes_S17x128_S128x17_1_0 : S17x128.Transposes [1, 0] S128x17
  shapeCasts_S17_S1x17 : S17.ShapeCasts S1x17
  slices_S2x128_S1x128_1_0 : S2x128.Slices ![1, 0] S1x128
  shapeCasts_S1x128_S128 : S1x128.ShapeCasts S128
  slices_S2x128_S1x128_0_0 : S2x128.Slices ![0, 0] S1x128
  shapeCasts_S128_S1x128 : S128.ShapeCasts S1x128
  slices_S2_S1_1 : S2.Slices ![1] S1
  shapeCasts_S1_S_ : S1.ShapeCasts S_
  slices_S2_S1_0 : S2.Slices ![0] S1
  shapeCasts_S_S1x1 : S_.ShapeCasts S1x1
  shapeCasts_S1024_S1x1024 : S1024.ShapeCasts S1x1024
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x17_S128x17_0_0 : ∀ a, (![0, 0] : Fin 2 → Nat) a + S128x17.size a ≤ S128x17.size a
  h_S128x17 : 0 < S128x17.numel
  shapeCasts_S128x17_S128x17 : S128x17.ShapeCasts S128x17
  inb_S1x17_S1x17_0_0 : ∀ a, (![0, 0] : Fin 2 → Nat) a + S1x17.size a ≤ S1x17.size a
  h_S1x17 : 0 < S1x17.numel
  shapeCasts_S1x17_S1x17 : S1x17.ShapeCasts S1x17
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x128_S128x128_0_0 : ∀ a, (![0, 0] : Fin 2 → Nat) a + S128x128.size a ≤ S256x128.size a
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  shapeCasts_S16384x17_S128x128x17 : S16384x17.ShapeCasts S128x128x17
  shapeCasts_S1x17_S1x1x17 : S1x17.ShapeCasts S1x1x17
  broadcasts_S1x1x17_S128x128x17 : S1x1x17.Broadcasts S128x128x17
  reduces_S128x128x17_S128x128 : S128x128x17.Reduces [2] S128x128
  shapeCasts_S128x128_S128x128x1 : S128x128.ShapeCasts S128x128x1
  shapeCasts_S128x128x1_S128x128 : S128x128x1.ShapeCasts S128x128
  broadcasts_S128x128x1_S128x128x17 : S128x128x1.Broadcasts S128x128x17
  reduces_S128x128x128_S128x128 : S128x128x128.Reduces [2] S128x128
  broadcasts_S1x128_S128x128 : S1x128.Broadcasts S128x128
  broadcasts_S1x1x128_S128x128x128 : S1x1x128.Broadcasts S128x128x128
  inb_S256x128_S128x128_128_0 : ∀ a, (![128, 0] : Fin 2 → Nat) a + S128x128.size a ≤ S256x128.size a
  gather_S65x64_S1024x1_S1024x64_1_0_n_n_0_1_164_wf : GatherDims.WF S65x64 S1024x1 S1024x64 [1] [0] [] [0] [] 1 ![1, 64]
  gather_S17x64_S1024x1_S1024x64_1_0_n_n_0_1_164_wf : GatherDims.WF S17x64 S1024x1 S1024x64 [1] [0] [] [0] [] 1 ![1, 64]
  dot_S256x512_S512x128_S256x128_1_0_0_1_n_n_wf : DotDims.WF S256x512 S512x128 S256x128 [1] [0] [0] [1] [] []
  dot_S256x128_S128x65_S256x65_1_0_0_1_n_n_wf : DotDims.WF S256x128 S128x65 S256x65 [1] [0] [0] [1] [] []
  gather_S256x65_S1024x1_S256x1024_0_1_n_n_1_1_2561_wf : GatherDims.WF S256x65 S1024x1 S256x1024 [0] [1] [] [1] [] 1 ![256, 1]
  gather_S17x128_S1024x1_S1024x128_1_0_n_n_0_1_1128_wf : GatherDims.WF S17x128 S1024x1 S1024x128 [1] [0] [] [0] [] 1 ![1, 128]
  gather_S17_S1024x1_S1024_n_0_n_n_0_1_1_wf : GatherDims.WF S17 S1024x1 S1024 [] [0] [] [0] [] 1 ![1]
  dot_S128x64_S64x128_S128x128_1_0_0_1_n_n_wf : DotDims.WF S128x64 S64x128 S128x128 [1] [0] [0] [1] [] []
  dot_S16384x128_S128x17_S16384x17_1_0_0_1_n_n_wf : DotDims.WF S16384x128 S128x17 S16384x17 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S1024x64.size a
  hwx0_2 : ∀ i : grid0.Coords, EltTy.bits .f32 = 32 ∨ (Rect.block (s := S1024x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x128.size a
  hwx0_3 : ∀ i : grid0.Coords, EltTy.bits .f32 = 32 ∨ (Rect.block (s := S1024x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .f32 = 32 ∨ (Rect.block (s := S1x1024) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S1024x128.size a
  hwx0_5 : ∀ i : grid0.Coords, EltTy.bits .f32 = 32 ∨ (Rect.block (s := S1024x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x1024.size a
  hwx0_6 : ∀ i : grid0.Coords, EltTy.bits .f32 = 32 ∨ (Rect.block (s := S1x1024) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x1024.size a
  hwx0_7 : ∀ i : grid0.Coords, EltTy.bits .f32 = 32 ∨ (Rect.block (s := S1x1024) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x128.size a ≤ S64x128.size a
  hwx0_12 : ∀ i : grid0.Coords, EltTy.bits .f32 = 32 ∨ (Rect.block (s := S64x128) S64x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x128.size a ≤ S64x128.size a
  hwx0_13 : ∀ i : grid0.Coords, EltTy.bits .f32 = 32 ∨ (Rect.block (s := S64x128) S64x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x128.size a ≤ S64x128.size a
  hwx0_14 : ∀ i : grid0.Coords, EltTy.bits .f32 = 32 ∨ (Rect.block (s := S64x128) S64x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x128.size a ≤ S64x128.size a
  hwx0_15 : ∀ i : grid0.Coords, EltTy.bits .f32 = 32 ∨ (Rect.block (s := S64x128) S64x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x128.size a ≤ S64x128.size a
  hwx0_16 : ∀ i : grid0.Coords, EltTy.bits .f32 = 32 ∨ (Rect.block (s := S64x128) S64x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x17.size a ≤ S128x17.size a
  hwx0_17 : ∀ i : grid0.Coords, EltTy.bits .f32 = 32 ∨ (Rect.block (s := S128x17) S128x17.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x17.size a ≤ S1x17.size a
  hwx0_18 : ∀ i : grid0.Coords, EltTy.bits .f32 = 32 ∨ (Rect.block (s := S1x17) S1x17.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x17.size a ≤ S128x17.size a
  hwx0_19 : ∀ i : grid0.Coords, EltTy.bits .f32 = 32 ∨ (Rect.block (s := S128x17) S128x17.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x17.size a ≤ S1x17.size a
  hwx0_20 : ∀ i : grid0.Coords, EltTy.bits .f32 = 32 ∨ (Rect.block (s := S1x17) S1x17.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S256x128.size a ≤ S256x1024.size a
  hwx0_23 : ∀ i : grid0.Coords, EltTy.bits .f32 = 32 ∨ (Rect.block (s := S256x1024) S256x128.size (cc0_transform_23 i) (hinb0_23 i)).WholeWords (EltTy.packing .f32)

variable [Facts₀]

def gather_S65x64_S1024x1_S1024x64_1_0_n_n_0_1_164 : GatherDims S65x64 S1024x1 S1024x64 where
  offsetDims := [1]
  collapsedSliceDims := [0]
  operandBatchingDims := []
  startIndicesBatchingDims := []
  startIndexMap := [0]
  indexVectorDim := 1
  sliceSizes := ![1, 64]
  wf := gather_S65x64_S1024x1_S1024x64_1_0_n_n_0_1_164_wf
def gather_S17x64_S1024x1_S1024x64_1_0_n_n_0_1_164 : GatherDims S17x64 S1024x1 S1024x64 where
  offsetDims := [1]
  collapsedSliceDims := [0]
  operandBatchingDims := []
  startIndicesBatchingDims := []
  startIndexMap := [0]
  indexVectorDim := 1
  sliceSizes := ![1, 64]
  wf := gather_S17x64_S1024x1_S1024x64_1_0_n_n_0_1_164_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x128_S128x65_S256x65_1_0_0_1_n_n : DotDims S256x128 S128x65 S256x65 where
  lhsContracting := [1]
  rhsContracting := [0]
  lhsNonContracting := [0]
  rhsNonContracting := [1]
  lhsBatch := []
  rhsBatch := []
  wf := dot_S256x128_S128x65_S256x65_1_0_0_1_n_n_wf
def gather_S256x65_S1024x1_S256x1024_0_1_n_n_1_1_2561 : GatherDims S256x65 S1024x1 S256x1024 where
  offsetDims := [0]
  collapsedSliceDims := [1]
  operandBatchingDims := []
  startIndicesBatchingDims := []
  startIndexMap := [1]
  indexVectorDim := 1
  sliceSizes := ![256, 1]
  wf := gather_S256x65_S1024x1_S256x1024_0_1_n_n_1_1_2561_wf
def gather_S17x128_S1024x1_S1024x128_1_0_n_n_0_1_1128 : GatherDims S17x128 S1024x1 S1024x128 where
  offsetDims := [1]
  collapsedSliceDims := [0]
  operandBatchingDims := []
  startIndicesBatchingDims := []
  startIndexMap := [0]
  indexVectorDim := 1
  sliceSizes := ![1, 128]
  wf := gather_S17x128_S1024x1_S1024x128_1_0_n_n_0_1_1128_wf
def gather_S17_S1024x1_S1024_n_0_n_n_0_1_1 : GatherDims S17 S1024x1 S1024 where
  offsetDims := []
  collapsedSliceDims := [0]
  operandBatchingDims := []
  startIndicesBatchingDims := []
  startIndexMap := [0]
  indexVectorDim := 1
  sliceSizes := ![1]
  wf := gather_S17_S1024x1_S1024_n_0_n_n_0_1_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S16384x128_S128x17_S16384x17_1_0_0_1_n_n : DotDims S16384x128 S128x17 S16384x17 where
  lhsContracting := [1]
  rhsContracting := [0]
  lhsNonContracting := [0]
  rhsNonContracting := [1]
  lhsBatch := []
  rhsBatch := []
  wf := dot_S16384x128_S128x17_S16384x17_1_0_0_1_n_n_wf

abbrev win0_0 : Pipeline.Window sig grid0 :=
  Pipeline.Window.ofSpec (Memref.whole main_v10) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v84) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v124) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v98) S128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v125) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v123) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v49) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v55) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v63) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v65) S64x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v67) S64x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v69) S64x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v71) S64x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v73) S64x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v74) S128x17.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v76) S1x17.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v75) S128x17.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v77) S1x17.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v111) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v117) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v126) S256x128.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S256x512 : Shape := ⟨2, ![256, 512]⟩
abbrev S1024 : Shape := ⟨1, ![1024]⟩
abbrev S65x64 : Shape := ⟨2, ![65, 64]⟩
abbrev S17x64 : Shape := ⟨2, ![17, 64]⟩
abbrev S128x512 : Shape := ⟨2, ![128, 512]⟩
abbrev S128 : Shape := ⟨1, ![128]⟩
abbrev S65x128 : Shape := ⟨2, ![65, 128]⟩
abbrev S65 : Shape := ⟨1, ![65]⟩
abbrev S128x576 : Shape := ⟨2, ![128, 576]⟩
abbrev S17x128 : Shape := ⟨2, ![17, 128]⟩
abbrev S17 : Shape := ⟨1, ![17]⟩
abbrev S128x640 : Shape := ⟨2, ![128, 640]⟩
abbrev S128x704 : Shape := ⟨2, ![128, 704]⟩
abbrev S2x128 : Shape := ⟨2, ![2, 128]⟩
abbrev S2 : Shape := ⟨1, ![2]⟩
abbrev S_ : Shape := ⟨0, ![]⟩
abbrev S1024x1 : Shape := ⟨2, ![1024, 1]⟩
abbrev S1024x64 : Shape := ⟨2, ![1024, 64]⟩
abbrev S512x128 : Shape := ⟨2, ![512, 128]⟩
abbrev S256x128 : Shape := ⟨2, ![256, 128]⟩
abbrev S1x128 : Shape := ⟨2, ![1, 128]⟩
abbrev S128x65 : Shape := ⟨2, ![128, 65]⟩
abbrev S256x65 : Shape := ⟨2, ![256, 65]⟩
abbrev S1x65 : Shape := ⟨2, ![1, 65]⟩
abbrev S256 : Shape := ⟨1, ![256]⟩
abbrev S256x1 : Shape := ⟨2, ![256, 1]⟩
abbrev S256x1024 : Shape := ⟨2, ![256, 1024]⟩
abbrev S128x64 : Shape := ⟨2, ![128, 64]⟩
abbrev S64x128 : Shape := ⟨2, ![64, 128]⟩
abbrev S1024x128 : Shape := ⟨2, ![1024, 128]⟩
abbrev S256x1x128 : Shape := ⟨3, ![256, 1, 128]⟩
abbrev S1x1024x128 : Shape := ⟨3, ![1, 1024, 128]⟩
abbrev S256x1024x128 : Shape := ⟨3, ![256, 1024, 128]⟩
abbrev S256x1024x17 : Shape := ⟨3, ![256, 1024, 17]⟩
abbrev S1x1x17 : Shape := ⟨3, ![1, 1, 17]⟩
abbrev S256x1024x1 : Shape := ⟨3, ![256, 1024, 1]⟩
abbrev S1x1024x1 : Shape := ⟨3, ![1, 1024, 1]⟩
abbrev S256x1024x1x1 : Shape := ⟨4, ![256, 1024, 1, 1]⟩
abbrev S1 : Shape := ⟨1, ![1]⟩
abbrev S1x1x1x1 : Shape := ⟨4, ![1, 1, 1, 1]⟩
abbrev S256x1024x2 : Shape := ⟨3, ![256, 1024, 2]⟩
abbrev S1x1x2 : Shape := ⟨3, ![1, 1, 2]⟩

abbrev nBuf : Space → Nat
  | .hbm => 317
  | .vmem => 0
  | .smem => 0
  | _ => 0

abbrev hbmTy0_0 (i : Nat) : BufTy := match i % 128 with
  | 0 => ⟨S256x512, .f32⟩
  | 1 => ⟨S1024, .i32⟩
  | 2 => ⟨S1024, .i32⟩
  | 3 => ⟨S1024, .i32⟩
  | 4 => ⟨S1024, .i32⟩
  | 5 => ⟨S65x64, .f32⟩
  | 6 => ⟨S17x64, .f32⟩
  | 7 => ⟨S128x512, .f32⟩
  | 8 => ⟨S128, .f32⟩
  | 9 => ⟨S65x128, .f32⟩
  | 10 => ⟨S65, .f32⟩
  | 11 => ⟨S128x576, .f32⟩
  | 12 => ⟨S128, .f32⟩
  | 13 => ⟨S17x128, .f32⟩
  | 14 => ⟨S17, .f32⟩
  | 15 => ⟨S128x640, .f32⟩
  | 16 => ⟨S128, .f32⟩
  | 17 => ⟨S17x128, .f32⟩
  | 18 => ⟨S17, .f32⟩
  | 19 => ⟨S128x704, .f32⟩
  | 20 => ⟨S128, .f32⟩
  | 21 => ⟨S2x128, .f32⟩
  | 22 => ⟨S2, .f32⟩
  | 23 => ⟨S_, .i32⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i32⟩
  | 31 => ⟨S_, .i32⟩
  | 32 => ⟨S_, .i32⟩
  | 33 => ⟨S_, .i32⟩
  | 34 => ⟨S1024, .i32⟩
  | 35 => ⟨S1024, .i32⟩
  | 36 => ⟨S_, .i32⟩
  | 37 => ⟨S1024, .i32⟩
  | 38 => ⟨S1024, .i32⟩
  | 39 => ⟨S_, .i32⟩
  | 40 => ⟨S_, .i32⟩
  | 41 => ⟨S_, .i32⟩
  | 42 => ⟨S1024, .i32⟩
  | 43 => ⟨S1024, .i32⟩
  | 44 => ⟨S_, .i32⟩
  | 45 => ⟨S1024, .i32⟩
  | 46 => ⟨S1024, .i32⟩
  | 47 => ⟨S_, .i32⟩
  | 48 => ⟨S_, .i32⟩
  | 49 => ⟨S_, .i32⟩
  | 50 => ⟨S1024, .i32⟩
  | 51 => ⟨S1024, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S1024x64, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1024x64, .f32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S1024x64, .f32⟩
  | 82 => ⟨S512x128, .f32⟩
  | 83 => ⟨S256x128, .f32⟩
  | 84 => ⟨S1x128, .f32⟩
  | 85 => ⟨S256x128, .f32⟩
  | 86 => ⟨S256x128, .f32⟩
  | 87 => ⟨S_, .f32⟩
  | 88 => ⟨S256x128, .f32⟩
  | 89 => ⟨S256x128, .f32⟩
  | 90 => ⟨S128x65, .f32⟩
  | 91 => ⟨S256x65, .f32⟩
  | 92 => ⟨S1x65, .f32⟩
  | 93 => ⟨S256x65, .f32⟩
  | 94 => ⟨S256x65, .f32⟩
  | 95 => ⟨S_, .f32⟩
  | 96 => ⟨S256, .f32⟩
  | 97 => ⟨S_, .f32⟩
  | 98 => ⟨S256, .f32⟩
  | 99 => ⟨S256, .f32⟩
  | 100 => ⟨S256x1, .f32⟩
  | 101 => ⟨S256x65, .f32⟩
  | 102 => ⟨S256x65, .f32⟩
  | 103 => ⟨S256x65, .f32⟩
  | 104 => ⟨S_, .f32⟩
  | 105 => ⟨S256, .f32⟩
  | 106 => ⟨S256x1, .f32⟩
  | 107 => ⟨S256x1, .f32⟩
  | 108 => ⟨S256x65, .f32⟩
  | 109 => ⟨S256x65, .f32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S256x1024, .f32⟩
  | 119 => ⟨S128x512, .f32⟩
  | 120 => ⟨S512x128, .f32⟩
  | 121 => ⟨S256x128, .f32⟩
  | 122 => ⟨S1x128, .f32⟩
  | 123 => ⟨S256x128, .f32⟩
  | 124 => ⟨S256x128, .f32⟩
  | 125 => ⟨S128x64, .f32⟩
  | 126 => ⟨S64x128, .f32⟩
  | 127 => ⟨S1024x128, .f32⟩
  | _ => ⟨S256x512, .f32⟩

abbrev hbmTy0_1 (i : Nat) : BufTy := match i % 128 with
  | 0 => ⟨S256x1x128, .f32⟩
  | 1 => ⟨S1x1024x128, .f32⟩
  | 2 => ⟨S256x1024x128, .f32⟩
  | 3 => ⟨S256x1024x128, .f32⟩
  | 4 => ⟨S256x1024x128, .f32⟩
  | 5 => ⟨S_, .f32⟩
  | 6 => ⟨S256x1024x128, .f32⟩
  | 7 => ⟨S256x1024x128, .f32⟩
  | 8 => ⟨S256x1024x17, .f32⟩
  | 9 => ⟨S1x1x17, .f32⟩
  | 10 => ⟨S256x1024x17, .f32⟩
  | 11 => ⟨S256x1024x17, .f32⟩
  | 12 => ⟨S_, .f32⟩
  | 13 => ⟨S256x1024, .f32⟩
  | 14 => ⟨S_, .f32⟩
  | 15 => ⟨S256x1024, .f32⟩
  | 16 => ⟨S256x1024, .f32⟩
  | 17 => ⟨S256x1024x1, .f32⟩
  | 18 => ⟨S256x1024x17, .f32⟩
  | 19 => ⟨S256x1024x17, .f32⟩
  | 20 => ⟨S256x1024x17, .f32⟩
  | 21 => ⟨S_, .f32⟩
  | 22 => ⟨S256x1024, .f32⟩
  | 23 => ⟨S256x1024x1, .f32⟩
  | 24 => ⟨S256x1024x1, .f32⟩
  | 25 => ⟨S256x1024x17, .f32⟩
  | 26 => ⟨S256x1024x17, .f32⟩
  | 27 => ⟨S1x1024x1, .i32⟩
  | 28 => ⟨S256x1024x1, .i32⟩
  | 29 => ⟨S_, .i32⟩
  | 30 => ⟨S256x1024x1, .i32⟩
  | 31 => ⟨S256x1024x1, .i1⟩
  | 32 => ⟨S_, .i32⟩
  | 33 => ⟨S256x1024x1, .i32⟩
  | 34 => ⟨S256x1024x1, .i32⟩
  | 35 => ⟨S256x1024x1, .i32⟩
  | 36 => ⟨S256x1024x1x1, .i32⟩
  | 37 => ⟨S1, .i32⟩
  | 38 => ⟨S_, .i32⟩
  | 39 => ⟨S256x1024x1x1, .i32⟩
  | 40 => ⟨S256x1024x1x1, .i1⟩
  | 41 => ⟨S1x1x1x1, .i32⟩
  | 42 => ⟨S256x1024x1x1, .i32⟩
  | 43 => ⟨S256x1024x1x1, .i1⟩
  | 44 => ⟨S256x1024x1x1, .i1⟩
  | 45 => ⟨S_, .i1⟩
  | 46 => ⟨S256x1024x1, .i1⟩
  | 47 => ⟨S256x1024x1, .f32⟩
  | 48 => ⟨S_, .f32⟩
  | 49 => ⟨S256x1024x1, .f32⟩
  | 50 => ⟨S256x1024x1, .f32⟩
  | 51 => ⟨S256x1024, .f32⟩
  | 52 => ⟨S256x1024, .f32⟩
  | 53 => ⟨S128x512, .f32⟩
  | 54 => ⟨S512x128, .f32⟩
  | 55 => ⟨S256x128, .f32⟩
  | 56 => ⟨S1x128, .f32⟩
  | 57 => ⟨S256x128, .f32⟩
  | 58 => ⟨S256x128, .f32⟩
  | 59 => ⟨S128x64, .f32⟩
  | 60 => ⟨S64x128, .f32⟩
  | 61 => ⟨S1024x128, .f32⟩
  | 62 => ⟨S128x64, .f32⟩
  | 63 => ⟨S64x128, .f32⟩
  | 64 => ⟨S1024x128, .f32⟩
  | 65 => ⟨S1024x128, .f32⟩
  | 66 => ⟨S256x1x128, .f32⟩
  | 67 => ⟨S1x1024x128, .f32⟩
  | 68 => ⟨S256x1024x128, .f32⟩
  | 69 => ⟨S256x1024x128, .f32⟩
  | 70 => ⟨S256x1024x128, .f32⟩
  | 71 => ⟨S_, .f32⟩
  | 72 => ⟨S256x1024x128, .f32⟩
  | 73 => ⟨S256x1024x128, .f32⟩
  | 74 => ⟨S256x1024x17, .f32⟩
  | 75 => ⟨S1x1x17, .f32⟩
  | 76 => ⟨S256x1024x17, .f32⟩
  | 77 => ⟨S256x1024x17, .f32⟩
  | 78 => ⟨S_, .f32⟩
  | 79 => ⟨S256x1024, .f32⟩
  | 80 => ⟨S_, .f32⟩
  | 81 => ⟨S256x1024, .f32⟩
  | 82 => ⟨S256x1024, .f32⟩
  | 83 => ⟨S256x1024x1, .f32⟩
  | 84 => ⟨S256x1024x17, .f32⟩
  | 85 => ⟨S256x1024x17, .f32⟩
  | 86 => ⟨S256x1024x17, .f32⟩
  | 87 => ⟨S_, .f32⟩
  | 88 => ⟨S256x1024, .f32⟩
  | 89 => ⟨S256x1024x1, .f32⟩
  | 90 => ⟨S256x1024x1, .f32⟩
  | 91 => ⟨S256x1024x17, .f32⟩
  | 92 => ⟨S256x1024x17, .f32⟩
  | 93 => ⟨S1x1024x1, .i32⟩
  | 94 => ⟨S256x1024x1, .i32⟩
  | 95 => ⟨S_, .i32⟩
  | 96 => ⟨S256x1024x1, .i32⟩
  | 97 => ⟨S256x1024x1, .i1⟩
  | 98 => ⟨S_, .i32⟩
  | 99 => ⟨S256x1024x1, .i32⟩
  | 100 => ⟨S256x1024x1, .i32⟩
  | 101 => ⟨S256x1024x1, .i32⟩
  | 102 => ⟨S256x1024x1x1, .i32⟩
  | 103 => ⟨S1, .i32⟩
  | 104 => ⟨S_, .i32⟩
  | 105 => ⟨S256x1024x1x1, .i32⟩
  | 106 => ⟨S256x1024x1x1, .i1⟩
  | 107 => ⟨S1x1x1x1, .i32⟩
  | 108 => ⟨S256x1024x1x1, .i32⟩
  | 109 => ⟨S256x1024x1x1, .i1⟩
  | 110 => ⟨S256x1024x1x1, .i1⟩
  | 111 => ⟨S_, .i1⟩
  | 112 => ⟨S256x1024x1, .i1⟩
  | 113 => ⟨S256x1024x1, .f32⟩
  | 114 => ⟨S_, .f32⟩
  | 115 => ⟨S256x1024x1, .f32⟩
  | 116 => ⟨S256x1024x1, .f32⟩
  | 117 => ⟨S256x1024, .f32⟩
  | 118 => ⟨S256x1024, .f32⟩
  | 119 => ⟨S128x512, .f32⟩
  | 120 => ⟨S512x128, .f32⟩
  | 121 => ⟨S256x128, .f32⟩
  | 122 => ⟨S1x128, .f32⟩
  | 123 => ⟨S256x128, .f32⟩
  | 124 => ⟨S256x128, .f32⟩
  | 125 => ⟨S128x64, .f32⟩
  | 126 => ⟨S64x128, .f32⟩
  | 127 => ⟨S1024x128, .f32⟩
  | _ => ⟨S256x512, .f32⟩

abbrev hbmTy0_2 (i : Nat) : BufTy := match i % 128 with
  | 0 => ⟨S128x64, .f32⟩
  | 1 => ⟨S64x128, .f32⟩
  | 2 => ⟨S1024x128, .f32⟩
  | 3 => ⟨S1024x128, .f32⟩
  | 4 => ⟨S128x64, .f32⟩
  | 5 => ⟨S64x128, .f32⟩
  | 6 => ⟨S1024x128, .f32⟩
  | 7 => ⟨S1024x128, .f32⟩
  | 8 => ⟨S256x1x128, .f32⟩
  | 9 => ⟨S1x1024x128, .f32⟩
  | 10 => ⟨S256x1024x128, .f32⟩
  | 11 => ⟨S256x1024x128, .f32⟩
  | 12 => ⟨S256x1024x128, .f32⟩
  | 13 => ⟨S_, .f32⟩
  | 14 => ⟨S256x1024x128, .f32⟩
  | 15 => ⟨S256x1024x128, .f32⟩
  | 16 => ⟨S256x1024x2, .f32⟩
  | 17 => ⟨S1x1x2, .f32⟩
  | 18 => ⟨S256x1024x2, .f32⟩
  | 19 => ⟨S256x1024x2, .f32⟩
  | 20 => ⟨S_, .f32⟩
  | 21 => ⟨S256x1024, .f32⟩
  | 22 => ⟨S_, .f32⟩
  | 23 => ⟨S256x1024, .f32⟩
  | 24 => ⟨S256x1024, .f32⟩
  | 25 => ⟨S256x1024x1, .f32⟩
  | 26 => ⟨S256x1024x2, .f32⟩
  | 27 => ⟨S256x1024x2, .f32⟩
  | 28 => ⟨S256x1024x2, .f32⟩
  | 29 => ⟨S_, .f32⟩
  | 30 => ⟨S256x1024, .f32⟩
  | 31 => ⟨S256x1024x1, .f32⟩
  | 32 => ⟨S256x1024x1, .f32⟩
  | 33 => ⟨S256x1024x2, .f32⟩
  | 34 => ⟨S256x1024x2, .f32⟩
  | 35 => ⟨S1x1024x1, .i32⟩
  | 36 => ⟨S256x1024x1, .i32⟩
  | 37 => ⟨S_, .i32⟩
  | 38 => ⟨S256x1024x1, .i32⟩
  | 39 => ⟨S256x1024x1, .i1⟩
  | 40 => ⟨S_, .i32⟩
  | 41 => ⟨S256x1024x1, .i32⟩
  | 42 => ⟨S256x1024x1, .i32⟩
  | 43 => ⟨S256x1024x1, .i32⟩
  | 44 => ⟨S256x1024x1x1, .i32⟩
  | 45 => ⟨S1, .i32⟩
  | 46 => ⟨S_, .i32⟩
  | 47 => ⟨S256x1024x1x1, .i32⟩
  | 48 => ⟨S256x1024x1x1, .i1⟩
  | 49 => ⟨S1x1x1x1, .i32⟩
  | 50 => ⟨S256x1024x1x1, .i32⟩
  | 51 => ⟨S256x1024x1x1, .i1⟩
  | 52 => ⟨S256x1024x1x1, .i1⟩
  | 53 => ⟨S_, .i1⟩
  | 54 => ⟨S256x1024x1, .i1⟩
  | 55 => ⟨S256x1024x1, .f32⟩
  | 56 => ⟨S_, .f32⟩
  | 57 => ⟨S256x1024x1, .f32⟩
  | 58 => ⟨S256x1024x1, .f32⟩
  | 59 => ⟨S256x1024, .f32⟩
  | 60 => ⟨S256x1024, .f32⟩
  | _ => ⟨S256x512, .f32⟩

abbrev hbmTy (i : Nat) : BufTy := match i / 128 with
  | 0 => hbmTy0_0 i
  | 1 => hbmTy0_1 i
  | 2 => hbmTy0_2 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v0 : Ref sig .tc := ⟨.hbm, 30, rfl⟩
abbrev main_c_1 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v1 : Ref sig .tc := ⟨.hbm, 38, rfl⟩
abbrev main_c_3 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v2 : Ref sig .tc := ⟨.hbm, 46, rfl⟩
abbrev main_c_5 : Ref sig .tc := ⟨.hbm, 47, rfl⟩
abbrev main_c_6 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v3 : Ref sig .tc := ⟨.hbm, 54, rfl⟩
abbrev main_c_7 : Ref sig .tc := ⟨.hbm, 55, rfl⟩
abbrev main_v4 : Ref sig .tc := ⟨.hbm, 56, rfl⟩
abbrev main_v5 : Ref sig .tc := ⟨.hbm, 57, rfl⟩
abbrev main_c_8 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_c_9 : Ref sig .tc := ⟨.hbm, 64, rfl⟩
abbrev main_v11 : Ref sig .tc := ⟨.hbm, 65, rfl⟩
abbrev main_v12 : Ref sig .tc := ⟨.hbm, 66, rfl⟩
abbrev main_c_10 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_c_11 : Ref sig .tc := ⟨.hbm, 73, rfl⟩
abbrev main_v18 : Ref sig .tc := ⟨.hbm, 74, rfl⟩
abbrev main_v19 : Ref sig .tc := ⟨.hbm, 75, rfl⟩
abbrev main_c_12 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_call4_cst : Ref sig .tc := ⟨.hbm, 87, rfl⟩
abbrev main_call4_v0 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_call5_cst : Ref sig .tc := ⟨.hbm, 95, rfl⟩
abbrev main_call5_v0 : Ref sig .tc := ⟨.hbm, 96, rfl⟩
abbrev main_call5_cst_0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_v6 : Ref sig .tc := ⟨.hbm, 103, rfl⟩
abbrev main_call5_cst_1 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_v36 : Ref sig .tc := ⟨.hbm, 109, rfl⟩
abbrev main_c_13 : Ref sig .tc := ⟨.hbm, 110, rfl⟩
abbrev main_v37 : Ref sig .tc := ⟨.hbm, 111, rfl⟩
abbrev main_v38 : Ref sig .tc := ⟨.hbm, 112, rfl⟩
abbrev main_c_14 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_call6_cst : Ref sig .tc := ⟨.hbm, 133, rfl⟩
abbrev main_call6_v0 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_call7_cst : Ref sig .tc := ⟨.hbm, 140, rfl⟩
abbrev main_call7_v0 : Ref sig .tc := ⟨.hbm, 141, rfl⟩
abbrev main_call7_cst_0 : Ref sig .tc := ⟨.hbm, 142, rfl⟩
abbrev main_call7_v1 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_v5 : Ref sig .tc := ⟨.hbm, 147, rfl⟩
abbrev main_call7_v6 : Ref sig .tc := ⟨.hbm, 148, rfl⟩
abbrev main_call7_cst_1 : Ref sig .tc := ⟨.hbm, 149, rfl⟩
abbrev main_call7_v7 : Ref sig .tc := ⟨.hbm, 150, rfl⟩
abbrev main_call7_v8 : Ref sig .tc := ⟨.hbm, 151, rfl⟩
abbrev main_call7_v9 : Ref sig .tc := ⟨.hbm, 152, rfl⟩
abbrev main_call7_v10 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_call8_c : Ref sig .tc := ⟨.hbm, 157, rfl⟩
abbrev main_call8_v0 : Ref sig .tc := ⟨.hbm, 158, rfl⟩
abbrev main_call8_v1 : Ref sig .tc := ⟨.hbm, 159, rfl⟩
abbrev main_call8_c_0 : Ref sig .tc := ⟨.hbm, 160, rfl⟩
abbrev main_call8_v2 : Ref sig .tc := ⟨.hbm, 161, rfl⟩
abbrev main_call8_v3 : Ref sig .tc := ⟨.hbm, 162, rfl⟩
abbrev main_call8_v4 : Ref sig .tc := ⟨.hbm, 163, rfl⟩
abbrev main_call8_v5 : Ref sig .tc := ⟨.hbm, 164, rfl⟩
abbrev main_call8_c_1 : Ref sig .tc := ⟨.hbm, 165, rfl⟩
abbrev main_call8_c_2 : Ref sig .tc := ⟨.hbm, 166, rfl⟩
abbrev main_call8_v6 : Ref sig .tc := ⟨.hbm, 167, rfl⟩
abbrev main_call8_v7 : Ref sig .tc := ⟨.hbm, 168, rfl⟩
abbrev main_call8_v8 : Ref sig .tc := ⟨.hbm, 169, rfl⟩
abbrev main_call8_v9 : Ref sig .tc := ⟨.hbm, 170, rfl⟩
abbrev main_call8_v10 : Ref sig .tc := ⟨.hbm, 171, rfl⟩
abbrev main_call8_v11 : Ref sig .tc := ⟨.hbm, 172, rfl⟩
abbrev main_call8_c_3 : Ref sig .tc := ⟨.hbm, 173, rfl⟩
abbrev main_call8_v12 : Ref sig .tc := ⟨.hbm, 174, rfl⟩
abbrev main_call8_v13 : Ref sig .tc := ⟨.hbm, 175, rfl⟩
abbrev main_call8_cst : Ref sig .tc := ⟨.hbm, 176, rfl⟩
abbrev main_call8_v14 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_call9_cst : Ref sig .tc := ⟨.hbm, 199, rfl⟩
abbrev main_call9_v0 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_call10_cst : Ref sig .tc := ⟨.hbm, 206, rfl⟩
abbrev main_call10_v0 : Ref sig .tc := ⟨.hbm, 207, rfl⟩
abbrev main_call10_cst_0 : Ref sig .tc := ⟨.hbm, 208, rfl⟩
abbrev main_call10_v1 : Ref sig .tc := ⟨.hbm, 209, rfl⟩
abbrev main_call10_v2 : Ref sig .tc := ⟨.hbm, 210, rfl⟩
abbrev main_call10_v3 : Ref sig .tc := ⟨.hbm, 211, rfl⟩
abbrev main_call10_v4 : Ref sig .tc := ⟨.hbm, 212, rfl⟩
abbrev main_call10_v5 : Ref sig .tc := ⟨.hbm, 213, rfl⟩
abbrev main_call10_v6 : Ref sig .tc := ⟨.hbm, 214, rfl⟩
abbrev main_call10_cst_1 : Ref sig .tc := ⟨.hbm, 215, rfl⟩
abbrev main_call10_v7 : Ref sig .tc := ⟨.hbm, 216, rfl⟩
abbrev main_call10_v8 : Ref sig .tc := ⟨.hbm, 217, rfl⟩
abbrev main_call10_v9 : Ref sig .tc := ⟨.hbm, 218, rfl⟩
abbrev main_call10_v10 : Ref sig .tc := ⟨.hbm, 219, rfl⟩
abbrev main_v92 : Ref sig .tc := ⟨.hbm, 220, rfl⟩
abbrev main_v93 : Ref sig .tc := ⟨.hbm, 221, rfl⟩
abbrev main_v94 : Ref sig .tc := ⟨.hbm, 222, rfl⟩
abbrev main_call11_c : Ref sig .tc := ⟨.hbm, 223, rfl⟩
abbrev main_call11_v0 : Ref sig .tc := ⟨.hbm, 224, rfl⟩
abbrev main_call11_v1 : Ref sig .tc := ⟨.hbm, 225, rfl⟩
abbrev main_call11_c_0 : Ref sig .tc := ⟨.hbm, 226, rfl⟩
abbrev main_call11_v2 : Ref sig .tc := ⟨.hbm, 227, rfl⟩
abbrev main_call11_v3 : Ref sig .tc := ⟨.hbm, 228, rfl⟩
abbrev main_call11_v4 : Ref sig .tc := ⟨.hbm, 229, rfl⟩
abbrev main_call11_v5 : Ref sig .tc := ⟨.hbm, 230, rfl⟩
abbrev main_call11_c_1 : Ref sig .tc := ⟨.hbm, 231, rfl⟩
abbrev main_call11_c_2 : Ref sig .tc := ⟨.hbm, 232, rfl⟩
abbrev main_call11_v6 : Ref sig .tc := ⟨.hbm, 233, rfl⟩
abbrev main_call11_v7 : Ref sig .tc := ⟨.hbm, 234, rfl⟩
abbrev main_call11_v8 : Ref sig .tc := ⟨.hbm, 235, rfl⟩
abbrev main_call11_v9 : Ref sig .tc := ⟨.hbm, 236, rfl⟩
abbrev main_call11_v10 : Ref sig .tc := ⟨.hbm, 237, rfl⟩
abbrev main_call11_v11 : Ref sig .tc := ⟨.hbm, 238, rfl⟩
abbrev main_call11_c_3 : Ref sig .tc := ⟨.hbm, 239, rfl⟩
abbrev main_call11_v12 : Ref sig .tc := ⟨.hbm, 240, rfl⟩
abbrev main_call11_v13 : Ref sig .tc := ⟨.hbm, 241, rfl⟩
abbrev main_call11_cst : Ref sig .tc := ⟨.hbm, 242, rfl⟩
abbrev main_call11_v14 : Ref sig .tc := ⟨.hbm, 243, rfl⟩
abbrev main_v95 : Ref sig .tc := ⟨.hbm, 244, rfl⟩
abbrev main_v96 : Ref sig .tc := ⟨.hbm, 245, rfl⟩
abbrev main_v97 : Ref sig .tc := ⟨.hbm, 246, rfl⟩
abbrev main_v98 : Ref sig .tc := ⟨.hbm, 247, rfl⟩
abbrev main_v99 : Ref sig .tc := ⟨.hbm, 248, rfl⟩
abbrev main_v100 : Ref sig .tc := ⟨.hbm, 249, rfl⟩
abbrev main_v101 : Ref sig .tc := ⟨.hbm, 250, rfl⟩
abbrev main_v102 : Ref sig .tc := ⟨.hbm, 251, rfl⟩
abbrev main_v103 : Ref sig .tc := ⟨.hbm, 252, rfl⟩
abbrev main_v104 : Ref sig .tc := ⟨.hbm, 253, rfl⟩
abbrev main_v105 : Ref sig .tc := ⟨.hbm, 254, rfl⟩
abbrev main_v106 : Ref sig .tc := ⟨.hbm, 255, rfl⟩
abbrev main_v107 : Ref sig .tc := ⟨.hbm, 256, rfl⟩
abbrev main_v108 : Ref sig .tc := ⟨.hbm, 257, rfl⟩
abbrev main_v109 : Ref sig .tc := ⟨.hbm, 258, rfl⟩
abbrev main_v110 : Ref sig .tc := ⟨.hbm, 259, rfl⟩
abbrev main_v111 : Ref sig .tc := ⟨.hbm, 260, rfl⟩
abbrev main_v112 : Ref sig .tc := ⟨.hbm, 261, rfl⟩
abbrev main_v113 : Ref sig .tc := ⟨.hbm, 262, rfl⟩
abbrev main_v114 : Ref sig .tc := ⟨.hbm, 263, rfl⟩
abbrev main_v115 : Ref sig .tc := ⟨.hbm, 264, rfl⟩
abbrev main_v116 : Ref sig .tc := ⟨.hbm, 265, rfl⟩
abbrev main_v117 : Ref sig .tc := ⟨.hbm, 266, rfl⟩
abbrev main_v118 : Ref sig .tc := ⟨.hbm, 267, rfl⟩
abbrev main_v119 : Ref sig .tc := ⟨.hbm, 268, rfl⟩
abbrev main_call12_cst : Ref sig .tc := ⟨.hbm, 269, rfl⟩
abbrev main_call12_v0 : Ref sig .tc := ⟨.hbm, 270, rfl⟩
abbrev main_v120 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩
abbrev main_v124 : Ref sig .tc := ⟨.hbm, 275, rfl⟩
abbrev main_call13_cst : Ref sig .tc := ⟨.hbm, 276, rfl⟩
abbrev main_call13_v0 : Ref sig .tc := ⟨.hbm, 277, rfl⟩
abbrev main_call13_cst_0 : Ref sig .tc := ⟨.hbm, 278, rfl⟩
abbrev main_call13_v1 : Ref sig .tc := ⟨.hbm, 279, rfl⟩
abbrev main_call13_v2 : Ref sig .tc := ⟨.hbm, 280, rfl⟩
abbrev main_call13_v3 : Ref sig .tc := ⟨.hbm, 281, rfl⟩
abbrev main_call13_v4 : Ref sig .tc := ⟨.hbm, 282, rfl⟩
abbrev main_call13_v5 : Ref sig .tc := ⟨.hbm, 283, rfl⟩
abbrev main_call13_v6 : Ref sig .tc := ⟨.hbm, 284, rfl⟩
abbrev main_call13_cst_1 : Ref sig .tc := ⟨.hbm, 285, rfl⟩
abbrev main_call13_v7 : Ref sig .tc := ⟨.hbm, 286, rfl⟩
abbrev main_call13_v8 : Ref sig .tc := ⟨.hbm, 287, rfl⟩
abbrev main_call13_v9 : Ref sig .tc := ⟨.hbm, 288, rfl⟩
abbrev main_call13_v10 : Ref sig .tc := ⟨.hbm, 289, rfl⟩
abbrev main_v125 : Ref sig .tc := ⟨.hbm, 290, rfl⟩
abbrev main_v126 : Ref sig .tc := ⟨.hbm, 291, rfl⟩
abbrev main_v127 : Ref sig .tc := ⟨.hbm, 292, rfl⟩
abbrev main_call14_c : Ref sig .tc := ⟨.hbm, 293, rfl⟩
abbrev main_call14_v0 : Ref sig .tc := ⟨.hbm, 294, rfl⟩
abbrev main_call14_v1 : Ref sig .tc := ⟨.hbm, 295, rfl⟩
abbrev main_call14_c_0 : Ref sig .tc := ⟨.hbm, 296, rfl⟩
abbrev main_call14_v2 : Ref sig .tc := ⟨.hbm, 297, rfl⟩
abbrev main_call14_v3 : Ref sig .tc := ⟨.hbm, 298, rfl⟩
abbrev main_call14_v4 : Ref sig .tc := ⟨.hbm, 299, rfl⟩
abbrev main_call14_v5 : Ref sig .tc := ⟨.hbm, 300, rfl⟩
abbrev main_call14_c_1 : Ref sig .tc := ⟨.hbm, 301, rfl⟩
abbrev main_call14_c_2 : Ref sig .tc := ⟨.hbm, 302, rfl⟩
abbrev main_call14_v6 : Ref sig .tc := ⟨.hbm, 303, rfl⟩
abbrev main_call14_v7 : Ref sig .tc := ⟨.hbm, 304, rfl⟩
abbrev main_call14_v8 : Ref sig .tc := ⟨.hbm, 305, rfl⟩
abbrev main_call14_v9 : Ref sig .tc := ⟨.hbm, 306, rfl⟩
abbrev main_call14_v10 : Ref sig .tc := ⟨.hbm, 307, rfl⟩
abbrev main_call14_v11 : Ref sig .tc := ⟨.hbm, 308, rfl⟩
abbrev main_call14_c_3 : Ref sig .tc := ⟨.hbm, 309, rfl⟩
abbrev main_call14_v12 : Ref sig .tc := ⟨.hbm, 310, rfl⟩
abbrev main_call14_v13 : Ref sig .tc := ⟨.hbm, 311, rfl⟩
abbrev main_call14_cst : Ref sig .tc := ⟨.hbm, 312, rfl⟩
abbrev main_call14_v14 : Ref sig .tc := ⟨.hbm, 313, rfl⟩
abbrev main_v128 : Ref sig .tc := ⟨.hbm, 314, rfl⟩
abbrev main_v129 : Ref sig .tc := ⟨.hbm, 315, rfl⟩
abbrev main_v130 : Ref sig .tc := ⟨.hbm, 316, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S128x512_S512x128_1_0 : S128x512.Transposes [1, 0] S512x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  transposes_S65x128_S128x65_1_0 : S65x128.Transposes [1, 0] S128x65
  bcast_S65_S1x65_1 : S65.BroadcastsInDim S1x65 (![1] : Fin 1 → Fin S1x65.rank)
  bcast_S1x65_S256x65_0_1 : S1x65.BroadcastsInDim S256x65 (![0, 1] : Fin 2 → Fin S256x65.rank)
  reducesTo_S256x65_S256_d1 : S256x65.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x65_0_1 : S256x1.BroadcastsInDim S256x65 (![0, 1] : Fin 2 → Fin S256x65.rank)
  slices_S128x576_S128x512_0_0 : S128x576.Slices ![0, 0] S128x512
  slices_S128x576_S128x64_0_512 : S128x576.Slices ![0, 512] S128x64
  transposes_S128x64_S64x128_1_0 : S128x64.Transposes [1, 0] S64x128
  bcast_S256x128_S256x1x128_0_2 : S256x128.BroadcastsInDim S256x1x128 (![0, 2] : Fin 2 → Fin S256x1x128.rank)
  bcast_S1024x128_S1x1024x128_1_2 : S1024x128.BroadcastsInDim S1x1024x128 (![1, 2] : Fin 2 → Fin S1x1024x128.rank)
  bcast_S256x1x128_S256x1024x128_0_1_2 : S256x1x128.BroadcastsInDim S256x1024x128 (![0, 1, 2] : Fin 3 → Fin S256x1024x128.rank)
  bcast_S1x1024x128_S256x1024x128_0_1_2 : S1x1024x128.BroadcastsInDim S256x1024x128 (![0, 1, 2] : Fin 3 → Fin S256x1024x128.rank)
  bcast_S_S256x1024x128 : S_.BroadcastsInDim S256x1024x128 (![] : Fin 0 → Fin S256x1024x128.rank)
  bcast_S17_S1x1x17_2 : S17.BroadcastsInDim S1x1x17 (![2] : Fin 1 → Fin S1x1x17.rank)
  bcast_S1x1x17_S256x1024x17_0_1_2 : S1x1x17.BroadcastsInDim S256x1024x17 (![0, 1, 2] : Fin 3 → Fin S256x1024x17.rank)
  reducesTo_S256x1024x17_S256x1024_d2 : S256x1024x17.ReducesTo [2] S256x1024
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  bcast_S256x1024x1_S256x1024x17_0_1_2 : S256x1024x1.BroadcastsInDim S256x1024x17 (![0, 1, 2] : Fin 3 → Fin S256x1024x17.rank)
  bcast_S1024_S1x1024x1_1 : S1024.BroadcastsInDim S1x1024x1 (![1] : Fin 1 → Fin S1x1024x1.rank)
  bcast_S1x1024x1_S256x1024x1_0_1_2 : S1x1024x1.BroadcastsInDim S256x1024x1 (![0, 1, 2] : Fin 3 → Fin S256x1024x1.rank)
  bcast_S_S256x1024x1 : S_.BroadcastsInDim S256x1024x1 (![] : Fin 0 → Fin S256x1024x1.rank)
  shapeCasts_S256x1024x1_S256x1024x1x1 : S256x1024x1.ShapeCasts S256x1024x1x1
  bcast_S_S256x1024x1x1 : S_.BroadcastsInDim S256x1024x1x1 (![] : Fin 0 → Fin S256x1024x1x1.rank)
  bcast_S1_S1x1x1x1_3 : S1.BroadcastsInDim S1x1x1x1 (![3] : Fin 1 → Fin S1x1x1x1.rank)
  bcast_S1x1x1x1_S256x1024x1x1_0_1_2_3 : S1x1x1x1.BroadcastsInDim S256x1024x1x1 (![0, 1, 2, 3] : Fin 4 → Fin S256x1024x1x1.rank)
  reducesTo_S256x1024x1x1_S256x1024x1_d3 : S256x1024x1x1.ReducesTo [3] S256x1024x1
  shapeCasts_S256x1024x1_S256x1024 : S256x1024x1.ShapeCasts S256x1024
  slices_S128x640_S128x512_0_0 : S128x640.Slices ![0, 0] S128x512
  slices_S128x640_S128x64_0_512 : S128x640.Slices ![0, 512] S128x64
  slices_S128x640_S128x64_0_576 : S128x640.Slices ![0, 576] S128x64
  slices_S128x704_S128x512_0_0 : S128x704.Slices ![0, 0] S128x512
  slices_S128x704_S128x64_0_512 : S128x704.Slices ![0, 512] S128x64
  slices_S128x704_S128x64_0_576 : S128x704.Slices ![0, 576] S128x64
  slices_S128x704_S128x64_0_640 : S128x704.Slices ![0, 640] S128x64
  bcast_S2_S1x1x2_2 : S2.BroadcastsInDim S1x1x2 (![2] : Fin 1 → Fin S1x1x2.rank)
  bcast_S1x1x2_S256x1024x2_0_1_2 : S1x1x2.BroadcastsInDim S256x1024x2 (![0, 1, 2] : Fin 3 → Fin S256x1024x2.rank)
  reducesTo_S256x1024x2_S256x1024_d2 : S256x1024x2.ReducesTo [2] S256x1024
  bcast_S256x1024x1_S256x1024x2_0_1_2 : S256x1024x1.BroadcastsInDim S256x1024x2 (![0, 1, 2] : Fin 3 → Fin S256x1024x2.rank)
  gather_S65x64_S1024x1_S1024x64_1_0_n_n_0_1_164_wf : GatherDims.WF S65x64 S1024x1 S1024x64 [1] [0] [] [0] [] 1 ![1, 64]
  gather_S17x64_S1024x1_S1024x64_1_0_n_n_0_1_164_wf : GatherDims.WF S17x64 S1024x1 S1024x64 [1] [0] [] [0] [] 1 ![1, 64]
  dot_S256x512_S512x128_S256x128_1_0_0_1_n_n_wf : DotDims.WF S256x512 S512x128 S256x128 [1] [0] [0] [1] [] []
  dot_S256x128_S128x65_S256x65_1_0_0_1_n_n_wf : DotDims.WF S256x128 S128x65 S256x65 [1] [0] [0] [1] [] []
  gather_S256x65_S1024x1_S256x1024_0_1_n_n_1_1_2561_wf : GatherDims.WF S256x65 S1024x1 S256x1024 [0] [1] [] [1] [] 1 ![256, 1]
  dot_S1024x64_S64x128_S1024x128_1_0_0_1_n_n_wf : DotDims.WF S1024x64 S64x128 S1024x128 [1] [0] [0] [1] [] []
  dot_S256x1024x128_S17x128_S256x1024x17_2_1_01_0_n_n_wf : DotDims.WF S256x1024x128 S17x128 S256x1024x17 [2] [1] [0, 1] [0] [] []
  gather_S256x1024x17_S256x1024x1x1_S256x1024x1_n_2_01_01_2_3_111_wf : GatherDims.WF S256x1024x17 S256x1024x1x1 S256x1024x1 [] [2] [0, 1] [2] [0, 1] 3 ![1, 1, 1]
  dot_S256x1024x128_S2x128_S256x1024x2_2_1_01_0_n_n_wf : DotDims.WF S256x1024x128 S2x128 S256x1024x2 [2] [1] [0, 1] [0] [] []
  gather_S256x1024x2_S256x1024x1x1_S256x1024x1_n_2_01_01_2_3_111_wf : GatherDims.WF S256x1024x2 S256x1024x1x1 S256x1024x1 [] [2] [0, 1] [2] [0, 1] 3 ![1, 1, 1]

variable [Facts₀]

def gather_S65x64_S1024x1_S1024x64_1_0_n_n_0_1_164 : GatherDims S65x64 S1024x1 S1024x64 where
  offsetDims := [1]
  collapsedSliceDims := [0]
  operandBatchingDims := []
  startIndicesBatchingDims := []
  startIndexMap := [0]
  indexVectorDim := 1
  sliceSizes := ![1, 64]
  wf := gather_S65x64_S1024x1_S1024x64_1_0_n_n_0_1_164_wf
def gather_S17x64_S1024x1_S1024x64_1_0_n_n_0_1_164 : GatherDims S17x64 S1024x1 S1024x64 where
  offsetDims := [1]
  collapsedSliceDims := [0]
  operandBatchingDims := []
  startIndicesBatchingDims := []
  startIndexMap := [0]
  indexVectorDim := 1
  sliceSizes := ![1, 64]
  wf := gather_S17x64_S1024x1_S1024x64_1_0_n_n_0_1_164_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x128_S128x65_S256x65_1_0_0_1_n_n : DotDims S256x128 S128x65 S256x65 where
  lhsContracting := [1]
  rhsContracting := [0]
  lhsNonContracting := [0]
  rhsNonContracting := [1]
  lhsBatch := []
  rhsBatch := []
  wf := dot_S256x128_S128x65_S256x65_1_0_0_1_n_n_wf
def gather_S256x65_S1024x1_S256x1024_0_1_n_n_1_1_2561 : GatherDims S256x65 S1024x1 S256x1024 where
  offsetDims := [0]
  collapsedSliceDims := [1]
  operandBatchingDims := []
  startIndicesBatchingDims := []
  startIndexMap := [1]
  indexVectorDim := 1
  sliceSizes := ![256, 1]
  wf := gather_S256x65_S1024x1_S256x1024_0_1_n_n_1_1_2561_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S256x1024x128_S17x128_S256x1024x17_2_1_01_0_n_n : DotDims S256x1024x128 S17x128 S256x1024x17 where
  lhsContracting := [2]
  rhsContracting := [1]
  lhsNonContracting := [0, 1]
  rhsNonContracting := [0]
  lhsBatch := []
  rhsBatch := []
  wf := dot_S256x1024x128_S17x128_S256x1024x17_2_1_01_0_n_n_wf
def gather_S256x1024x17_S256x1024x1x1_S256x1024x1_n_2_01_01_2_3_111 : GatherDims S256x1024x17 S256x1024x1x1 S256x1024x1 where
  offsetDims := []
  collapsedSliceDims := [2]
  operandBatchingDims := [0, 1]
  startIndicesBatchingDims := [0, 1]
  startIndexMap := [2]
  indexVectorDim := 3
  sliceSizes := ![1, 1, 1]
  wf := gather_S256x1024x17_S256x1024x1x1_S256x1024x1_n_2_01_01_2_3_111_wf
def dot_S256x1024x128_S2x128_S256x1024x2_2_1_01_0_n_n : DotDims S256x1024x128 S2x128 S256x1024x2 where
  lhsContracting := [2]
  rhsContracting := [1]
  lhsNonContracting := [0, 1]
  rhsNonContracting := [0]
  lhsBatch := []
  rhsBatch := []
  wf := dot_S256x1024x128_S2x128_S256x1024x2_2_1_01_0_n_n_wf
def gather_S256x1024x2_S256x1024x1x1_S256x1024x1_n_2_01_01_2_3_111 : GatherDims S256x1024x2 S256x1024x1x1 S256x1024x1 where
  offsetDims := []
  collapsedSliceDims := [2]
  operandBatchingDims := [0, 1]
  startIndicesBatchingDims := [0, 1]
  startIndexMap := [2]
  indexVectorDim := 3
  sliceSizes := ![1, 1, 1]
  wf := gather_S256x1024x2_S256x1024x1x1_S256x1024x1_n_2_01_01_2_3_111_wf

class Facts : Prop extends Facts₀ where

variable [Facts]
-- ==== Proof.RefRunInv.lean ====
/-
  What the reference's buffers hold between the four stretches of its program.

  The reference's 294 host operations are cut after the opcode head's result (%43), after the first head's running sum
  (%68) and after the second head's (%97). Between stretches only a few buffers are read again: the arguments, the clipped
  ids, the three gathered embedding arrays, and the running sum. Each invariant says that those buffers hold the stage of
  that name as a function of the arguments a0 .. a22.
-/
import proofs.«411827_j42236708388866_3_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Inv1: the buffers read after this point hold their stages. -/
def Inv1 (W : Valuation τ sig (Elt F)) (a0 : (⟨S256x512, .f32⟩ : BufTy).Contents (Elt F)) (a1 : (⟨S1024, .i32⟩ : BufTy).Contents (Elt F)) (a2 : (⟨S1024, .i32⟩ : BufTy).Contents (Elt F)) (a3 : (⟨S1024, .i32⟩ : BufTy).Contents (Elt F)) (a4 : (⟨S1024, .i32⟩ : BufTy).Contents (Elt F)) (a5 : (⟨S65x64, .f32⟩ : BufTy).Contents (Elt F)) (a6 : (⟨S17x64, .f32⟩ : BufTy).Contents (Elt F)) (a7 : (⟨S128x512, .f32⟩ : BufTy).Contents (Elt F)) (a8 : (⟨S128, .f32⟩ : BufTy).Contents (Elt F)) (a9 : (⟨S65x128, .f32⟩ : BufTy).Contents (Elt F)) (a10 : (⟨S65, .f32⟩ : BufTy).Contents (Elt F)) (a11 : (⟨S128x576, .f32⟩ : BufTy).Contents (Elt F)) (a12 : (⟨S128, .f32⟩ : BufTy).Contents (Elt F)) (a13 : (⟨S17x128, .f32⟩ : BufTy).Contents (Elt F)) (a14 : (⟨S17, .f32⟩ : BufTy).Contents (Elt F)) (a15 : (⟨S128x640, .f32⟩ : BufTy).Contents (Elt F)) (a16 : (⟨S128, .f32⟩ : BufTy).Contents (Elt F)) (a17 : (⟨S17x128, .f32⟩ : BufTy).Contents (Elt F)) (a18 : (⟨S17, .f32⟩ : BufTy).Contents (Elt F)) (a19 : (⟨S128x704, .f32⟩ : BufTy).Contents (Elt F)) (a20 : (⟨S128, .f32⟩ : BufTy).Contents (Elt F)) (a21 : (⟨S2x128, .f32⟩ : BufTy).Contents (Elt F)) (a22 : (⟨S2, .f32⟩ : BufTy).Contents (Elt F)) : Prop :=
  W (Proc.devRef (τ := τ) .tc main_arg0) = a0
  ∧ W (Proc.devRef (τ := τ) .tc main_arg1) = a1
  ∧ W (Proc.devRef (τ := τ) .tc main_arg2) = a2
  ∧ W (Proc.devRef (τ := τ) .tc main_arg3) = a3
  ∧ W (Proc.devRef (τ := τ) .tc main_arg4) = a4
  ∧ W (Proc.devRef (τ := τ) .tc main_arg5) = a5
  ∧ W (Proc.devRef (τ := τ) .tc main_arg6) = a6
  ∧ W (Proc.devRef (τ := τ) .tc main_arg7) = a7
  ∧ W (Proc.devRef (τ := τ) .tc main_arg8) = a8
  ∧ W (Proc.devRef (τ := τ) .tc main_arg9) = a9
  ∧ W (Proc.devRef (τ := τ) .tc main_arg10) = a10
  ∧ W (Proc.devRef (τ := τ) .tc main_arg11) = a11
  ∧ W (Proc.devRef (τ := τ) .tc main_arg12) = a12
  ∧ W (Proc.devRef (τ := τ) .tc main_arg13) = a13
  ∧ W (Proc.devRef (τ := τ) .tc main_arg14) = a14
  ∧ W (Proc.devRef (τ := τ) .tc main_arg15) = a15
  ∧ W (Proc.devRef (τ := τ) .tc main_arg16) = a16
  ∧ W (Proc.devRef (τ := τ) .tc main_arg17) = a17
  ∧ W (Proc.devRef (τ := τ) .tc main_arg18) = a18
  ∧ W (Proc.devRef (τ := τ) .tc main_arg19) = a19
  ∧ W (Proc.devRef (τ := τ) .tc main_arg20) = a20
  ∧ W (Proc.devRef (τ := τ) .tc main_arg21) = a21
  ∧ W (Proc.devRef (τ := τ) .tc main_arg22) = a22
  ∧ W (Proc.devRef (τ := τ) .tc main_v1) = val_main_v1 (F := F) a2
  ∧ W (Proc.devRef (τ := τ) .tc main_v2) = val_main_v2 (F := F) a3
  ∧ W (Proc.devRef (τ := τ) .tc main_v3) = val_main_v3 (F := F) a4
  ∧ W (Proc.devRef (τ := τ) .tc main_v10) = val_main_v10 (F := F) a1 a5
  ∧ W (Proc.devRef (τ := τ) .tc main_v17) = val_main_v17 (F := F) a2 a6
  ∧ W (Proc.devRef (τ := τ) .tc main_v24) = val_main_v24 (F := F) a3 a6
  ∧ W (Proc.devRef (τ := τ) .tc main_v43) = val_main_v43 (F := F) a0 a1 a7 a8 a9 a10

/-- Inv2: the buffers read after this point hold their stages. -/
def Inv2 (W : Valuation τ sig (Elt F)) (a0 : (⟨S256x512, .f32⟩ : BufTy).Contents (Elt F)) (a1 : (⟨S1024, .i32⟩ : BufTy).Contents (Elt F)) (a2 : (⟨S1024, .i32⟩ : BufTy).Contents (Elt F)) (a3 : (⟨S1024, .i32⟩ : BufTy).Contents (Elt F)) (a4 : (⟨S1024, .i32⟩ : BufTy).Contents (Elt F)) (a5 : (⟨S65x64, .f32⟩ : BufTy).Contents (Elt F)) (a6 : (⟨S17x64, .f32⟩ : BufTy).Contents (Elt F)) (a7 : (⟨S128x512, .f32⟩ : BufTy).Contents (Elt F)) (a8 : (⟨S128, .f32⟩ : BufTy).Contents (Elt F)) (a9 : (⟨S65x128, .f32⟩ : BufTy).Contents (Elt F)) (a10 : (⟨S65, .f32⟩ : BufTy).Contents (Elt F)) (a11 : (⟨S128x576, .f32⟩ : BufTy).Contents (Elt F)) (a12 : (⟨S128, .f32⟩ : BufTy).Contents (Elt F)) (a13 : (⟨S17x128, .f32⟩ : BufTy).Contents (Elt F)) (a14 : (⟨S17, .f32⟩ : BufTy).Contents (Elt F)) (a15 : (⟨S128x640, .f32⟩ : BufTy).Contents (Elt F)) (a16 : (⟨S128, .f32⟩ : BufTy).Contents (Elt F)) (a17 : (⟨S17x128, .f32⟩ : BufTy).Contents (Elt F)) (a18 : (⟨S17, .f32⟩ : BufTy).Contents (Elt F)) (a19 : (⟨S128x704, .f32⟩ : BufTy).Contents (Elt F)) (a20 : (⟨S128, .f32⟩ : BufTy).Contents (Elt F)) (a21 : (⟨S2x128, .f32⟩ : BufTy).Contents (Elt F)) (a22 : (⟨S2, .f32⟩ : BufTy).Contents (Elt F)) : Prop :=
  W (Proc.devRef (τ := τ) .tc main_arg0) = a0
  ∧ W (Proc.devRef (τ := τ) .tc main_arg1) = a1
  ∧ W (Proc.devRef (τ := τ) .tc main_arg2) = a2
  ∧ W (Proc.devRef (τ := τ) .tc main_arg3) = a3
  ∧ W (Proc.devRef (τ := τ) .tc main_arg4) = a4
  ∧ W (Proc.devRef (τ := τ) .tc main_arg5) = a5
  ∧ W (Proc.devRef (τ := τ) .tc main_arg6) = a6
  ∧ W (Proc.devRef (τ := τ) .tc main_arg7) = a7
  ∧ W (Proc.devRef (τ := τ) .tc main_arg8) = a8
  ∧ W (Proc.devRef (τ := τ) .tc main_arg9) = a9
  ∧ W (Proc.devRef (τ := τ) .tc main_arg10) = a10
  ∧ W (Proc.devRef (τ := τ) .tc main_arg11) = a11
  ∧ W (Proc.devRef (τ := τ) .tc main_arg12) = a12
  ∧ W (Proc.devRef (τ := τ) .tc main_arg13) = a13
  ∧ W (Proc.devRef (τ := τ) .tc main_arg14) = a14
  ∧ W (Proc.devRef (τ := τ) .tc main_arg15) = a15
  ∧ W (Proc.devRef (τ := τ) .tc main_arg16) = a16
  ∧ W (Proc.devRef (τ := τ) .tc main_arg17) = a17
  ∧ W (Proc.devRef (τ := τ) .tc main_arg18) = a18
  ∧ W (Proc.devRef (τ := τ) .tc main_arg19) = a19
  ∧ W (Proc.devRef (τ := τ) .tc main_arg20) = a20
  ∧ W (Proc.devRef (τ := τ) .tc main_arg21) = a21
  ∧ W (Proc.devRef (τ := τ) .tc main_arg22) = a22
  ∧ W (Proc.devRef (τ := τ) .tc main_v2) = val_main_v2 (F := F) a3
  ∧ W (Proc.devRef (τ := τ) .tc main_v3) = val_main_v3 (F := F) a4
  ∧ W (Proc.devRef (τ := τ) .tc main_v10) = val_main_v10 (F := F) a1 a5
  ∧ W (Proc.devRef (τ := τ) .tc main_v17) = val_main_v17 (F := F) a2 a6
  ∧ W (Proc.devRef (τ := τ) .tc main_v24) = val_main_v24 (F := F) a3 a6
  ∧ W (Proc.devRef (τ := τ) .tc main_v68) = val_main_v68 (F := F) a0 a1 a2 a5 a7 a8 a9 a10 a11 a12 a13 a14

/-- Inv3: the buffers read after this point hold their stages. -/
def Inv3 (W : Valuation τ sig (Elt F)) (a0 : (⟨S256x512, .f32⟩ : BufTy).Contents (Elt F)) (a1 : (⟨S1024, .i32⟩ : BufTy).Contents (Elt F)) (a2 : (⟨S1024, .i32⟩ : BufTy).Contents (Elt F)) (a3 : (⟨S1024, .i32⟩ : BufTy).Contents (Elt F)) (a4 : (⟨S1024, .i32⟩ : BufTy).Contents (Elt F)) (a5 : (⟨S65x64, .f32⟩ : BufTy).Contents (Elt F)) (a6 : (⟨S17x64, .f32⟩ : BufTy).Contents (Elt F)) (a7 : (⟨S128x512, .f32⟩ : BufTy).Contents (Elt F)) (a8 : (⟨S128, .f32⟩ : BufTy).Contents (Elt F)) (a9 : (⟨S65x128, .f32⟩ : BufTy).Contents (Elt F)) (a10 : (⟨S65, .f32⟩ : BufTy).Contents (Elt F)) (a11 : (⟨S128x576, .f32⟩ : BufTy).Contents (Elt F)) (a12 : (⟨S128, .f32⟩ : BufTy).Contents (Elt F)) (a13 : (⟨S17x128, .f32⟩ : BufTy).Contents (Elt F)) (a14 : (⟨S17, .f32⟩ : BufTy).Contents (Elt F)) (a15 : (⟨S128x640, .f32⟩ : BufTy).Contents (Elt F)) (a16 : (⟨S128, .f32⟩ : BufTy).Contents (Elt F)) (a17 : (⟨S17x128, .f32⟩ : BufTy).Contents (Elt F)) (a18 : (⟨S17, .f32⟩ : BufTy).Contents (Elt F)) (a19 : (⟨S128x704, .f32⟩ : BufTy).Contents (Elt F)) (a20 : (⟨S128, .f32⟩ : BufTy).Contents (Elt F)) (a21 : (⟨S2x128, .f32⟩ : BufTy).Contents (Elt F)) (a22 : (⟨S2, .f32⟩ : BufTy).Contents (Elt F)) : Prop :=
  W (Proc.devRef (τ := τ) .tc main_arg0) = a0
  ∧ W (Proc.devRef (τ := τ) .tc main_arg1) = a1
  ∧ W (Proc.devRef (τ := τ) .tc main_arg2) = a2
  ∧ W (Proc.devRef (τ := τ) .tc main_arg3) = a3
  ∧ W (Proc.devRef (τ := τ) .tc main_arg4) = a4
  ∧ W (Proc.devRef (τ := τ) .tc main_arg5) = a5
  ∧ W (Proc.devRef (τ := τ) .tc main_arg6) = a6
  ∧ W (Proc.devRef (τ := τ) .tc main_arg7) = a7
  ∧ W (Proc.devRef (τ := τ) .tc main_arg8) = a8
  ∧ W (Proc.devRef (τ := τ) .tc main_arg9) = a9
  ∧ W (Proc.devRef (τ := τ) .tc main_arg10) = a10
  ∧ W (Proc.devRef (τ := τ) .tc main_arg11) = a11
  ∧ W (Proc.devRef (τ := τ) .tc main_arg12) = a12
  ∧ W (Proc.devRef (τ := τ) .tc main_arg13) = a13
  ∧ W (Proc.devRef (τ := τ) .tc main_arg14) = a14
  ∧ W (Proc.devRef (τ := τ) .tc main_arg15) = a15
  ∧ W (Proc.devRef (τ := τ) .tc main_arg16) = a16
  ∧ W (Proc.devRef (τ := τ) .tc main_arg17) = a17
  ∧ W (Proc.devRef (τ := τ) .tc main_arg18) = a18
  ∧ W (Proc.devRef (τ := τ) .tc main_arg19) = a19
  ∧ W (Proc.devRef (τ := τ) .tc main_arg20) = a20
  ∧ W (Proc.devRef (τ := τ) .tc main_arg21) = a21
  ∧ W (Proc.devRef (τ := τ) .tc main_arg22) = a22
  ∧ W (Proc.devRef (τ := τ) .tc main_v3) = val_main_v3 (F := F) a4
  ∧ W (Proc.devRef (τ := τ) .tc main_v10) = val_main_v10 (F := F) a1 a5
  ∧ W (Proc.devRef (τ := τ) .tc main_v17) = val_main_v17 (F := F) a2 a6
  ∧ W (Proc.devRef (τ := τ) .tc main_v24) = val_main_v24 (F := F) a3 a6
  ∧ W (Proc.devRef (τ := τ) .tc main_v97) = val_main_v97 (F := F) a0 a1 a2 a3 a5 a6 a7 a8 a9 a10 a11 a12 a13 a14 a15 a16 a17 a18

/-- Inv4: the buffers read after this point hold their stages. -/
def Inv4 (W : Valuation τ sig (Elt F)) (a0 : (⟨S256x512, .f32⟩ : BufTy).Contents (Elt F)) (a1 : (⟨S1024, .i32⟩ : BufTy).Contents (Elt F)) (a2 : (⟨S1024, .i32⟩ : BufTy).Contents (Elt F)) (a3 : (⟨S1024, .i32⟩ : BufTy).Contents (Elt F)) (a4 : (⟨S1024, .i32⟩ : BufTy).Contents (Elt F)) (a5 : (⟨S65x64, .f32⟩ : BufTy).Contents (Elt F)) (a6 : (⟨S17x64, .f32⟩ : BufTy).Contents (Elt F)) (a7 : (⟨S128x512, .f32⟩ : BufTy).Contents (Elt F)) (a8 : (⟨S128, .f32⟩ : BufTy).Contents (Elt F)) (a9 : (⟨S65x128, .f32⟩ : BufTy).Contents (Elt F)) (a10 : (⟨S65, .f32⟩ : BufTy).Contents (Elt F)) (a11 : (⟨S128x576, .f32⟩ : BufTy).Contents (Elt F)) (a12 : (⟨S128, .f32⟩ : BufTy).Contents (Elt F)) (a13 : (⟨S17x128, .f32⟩ : BufTy).Contents (Elt F)) (a14 : (⟨S17, .f32⟩ : BufTy).Contents (Elt F)) (a15 : (⟨S128x640, .f32⟩ : BufTy).Contents (Elt F)) (a16 : (⟨S128, .f32⟩ : BufTy).Contents (Elt F)) (a17 : (⟨S17x128, .f32⟩ : BufTy).Contents (Elt F)) (a18 : (⟨S17, .f32⟩ : BufTy).Contents (Elt F)) (a19 : (⟨S128x704, .f32⟩ : BufTy).Contents (Elt F)) (a20 : (⟨S128, .f32⟩ : BufTy).Contents (Elt F)) (a21 : (⟨S2x128, .f32⟩ : BufTy).Contents (Elt F)) (a22 : (⟨S2, .f32⟩ : BufTy).Contents (Elt F)) : Prop :=
  W (Proc.devRef (τ := τ) .tc main_arg0) = a0
  ∧ W (Proc.devRef (τ := τ) .tc main_arg1) = a1
  ∧ W (Proc.devRef (τ := τ) .tc main_arg2) = a2
  ∧ W (Proc.devRef (τ := τ) .tc main_arg3) = a3
  ∧ W (Proc.devRef (τ := τ) .tc main_arg4) = a4
  ∧ W (Proc.devRef (τ := τ) .tc main_arg5) = a5
  ∧ W (Proc.devRef (τ := τ) .tc main_arg6) = a6
  ∧ W (Proc.devRef (τ := τ) .tc main_arg7) = a7
  ∧ W (Proc.devRef (τ := τ) .tc main_arg8) = a8
  ∧ W (Proc.devRef (τ := τ) .tc main_arg9) = a9
  ∧ W (Proc.devRef (τ := τ) .tc main_arg10) = a10
  ∧ W (Proc.devRef (τ := τ) .tc main_arg11) = a11
  ∧ W (Proc.devRef (τ := τ) .tc main_arg12) = a12
  ∧ W (Proc.devRef (τ := τ) .tc main_arg13) = a13
  ∧ W (Proc.devRef (τ := τ) .tc main_arg14) = a14
  ∧ W (Proc.devRef (τ := τ) .tc main_arg15) = a15
  ∧ W (Proc.devRef (τ := τ) .tc main_arg16) = a16
  ∧ W (Proc.devRef (τ := τ) .tc main_arg17) = a17
  ∧ W (Proc.devRef (τ := τ) .tc main_arg18) = a18
  ∧ W (Proc.devRef (τ := τ) .tc main_arg19) = a19
  ∧ W (Proc.devRef (τ := τ) .tc main_arg20) = a20
  ∧ W (Proc.devRef (τ := τ) .tc main_arg21) = a21
  ∧ W (Proc.devRef (τ := τ) .tc main_arg22) = a22
  ∧ W (Proc.devRef (τ := τ) .tc main_v130) = val_main_v130 (F := F) a0 a1 a2 a3 a4 a5 a6 a7 a8 a9 a10 a11 a12 a13 a14 a15 a16 a17 a18 a19 a20 a21 a22

end Cert.ReferenceIdeal.HandRun

end
-- ==== Proof.RefRunA.lean ====
/-
  The reference's run, the first stretch (the clips, the embedding gathers, the opcode head): operations 1 to 96, from the launch memory.

  Each operation writes one fresh buffer from buffers written earlier, so after the stretch a buffer it wrote holds its
  operation's function of the contents of its operands, and a buffer it did not write holds what it held; with the
  operands at their stages the result is the next stage by definition.
-/
import proofs.«411827_j42236708388866_3_alg».proof.Proof.RefStages
import proofs.«411827_j42236708388866_3_alg».proof.Proof.RefRunInv
import proofs.«411827_j42236708388866_3_alg».proof.Proof.RefRunChunks
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

set_option maxHeartbeats 4000000 in
theorem stepA (m : (ℓ : Loc nD τ sig) → Buf (Elt F) ℓ) (c : Dev nD) :
    Inv1 (after (opsA (F := F)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold Inv1
  refine ⟨?a0, ?a1, ?a2, ?a3, ?a4, ?a5, ?a6, ?a7, ?a8, ?a9, ?a10, ?a11, ?a12, ?a13, ?a14, ?a15, ?a16, ?a17, ?a18, ?a19, ?a20, ?a21, ?a22, ?v1, ?v2, ?v3, ?v10, ?v17, ?v24, ?v43⟩
  case a0 =>
    after_results_simp
  case a1 =>
    after_results_simp
  case a2 =>
    after_results_simp
  case a3 =>
    after_results_simp
  case a4 =>
    after_results_simp
  case a5 =>
    after_results_simp
  case a6 =>
    after_results_simp
  case a7 =>
    after_results_simp
  case a8 =>
    after_results_simp
  case a9 =>
    after_results_simp
  case a10 =>
    after_results_simp
  case a11 =>
    after_results_simp
  case a12 =>
    after_results_simp
  case a13 =>
    after_results_simp
  case a14 =>
    after_results_simp
  case a15 =>
    after_results_simp
  case a16 =>
    after_results_simp
  case a17 =>
    after_results_simp
  case a18 =>
    after_results_simp
  case a19 =>
    after_results_simp
  case a20 =>
    after_results_simp
  case a21 =>
    after_results_simp
  case a22 =>
    after_results_simp
  case v1 =>
    after_results_simp
    simp only [TRef.ofBuf, TRef.toBuf, cast_eq]
    rfl
  case v2 =>
    after_results_simp
    simp only [TRef.ofBuf, TRef.toBuf, cast_eq]
    rfl
  case v3 =>
    after_results_simp
    simp only [TRef.ofBuf, TRef.toBuf, cast_eq]
    rfl
  case v10 =>
    after_results_simp
    simp only [TRef.ofBuf, TRef.toBuf, cast_eq]
    rfl
  case v17 =>
    after_results_simp
    simp only [TRef.ofBuf, TRef.toBuf, cast_eq]
    rfl
  case v24 =>
    after_results_simp
    simp only [TRef.ofBuf, TRef.toBuf, cast_eq]
    rfl
  case v43 =>
    after_results_simp
    simp only [TRef.ofBuf, TRef.toBuf, cast_eq]
    rfl

end Cert.ReferenceIdeal.HandRun

end
-- ==== Proof.RefRunB.lean ====
/-
  The reference's run, the second stretch (the source-register head and its sum onto the opcode head's array): operations 97 to 158.

  Each operation writes one fresh buffer from buffers written earlier, so after the stretch a buffer it wrote holds its
  operation's function of the contents of its operands, and a buffer it did not write holds what it held; with the
  operands at their stages the result is the next stage by definition.
-/
import proofs.«411827_j42236708388866_3_alg».proof.Proof.RefStages
import proofs.«411827_j42236708388866_3_alg».proof.Proof.RefRunInv
import proofs.«411827_j42236708388866_3_alg».proof.Proof.RefRunChunks
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- The stretch cut after the logits (21 operations), after the log-softmax (15 more), and the rest (26). -/
abbrev opsB1 : List (HloOp τ sig (Elt F)) := (opsB (F := F)).take 21
abbrev opsB2 : List (HloOp τ sig (Elt F)) := ((opsB (F := F)).drop 21).take 15
abbrev opsB3 : List (HloOp τ sig (Elt F)) := (opsB (F := F)).drop 36

theorem opsB_cut : (opsB (F := F)) = opsB1 (F := F) ++ (opsB2 (F := F) ++ opsB3 (F := F)) := rfl

theorem after_opsB (W : Valuation τ sig (Elt F)) :
    after (opsB (F := F)) W = after (opsB3 (F := F)) (after (opsB2 (F := F)) (after (opsB1 (F := F)) W)) :=
  (congrArg (fun l => after l W) (opsB_cut (F := F))).trans (by rw [StableHlo.after_append, StableHlo.after_append])

/-- The first part writes the logits. -/
theorem partB1 (V : Valuation τ sig (Elt F)) {a0 : (⟨S256x512, .f32⟩ : BufTy).Contents (Elt F)} {a1 : (⟨S1024, .i32⟩ : BufTy).Contents (Elt F)} {a5 : (⟨S65x64, .f32⟩ : BufTy).Contents (Elt F)} {a11 : (⟨S128x576, .f32⟩ : BufTy).Contents (Elt F)} {a12 : (⟨S128, .f32⟩ : BufTy).Contents (Elt F)} {a13 : (⟨S17x128, .f32⟩ : BufTy).Contents (Elt F)} {a14 : (⟨S17, .f32⟩ : BufTy).Contents (Elt F)}
    (h0 : V (Proc.devRef (τ := τ) .tc main_arg0) = a0) (h11 : V (Proc.devRef (τ := τ) .tc main_arg11) = a11)
    (h12 : V (Proc.devRef (τ := τ) .tc main_arg12) = a12) (h13 : V (Proc.devRef (τ := τ) .tc main_arg13) = a13)
    (h14 : V (Proc.devRef (τ := τ) .tc main_arg14) = a14)
    (hv10 : V (Proc.devRef (τ := τ) .tc main_v10) = val_main_v10 (F := F) a1 a5) :
    after (opsB1 (F := F)) V (Proc.devRef (τ := τ) .tc main_v62) = val_main_v62 (F := F) a0 a1 a5 a11 a12 a13 a14 := by
  simp only [opsB1, opsB, List.take_succ_cons, List.take_zero]
  after_results_simp
  simp only [h0, h11, h12, h13, h14, hv10]
  rfl

/-- It leaves the clipped ids and the opcode head's array alone. -/
theorem partB1_keep (V : Valuation τ sig (Elt F)) :
    after (opsB1 (F := F)) V (Proc.devRef (τ := τ) .tc main_v1) = V (Proc.devRef (τ := τ) .tc main_v1)
    ∧ after (opsB1 (F := F)) V (Proc.devRef (τ := τ) .tc main_v43) = V (Proc.devRef (τ := τ) .tc main_v43) := by
  simp only [opsB1, opsB, List.take_succ_cons, List.take_zero]
  constructor <;> after_results_simp

/-- The second part writes the log-softmax of the logits. -/
theorem partB2 (V : Valuation τ sig (Elt F)) {a0 : (⟨S256x512, .f32⟩ : BufTy).Contents (Elt F)} {a1 : (⟨S1024, .i32⟩ : BufTy).Contents (Elt F)} {a5 : (⟨S65x64, .f32⟩ : BufTy).Contents (Elt F)} {a11 : (⟨S128x576, .f32⟩ : BufTy).Contents (Elt F)} {a12 : (⟨S128, .f32⟩ : BufTy).Contents (Elt F)} {a13 : (⟨S17x128, .f32⟩ : BufTy).Contents (Elt F)} {a14 : (⟨S17, .f32⟩ : BufTy).Contents (Elt F)}
    (hv62 : V (Proc.devRef (τ := τ) .tc main_v62) = val_main_v62 (F := F) a0 a1 a5 a11 a12 a13 a14) :
    after (opsB2 (F := F)) V (Proc.devRef (τ := τ) .tc main_v63) = val_main_v63 (F := F) a0 a1 a5 a11 a12 a13 a14 := by
  simp only [opsB2, opsB, List.drop_succ_cons, List.drop_zero, List.take_succ_cons, List.take_zero,
    TRef.nullary, TRef.unary, TRef.binary, TRef.ternary, TRef.reshape, TRef.ofBuf, TRef.toBuf, cast_eq]
  after_results_simp
  simp only [hv62]
  unfold val_main_v63 val_main_call7_v10 val_main_call7_v9 val_main_call7_v8 val_main_call7_v7 val_main_call7_cst_1
    val_main_call7_v6 val_main_call7_v5 val_main_call7_v4 val_main_call7_v3 val_main_call7_v2 val_main_call7_v1
    val_main_call7_cst_0 val_main_call7_v0 val_main_call7_cst
  rfl

/-- It leaves the clipped ids and the opcode head's array alone. -/
theorem partB2_keep (V : Valuation τ sig (Elt F)) :
    after (opsB2 (F := F)) V (Proc.devRef (τ := τ) .tc main_v1) = V (Proc.devRef (τ := τ) .tc main_v1)
    ∧ after (opsB2 (F := F)) V (Proc.devRef (τ := τ) .tc main_v43) = V (Proc.devRef (τ := τ) .tc main_v43) := by
  simp only [opsB2, opsB, List.drop_succ_cons, List.drop_zero, List.take_succ_cons, List.take_zero]
  constructor <;> after_results_simp

/-- The third part reads the log-softmax at the clipped ids and adds it onto the opcode head's array. -/
theorem partB3 (V : Valuation τ sig (Elt F)) {a0 : (⟨S256x512, .f32⟩ : BufTy).Contents (Elt F)} {a1 : (⟨S1024, .i32⟩ : BufTy).Contents (Elt F)} {a2 : (⟨S1024, .i32⟩ : BufTy).Contents (Elt F)} {a5 : (⟨S65x64, .f32⟩ : BufTy).Contents (Elt F)} {a7 : (⟨S128x512, .f32⟩ : BufTy).Contents (Elt F)} {a8 : (⟨S128, .f32⟩ : BufTy).Contents (Elt F)} {a9 : (⟨S65x128, .f32⟩ : BufTy).Contents (Elt F)} {a10 : (⟨S65, .f32⟩ : BufTy).Contents (Elt F)} {a11 : (⟨S128x576, .f32⟩ : BufTy).Contents (Elt F)} {a12 : (⟨S128, .f32⟩ : BufTy).Contents (Elt F)} {a13 : (⟨S17x128, .f32⟩ : BufTy).Contents (Elt F)} {a14 : (⟨S17, .f32⟩ : BufTy).Contents (Elt F)}
    (hv63 : V (Proc.devRef (τ := τ) .tc main_v63) = val_main_v63 (F := F) a0 a1 a5 a11 a12 a13 a14)
    (hv1 : V (Proc.devRef (τ := τ) .tc main_v1) = val_main_v1 (F := F) a2)
    (hv43 : V (Proc.devRef (τ := τ) .tc main_v43) = val_main_v43 (F := F) a0 a1 a7 a8 a9 a10) :
    after (opsB3 (F := F)) V (Proc.devRef (τ := τ) .tc main_v68) = val_main_v68 (F := F) a0 a1 a2 a5 a7 a8 a9 a10 a11 a12 a13 a14 := by
  simp only [opsB3, opsB, List.drop_succ_cons, List.drop_zero,
    TRef.nullary, TRef.unary, TRef.binary, TRef.ternary, TRef.reshape, TRef.ofBuf, TRef.toBuf, cast_eq]
  after_results_simp
  simp only [hv63, hv1, hv43]
  unfold val_main_v68 val_main_v67 val_main_v66 val_main_call8_v14 val_main_call8_cst val_main_call8_v13 val_main_call8_v12
    val_main_call8_c_3 val_main_call8_v11 val_main_call8_v10 val_main_call8_v9 val_main_call8_v8 val_main_call8_v7
    val_main_call8_v6 val_main_call8_c_2 val_main_call8_c_1 val_main_call8_v5 val_main_call8_v4 val_main_call8_v3
    val_main_call8_v2 val_main_call8_c_0 val_main_call8_v1 val_main_call8_v0 val_main_call8_c val_main_v65 val_main_v64
  rfl

set_option maxHeartbeats 4000000 in
theorem stepB (W : Valuation τ sig (Elt F)) (a0 : (⟨S256x512, .f32⟩ : BufTy).Contents (Elt F)) (a1 : (⟨S1024, .i32⟩ : BufTy).Contents (Elt F)) (a2 : (⟨S1024, .i32⟩ : BufTy).Contents (Elt F)) (a3 : (⟨S1024, .i32⟩ : BufTy).Contents (Elt F)) (a4 : (⟨S1024, .i32⟩ : BufTy).Contents (Elt F)) (a5 : (⟨S65x64, .f32⟩ : BufTy).Contents (Elt F)) (a6 : (⟨S17x64, .f32⟩ : BufTy).Contents (Elt F)) (a7 : (⟨S128x512, .f32⟩ : BufTy).Contents (Elt F)) (a8 : (⟨S128, .f32⟩ : BufTy).Contents (Elt F)) (a9 : (⟨S65x128, .f32⟩ : BufTy).Contents (Elt F)) (a10 : (⟨S65, .f32⟩ : BufTy).Contents (Elt F)) (a11 : (⟨S128x576, .f32⟩ : BufTy).Contents (Elt F)) (a12 : (⟨S128, .f32⟩ : BufTy).Contents (Elt F)) (a13 : (⟨S17x128, .f32⟩ : BufTy).Contents (Elt F)) (a14 : (⟨S17, .f32⟩ : BufTy).Contents (Elt F)) (a15 : (⟨S128x640, .f32⟩ : BufTy).Contents (Elt F)) (a16 : (⟨S128, .f32⟩ : BufTy).Contents (Elt F)) (a17 : (⟨S17x128, .f32⟩ : BufTy).Contents (Elt F)) (a18 : (⟨S17, .f32⟩ : BufTy).Contents (Elt F)) (a19 : (⟨S128x704, .f32⟩ : BufTy).Contents (Elt F)) (a20 : (⟨S128, .f32⟩ : BufTy).Contents (Elt F)) (a21 : (⟨S2x128, .f32⟩ : BufTy).Contents (Elt F)) (a22 : (⟨S2, .f32⟩ : BufTy).Contents (Elt F))
    (h : Inv1 W a0 a1 a2 a3 a4 a5 a6 a7 a8 a9 a10 a11 a12 a13 a14 a15 a16 a17 a18 a19 a20 a21 a22) :
    Inv2 (after (opsB (F := F)) W) a0 a1 a2 a3 a4 a5 a6 a7 a8 a9 a10 a11 a12 a13 a14 a15 a16 a17 a18 a19 a20 a21 a22 := by
  unfold Inv1 at h
  obtain ⟨h0, h1, h2, h3, h4, h5, h6, h7, h8, h9, h10, h11, h12, h13, h14, h15, h16, h17, h18, h19, h20, h21, h22,
    hv1, hv2, hv3, hv10, hv17, hv24, hv43⟩ := h
  unfold Inv2
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩
  · after_results_simp; exact h0
  · after_results_simp; exact h1
  · after_results_simp; exact h2
  · after_results_simp; exact h3
  · after_results_simp; exact h4
  · after_results_simp; exact h5
  · after_results_simp; exact h6
  · after_results_simp; exact h7
  · after_results_simp; exact h8
  · after_results_simp; exact h9
  · after_results_simp; exact h10
  · after_results_simp; exact h11
  · after_results_simp; exact h12
  · after_results_simp; exact h13
  · after_results_simp; exact h14
  · after_results_simp; exact h15
  · after_results_simp; exact h16
  · after_results_simp; exact h17
  · after_results_simp; exact h18
  · after_results_simp; exact h19
  · after_results_simp; exact h20
  · after_results_simp; exact h21
  · after_results_simp; exact h22
  · after_results_simp; exact hv2
  · after_results_simp; exact hv3
  · after_results_simp; exact hv10
  · after_results_simp; exact hv17
  · after_results_simp; exact hv24
  · rw [after_opsB]
    exact partB3 _ (partB2 _ (partB1 W h0 h11 h12 h13 h14 hv10))
      ((partB2_keep _).1.trans ((partB1_keep W).1.trans hv1))
      ((partB2_keep _).2.trans ((partB1_keep W).2.trans hv43))

end Cert.ReferenceIdeal.HandRun

end
-- ==== Proof.RefRunC.lean ====
/-
  The reference's run, the third stretch (the destination-register head and its sum): operations 159 to 224.

  Each operation writes one fresh buffer from buffers written earlier, so after the stretch a buffer it wrote holds its
  operation's function of the contents of its operands, and a buffer it did not write holds what it held; with the
  operands at their stages the result is the next stage by definition.
-/
import proofs.«411827_j42236708388866_3_alg».proof.Proof.RefStages
import proofs.«411827_j42236708388866_3_alg».proof.Proof.RefRunInv
import proofs.«411827_j42236708388866_3_alg».proof.Proof.RefRunChunks
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- The stretch cut after the logits (25 operations), after the log-softmax (15 more), and the rest (26). -/
abbrev opsC1 : List (HloOp τ sig (Elt F)) := (opsC (F := F)).take 25
abbrev opsC2 : List (HloOp τ sig (Elt F)) := ((opsC (F := F)).drop 25).take 15
abbrev opsC3 : List (HloOp τ sig (Elt F)) := (opsC (F := F)).drop 40

theorem opsC_cut : (opsC (F := F)) = opsC1 (F := F) ++ (opsC2 (F := F) ++ opsC3 (F := F)) := rfl

theorem after_opsC (W : Valuation τ sig (Elt F)) :
    after (opsC (F := F)) W = after (opsC3 (F := F)) (after (opsC2 (F := F)) (after (opsC1 (F := F)) W)) :=
  (congrArg (fun l => after l W) (opsC_cut (F := F))).trans (by rw [StableHlo.after_append, StableHlo.after_append])

/-- The first part writes the logits: the hidden row's two projections, their sum over the batch and action axes, the
    relu, the product with the head's weights and the bias. -/
theorem partC1 (V : Valuation τ sig (Elt F)) {a0 : (⟨S256x512, .f32⟩ : BufTy).Contents (Elt F)} {a1 : (⟨S1024, .i32⟩ : BufTy).Contents (Elt F)} {a2 : (⟨S1024, .i32⟩ : BufTy).Contents (Elt F)} {a5 : (⟨S65x64, .f32⟩ : BufTy).Contents (Elt F)} {a6 : (⟨S17x64, .f32⟩ : BufTy).Contents (Elt F)} {a15 : (⟨S128x640, .f32⟩ : BufTy).Contents (Elt F)} {a16 : (⟨S128, .f32⟩ : BufTy).Contents (Elt F)} {a17 : (⟨S17x128, .f32⟩ : BufTy).Contents (Elt F)} {a18 : (⟨S17, .f32⟩ : BufTy).Contents (Elt F)}
    (h0 : V (Proc.devRef (τ := τ) .tc main_arg0) = a0) (h15 : V (Proc.devRef (τ := τ) .tc main_arg15) = a15)
    (h16 : V (Proc.devRef (τ := τ) .tc main_arg16) = a16) (h17 : V (Proc.devRef (τ := τ) .tc main_arg17) = a17)
    (h18 : V (Proc.devRef (τ := τ) .tc main_arg18) = a18)
    (hv10 : V (Proc.devRef (τ := τ) .tc main_v10) = val_main_v10 (F := F) a1 a5)
    (hv17 : V (Proc.devRef (τ := τ) .tc main_v17) = val_main_v17 (F := F) a2 a6) :
    after (opsC1 (F := F)) V (Proc.devRef (τ := τ) .tc main_v91) = val_main_v91 (F := F) a0 a1 a2 a5 a6 a15 a16 a17 a18 := by
  simp only [opsC1, opsC, List.take_succ_cons, List.take_zero,
    TRef.nullary, TRef.unary, TRef.binary, TRef.ternary, TRef.reshape, TRef.ofBuf, TRef.toBuf, cast_eq]
  after_results_simp
  simp only [h0, h15, h16, h17, h18, hv10, hv17]
  rfl

/-- It leaves the clipped destination ids and the running sum alone. -/
theorem partC1_keep (V : Valuation τ sig (Elt F)) :
    after (opsC1 (F := F)) V (Proc.devRef (τ := τ) .tc main_v2) = V (Proc.devRef (τ := τ) .tc main_v2)
    ∧ after (opsC1 (F := F)) V (Proc.devRef (τ := τ) .tc main_v68) = V (Proc.devRef (τ := τ) .tc main_v68) := by
  simp only [opsC1, opsC, List.take_succ_cons, List.take_zero]
  constructor <;> after_results_simp

/-- The second part writes the log-softmax of the logits. -/
theorem partC2 (V : Valuation τ sig (Elt F)) {a0 : (⟨S256x512, .f32⟩ : BufTy).Contents (Elt F)} {a1 : (⟨S1024, .i32⟩ : BufTy).Contents (Elt F)} {a2 : (⟨S1024, .i32⟩ : BufTy).Contents (Elt F)} {a5 : (⟨S65x64, .f32⟩ : BufTy).Contents (Elt F)} {a6 : (⟨S17x64, .f32⟩ : BufTy).Contents (Elt F)} {a15 : (⟨S128x640, .f32⟩ : BufTy).Contents (Elt F)} {a16 : (⟨S128, .f32⟩ : BufTy).Contents (Elt F)} {a17 : (⟨S17x128, .f32⟩ : BufTy).Contents (Elt F)} {a18 : (⟨S17, .f32⟩ : BufTy).Contents (Elt F)}
    (hv91 : V (Proc.devRef (τ := τ) .tc main_v91) = val_main_v91 (F := F) a0 a1 a2 a5 a6 a15 a16 a17 a18) :
    after (opsC2 (F := F)) V (Proc.devRef (τ := τ) .tc main_v92) = val_main_v92 (F := F) a0 a1 a2 a5 a6 a15 a16 a17 a18 := by
  simp only [opsC2, opsC, List.drop_succ_cons, List.drop_zero, List.take_succ_cons, List.take_zero,
    TRef.nullary, TRef.unary, TRef.binary, TRef.ternary, TRef.reshape, TRef.ofBuf, TRef.toBuf, cast_eq]
  after_results_simp
  simp only [hv91]
  unfold val_main_v92 val_main_call10_v10 val_main_call10_v9 val_main_call10_v8 val_main_call10_v7 val_main_call10_cst_1
    val_main_call10_v6 val_main_call10_v5 val_main_call10_v4 val_main_call10_v3 val_main_call10_v2 val_main_call10_v1
    val_main_call10_cst_0 val_main_call10_v0 val_main_call10_cst
  rfl

/-- It leaves the clipped destination ids and the running sum alone. -/
theorem partC2_keep (V : Valuation τ sig (Elt F)) :
    after (opsC2 (F := F)) V (Proc.devRef (τ := τ) .tc main_v2) = V (Proc.devRef (τ := τ) .tc main_v2)
    ∧ after (opsC2 (F := F)) V (Proc.devRef (τ := τ) .tc main_v68) = V (Proc.devRef (τ := τ) .tc main_v68) := by
  simp only [opsC2, opsC, List.drop_succ_cons, List.drop_zero, List.take_succ_cons, List.take_zero]
  constructor <;> after_results_simp

/-- The third part reads the log-softmax at the clipped destination ids and adds it onto the running sum. -/
theorem partC3 (V : Valuation τ sig (Elt F)) {a0 : (⟨S256x512, .f32⟩ : BufTy).Contents (Elt F)} {a1 : (⟨S1024, .i32⟩ : BufTy).Contents (Elt F)} {a2 : (⟨S1024, .i32⟩ : BufTy).Contents (Elt F)} {a3 : (⟨S1024, .i32⟩ : BufTy).Contents (Elt F)} {a5 : (⟨S65x64, .f32⟩ : BufTy).Contents (Elt F)} {a6 : (⟨S17x64, .f32⟩ : BufTy).Contents (Elt F)} {a7 : (⟨S128x512, .f32⟩ : BufTy).Contents (Elt F)} {a8 : (⟨S128, .f32⟩ : BufTy).Contents (Elt F)} {a9 : (⟨S65x128, .f32⟩ : BufTy).Contents (Elt F)} {a10 : (⟨S65, .f32⟩ : BufTy).Contents (Elt F)} {a11 : (⟨S128x576, .f32⟩ : BufTy).Contents (Elt F)} {a12 : (⟨S128, .f32⟩ : BufTy).Contents (Elt F)} {a13 : (⟨S17x128, .f32⟩ : BufTy).Contents (Elt F)} {a14 : (⟨S17, .f32⟩ : BufTy).Contents (Elt F)} {a15 : (⟨S128x640, .f32⟩ : BufTy).Contents (Elt F)} {a16 : (⟨S128, .f32⟩ : BufTy).Contents (Elt F)} {a17 : (⟨S17x128, .f32⟩ : BufTy).Contents (Elt F)} {a18 : (⟨S17, .f32⟩ : BufTy).Contents (Elt F)}
    (hv92 : V (Proc.devRef (τ := τ) .tc main_v92) = val_main_v92 (F := F) a0 a1 a2 a5 a6 a15 a16 a17 a18)
    (hv2 : V (Proc.devRef (τ := τ) .tc main_v2) = val_main_v2 (F := F) a3)
    (hv68 : V (Proc.devRef (τ := τ) .tc main_v68) = val_main_v68 (F := F) a0 a1 a2 a5 a7 a8 a9 a10 a11 a12 a13 a14) :
    after (opsC3 (F := F)) V (Proc.devRef (τ := τ) .tc main_v97) = val_main_v97 (F := F) a0 a1 a2 a3 a5 a6 a7 a8 a9 a10 a11 a12 a13 a14 a15 a16 a17 a18 := by
  simp only [opsC3, opsC, List.drop_succ_cons, List.drop_zero,
    TRef.nullary, TRef.unary, TRef.binary, TRef.ternary, TRef.reshape, TRef.ofBuf, TRef.toBuf, cast_eq]
  after_results_simp
  simp only [hv92, hv2, hv68]
  unfold val_main_v97 val_main_v96 val_main_v95 val_main_call11_v14 val_main_call11_cst val_main_call11_v13 val_main_call11_v12
    val_main_call11_c_3 val_main_call11_v11 val_main_call11_v10 val_main_call11_v9 val_main_call11_v8 val_main_call11_v7
    val_main_call11_v6 val_main_call11_c_2 val_main_call11_c_1 val_main_call11_v5 val_main_call11_v4 val_main_call11_v3
    val_main_call11_v2 val_main_call11_c_0 val_main_call11_v1 val_main_call11_v0 val_main_call11_c val_main_v94 val_main_v93
  rfl

set_option maxHeartbeats 4000000 in
theorem stepC (W : Valuation τ sig (Elt F)) (a0 : (⟨S256x512, .f32⟩ : BufTy).Contents (Elt F)) (a1 : (⟨S1024, .i32⟩ : BufTy).Contents (Elt F)) (a2 : (⟨S1024, .i32⟩ : BufTy).Contents (Elt F)) (a3 : (⟨S1024, .i32⟩ : BufTy).Contents (Elt F)) (a4 : (⟨S1024, .i32⟩ : BufTy).Contents (Elt F)) (a5 : (⟨S65x64, .f32⟩ : BufTy).Contents (Elt F)) (a6 : (⟨S17x64, .f32⟩ : BufTy).Contents (Elt F)) (a7 : (⟨S128x512, .f32⟩ : BufTy).Contents (Elt F)) (a8 : (⟨S128, .f32⟩ : BufTy).Contents (Elt F)) (a9 : (⟨S65x128, .f32⟩ : BufTy).Contents (Elt F)) (a10 : (⟨S65, .f32⟩ : BufTy).Contents (Elt F)) (a11 : (⟨S128x576, .f32⟩ : BufTy).Contents (Elt F)) (a12 : (⟨S128, .f32⟩ : BufTy).Contents (Elt F)) (a13 : (⟨S17x128, .f32⟩ : BufTy).Contents (Elt F)) (a14 : (⟨S17, .f32⟩ : BufTy).Contents (Elt F)) (a15 : (⟨S128x640, .f32⟩ : BufTy).Contents (Elt F)) (a16 : (⟨S128, .f32⟩ : BufTy).Contents (Elt F)) (a17 : (⟨S17x128, .f32⟩ : BufTy).Contents (Elt F)) (a18 : (⟨S17, .f32⟩ : BufTy).Contents (Elt F)) (a19 : (⟨S128x704, .f32⟩ : BufTy).Contents (Elt F)) (a20 : (⟨S128, .f32⟩ : BufTy).Contents (Elt F)) (a21 : (⟨S2x128, .f32⟩ : BufTy).Contents (Elt F)) (a22 : (⟨S2, .f32⟩ : BufTy).Contents (Elt F))
    (h : Inv2 W a0 a1 a2 a3 a4 a5 a6 a7 a8 a9 a10 a11 a12 a13 a14 a15 a16 a17 a18 a19 a20 a21 a22) :
    Inv3 (after (opsC (F := F)) W) a0 a1 a2 a3 a4 a5 a6 a7 a8 a9 a10 a11 a12 a13 a14 a15 a16 a17 a18 a19 a20 a21 a22 := by
  unfold Inv2 at h
  obtain ⟨h0, h1, h2, h3, h4, h5, h6, h7, h8, h9, h10, h11, h12, h13, h14, h15, h16, h17, h18, h19, h20, h21, h22,
    hv2, hv3, hv10, hv17, hv24, hv68⟩ := h
  unfold Inv3
  refine ⟨?_, ?_, ?_, ?_, ?_, ?_, ?_, ?_, ?_, ?_, ?_, ?_, ?_, ?_, ?_, ?_, ?_, ?_, ?_, ?_, ?_, ?_, ?_, ?_, ?_, ?_, ?_, ?_⟩
  · after_results_simp; exact h0
  · after_results_simp; exact h1
  · after_results_simp; exact h2
  · after_results_simp; exact h3
  · after_results_simp; exact h4
  · after_results_simp; exact h5
  · after_results_simp; exact h6
  · after_results_simp; exact h7
  · after_results_simp; exact h8
  · after_results_simp; exact h9
  · after_results_simp; exact h10
  · after_results_simp; exact h11
  · after_results_simp; exact h12
  · after_results_simp; exact h13
  · after_results_simp; exact h14
  · after_results_simp; exact h15
  · after_results_simp; exact h16
  · after_results_simp; exact h17
  · after_results_simp; exact h18
  · after_results_simp; exact h19
  · after_results_simp; exact h20
  · after_results_simp; exact h21
  · after_results_simp; exact h22
  · after_results_simp; exact hv3
  · after_results_simp; exact hv10
  · after_results_simp; exact hv17
  · after_results_simp; exact hv24
  · rw [after_opsC]
    exact partC3 _ (partC2 _ (partC1 W h0 h15 h16 h17 h18 hv10 hv17))
      ((partC2_keep _).1.trans ((partC1_keep W).1.trans hv2))
      ((partC2_keep _).2.trans ((partC1_keep W).2.trans hv68))

end Cert.ReferenceIdeal.HandRun

end
-- ==== Proof.RefRunD.lean ====
/-
  The reference's run, the fourth stretch (the immediate head and the final sum): operations 225 to 294.

  Each operation writes one fresh buffer from buffers written earlier, so after the stretch a buffer it wrote holds its
  operation's function of the contents of its operands, and a buffer it did not write holds what it held; with the
  operands at their stages the result is the next stage by definition.
-/
import proofs.«411827_j42236708388866_3_alg».proof.Proof.RefStages
import proofs.«411827_j42236708388866_3_alg».proof.Proof.RefRunInv
import proofs.«411827_j42236708388866_3_alg».proof.Proof.RefRunChunks
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

set_option maxHeartbeats 4000000

section Cuts

variable {a0 : (⟨S256x512, .f32⟩ : BufTy).Contents (Elt F)} {a1 : (⟨S1024, .i32⟩ : BufTy).Contents (Elt F)} {a2 : (⟨S1024, .i32⟩ : BufTy).Contents (Elt F)} {a3 : (⟨S1024, .i32⟩ : BufTy).Contents (Elt F)} {a4 : (⟨S1024, .i32⟩ : BufTy).Contents (Elt F)} {a5 : (⟨S65x64, .f32⟩ : BufTy).Contents (Elt F)} {a6 : (⟨S17x64, .f32⟩ : BufTy).Contents (Elt F)} {a7 : (⟨S128x512, .f32⟩ : BufTy).Contents (Elt F)} {a8 : (⟨S128, .f32⟩ : BufTy).Contents (Elt F)} {a9 : (⟨S65x128, .f32⟩ : BufTy).Contents (Elt F)} {a10 : (⟨S65, .f32⟩ : BufTy).Contents (Elt F)} {a11 : (⟨S128x576, .f32⟩ : BufTy).Contents (Elt F)} {a12 : (⟨S128, .f32⟩ : BufTy).Contents (Elt F)} {a13 : (⟨S17x128, .f32⟩ : BufTy).Contents (Elt F)} {a14 : (⟨S17, .f32⟩ : BufTy).Contents (Elt F)} {a15 : (⟨S128x640, .f32⟩ : BufTy).Contents (Elt F)} {a16 : (⟨S128, .f32⟩ : BufTy).Contents (Elt F)} {a17 : (⟨S17x128, .f32⟩ : BufTy).Contents (Elt F)} {a18 : (⟨S17, .f32⟩ : BufTy).Contents (Elt F)} {a19 : (⟨S128x704, .f32⟩ : BufTy).Contents (Elt F)} {a20 : (⟨S128, .f32⟩ : BufTy).Contents (Elt F)} {a21 : (⟨S2x128, .f32⟩ : BufTy).Contents (Elt F)} {a22 : (⟨S2, .f32⟩ : BufTy).Contents (Elt F)}

/-- The stretch, cut where a buffer has several readers: after the logits, after the shifted logits, after the
    log-softmax, and after the index block. -/
private theorem opsD_cut : (opsD (F := F))
    = (List.take 29 (opsD (F := F))) ++ ((List.take 8 (List.drop 29 (opsD (F := F)))) ++ ((List.take 7 (List.drop 37 (opsD (F := F)))) ++ ((List.take 10 (List.drop 44 (opsD (F := F)))) ++ (List.drop 54 (opsD (F := F)))))) := rfl

/-- The first part: the logits of the immediate head. -/
private theorem segA_v124 (V : Valuation τ sig (Elt F))
    (h0 : V (Proc.devRef (τ := τ) .tc main_arg0) = a0) (h19 : V (Proc.devRef (τ := τ) .tc main_arg19) = a19) (h20 : V (Proc.devRef (τ := τ) .tc main_arg20) = a20)
    (h21 : V (Proc.devRef (τ := τ) .tc main_arg21) = a21) (h22 : V (Proc.devRef (τ := τ) .tc main_arg22) = a22)
    (hv10 : V (Proc.devRef (τ := τ) .tc main_v10) = val_main_v10 (F := F) a1 a5) (hv17 : V (Proc.devRef (τ := τ) .tc main_v17) = val_main_v17 (F := F) a2 a6)
    (hv24 : V (Proc.devRef (τ := τ) .tc main_v24) = val_main_v24 (F := F) a3 a6) :
    after (List.take 29 (opsD (F := F))) V (Proc.devRef (τ := τ) .tc main_v124) = val_main_v124 (F := F) a0 a1 a2 a3 a5 a6 a19 a20 a21 a22 := by
  simp only [List.take_succ_cons, List.take_zero, List.drop_succ_cons, List.drop_zero]
  after_results_simp
  simp only [TRef.ofBuf, TRef.toBuf, cast_eq]
  simp only [h0, h19, h20, h21, h22, hv10, hv17, hv24]
  rfl

private theorem segA_keep_v3 (V : Valuation τ sig (Elt F)) :
    after (List.take 29 (opsD (F := F))) V (Proc.devRef (τ := τ) .tc main_v3) = V (Proc.devRef (τ := τ) .tc main_v3) := by
  simp only [List.take_succ_cons, List.take_zero, List.drop_succ_cons, List.drop_zero]
  after_results_simp

private theorem segA_keep_v97 (V : Valuation τ sig (Elt F)) :
    after (List.take 29 (opsD (F := F))) V (Proc.devRef (τ := τ) .tc main_v97) = V (Proc.devRef (τ := τ) .tc main_v97) := by
  simp only [List.take_succ_cons, List.take_zero, List.drop_succ_cons, List.drop_zero]
  after_results_simp

/-- The second part: the logits shifted by their maximum. -/
private theorem segB_c13v5 (V : Valuation τ sig (Elt F))
    (h124 : V (Proc.devRef (τ := τ) .tc main_v124) = val_main_v124 (F := F) a0 a1 a2 a3 a5 a6 a19 a20 a21 a22) :
    after (List.take 8 (List.drop 29 (opsD (F := F)))) V (Proc.devRef (τ := τ) .tc main_call13_v5) = val_main_call13_v5 (F := F) a0 a1 a2 a3 a5 a6 a19 a20 a21 a22 := by
  simp only [List.take_succ_cons, List.take_zero, List.drop_succ_cons, List.drop_zero]
  after_results_simp
  simp only [TRef.ofBuf, TRef.toBuf, cast_eq]
  simp only [h124]
  rfl

private theorem segB_keep_v3 (V : Valuation τ sig (Elt F)) :
    after (List.take 8 (List.drop 29 (opsD (F := F)))) V (Proc.devRef (τ := τ) .tc main_v3) = V (Proc.devRef (τ := τ) .tc main_v3) := by
  simp only [List.take_succ_cons, List.take_zero, List.drop_succ_cons, List.drop_zero]
  after_results_simp

private theorem segB_keep_v97 (V : Valuation τ sig (Elt F)) :
    after (List.take 8 (List.drop 29 (opsD (F := F)))) V (Proc.devRef (τ := τ) .tc main_v97) = V (Proc.devRef (τ := τ) .tc main_v97) := by
  simp only [List.take_succ_cons, List.take_zero, List.drop_succ_cons, List.drop_zero]
  after_results_simp

/-- The third part: the log-softmax. -/
private theorem segC_v125 (V : Valuation τ sig (Elt F))
    (h5 : V (Proc.devRef (τ := τ) .tc main_call13_v5) = val_main_call13_v5 (F := F) a0 a1 a2 a3 a5 a6 a19 a20 a21 a22) :
    after (List.take 7 (List.drop 37 (opsD (F := F)))) V (Proc.devRef (τ := τ) .tc main_v125) = val_main_v125 (F := F) a0 a1 a2 a3 a5 a6 a19 a20 a21 a22 := by
  simp only [List.take_succ_cons, List.take_zero, List.drop_succ_cons, List.drop_zero]
  after_results_simp
  simp only [TRef.ofBuf, TRef.toBuf, cast_eq]
  simp only [h5]
  rfl

private theorem segC_keep_v3 (V : Valuation τ sig (Elt F)) :
    after (List.take 7 (List.drop 37 (opsD (F := F)))) V (Proc.devRef (τ := τ) .tc main_v3) = V (Proc.devRef (τ := τ) .tc main_v3) := by
  simp only [List.take_succ_cons, List.take_zero, List.drop_succ_cons, List.drop_zero]
  after_results_simp

private theorem segC_keep_v97 (V : Valuation τ sig (Elt F)) :
    after (List.take 7 (List.drop 37 (opsD (F := F)))) V (Proc.devRef (τ := τ) .tc main_v97) = V (Proc.devRef (τ := τ) .tc main_v97) := by
  simp only [List.take_succ_cons, List.take_zero, List.drop_succ_cons, List.drop_zero]
  after_results_simp

/-- The fourth part: the index block of the gather. -/
private theorem segD_c14v5 (V : Valuation τ sig (Elt F))
    (hv3 : V (Proc.devRef (τ := τ) .tc main_v3) = val_main_v3 (F := F) a4) :
    after (List.take 10 (List.drop 44 (opsD (F := F)))) V (Proc.devRef (τ := τ) .tc main_call14_v5) = val_main_call14_v5 (F := F) a4 := by
  simp only [List.take_succ_cons, List.take_zero, List.drop_succ_cons, List.drop_zero]
  after_results_simp
  simp only [TRef.ofBuf, TRef.toBuf, cast_eq]
  simp only [hv3]
  rfl

private theorem segD_keep_v125 (V : Valuation τ sig (Elt F)) :
    after (List.take 10 (List.drop 44 (opsD (F := F)))) V (Proc.devRef (τ := τ) .tc main_v125) = V (Proc.devRef (τ := τ) .tc main_v125) := by
  simp only [List.take_succ_cons, List.take_zero, List.drop_succ_cons, List.drop_zero]
  after_results_simp

private theorem segD_keep_v97 (V : Valuation τ sig (Elt F)) :
    after (List.take 10 (List.drop 44 (opsD (F := F)))) V (Proc.devRef (τ := τ) .tc main_v97) = V (Proc.devRef (τ := τ) .tc main_v97) := by
  simp only [List.take_succ_cons, List.take_zero, List.drop_succ_cons, List.drop_zero]
  after_results_simp

/-- The last part: the bounds mask, the gather, and the sum with the running total. -/
private theorem segE_v130 (V : Valuation τ sig (Elt F))
    (h125 : V (Proc.devRef (τ := τ) .tc main_v125) = val_main_v125 (F := F) a0 a1 a2 a3 a5 a6 a19 a20 a21 a22)
    (h5 : V (Proc.devRef (τ := τ) .tc main_call14_v5) = val_main_call14_v5 (F := F) a4)
    (h97 : V (Proc.devRef (τ := τ) .tc main_v97) = val_main_v97 (F := F) a0 a1 a2 a3 a5 a6 a7 a8 a9 a10 a11 a12 a13 a14 a15 a16 a17 a18) :
    after (List.drop 54 (opsD (F := F))) V (Proc.devRef (τ := τ) .tc main_v130) = val_main_v130 (F := F) a0 a1 a2 a3 a4 a5 a6 a7 a8 a9 a10 a11 a12 a13 a14 a15 a16 a17 a18 a19 a20 a21 a22 := by
  simp only [List.take_succ_cons, List.take_zero, List.drop_succ_cons, List.drop_zero]
  after_results_simp
  simp only [TRef.ofBuf, TRef.toBuf, cast_eq]
  simp only [h125, h5, h97]
  rfl

end Cuts

theorem stepD (W : Valuation τ sig (Elt F)) (a0 : (⟨S256x512, .f32⟩ : BufTy).Contents (Elt F)) (a1 : (⟨S1024, .i32⟩ : BufTy).Contents (Elt F)) (a2 : (⟨S1024, .i32⟩ : BufTy).Contents (Elt F)) (a3 : (⟨S1024, .i32⟩ : BufTy).Contents (Elt F)) (a4 : (⟨S1024, .i32⟩ : BufTy).Contents (Elt F)) (a5 : (⟨S65x64, .f32⟩ : BufTy).Contents (Elt F)) (a6 : (⟨S17x64, .f32⟩ : BufTy).Contents (Elt F)) (a7 : (⟨S128x512, .f32⟩ : BufTy).Contents (Elt F)) (a8 : (⟨S128, .f32⟩ : BufTy).Contents (Elt F)) (a9 : (⟨S65x128, .f32⟩ : BufTy).Contents (Elt F)) (a10 : (⟨S65, .f32⟩ : BufTy).Contents (Elt F)) (a11 : (⟨S128x576, .f32⟩ : BufTy).Contents (Elt F)) (a12 : (⟨S128, .f32⟩ : BufTy).Contents (Elt F)) (a13 : (⟨S17x128, .f32⟩ : BufTy).Contents (Elt F)) (a14 : (⟨S17, .f32⟩ : BufTy).Contents (Elt F)) (a15 : (⟨S128x640, .f32⟩ : BufTy).Contents (Elt F)) (a16 : (⟨S128, .f32⟩ : BufTy).Contents (Elt F)) (a17 : (⟨S17x128, .f32⟩ : BufTy).Contents (Elt F)) (a18 : (⟨S17, .f32⟩ : BufTy).Contents (Elt F)) (a19 : (⟨S128x704, .f32⟩ : BufTy).Contents (Elt F)) (a20 : (⟨S128, .f32⟩ : BufTy).Contents (Elt F)) (a21 : (⟨S2x128, .f32⟩ : BufTy).Contents (Elt F)) (a22 : (⟨S2, .f32⟩ : BufTy).Contents (Elt F))
    (h : Inv3 W a0 a1 a2 a3 a4 a5 a6 a7 a8 a9 a10 a11 a12 a13 a14 a15 a16 a17 a18 a19 a20 a21 a22) :
    Inv4 (after (opsD (F := F)) W) a0 a1 a2 a3 a4 a5 a6 a7 a8 a9 a10 a11 a12 a13 a14 a15 a16 a17 a18 a19 a20 a21 a22 := by
  unfold Inv3 at h
  obtain ⟨h0, h1, h2, h3, h4, h5, h6, h7, h8, h9, h10, h11, h12, h13, h14, h15, h16, h17, h18, h19, h20, h21, h22, hv3, hv10, hv17, hv24, hv97⟩ := h
  unfold Inv4
  refine ⟨?_, ?_, ?_, ?_, ?_, ?_, ?_, ?_, ?_, ?_, ?_, ?_, ?_, ?_, ?_, ?_, ?_, ?_, ?_, ?_, ?_, ?_, ?_, ?_⟩
  · after_results_simp; exact h0
  · after_results_simp; exact h1
  · after_results_simp; exact h2
  · after_results_simp; exact h3
  · after_results_simp; exact h4
  · after_results_simp; exact h5
  · after_results_simp; exact h6
  · after_results_simp; exact h7
  · after_results_simp; exact h8
  · after_results_simp; exact h9
  · after_results_simp; exact h10
  · after_results_simp; exact h11
  · after_results_simp; exact h12
  · after_results_simp; exact h13
  · after_results_simp; exact h14
  · after_results_simp; exact h15
  · after_results_simp; exact h16
  · after_results_simp; exact h17
  · after_results_simp; exact h18
  · after_results_simp; exact h19
  · after_results_simp; exact h20
  · after_results_simp; exact h21
  · after_results_simp; exact h22
  · rw [opsD_cut, StableHlo.after_append, StableHlo.after_append, StableHlo.after_append, StableHlo.after_append]
    have hA := segA_v124 W h0 h19 h20 h21 h22 hv10 hv17 hv24
    have hA3 := (segA_keep_v3 W).trans hv3
    have hA97 := (segA_keep_v97 W).trans hv97
    have hB := segB_c13v5 _ hA
    have hB3 := (segB_keep_v3 _).trans hA3
    have hB97 := (segB_keep_v97 _).trans hA97
    have hC := segC_v125 _ hB
    have hC3 := (segC_keep_v3 _).trans hB3
    have hC97 := (segC_keep_v97 _).trans hB97
    have hD := segD_c14v5 _ hC3
    have hD125 := (segD_keep_v125 _).trans hC
    have hD97 := (segD_keep_v97 _).trans hC97
    exact segE_v130 _ hD125 hD hD97

end Cert.ReferenceIdeal.HandRun

end
-- ==== Proof.RefRun.lean ====
/-
  The reference's run: every weakly fair execution terminates with the result buffer at the stage val_main_v130 of the
  arguments and the arguments unchanged.

  The operation list is its four stretches in a row; the contents after the list are the contents after the fourth stretch
  from those after the third, and so on back to the launch memory, and each stretch carries its invariant to the next.
-/
import proofs.«411827_j42236708388866_3_alg».proof.Proof.RefRunOps
import proofs.«411827_j42236708388866_3_alg».proof.Proof.RefRunInv
import proofs.«411827_j42236708388866_3_alg».proof.Proof.RefRunChunks
import proofs.«411827_j42236708388866_3_alg».proof.Proof.RefRunA
import proofs.«411827_j42236708388866_3_alg».proof.Proof.RefRunB
import proofs.«411827_j42236708388866_3_alg».proof.Proof.RefRunC
import proofs.«411827_j42236708388866_3_alg».proof.Proof.RefRunD
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable {F : FTy → Type} [FloatOps F]

/-- The operation list is the four stretches in a row. -/
theorem ops_split : (ops : List (HloOp τ sig (Elt F))) = opsA ++ (opsB ++ (opsC ++ opsD)) := rfl

/-- After the whole list the arguments are as launched and the result buffer holds the last stage. -/
theorem after_ops (m : (ℓ : Loc nD τ sig) → Buf (Elt F) ℓ) (c : Dev nD) :
    Inv4 (after (ops (F := F)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [ops_split, StableHlo.after_append, StableHlo.after_append, StableHlo.after_append]
  exact stepD _ _ _ _ _ _ _ _ _ _ _ _ _ _ _ _ _ _ _ _ _ _ _ _ (stepC _ _ _ _ _ _ _ _ _ _ _ _ _ _ _ _ _ _ _ _ _ _ _ _ (stepB _ _ _ _ _ _ _ _ _ _ _ _ _ _ _ _ _ _ _ _ _ _ _ _ (stepA m c)))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130) = val_main_v130 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => by
      obtain ⟨e0, e1, e2, e3, e4, e5, e6, e7, e8, e9, e10, e11, e12, e13, e14, e15, e16, e17, e18, e19, e20, e21, e22, e130⟩ := after_ops m c
      exact ⟨(h c main_v130).trans e130, (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8, (h c main_arg9).trans e9, (h c main_arg10).trans e10, (h c main_arg11).trans e11, (h c main_arg12).trans e12, (h c main_arg13).trans e13, (h c main_arg14).trans e14, (h c main_arg15).trans e15, (h c main_arg16).trans e16, (h c main_arg17).trans e17, (h c main_arg18).trans e18, (h c main_arg19).trans e19, (h c main_arg20).trans e20, (h c main_arg21).trans e21, (h c main_arg22).trans e22⟩)
    (run_seq scopedRefs_eq scopedSems_eq defs main (fun _ => ops) main_eq (fun _ => ops_sub) m ρ)

end Cert.ReferenceIdeal.HandRun

end
-- ==== Proof.Spec.lean ====
/-
  The arithmetic of one output entry, with no program in sight.

  For a batch row b and an action a the model adds four log-probabilities: the opcode head's (the same number on
  both sides, kept abstract here), and three heads that each build a hidden row
  h k = max (f k + ep k) 0 from a feature projection f (a row of the batch) and an embedding projection ep (a row of the
  action, itself one, two or three 64-term dot products), take logits lg v = (sum over k of h k * W v k) + B v and read the
  log-softmax of lg at the action's own class j.

  The reference computes the log-softmax whole and then reads entry j: (lg j - M) - log (sum over v of exp (lg v - M)).
  The kernel never forms the entry-wise log-softmax: for the two 17-class heads it takes the gathered row W j and bias B j,
  forms lg j directly and subtracts M + log (sum ...); for the 2-class head it uses the closed form
  minus softplus (s * d), d the difference of the two logits and s = 1 - 2 j.
  Both are stated here entry by entry; that they agree on real data is the subject of the algebra module.
-/
import Idealize.ShloMosaic.PureOps.Ideal
import Idealize.ShloMosaic.PureOps.Ideal.Laws

noncomputable section

namespace Cert.Spec

open Idealize.ShloMosaic
open scoped BigOperators

/-- An extended real that is a real number. -/
def IsR (x : EReal) : Prop := ∃ r : ℝ, x = (r : EReal)

/-- A 64-term dot product (an embedding row against a weight column). -/
def dot64 (x w : Fin 64 → EReal) : EReal := ∑ e, x e * w e

/-- The hidden row: relu of feature projection plus embedding projection. -/
def hid (f ep : Fin 128 → EReal) (k : Fin 128) : EReal := max (f k + ep k) 0

/-- One logit: a 128-term dot product plus a bias. -/
def logit (h w : Fin 128 → EReal) (b : EReal) : EReal := (∑ k, h k * w k) + b

/-- The running maximum of finitely many extended reals, from minus infinity. -/
def vmax {V : ℕ} (lg : Fin V → EReal) : EReal := (Finset.univ : Finset (Fin V)).fold max ⊥ lg

/-- The kernel's normalizer: max + log of the sum of shifted exponentials. -/
def lse {V : ℕ} (lg : Fin V → EReal) : EReal :=
  vmax lg + Ideal.log (∑ v, Ideal.exp (lg v - vmax lg))

/-- A 17-class head as the kernel computes it: the gathered logit minus the normalizer. -/
def kFull {V : ℕ} (h : Fin 128 → EReal) (W : Fin V → Fin 128 → EReal) (B : Fin V → EReal)
    (wg : Fin 128 → EReal) (bg : EReal) : EReal :=
  logit h wg bg - lse (fun v => logit h (W v) (B v))

/-- The reference's log-softmax read at class j. -/
def logSoftmax {V : ℕ} (lg : Fin V → EReal) (j : Fin V) : EReal :=
  (lg j - max ⊥ (vmax lg)) - Ideal.log (0 + ∑ v, Ideal.exp (lg v - max ⊥ (vmax lg)))

/-- A head as the reference computes it. -/
def rFull {V : ℕ} (h : Fin 128 → EReal) (W : Fin V → Fin 128 → EReal) (B : Fin V → EReal) (j : Fin V) : EReal :=
  logSoftmax (fun v => logit h (W v) (B v)) j

/-- softplus as it is lowered: max z 0 + log1p (exp (0 - |z - 0|)). -/
def softplus (z : EReal) : EReal :=
  max z 0 + Ideal.log1p (Ideal.exp (0 - max (z - 0) (-(z - 0))))

/-- The 2-class head as the kernel computes it. -/
def kImm (h dw : Fin 128 → EReal) (db s : EReal) : EReal := 0 - softplus (s * logit h dw db)

/-- The sign 1 - 2 j of a class j of two. -/
def sgn (j : Fin 2) : EReal := ((1 - 2 * (j.val : ℝ) : ℝ) : EReal)

/-- The three embedding projections of an action row. -/
def ep1 (e0 : Fin 64 → EReal) (U11 : Fin 64 → Fin 128 → EReal) (k : Fin 128) : EReal :=
  dot64 e0 (fun e => U11 e k)
def ep2 (e0 e1 : Fin 64 → EReal) (U12 U13 : Fin 64 → Fin 128 → EReal) (k : Fin 128) : EReal :=
  dot64 e0 (fun e => U12 e k) + dot64 e1 (fun e => U13 e k)
def ep3 (e0 e1 e2 : Fin 64 → EReal) (U14 U15 U16 : Fin 64 → Fin 128 → EReal) (k : Fin 128) : EReal :=
  (dot64 e0 (fun e => U14 e k) + dot64 e1 (fun e => U15 e k)) + dot64 e2 (fun e => U16 e k)

/-- What the kernel writes at one entry, from that entry's rows: the three embedding rows of the action, the gathered
    weight rows and biases of its two 17-class heads, its sign, the three feature-projection rows of the batch element,
    the six embedding-side weight blocks, the two 17-class weight matrices and biases, and the 2-class difference row and
    difference bias. -/
def kOutRow (e0 e1 e2 : Fin 64 → EReal) (wg1 : Fin 128 → EReal) (bg1 : EReal) (wg2 : Fin 128 → EReal) (bg2 : EReal)
    (sg : EReal) (f1 f2 f3 : Fin 128 → EReal) (U11 U12 U13 U14 U15 U16 : Fin 64 → Fin 128 → EReal)
    (W2a : Fin 17 → Fin 128 → EReal) (B2a : Fin 17 → EReal) (W2b : Fin 17 → Fin 128 → EReal) (B2b : Fin 17 → EReal)
    (dw : Fin 128 → EReal) (db : EReal) : EReal :=
  (kFull (hid f1 (ep1 e0 U11)) W2a B2a wg1 bg1 + kFull (hid f2 (ep2 e0 e1 U12 U13)) W2b B2b wg2 bg2)
    + kImm (hid f3 (ep3 e0 e1 e2 U14 U15 U16)) dw db sg

/-- What the reference computes at one entry, from the opcode head's number and that entry's rows. -/
def rOutRow (op : EReal) (e0 e1 e2 : Fin 64 → EReal) (f1 f2 f3 : Fin 128 → EReal)
    (U11 U12 U13 U14 U15 U16 : Fin 64 → Fin 128 → EReal)
    (W2a : Fin 17 → Fin 128 → EReal) (B2a : Fin 17 → EReal) (j1 : Fin 17)
    (W2b : Fin 17 → Fin 128 → EReal) (B2b : Fin 17 → EReal) (j2 : Fin 17)
    (W2c : Fin 2 → Fin 128 → EReal) (B2c : Fin 2 → EReal) (j3 : Fin 2) : EReal :=
  ((op + rFull (hid f1 (ep1 e0 U11)) W2a B2a j1) + rFull (hid f2 (ep2 e0 e1 U12 U13)) W2b B2b j2)
    + rFull (hid f3 (ep3 e0 e1 e2 U14 U15 U16)) W2c B2c j3

/-- A 32-bit index word read as a class of n (the word's unsigned value, reduced; for a word already in range it is the
    word). -/
def cls (n : ℕ) [NeZero n] (w : BitVec 32) : Fin n := Fin.ofNat n w.toNat

end Cert.Spec

end
-- ==== Proof.KBody0.lean ====
/-
  The first batch chunk (rows 0..127 of the block) of what the body stores, entry by entry.

  With the loaded blocks named y0..y22 (the three embedding blocks of the action tile, the gathered weight rows and biases,
  the sign row, the three feature-projection chunks, the six embedding-side weight blocks, the two transposed 17-class
  weight matrices with their biases, the 2-class difference row and difference bias), entry (p, q) of the stored value is
  the sum of the two 17-class head contributions and the 2-class closed form, each read off the hidden row
  max (f p k + ep q k) 0: the broadcasts, the reshape of the 128 x 128 x 128 hidden block to 16384 x 128 for the matrix
  product and back, and the lane reductions all act index-wise, and a change of float format is the identity at the
  extended reals.
-/
import proofs.«411827_j42236708388866_3_alg».proof.Proof.Gen.KernelIdeal.Frame
import proofs.«411827_j42236708388866_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Spec
open scoped BigOperators

namespace Chunk0

/-! ## The two matrix products at an index -/

theorem lhs64_0 (i : S128x128.Idx) (c : dot_S128x64_S64x128_S128x128_1_0_0_1_n_n.contr.Idx) :
    (dot_S128x64_S64x128_S128x128_1_0_0_1_n_n.lhsIdx i c 0).val = (i 0).val := by
  unfold DotDims.lhsIdx
  rw [dif_neg (show ¬(0 : Fin S128x64.rank) ∈ dot_S128x64_S64x128_S128x128_1_0_0_1_n_n.lhsBatch by decide),
    dif_pos (show (0 : Fin S128x64.rank) ∈ dot_S128x64_S64x128_S128x128_1_0_0_1_n_n.lhsNonContracting by decide)]
  rfl
theorem lhs64_1 (i : S128x128.Idx) (c : dot_S128x64_S64x128_S128x128_1_0_0_1_n_n.contr.Idx) :
    (dot_S128x64_S64x128_S128x128_1_0_0_1_n_n.lhsIdx i c 1).val = (c ⟨0, by decide⟩).val :=
  dot_S128x64_S64x128_S128x128_1_0_0_1_n_n.lhsIdx_val_of_single rfl i c
theorem rhs64_0 (i : S128x128.Idx) (c : dot_S128x64_S64x128_S128x128_1_0_0_1_n_n.contr.Idx) :
    (dot_S128x64_S64x128_S128x128_1_0_0_1_n_n.rhsIdx i c 0).val = (c ⟨0, by decide⟩).val :=
  dot_S128x64_S64x128_S128x128_1_0_0_1_n_n.rhsIdx_val_of_single rfl i c
theorem rhs64_1 (i : S128x128.Idx) (c : dot_S128x64_S64x128_S128x128_1_0_0_1_n_n.contr.Idx) :
    (dot_S128x64_S64x128_S128x128_1_0_0_1_n_n.rhsIdx i c 1).val = (i 1).val := by
  unfold DotDims.rhsIdx
  rw [dif_neg (show ¬(1 : Fin S64x128.rank) ∈ dot_S128x64_S64x128_S128x128_1_0_0_1_n_n.rhsBatch by decide),
    dif_pos (show (1 : Fin S64x128.rank) ∈ dot_S128x64_S64x128_S128x128_1_0_0_1_n_n.rhsNonContracting by decide)]
  rfl

/-- A 128 x 64 by 64 x 128 product into the zero block, at (q, k): the 64-term sum. -/
theorem mm64_apply (x : FVec Ideal S128x64 .bf16) (w : FVec Ideal S64x128 .bf16) (q k : Fin 128) :
    matmul dot_S128x64_S64x128_S128x128_1_0_0_1_n_n none x w (constant (F := Ideal) S128x128 .f32 0x00000000#32) (ix2 q k)
      = ∑ e : Fin 64, x (ix2 q e) * w (ix2 e k) := by
  simp only [matmul]
  rw [Ideal.matmul_constant_zero_apply,
    ← Equiv.sum_comp (ValueIdx.contrEquiv1 dot_S128x64_S64x128_S128x128_1_0_0_1_n_n 64 rfl rfl).symm]
  refine Finset.sum_congr rfl fun e _ => ?_
  have hk := ValueIdx.contrEquiv1_symm_val dot_S128x64_S64x128_S128x128_1_0_0_1_n_n 64 rfl rfl e
  have el : dot_S128x64_S64x128_S128x128_1_0_0_1_n_n.lhsIdx (ix2 q k)
      ((ValueIdx.contrEquiv1 dot_S128x64_S64x128_S128x128_1_0_0_1_n_n 64 rfl rfl).symm e) = ix2 q e :=
    funext fun a => Fin.ext (by
      match a with
      | ⟨0, _⟩ => exact lhs64_0 _ _
      | ⟨1, _⟩ => exact (lhs64_1 _ _).trans hk)
  have er : dot_S128x64_S64x128_S128x128_1_0_0_1_n_n.rhsIdx (ix2 q k)
      ((ValueIdx.contrEquiv1 dot_S128x64_S64x128_S128x128_1_0_0_1_n_n 64 rfl rfl).symm e) = ix2 e k :=
    funext fun a => Fin.ext (by
      match a with
      | ⟨0, _⟩ => exact (rhs64_0 _ _).trans hk
      | ⟨1, _⟩ => exact rhs64_1 _ _)
  rw [el, er]

theorem lhs128_0 (i : S16384x17.Idx) (c : dot_S16384x128_S128x17_S16384x17_1_0_0_1_n_n.contr.Idx) :
    (dot_S16384x128_S128x17_S16384x17_1_0_0_1_n_n.lhsIdx i c 0).val = (i 0).val := by
  unfold DotDims.lhsIdx
  rw [dif_neg (show ¬(0 : Fin S16384x128.rank) ∈ dot_S16384x128_S128x17_S16384x17_1_0_0_1_n_n.lhsBatch by decide),
    dif_pos (show (0 : Fin S16384x128.rank) ∈ dot_S16384x128_S128x17_S16384x17_1_0_0_1_n_n.lhsNonContracting by decide)]
  rfl
theorem lhs128_1 (i : S16384x17.Idx) (c : dot_S16384x128_S128x17_S16384x17_1_0_0_1_n_n.contr.Idx) :
    (dot_S16384x128_S128x17_S16384x17_1_0_0_1_n_n.lhsIdx i c 1).val = (c ⟨0, by decide⟩).val :=
  dot_S16384x128_S128x17_S16384x17_1_0_0_1_n_n.lhsIdx_val_of_single rfl i c
theorem rhs128_0 (i : S16384x17.Idx) (c : dot_S16384x128_S128x17_S16384x17_1_0_0_1_n_n.contr.Idx) :
    (dot_S16384x128_S128x17_S16384x17_1_0_0_1_n_n.rhsIdx i c 0).val = (c ⟨0, by decide⟩).val :=
  dot_S16384x128_S128x17_S16384x17_1_0_0_1_n_n.rhsIdx_val_of_single rfl i c
theorem rhs128_1 (i : S16384x17.Idx) (c : dot_S16384x128_S128x17_S16384x17_1_0_0_1_n_n.contr.Idx) :
    (dot_S16384x128_S128x17_S16384x17_1_0_0_1_n_n.rhsIdx i c 1).val = (i 1).val := by
  unfold DotDims.rhsIdx
  rw [dif_neg (show ¬(1 : Fin S128x17.rank) ∈ dot_S16384x128_S128x17_S16384x17_1_0_0_1_n_n.rhsBatch by decide),
    dif_pos (show (1 : Fin S128x17.rank) ∈ dot_S16384x128_S128x17_S16384x17_1_0_0_1_n_n.rhsNonContracting by decide)]
  rfl

/-- A 16384 x 128 by 128 x 17 product into the zero block, at (r, v): the 128-term sum. -/
theorem mm128_apply (x : FVec Ideal S16384x128 .bf16) (w : FVec Ideal S128x17 .bf16) (r : Fin 16384) (v : Fin 17) :
    matmul dot_S16384x128_S128x17_S16384x17_1_0_0_1_n_n none x w (constant (F := Ideal) S16384x17 .f32 0x00000000#32) (ix2 r v)
      = ∑ k : Fin 128, x (ix2 r k) * w (ix2 k v) := by
  simp only [matmul]
  rw [Ideal.matmul_constant_zero_apply,
    ← Equiv.sum_comp (ValueIdx.contrEquiv1 dot_S16384x128_S128x17_S16384x17_1_0_0_1_n_n 128 rfl rfl).symm]
  refine Finset.sum_congr rfl fun k _ => ?_
  have hk := ValueIdx.contrEquiv1_symm_val dot_S16384x128_S128x17_S16384x17_1_0_0_1_n_n 128 rfl rfl k
  have el : dot_S16384x128_S128x17_S16384x17_1_0_0_1_n_n.lhsIdx (ix2 r v)
      ((ValueIdx.contrEquiv1 dot_S16384x128_S128x17_S16384x17_1_0_0_1_n_n 128 rfl rfl).symm k) = ix2 r k :=
    funext fun a => Fin.ext (by
      match a with
      | ⟨0, _⟩ => exact lhs128_0 _ _
      | ⟨1, _⟩ => exact (lhs128_1 _ _).trans hk)
  have er : dot_S16384x128_S128x17_S16384x17_1_0_0_1_n_n.rhsIdx (ix2 r v)
      ((ValueIdx.contrEquiv1 dot_S16384x128_S128x17_S16384x17_1_0_0_1_n_n 128 rfl rfl).symm k) = ix2 k v :=
    funext fun a => Fin.ext (by
      match a with
      | ⟨0, _⟩ => exact (rhs128_0 _ _).trans hk
      | ⟨1, _⟩ => exact rhs128_1 _ _)
  rw [el, er]

/-! ## Layout operations at coordinates -/

section Layout
variable {α : Type}

/-- Row 128 p + q of the flattened hidden block. -/
def flat (p q : Fin 128) : Fin 16384 := ⟨128 * p.val + q.val, by omega⟩

theorem cast_ab_a1b_apply (x : S128x128.Idx → α) (h : S128x128.ShapeCasts S128x1x128) (p : Fin 128) (u : Fin 1) (k : Fin 128) :
    shapeCast S128x1x128 x h (ix3 p u k) = x (ix2 p k) :=
  shapeCast_apply x h _ _ (by
    have hu : u.val = 0 := by omega
    rw [Shape.rowMajor_val_three, Shape.rowMajor_val_two]
    show p.val * 128 + k.val = (p.val * 1 + u.val) * 128 + k.val
    rw [hu]; omega)

theorem cast_ab_1ab_apply (x : S128x128.Idx → α) (h : S128x128.ShapeCasts S1x128x128) (u : Fin 1) (q k : Fin 128) :
    shapeCast S1x128x128 x h (ix3 u q k) = x (ix2 q k) :=
  shapeCast_ab_1ab_apply x h u q k

theorem bcast_a1b_apply (x : S128x1x128.Idx → α) (h : S128x1x128.Broadcasts S128x128x128) (p q k : Fin 128) :
    broadcastTo S128x128x128 x h (ix3 p q k) = x (ix3 p (0 : Fin 1) k) := by
  refine broadcastTo_apply x h (ix3 p q k) (ix3 p (0 : Fin 1) k) fun a => ?_
  match a with
  | ⟨0, _⟩ => rfl
  | ⟨1, _⟩ => rfl
  | ⟨2, _⟩ => rfl

theorem bcast_1ab_apply (x : S1x128x128.Idx → α) (h : S1x128x128.Broadcasts S128x128x128) (p q k : Fin 128) :
    broadcastTo S128x128x128 x h (ix3 p q k) = x (ix3 (0 : Fin 1) q k) := by
  refine broadcastTo_apply x h (ix3 p q k) (ix3 (0 : Fin 1) q k) fun a => ?_
  match a with
  | ⟨0, _⟩ => rfl
  | ⟨1, _⟩ => rfl
  | ⟨2, _⟩ => rfl

theorem bcast_11b_apply (x : S1x1x128.Idx → α) (h : S1x1x128.Broadcasts S128x128x128) (p q k : Fin 128) :
    broadcastTo S128x128x128 x h (ix3 p q k) = x (ix3 (0 : Fin 1) (0 : Fin 1) k) := by
  refine broadcastTo_apply x h (ix3 p q k) (ix3 (0 : Fin 1) (0 : Fin 1) k) fun a => ?_
  match a with
  | ⟨0, _⟩ => rfl
  | ⟨1, _⟩ => rfl
  | ⟨2, _⟩ => rfl

theorem bcast_11v_apply (x : S1x1x17.Idx → α) (h : S1x1x17.Broadcasts S128x128x17) (p q : Fin 128) (v : Fin 17) :
    broadcastTo S128x128x17 x h (ix3 p q v) = x (ix3 (0 : Fin 1) (0 : Fin 1) v) := by
  refine broadcastTo_apply x h (ix3 p q v) (ix3 (0 : Fin 1) (0 : Fin 1) v) fun a => ?_
  match a with
  | ⟨0, _⟩ => rfl
  | ⟨1, _⟩ => rfl
  | ⟨2, _⟩ => rfl

theorem bcast_ab1_apply (x : S128x128x1.Idx → α) (h : S128x128x1.Broadcasts S128x128x17) (p q : Fin 128) (v : Fin 17) :
    broadcastTo S128x128x17 x h (ix3 p q v) = x (ix3 p q (0 : Fin 1)) := by
  refine broadcastTo_apply x h (ix3 p q v) (ix3 p q (0 : Fin 1)) fun a => ?_
  match a with
  | ⟨0, _⟩ => rfl
  | ⟨1, _⟩ => rfl
  | ⟨2, _⟩ => rfl

theorem bcast_1b_apply (x : S1x128.Idx → α) (h : S1x128.Broadcasts S128x128) (p q : Fin 128) :
    broadcastTo S128x128 x h (ix2 p q) = x (ix2 (0 : Fin 1) q) :=
  broadcastTo_1b_ab_apply x h p q

theorem cast_1v_11v_apply (x : S1x17.Idx → α) (h : S1x17.ShapeCasts S1x1x17) (u u' : Fin 1) (v : Fin 17) :
    shapeCast S1x1x17 x h (ix3 u u' v) = x (ix2 (0 : Fin 1) v) :=
  shapeCast_apply x h _ _ (by
    have hu : u.val = 0 := by omega
    have hu' : u'.val = 0 := by omega
    rw [Shape.rowMajor_val_three, Shape.rowMajor_val_two]
    show 0 * 17 + v.val = (u.val * 1 + u'.val) * 17 + v.val
    rw [hu, hu'])

theorem cast_1b_11b_apply (x : S1x128.Idx → α) (h : S1x128.ShapeCasts S1x1x128) (u u' : Fin 1) (k : Fin 128) :
    shapeCast S1x1x128 x h (ix3 u u' k) = x (ix2 (0 : Fin 1) k) :=
  shapeCast_apply x h _ _ (by
    have hu : u.val = 0 := by omega
    have hu' : u'.val = 0 := by omega
    rw [Shape.rowMajor_val_three, Shape.rowMajor_val_two]
    show 0 * 128 + k.val = (u.val * 1 + u'.val) * 128 + k.val
    rw [hu, hu'])

theorem cast_ab_ab1_apply (x : S128x128.Idx → α) (h : S128x128.ShapeCasts S128x128x1) (p q : Fin 128) (u : Fin 1) :
    shapeCast S128x128x1 x h (ix3 p q u) = x (ix2 p q) :=
  shapeCast_apply x h _ _ (by
    have hu : u.val = 0 := by omega
    rw [Shape.rowMajor_val_three, Shape.rowMajor_val_two]
    show p.val * 128 + q.val = (p.val * 128 + q.val) * 1 + u.val
    rw [hu]; omega)

theorem cast_ab1_ab_apply (x : S128x128x1.Idx → α) (h : S128x128x1.ShapeCasts S128x128) (p q : Fin 128) :
    shapeCast S128x128 x h (ix2 p q) = x (ix3 p q (0 : Fin 1)) :=
  shapeCast_apply x h _ _ (by
    rw [Shape.rowMajor_val_three, Shape.rowMajor_val_two]
    show (p.val * 128 + q.val) * 1 + 0 = p.val * 128 + q.val
    omega)

/-- The hidden block flattened: row 128 p + q is entry (p, q, ·). -/
theorem cast_flat_apply (x : S128x128x128.Idx → α) (h : S128x128x128.ShapeCasts S16384x128) (p q k : Fin 128) :
    shapeCast S16384x128 x h (ix2 (flat p q) k) = x (ix3 p q k) :=
  shapeCast_apply x h _ _ (by
    rw [Shape.rowMajor_val_three, Shape.rowMajor_val_two]
    show (p.val * 128 + q.val) * 128 + k.val = (128 * p.val + q.val) * 128 + k.val
    omega)

/-- The logits unflattened: entry (p, q, v) is row 128 p + q. -/
theorem cast_unflat_apply (x : S16384x17.Idx → α) (h : S16384x17.ShapeCasts S128x128x17) (p q : Fin 128) (v : Fin 17) :
    shapeCast S128x128x17 x h (ix3 p q v) = x (ix2 (flat p q) v) :=
  shapeCast_apply x h _ _ (by
    rw [Shape.rowMajor_val_three, Shape.rowMajor_val_two]
    show (128 * p.val + q.val) * 17 + v.val = (p.val * 128 + q.val) * 17 + v.val
    omega)

theorem extract00_apply (x : S1x1.Idx → α) (h : ∀ a, (![0, 0] : Fin 2 → Nat) a < S1x1.size a) :
    extractAt ![0, 0] x h = x (ix2 (0 : Fin 1) (0 : Fin 1)) :=
  congrArg x (funext fun a => Fin.ext (match a with | ⟨0, _⟩ => rfl | ⟨1, _⟩ => rfl))

end Layout

/-! ## Lane reductions at coordinates -/

theorem ofBits_ninf_f32 : Ideal.ofBits .f32 0xFF800000#32 = ⊥ := by simp [Ideal.ofBits, Ideal.ieee]

theorem ofBits_zero_bf16 : Ideal.ofBits .bf16 0x0000#16 = 0 := by simp [Ideal.ofBits, Ideal.ieee]

theorem sum17_apply (x : FVec Ideal S128x128x17 .f32) (h : S128x128x17.Reduces [2] S128x128) (hφ : FKind.Formats .f32)
    (hacc : (0x00000000#32 : BitVec 32) = 0x00000000#32) (p q : Fin 128) :
    multiReduction (F := Ideal) .add ([2] : List (Fin 3)) S128x128 x 0x00000000#32 h hφ hacc (ix2 p q) = ∑ v : Fin 17, x (ix3 p q v) := by
  refine (Ideal.multiReduction_add_single x 0x00000000#32 h hφ hacc (ix2 p q)).trans ?_
  show ∑ v : Fin 17, x (h.lift (ix2 p q) v) = _
  refine Finset.sum_congr rfl fun v _ => congrArg x (funext fun a => Fin.ext ?_)
  match a with
  | ⟨0, _⟩ => rfl
  | ⟨1, _⟩ => rfl
  | ⟨2, _⟩ => rfl

theorem sum128_apply (x : FVec Ideal S128x128x128 .f32) (h : S128x128x128.Reduces [2] S128x128) (hφ : FKind.Formats .f32)
    (hacc : (0x00000000#32 : BitVec 32) = 0x00000000#32) (p q : Fin 128) :
    multiReduction (F := Ideal) .add ([2] : List (Fin 3)) S128x128 x 0x00000000#32 h hφ hacc (ix2 p q) = ∑ k : Fin 128, x (ix3 p q k) := by
  refine (Ideal.multiReduction_add_single x 0x00000000#32 h hφ hacc (ix2 p q)).trans ?_
  show ∑ k : Fin 128, x (h.lift (ix2 p q) k) = _
  refine Finset.sum_congr rfl fun k _ => congrArg x (funext fun a => Fin.ext ?_)
  match a with
  | ⟨0, _⟩ => rfl
  | ⟨1, _⟩ => rfl
  | ⟨2, _⟩ => rfl

theorem max17_apply (x : FVec Ideal S128x128x17 .f32) (h : S128x128x17.Reduces [2] S128x128) (hφ : FKind.Formats .f32)
    (hacc : (0xFF800000#32 : BitVec 32) = 0xFF800000#32) (p q : Fin 128) :
    multiReduction (F := Ideal) .maximumf ([2] : List (Fin 3)) S128x128 x 0xFF800000#32 h hφ hacc (ix2 p q)
      = (Finset.univ : Finset (Fin 17)).fold max ⊥ (fun v => x (ix3 p q v)) := by
  refine (Ideal.multiReduction_maximumf_single x 0xFF800000#32 h hφ hacc (ix2 p q)).trans ?_
  show (Finset.univ : Finset (Fin 17)).fold max (Ideal.ofBits .f32 0xFF800000#32) (fun v => x (h.lift (ix2 p q) v)) = _
  rw [ofBits_ninf_f32]
  have e : (fun v : Fin 17 => x (h.lift (ix2 p q) v)) = fun v => x (ix3 p q v) :=
    funext fun v => congrArg x (funext fun a => Fin.ext (match a with | ⟨0, _⟩ => rfl | ⟨1, _⟩ => rfl | ⟨2, _⟩ => rfl))
  exact congrArg (fun f => (Finset.univ : Finset (Fin 17)).fold max ⊥ f) e

/-! ## The payloads at coordinates -/

theorem scalar_ofBits_zero_bf16 : (Scalar.ofBits (F := Ideal) .bf16 0x0000#16 : EReal) = 0 := ofBits_zero_bf16

theorem scalar_ofBits_zero_f32 : (Scalar.ofBits (F := Ideal) .f32 0x00000000#32 : EReal) = 0 := Ideal.ofBits_zero_f32

/-- The first embedding projection at (q, k). -/
theorem pay4_apply (y0 : Vec Ideal S128x64 .f32) (y11 : Vec Ideal S64x128 .f32) (q k : Fin 128) :
    k0_pay4 y0 y11 (ix2 q k) = ∑ e : Fin 64, y0 (ix2 q e) * y11 (ix2 e k) := by
  unfold k0_pay4 k0_pay2
  simp only [shapeCast_self]
  rw [mm64_apply]
  simp only [truncf_apply]

/-- The second embedding projection at (q, k). -/
theorem pay5_apply (y0 y1 : Vec Ideal S128x64 .f32) (y12 y13 : Vec Ideal S64x128 .f32) (q k : Fin 128) :
    k0_pay5 y0 y1 y12 y13 (ix2 q k)
      = (∑ e : Fin 64, y0 (ix2 q e) * y12 (ix2 e k)) + ∑ e : Fin 64, y1 (ix2 q e) * y13 (ix2 e k) := by
  unfold k0_pay5 k0_pay2 k0_pay3
  simp only [shapeCast_self, addf_apply]
  rw [mm64_apply, mm64_apply]
  simp only [truncf_apply]

/-- The first two terms of the third embedding projection at (q, k). -/
theorem pay6_apply (y0 y1 : Vec Ideal S128x64 .f32) (y14 y15 : Vec Ideal S64x128 .f32) (q k : Fin 128) :
    k0_pay6 y0 y1 y14 y15 (ix2 q k)
      = (∑ e : Fin 64, y0 (ix2 q e) * y14 (ix2 e k)) + ∑ e : Fin 64, y1 (ix2 q e) * y15 (ix2 e k) := by
  unfold k0_pay6 k0_pay2 k0_pay3
  simp only [shapeCast_self, addf_apply]
  rw [mm64_apply, mm64_apply]
  simp only [truncf_apply]

/-- Its third term at (q, k). -/
theorem pay7_apply (y2 : Vec Ideal S128x64 .f32) (y16 : Vec Ideal S64x128 .f32) (q k : Fin 128) :
    k0_pay7 y2 y16 (ix2 q k) = ∑ e : Fin 64, y2 (ix2 q e) * y16 (ix2 e k) := by
  unfold k0_pay7
  simp only [shapeCast_self]
  rw [mm64_apply]
  simp only [truncf_apply]

/-! ## Pointwise transcendental operations and the vacuous comparison -/

theorem exp_apply {s : Shape} {φ : FTy} (x : FVec Ideal s φ) (i : s.Idx) : Idealize.ShloMosaic.exp x i = Ideal.exp (x i) := rfl
theorem log_apply {s : Shape} {φ : FTy} (x : FVec Ideal s φ) (i : s.Idx) : Idealize.ShloMosaic.log x i = Ideal.log (x i) := rfl
theorem log1p_apply {s : Shape} {φ : FTy} (x : FVec Ideal s φ) (i : s.Idx) : Idealize.ShloMosaic.log1p x i = Ideal.log1p (x i) := rfl
theorem absf_apply {s : Shape} {φ : FTy} (x : FVec Ideal s φ) (i : s.Idx) : Idealize.ShloMosaic.absf x i = max (x i) (-(x i)) := rfl

/-- "z differs from z" never holds, so the select takes its second branch. -/
theorem select_one_self (z a b : EReal) :
    Scalar.select (FloatOps.cmpf (F := Ideal) (φ := .f32) .one z z) a b = b := by
  have hc : FloatOps.cmpf (F := Ideal) (φ := .f32) .one z z = 0#1 := by
    show Ideal.cmp .one z z = 0#1
    simp [Ideal.cmp]
  rw [hc]; exact select_zero a b

/-! ## The hidden block, the logits and their row maximum -/

/-- The hidden block at (p, q, k): relu of the feature row p plus the embedding row q. -/
theorem pay26_apply (v37 : FVec Ideal S128x128 .bf16) (v67 : FVec Ideal S128x128 .f32) (p q k : Fin 128) :
    k0_pay26 v37 v67 (ix3 p q k) = hid (fun k => v67 (ix2 p k)) (fun k => v37 (ix2 q k)) k := by
  unfold k0_pay26 hid
  simp only [maximumf_apply, addf_apply, broadcast_apply, bcast_a1b_apply, bcast_1ab_apply, cast_ab_a1b_apply,
    cast_ab_1ab_apply, truncf_apply, scalar_ofBits_zero_bf16]

/-- The logits at (p, q, v). -/
theorem pay27_apply (v37 : FVec Ideal S128x128 .bf16) (v44 : FVec Ideal S128x17 .bf16) (v48 : FVec Ideal S1x17 .f32)
    (v67 : FVec Ideal S128x128 .f32) (p q : Fin 128) (v : Fin 17) :
    k0_pay27 v37 v44 v48 v67 (ix3 p q v)
      = logit (hid (fun k => v67 (ix2 p k)) (fun k => v37 (ix2 q k))) (fun k => v44 (ix2 k v)) (v48 (ix2 (0 : Fin 1) v)) := by
  unfold k0_pay27 logit
  simp only [addf_apply, cast_unflat_apply, mm128_apply, cast_flat_apply, bcast_11v_apply, cast_1v_11v_apply, pay26_apply]

/-- The row maximum of the logits, kept with a unit lane axis. -/
theorem pay28_apply (v37 : FVec Ideal S128x128 .bf16) (v44 : FVec Ideal S128x17 .bf16) (v48 : FVec Ideal S1x17 .f32)
    (v67 : FVec Ideal S128x128 .f32) (p q : Fin 128) (u : Fin 1) :
    k0_pay28 v37 v44 v48 v67 (ix3 p q u)
      = vmax (fun v => logit (hid (fun k => v67 (ix2 p k)) (fun k => v37 (ix2 q k))) (fun k => v44 (ix2 k v)) (v48 (ix2 (0 : Fin 1) v))) := by
  unfold k0_pay28 vmax
  simp only [cast_ab_ab1_apply, max17_apply, pay27_apply]

theorem pay29_apply (v37 : FVec Ideal S128x128 .bf16) (v44 : FVec Ideal S128x17 .bf16) (v48 : FVec Ideal S1x17 .f32)
    (v67 : FVec Ideal S128x128 .f32) (p q : Fin 128) :
    k0_pay29 v37 v44 v48 v67 (ix2 p q)
      = vmax (fun v => logit (hid (fun k => v67 (ix2 p k)) (fun k => v37 (ix2 q k))) (fun k => v44 (ix2 k v)) (v48 (ix2 (0 : Fin 1) v))) := by
  unfold k0_pay29
  simp only [cast_ab1_ab_apply, pay28_apply]

theorem pay30_apply (v37 : FVec Ideal S128x128 .bf16) (v44 : FVec Ideal S128x17 .bf16) (v48 : FVec Ideal S1x17 .f32)
    (v67 : FVec Ideal S128x128 .f32) (p q : Fin 128) (v' : Fin 17) :
    k0_pay30 v37 v44 v48 v67 (ix3 p q v')
      = vmax (fun v => logit (hid (fun k => v67 (ix2 p k)) (fun k => v37 (ix2 q k))) (fun k => v44 (ix2 k v)) (v48 (ix2 (0 : Fin 1) v))) := by
  unfold k0_pay30
  simp only [bcast_ab1_apply, pay28_apply]

/-! ## The first 17-class head and the stored value -/

/-- The first 17-class head at (p, q): the gathered logit minus the normalizer. -/
theorem pay25_apply (v36 : FVec Ideal S128x128 .bf16) (v41 : FVec Ideal S128x17 .bf16) (v46 : FVec Ideal S1x17 .f32)
    (v50 : FVec Ideal S128x128 .f32) (v52 : FVec Ideal S1x128 .f32) (v65 : FVec Ideal S128x128 .f32) (p q : Fin 128) :
    k0_pay25 v36 v41 v46 v50 v52 v65 (ix2 p q)
      = kFull (hid (fun k => v65 (ix2 p k)) (fun k => v36 (ix2 q k))) (fun v k => v41 (ix2 k v))
          (fun v => v46 (ix2 (0 : Fin 1) v)) (fun k => v50 (ix2 q k)) (v52 (ix2 (0 : Fin 1) q)) := by
  unfold k0_pay25 kFull lse vmax logit hid
  simp only [subf_apply, addf_apply, mulf_apply, maximumf_apply, broadcast_apply, extf_apply, truncf_apply,
    exp_apply, log_apply, sum128_apply, sum17_apply, max17_apply,
    bcast_a1b_apply, bcast_1ab_apply, cast_ab_a1b_apply, cast_ab_1ab_apply, bcast_1b_apply,
    cast_ab1_ab_apply, cast_ab_ab1_apply, bcast_ab1_apply, bcast_11v_apply, cast_1v_11v_apply,
    cast_unflat_apply, mm128_apply, cast_flat_apply, scalar_ofBits_zero_bf16]

/-- The stored value at (p, q), over its twelve operands: the first head's value plus the second head's (gathered logit
    minus normalizer, the row maximum and the shifted logits given) plus the 2-class closed form. -/
theorem pay31_apply (v38 : FVec Ideal S128x128 .bf16) (v54 : FVec Ideal S128x128 .f32) (v56 : FVec Ideal S1x128 .f32)
    (v58 : FVec Ideal S1x128 .f32) (v61 : FVec Ideal S1x1x128 .f32) (v63 : Ideal .f32) (v69 : FVec Ideal S128x128 .f32)
    (v100 : FVec Ideal S128x128 .f32) (v108 : FVec Ideal S128x128x128 .bf16) (v114 : FVec Ideal S128x128x17 .f32)
    (v117 : FVec Ideal S128x128 .f32) (v118 : FVec Ideal S128x128x17 .f32) (p q : Fin 128) :
    k0_pay31 v38 v54 v56 v58 v61 v63 v69 v100 v108 v114 v117 v118 (ix2 p q)
      = (v100 (ix2 p q)
          + (((∑ k : Fin 128, v108 (ix3 p q k) * v54 (ix2 q k)) + v56 (ix2 (0 : Fin 1) q))
              - (v117 (ix2 p q) + Ideal.log (∑ v : Fin 17, Ideal.exp (v114 (ix3 p q v) - v118 (ix3 p q v))))))
        + kImm (hid (fun k => v69 (ix2 p k)) (fun k => v38 (ix2 q k))) (fun k => v61 (ix3 (0 : Fin 1) (0 : Fin 1) k)) v63
            (v58 (ix2 (0 : Fin 1) q)) := by
  unfold k0_pay31 kImm softplus logit hid
  simp only [subf_apply, addf_apply, mulf_apply, maximumf_apply, broadcast_apply, extf_apply, truncf_apply,
    exp_apply, log_apply, log1p_apply, absf_apply, select_apply, cmpf_apply, select_one_self,
    sum128_apply, sum17_apply,
    bcast_a1b_apply, bcast_1ab_apply, cast_ab_a1b_apply, cast_ab_1ab_apply, bcast_1b_apply, bcast_11b_apply,
    scalar_ofBits_zero_bf16, scalar_ofBits_zero_f32]

/-! ## The loaded blocks under their identity casts and format changes -/

theorem pay8_apply (x : FVec Ideal S128x128 .f32) (i : S128x128.Idx) : k0_pay8 x i = x i := rfl
theorem pay9_apply (x : FVec Ideal S128x128 .f32) (i : S128x128.Idx) : k0_pay9 x i = x i := rfl
theorem pay10_apply (x y : FVec Ideal S128x128 .f32) (i : S128x128.Idx) : k0_pay10 x y i = x i + y i := rfl
theorem pay11_eq (y : Vec Ideal S128x17 .f32) (i : S128x17.Idx) : k0_pay11 y i = y i := by
  unfold k0_pay11; simp only [shapeCast_self, truncf_apply]
theorem pay12_eq (y : Vec Ideal S128x17 .f32) (i : S128x17.Idx) : k0_pay12 y i = y i := by
  unfold k0_pay12; simp only [shapeCast_self, truncf_apply]
theorem pay13_eq (y : Vec Ideal S1x17 .f32) : k0_pay13 y = y := by unfold k0_pay13; simp only [shapeCast_self]
theorem pay14_eq (y : Vec Ideal S1x17 .f32) : k0_pay14 y = y := by unfold k0_pay14; simp only [shapeCast_self]
theorem pay15_eq (y : Vec Ideal S128x128 .f32) : k0_pay15 y = y := by unfold k0_pay15; simp only [shapeCast_self]
theorem pay16_eq (y : Vec Ideal S1x128 .f32) : k0_pay16 y = y := by unfold k0_pay16; simp only [shapeCast_self]
theorem pay17_eq (y : Vec Ideal S128x128 .f32) : k0_pay17 y = y := by unfold k0_pay17; simp only [shapeCast_self]
theorem pay18_eq (y : Vec Ideal S1x128 .f32) : k0_pay18 y = y := by unfold k0_pay18; simp only [shapeCast_self]
theorem pay19_eq (y : Vec Ideal S1x128 .f32) : k0_pay19 y = y := by unfold k0_pay19; simp only [shapeCast_self]
theorem pay20_apply (y : Vec Ideal S1x128 .f32) (u u' : Fin 1) (k : Fin 128) :
    k0_pay20 y (ix3 u u' k) = y (ix2 (0 : Fin 1) k) := by
  unfold k0_pay20; simp only [shapeCast_self, cast_1b_11b_apply]
theorem pay21_eq (y : Vec Ideal S1x1 .f32) : k0_pay21 y = y (ix2 (0 : Fin 1) (0 : Fin 1)) := by
  unfold k0_pay21; exact extract00_apply _ _
theorem pay22_eq (y : Vec Ideal S128x128 .f32) : k0_pay22 y = y := by unfold k0_pay22; simp only [shapeCast_self]
theorem pay23_eq (y : Vec Ideal S128x128 .f32) : k0_pay23 y = y := by unfold k0_pay23; simp only [shapeCast_self]
theorem pay24_eq (y : Vec Ideal S128x128 .f32) : k0_pay24 y = y := by unfold k0_pay24; simp only [shapeCast_self]

end Chunk0

open Chunk0

/-- Entry (p, q) of the first chunk's stored value. -/
theorem chunk0_apply (y0 : Vec Ideal S128x64 .f32) (y1 : Vec Ideal S128x64 .f32) (y2 : Vec Ideal S128x64 .f32) (y3 : Vec Ideal S128x128 .f32) (y4 : Vec Ideal S1x128 .f32) (y5 : Vec Ideal S128x128 .f32) (y6 : Vec Ideal S1x128 .f32) (y7 : Vec Ideal S1x128 .f32) (y8 : Vec Ideal S128x128 .f32) (y9 : Vec Ideal S128x128 .f32) (y10 : Vec Ideal S128x128 .f32) (y11 : Vec Ideal S64x128 .f32) (y12 : Vec Ideal S64x128 .f32) (y13 : Vec Ideal S64x128 .f32) (y14 : Vec Ideal S64x128 .f32) (y15 : Vec Ideal S64x128 .f32) (y16 : Vec Ideal S64x128 .f32) (y17 : Vec Ideal S128x17 .f32) (y18 : Vec Ideal S1x17 .f32) (y19 : Vec Ideal S128x17 .f32) (y20 : Vec Ideal S1x17 .f32) (y21 : Vec Ideal S1x128 .f32) (y22 : Vec Ideal S1x1 .f32) (p q : Fin 128) :
    (k0_pay31 (k0_pay10 (k0_pay6 y0 y1 y14 y15) (k0_pay7 y2 y16)) (k0_pay17 y5) (k0_pay18 y6) (k0_pay19 y7) (k0_pay20 y21) (k0_pay21 y22) (k0_pay24 y10) (k0_pay25 (k0_pay8 (k0_pay4 y0 y11)) (k0_pay11 y17) (k0_pay13 y18) (k0_pay15 y3) (k0_pay16 y4) (k0_pay22 y8)) (k0_pay26 (k0_pay9 (k0_pay5 y0 y1 y12 y13)) (k0_pay23 y9)) (k0_pay27 (k0_pay9 (k0_pay5 y0 y1 y12 y13)) (k0_pay12 y19) (k0_pay14 y20) (k0_pay23 y9)) (k0_pay29 (k0_pay9 (k0_pay5 y0 y1 y12 y13)) (k0_pay12 y19) (k0_pay14 y20) (k0_pay23 y9)) (k0_pay30 (k0_pay9 (k0_pay5 y0 y1 y12 y13)) (k0_pay12 y19) (k0_pay14 y20) (k0_pay23 y9))) (ix2 p q)
      = kOutRow (fun e => y0 (ix2 q e)) (fun e => y1 (ix2 q e)) (fun e => y2 (ix2 q e))
        (fun k => y3 (ix2 q k)) (y4 (ix2 0 q)) (fun k => y5 (ix2 q k)) (y6 (ix2 0 q)) (y7 (ix2 0 q))
        (fun k => y8 (ix2 p k)) (fun k => y9 (ix2 p k)) (fun k => y10 (ix2 p k))
        (fun e k => y11 (ix2 e k)) (fun e k => y12 (ix2 e k)) (fun e k => y13 (ix2 e k))
        (fun e k => y14 (ix2 e k)) (fun e k => y15 (ix2 e k)) (fun e k => y16 (ix2 e k))
        (fun v k => y17 (ix2 k v)) (fun v => y18 (ix2 0 v)) (fun v k => y19 (ix2 k v)) (fun v => y20 (ix2 0 v))
        (fun k => y21 (ix2 0 k)) (y22 (ix2 0 0)) := by
  rw [pay31_apply, pay25_apply, pay29_apply]
  simp only [pay26_apply, pay27_apply, pay30_apply, pay8_apply, pay9_apply, pay10_apply, pay4_apply, pay5_apply,
    pay6_apply, pay7_apply, pay11_eq, pay12_eq, pay13_eq, pay14_eq, pay15_eq, pay16_eq, pay17_eq, pay18_eq, pay19_eq,
    pay20_apply, pay21_eq, pay22_eq, pay23_eq, pay24_eq]
  unfold kOutRow
  rfl

end Cert.KernelIdeal.Body

end
-- ==== Proof.KBody1.lean ====
/-
  The second batch chunk (rows 128..255 of the block) of what the body stores, entry by entry: the same arithmetic as
  the first chunk on the second halves of the three feature-projection blocks, with the printed operations cut into
  named pieces at other places.

  The road: every layout operation (a cast that adds or removes a unit axis, the cube flattened to 16384 rows and the
  16384 x 17 product folded back, a row or column spread over the cube), every lane reduction and the two matrix products
  are first read at explicit coordinates; then the pieces of a head are read over an arbitrary hidden cube (its 17 logits,
  its normalizer, its gathered logit, the 2-class head's scaled logit and its minus-softplus); then each head's payload at
  (p, q) is the target formula of that head; the stored entry is their sum.
-/
import proofs.«411827_j42236708388866_3_alg».proof.Proof.Gen.KernelIdeal.Frame
import proofs.«411827_j42236708388866_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body.Chunk1

open Cert.KernelIdeal Cert.KernelIdeal.Gen Idealize.ShloMosaic Idealize.ShloMosaic.ValueIdx Cert.Spec
open scoped BigOperators

variable {α : Type}
/-! ## Layout operations at explicit coordinates -/

/-- A matrix viewed with a unit middle axis reads its (p, k) entry at (p, u, k). -/
theorem cast_ab_a1b (x : S128x128.Idx → α) (h : S128x128.ShapeCasts S128x1x128) (p : Fin 128) (u : Fin 1) (k : Fin 128) :
    shapeCast S128x1x128 x h (ix3 p u k) = x (ix2 p k) :=
  shapeCast_apply x h _ _ (by
    have hu : u.val = 0 := by omega
    rw [Shape.rowMajor_val_three, Shape.rowMajor_val_two]
    show p.val * 128 + k.val = (p.val * 1 + u.val) * 128 + k.val
    rw [hu]; omega)

/-- A matrix viewed with a unit trailing axis reads its (p, q) entry at (p, q, u). -/
theorem cast_ab_ab1 (x : S128x128.Idx → α) (h : S128x128.ShapeCasts S128x128x1) (p q : Fin 128) (u : Fin 1) :
    shapeCast S128x128x1 x h (ix3 p q u) = x (ix2 p q) :=
  shapeCast_apply x h _ _ (by
    have hu : u.val = 0 := by omega
    rw [Shape.rowMajor_val_three, Shape.rowMajor_val_two]
    show p.val * 128 + q.val = (p.val * 128 + q.val) * 1 + u.val
    rw [hu]; omega)

/-- The cube flattened to 16384 rows: row 128 p + q is the fibre (p, q, ·). -/
theorem cast_cube_flat (x : S128x128x128.Idx → α) (h : S128x128x128.ShapeCasts S16384x128) (p q k : Fin 128)
    (r : Fin 16384) (hr : r.val = 128 * p.val + q.val) :
    shapeCast S16384x128 x h (ix2 r k) = x (ix3 p q k) :=
  shapeCast_apply x h _ _ (by
    rw [Shape.rowMajor_val_three, Shape.rowMajor_val_two]
    show (p.val * 128 + q.val) * 128 + k.val = r.val * 128 + k.val
    rw [hr]; omega)

/-- The 16384-row matrix of 17 columns folded back: entry (p, q, v) is row 128 p + q, column v. -/
theorem cast_flat_cube17 (x : S16384x17.Idx → α) (h : S16384x17.ShapeCasts S128x128x17) (p q : Fin 128) (v : Fin 17)
    (r : Fin 16384) (hr : r.val = 128 * p.val + q.val) :
    shapeCast S128x128x17 x h (ix3 p q v) = x (ix2 r v) :=
  shapeCast_apply x h _ _ (by
    rw [Shape.rowMajor_val_three, Shape.rowMajor_val_two]
    show r.val * 17 + v.val = (p.val * 128 + q.val) * 17 + v.val
    rw [hr]; omega)

/-- A [128, 1, 128] array spread along its middle axis. -/
theorem bcast_a1b (x : S128x1x128.Idx → α) (h : S128x1x128.Broadcasts S128x128x128) (p q k : Fin 128) :
    broadcastTo S128x128x128 x h (ix3 p q k) = x (ix3 p (0 : Fin 1) k) := by
  refine broadcastTo_apply x h (ix3 p q k) (ix3 p (0 : Fin 1) k) fun ax => ?_
  match ax with
  | ⟨0, _⟩ => rfl
  | ⟨1, _⟩ => rfl
  | ⟨2, _⟩ => rfl

/-- A [1, 128, 128] array spread along its leading axis. -/
theorem bcast_1ab (x : S1x128x128.Idx → α) (h : S1x128x128.Broadcasts S128x128x128) (p q k : Fin 128) :
    broadcastTo S128x128x128 x h (ix3 p q k) = x (ix3 (0 : Fin 1) q k) := by
  refine broadcastTo_apply x h (ix3 p q k) (ix3 (0 : Fin 1) q k) fun ax => ?_
  match ax with
  | ⟨0, _⟩ => rfl
  | ⟨1, _⟩ => rfl
  | ⟨2, _⟩ => rfl

/-- A [1, 1, 128] row spread over the cube. -/
theorem bcast_11b (x : S1x1x128.Idx → α) (h : S1x1x128.Broadcasts S128x128x128) (p q k : Fin 128) :
    broadcastTo S128x128x128 x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ => rfl

/-- A [1, 1, 17] row spread over the 128 x 128 x 17 block. -/
theorem bcast_11v (x : S1x1x17.Idx → α) (h : S1x1x17.Broadcasts S128x128x17) (p q : Fin 128) (v : Fin 17) :
    broadcastTo S128x128x17 x h (ix3 p q v) = x (ix3 (0 : Fin 1) (0 : Fin 1) v) := by
  refine broadcastTo_apply x h (ix3 p q v) (ix3 (0 : Fin 1) (0 : Fin 1) v) fun ax => ?_
  match ax with
  | ⟨0, _⟩ => rfl
  | ⟨1, _⟩ => rfl
  | ⟨2, _⟩ => rfl

/-- A [128, 128, 1] column spread along the last axis. -/
theorem bcast_ab1 (x : S128x128x1.Idx → α) (h : S128x128x1.Broadcasts S128x128x17) (p q : Fin 128) (v : Fin 17) :
    broadcastTo S128x128x17 x h (ix3 p q v) = x (ix3 p q (0 : Fin 1)) := by
  refine broadcastTo_apply x h (ix3 p q v) (ix3 p q (0 : Fin 1)) fun ax => ?_
  match ax with
  | ⟨0, _⟩ => rfl
  | ⟨1, _⟩ => rfl
  | ⟨2, _⟩ => rfl

/-! ## Lane reductions at explicit coordinates -/

/-- The inserted index of the last-axis reduction of the cube. -/
theorem lift_cube (h : S128x128x128.Reduces [2] S128x128) (p q k : Fin 128) :
    h.lift (ix2 p q) k = ix3 p q k :=
  funext fun a => Fin.ext (match a with
    | ⟨0, _⟩ => rfl
    | ⟨1, _⟩ => rfl
    | ⟨2, _⟩ => rfl)

/-- The inserted index of the last-axis reduction of the 17-column block. -/
theorem lift_c17 (h : S128x128x17.Reduces [2] S128x128) (p q : Fin 128) (v : Fin 17) :
    h.lift (ix2 p q) v = ix3 p q v :=
  funext fun a => Fin.ext (match a with
    | ⟨0, _⟩ => rfl
    | ⟨1, _⟩ => rfl
    | ⟨2, _⟩ => rfl)

/-- A lane sum of the cube at (p, q) is the sum over the 128 lanes. -/
theorem sum_cube (src : FVec Ideal S128x128x128 .f32) (h : S128x128x128.Reduces [2] S128x128)
    (hφ : FKind.Formats .f32) (hacc : (0x00000000#32 : BitVec 32) = FKind.add.neutral .f32 hφ) (p q : Fin 128) :
    multiReduction .add [2] S128x128 src 0x00000000#32 h hφ hacc (ix2 p q) = ∑ k : Fin 128, src (ix3 p q k) := by
  refine (Ideal.multiReduction_add_single src 0x00000000#32 h hφ hacc (ix2 p q)).trans ?_
  exact Finset.sum_congr rfl fun k _ => congrArg src (lift_cube h p q k)

/-- A lane sum of the 17-column block at (p, q) is the sum over the 17 classes. -/
theorem sum_c17 (src : FVec Ideal S128x128x17 .f32) (h : S128x128x17.Reduces [2] S128x128)
    (hφ : FKind.Formats .f32) (hacc : (0x00000000#32 : BitVec 32) = FKind.add.neutral .f32 hφ) (p q : Fin 128) :
    multiReduction .add [2] S128x128 src 0x00000000#32 h hφ hacc (ix2 p q) = ∑ v : Fin 17, src (ix3 p q v) := by
  refine (Ideal.multiReduction_add_single src 0x00000000#32 h hφ hacc (ix2 p q)).trans ?_
  exact Finset.sum_congr rfl fun v _ => congrArg src (lift_c17 h p q v)

/-- The word the running maximum starts from denotes minus infinity. -/
theorem ofBits_neg_inf : Ideal.ofBits .f32 0xFF800000#32 = (⊥ : EReal) := by
  simp [Ideal.ofBits, Ideal.ieee]

/-- A lane maximum of the 17-column block at (p, q) is the running maximum from minus infinity over the 17 classes. -/
theorem max_c17 (src : FVec Ideal S128x128x17 .f32) (h : S128x128x17.Reduces [2] S128x128)
    (hφ : FKind.Formats .f32) (hacc : (0xFF800000#32 : BitVec 32) = FKind.maximumf.neutral .f32 hφ) (p q : Fin 128) :
    multiReduction .maximumf [2] S128x128 src 0xFF800000#32 h hφ hacc (ix2 p q)
      = (Finset.univ : Finset (Fin 17)).fold max ⊥ (fun v => src (ix3 p q v)) := by
  refine (Ideal.multiReduction_maximumf_single src 0xFF800000#32 h hφ hacc (ix2 p q)).trans ?_
  have e : (src ∘ h.lift (ix2 p q)) = fun v : Fin 17 => src (ix3 p q v) :=
    funext fun v => congrArg src (lift_c17 h p q v)
  have b : (FloatOps.ofBits (F := Ideal) .f32 0xFF800000#32) = (⊥ : EReal) := ofBits_neg_inf
  rw [e, b]
  rfl

/-! ## The two matrix products at explicit coordinates -/

theorem mm64_lhs_0 (i : S128x128.Idx) (c : dot_S128x64_S64x128_S128x128_1_0_0_1_n_n.contr.Idx) :
    (dot_S128x64_S64x128_S128x128_1_0_0_1_n_n.lhsIdx i c 0).val = (i 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
theorem mm64_lhs_1 (i : S128x128.Idx) (c : dot_S128x64_S64x128_S128x128_1_0_0_1_n_n.contr.Idx) :
    (dot_S128x64_S64x128_S128x128_1_0_0_1_n_n.lhsIdx i c 1).val = (c ⟨0, by decide⟩).val :=
  dot_S128x64_S64x128_S128x128_1_0_0_1_n_n.lhsIdx_val_of_single rfl i c
theorem mm64_rhs_0 (i : S128x128.Idx) (c : dot_S128x64_S64x128_S128x128_1_0_0_1_n_n.contr.Idx) :
    (dot_S128x64_S64x128_S128x128_1_0_0_1_n_n.rhsIdx i c 0).val = (c ⟨0, by decide⟩).val :=
  dot_S128x64_S64x128_S128x128_1_0_0_1_n_n.rhsIdx_val_of_single rfl i c
theorem mm64_rhs_1 (i : S128x128.Idx) (c : dot_S128x64_S64x128_S128x128_1_0_0_1_n_n.contr.Idx) :
    (dot_S128x64_S64x128_S128x128_1_0_0_1_n_n.rhsIdx i c 1).val = (i 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

/-- The 128 x 64 by 64 x 128 product into a zero accumulator, at (q, k): the 64-term sum. -/
theorem mm64_apply {φ₁ φ₂ : FTy} (lhs : FVec Ideal S128x64 φ₁) (rhs : FVec Ideal S64x128 φ₂) (q k : Fin 128) :
    matmul dot_S128x64_S64x128_S128x128_1_0_0_1_n_n none lhs rhs (constant S128x128 .f32 0x00000000#32) (ix2 q k)
      = ∑ e : Fin 64, lhs (ix2 q e) * rhs (ix2 e k) := by
  simp only [matmul]
  rw [Ideal.matmul_constant_zero_apply, ← Equiv.sum_comp (ValueIdx.contrEquiv1 dot_S128x64_S64x128_S128x128_1_0_0_1_n_n 64 rfl rfl).symm]
  refine Finset.sum_congr rfl fun e _ => ?_
  have he := ValueIdx.contrEquiv1_symm_val dot_S128x64_S64x128_S128x128_1_0_0_1_n_n 64 rfl rfl e
  have el : dot_S128x64_S64x128_S128x128_1_0_0_1_n_n.lhsIdx (ix2 q k) ((ValueIdx.contrEquiv1 dot_S128x64_S64x128_S128x128_1_0_0_1_n_n 64 rfl rfl).symm e) = ix2 q e := funext fun a => Fin.ext (by
    match a with
    | ⟨0, _⟩ => exact mm64_lhs_0 _ _
    | ⟨1, _⟩ => exact (mm64_lhs_1 _ _).trans he)
  have er : dot_S128x64_S64x128_S128x128_1_0_0_1_n_n.rhsIdx (ix2 q k) ((ValueIdx.contrEquiv1 dot_S128x64_S64x128_S128x128_1_0_0_1_n_n 64 rfl rfl).symm e) = ix2 e k := funext fun a => Fin.ext (by
    match a with
    | ⟨0, _⟩ => exact (mm64_rhs_0 _ _).trans he
    | ⟨1, _⟩ => exact mm64_rhs_1 _ _)
  rw [el, er]

theorem mm17_lhs_0 (i : S16384x17.Idx) (c : dot_S16384x128_S128x17_S16384x17_1_0_0_1_n_n.contr.Idx) :
    (dot_S16384x128_S128x17_S16384x17_1_0_0_1_n_n.lhsIdx i c 0).val = (i 0).val := by
  unfold DotDims.lhsIdx
  rw [dif_neg (show ¬(0 : Fin S16384x128.rank) ∈ dot_S16384x128_S128x17_S16384x17_1_0_0_1_n_n.lhsBatch by decide), dif_pos (show (0 : Fin S16384x128.rank) ∈ dot_S16384x128_S128x17_S16384x17_1_0_0_1_n_n.lhsNonContracting by decide)]
  rfl
theorem mm17_lhs_1 (i : S16384x17.Idx) (c : dot_S16384x128_S128x17_S16384x17_1_0_0_1_n_n.contr.Idx) :
    (dot_S16384x128_S128x17_S16384x17_1_0_0_1_n_n.lhsIdx i c 1).val = (c ⟨0, by decide⟩).val :=
  dot_S16384x128_S128x17_S16384x17_1_0_0_1_n_n.lhsIdx_val_of_single rfl i c
theorem mm17_rhs_0 (i : S16384x17.Idx) (c : dot_S16384x128_S128x17_S16384x17_1_0_0_1_n_n.contr.Idx) :
    (dot_S16384x128_S128x17_S16384x17_1_0_0_1_n_n.rhsIdx i c 0).val = (c ⟨0, by decide⟩).val :=
  dot_S16384x128_S128x17_S16384x17_1_0_0_1_n_n.rhsIdx_val_of_single rfl i c
theorem mm17_rhs_1 (i : S16384x17.Idx) (c : dot_S16384x128_S128x17_S16384x17_1_0_0_1_n_n.contr.Idx) :
    (dot_S16384x128_S128x17_S16384x17_1_0_0_1_n_n.rhsIdx i c 1).val = (i 1).val := by
  unfold DotDims.rhsIdx
  rw [dif_neg (show ¬(1 : Fin S128x17.rank) ∈ dot_S16384x128_S128x17_S16384x17_1_0_0_1_n_n.rhsBatch by decide), dif_pos (show (1 : Fin S128x17.rank) ∈ dot_S16384x128_S128x17_S16384x17_1_0_0_1_n_n.rhsNonContracting by decide)]
  rfl

/-- The 16384 x 128 by 128 x 17 product into a zero accumulator, at (r, v): the 128-term sum. -/
theorem mm17_apply {φ₁ φ₂ : FTy} (lhs : FVec Ideal S16384x128 φ₁) (rhs : FVec Ideal S128x17 φ₂) (r : Fin 16384) (v : Fin 17) :
    matmul dot_S16384x128_S128x17_S16384x17_1_0_0_1_n_n none lhs rhs (constant S16384x17 .f32 0x00000000#32) (ix2 r v)
      = ∑ k : Fin 128, lhs (ix2 r k) * rhs (ix2 k v) := by
  simp only [matmul]
  rw [Ideal.matmul_constant_zero_apply, ← Equiv.sum_comp (ValueIdx.contrEquiv1 dot_S16384x128_S128x17_S16384x17_1_0_0_1_n_n 128 rfl rfl).symm]
  refine Finset.sum_congr rfl fun k _ => ?_
  have hk := ValueIdx.contrEquiv1_symm_val dot_S16384x128_S128x17_S16384x17_1_0_0_1_n_n 128 rfl rfl k
  have el : dot_S16384x128_S128x17_S16384x17_1_0_0_1_n_n.lhsIdx (ix2 r v) ((ValueIdx.contrEquiv1 dot_S16384x128_S128x17_S16384x17_1_0_0_1_n_n 128 rfl rfl).symm k) = ix2 r k := funext fun a => Fin.ext (by
    match a with
    | ⟨0, _⟩ => exact mm17_lhs_0 _ _
    | ⟨1, _⟩ => exact (mm17_lhs_1 _ _).trans hk)
  have er : dot_S16384x128_S128x17_S16384x17_1_0_0_1_n_n.rhsIdx (ix2 r v) ((ValueIdx.contrEquiv1 dot_S16384x128_S128x17_S16384x17_1_0_0_1_n_n 128 rfl rfl).symm k) = ix2 k v := funext fun a => Fin.ext (by
    match a with
    | ⟨0, _⟩ => exact (mm17_rhs_0 _ _).trans hk
    | ⟨1, _⟩ => exact mm17_rhs_1 _ _)
  rw [el, er]

/-! ## Four more pointwise operations read at an index -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem log1p_apply {s : Shape} {φ : FTy} (x : FVec Ideal s φ) (i : s.Idx) : log1p x i = Ideal.log1p (x i) := rfl
theorem absf_apply {s : Shape} {φ : FTy} (x : FVec Ideal s φ) (i : s.Idx) : absf x i = max (x i) (-(x i)) := rfl

/-- The bf16 zero word denotes zero. -/
theorem bf16_zero : (Scalar.ofBits .bf16 0x0000#16 : Ideal .bf16) = (0 : EReal) := by
  show Ideal.ofBits .bf16 0x0000#16 = 0
  simp [Ideal.ofBits, Ideal.ieee]

/-- The f32 zero word denotes zero. -/
theorem f32_zero : (Scalar.ofBits .f32 0x00000000#32 : Ideal .f32) = (0 : EReal) :=
  Ideal.ofBits_zero_f32

/-! ## The hidden cube -/

/-- The relu of a batch-side row plus an action-side row, spread over the cube: entry (p, q, k). -/
theorem hid_cube (f ep : FVec Ideal S128x128 .bf16)
    (h1 : S128x128.ShapeCasts S128x1x128) (h2 : S128x1x128.Broadcasts S128x128x128)
    (h3 : S128x128.ShapeCasts S1x128x128) (h4 : S1x128x128.Broadcasts S128x128x128) (p q k : Fin 128) :
    maximumf (addf (broadcastTo S128x128x128 (shapeCast S128x1x128 f h1) h2)
        (broadcastTo S128x128x128 (shapeCast S1x128x128 ep h3) h4))
      (broadcast S128x128x128 (Scalar.ofBits .bf16 0x0000#16)) (ix3 p q k)
      = max (f (ix2 p k) + ep (ix2 q k)) 0 := by
  rw [maximumf_apply, addf_apply, broadcast_apply, bcast_a1b, bcast_1ab, cast_ab_a1b, shapeCast_ab_1ab_apply, bf16_zero]

/-! ## The action-side projections -/

theorem pay4_apply (y0 : Vec Ideal S128x64 .f32) (y11 : Vec Ideal S64x128 .f32) (q k : Fin 128) :
    k0_pay4 y0 y11 (ix2 q k) = ∑ e : Fin 64, y0 (ix2 q e) * y11 (ix2 e k) := by
  unfold k0_pay4 k0_pay2
  dsimp only
  rw [mm64_apply]
  simp only [truncf_apply, shapeCast_self]

theorem pay5_apply (y0 y1 : Vec Ideal S128x64 .f32) (y12 y13 : Vec Ideal S64x128 .f32) (q k : Fin 128) :
    k0_pay5 y0 y1 y12 y13 (ix2 q k)
      = (∑ e : Fin 64, y0 (ix2 q e) * y12 (ix2 e k)) + ∑ e : Fin 64, y1 (ix2 q e) * y13 (ix2 e k) := by
  unfold k0_pay5 k0_pay2 k0_pay3
  dsimp only
  rw [addf_apply, mm64_apply, mm64_apply]
  simp only [truncf_apply, shapeCast_self]

theorem pay6_apply (y0 y1 : Vec Ideal S128x64 .f32) (y14 y15 : Vec Ideal S64x128 .f32) (q k : Fin 128) :
    k0_pay6 y0 y1 y14 y15 (ix2 q k)
      = (∑ e : Fin 64, y0 (ix2 q e) * y14 (ix2 e k)) + ∑ e : Fin 64, y1 (ix2 q e) * y15 (ix2 e k) := by
  unfold k0_pay6 k0_pay2 k0_pay3
  dsimp only
  rw [addf_apply, mm64_apply, mm64_apply]
  simp only [truncf_apply, shapeCast_self]

theorem pay7_apply (y2 : Vec Ideal S128x64 .f32) (y16 : Vec Ideal S64x128 .f32) (q k : Fin 128) :
    k0_pay7 y2 y16 (ix2 q k) = ∑ e : Fin 64, y2 (ix2 q e) * y16 (ix2 e k) := by
  unfold k0_pay7
  rw [mm64_apply]
  simp only [truncf_apply, shapeCast_self]

/-! ## The pieces of a head over an arbitrary hidden cube -/

/-- The 17 logits of a head at (p, q, v): the hidden fibre against column v of the weights, plus the bias. -/
theorem logits17 (H : FVec Ideal S128x128x128 .bf16) (W : FVec Ideal S128x17 .bf16) (B : FVec Ideal S1x17 .f32)
    (c1 : S128x128x128.ShapeCasts S16384x128) (c2 : S16384x17.ShapeCasts S128x128x17)
    (c3 : S1x17.ShapeCasts S1x1x17) (b : S1x1x17.Broadcasts S128x128x17) (p q : Fin 128) (v : Fin 17) :
    addf (shapeCast S128x128x17
          (matmul dot_S16384x128_S128x17_S16384x17_1_0_0_1_n_n none (shapeCast S16384x128 H c1) W
            (constant S16384x17 .f32 0x00000000#32)) c2)
        (broadcastTo S128x128x17 (shapeCast S1x1x17 B c3) b) (ix3 p q v)
      = logit (fun k => H (ix3 p q k)) (fun k => W (ix2 k v)) (B (ix2 0 v)) := by
  have hr : ((⟨128 * p.val + q.val, by omega⟩ : Fin 16384)).val = 128 * p.val + q.val := rfl
  rw [addf_apply, cast_flat_cube17 _ c2 p q v ⟨128 * p.val + q.val, by omega⟩ hr, mm17_apply, bcast_11v,
    shapeCast_ab_1ab_apply]
  unfold logit
  refine congrArg (· + B (ix2 0 v)) (Finset.sum_congr rfl fun k _ => ?_)
  rw [cast_cube_flat H c1 p q k ⟨128 * p.val + q.val, by omega⟩ hr]

/-- The normalizer of a 17-class head at (p, q), from the block of its logits. -/
theorem lse_c17 (LG : FVec Ideal S128x128x17 .f32) (hr : S128x128x17.Reduces [2] S128x128)
    (hφ : FKind.Formats .f32) (hM : (0xFF800000#32 : BitVec 32) = FKind.maximumf.neutral .f32 hφ)
    (hA : (0x00000000#32 : BitVec 32) = FKind.add.neutral .f32 hφ)
    (c1 : S128x128.ShapeCasts S128x128x1) (c2 : S128x128x1.ShapeCasts S128x128)
    (b : S128x128x1.Broadcasts S128x128x17) (p q : Fin 128) :
    addf (shapeCast S128x128 (shapeCast S128x128x1 (multiReduction .maximumf [2] S128x128 LG 0xFF800000#32 hr hφ hM) c1) c2)
        (log (multiReduction .add [2] S128x128
          (exp (subf LG (broadcastTo S128x128x17
            (shapeCast S128x128x1 (multiReduction .maximumf [2] S128x128 LG 0xFF800000#32 hr hφ hM) c1) b)))
          0x00000000#32 hr hφ hA)) (ix2 p q)
      = lse (fun v => LG (ix3 p q v)) := by
  rw [addf_apply, shapeCast_shapeCast, log_apply, max_c17, sum_c17]
  unfold lse vmax
  refine congrArg (fun s => _ + Ideal.log s) (Finset.sum_congr rfl fun v _ => ?_)
  rw [exp_apply, subf_apply, bcast_ab1, cast_ab_ab1, max_c17]

/-- The gathered logit of a head at (p, q): the hidden fibre against the action's own weight row, plus its bias. -/
theorem logit_gathered (H : FVec Ideal S128x128x128 .bf16) (W : FVec Ideal S128x128 .f32) (B : FVec Ideal S1x128 .f32)
    (hb : FTy.bits .bf16 < FTy.bits .f32) (c : S128x128.ShapeCasts S1x128x128) (b : S1x128x128.Broadcasts S128x128x128)
    (hr : S128x128x128.Reduces [2] S128x128) (hφ : FKind.Formats .f32)
    (hA : (0x00000000#32 : BitVec 32) = FKind.add.neutral .f32 hφ) (bb : S1x128.Broadcasts S128x128) (p q : Fin 128) :
    addf (multiReduction .add [2] S128x128
          (mulf (extf .f32 H hb) (broadcastTo S128x128x128 (shapeCast S1x128x128 W c) b)) 0x00000000#32 hr hφ hA)
        (broadcastTo S128x128 B bb) (ix2 p q)
      = logit (fun k => H (ix3 p q k)) (fun k => W (ix2 q k)) (B (ix2 0 q)) := by
  rw [addf_apply, sum_cube, broadcastTo_1b_ab_apply]
  unfold logit
  refine congrArg (· + B (ix2 0 q)) (Finset.sum_congr rfl fun k _ => ?_)
  rw [mulf_apply, extf_apply, bcast_1ab, shapeCast_ab_1ab_apply]

/-! ## The three heads' payloads at (p, q) -/

/-- A value is never different from itself. -/
theorem cmp_one_self (z : EReal) : (FloatOps.cmpf (F := Ideal) (φ := .f32) .one z z) = 0#1 := by
  show Ideal.cmp .one z z = 0#1
  simp [Ideal.cmp]

/-- The hidden cube of the second 17-class head at (p, q, k). -/
theorem pay34_apply (v37 : FVec Ideal S128x128 .bf16) (v169 : Vec Ideal S128x128 .f32) (p q k : Fin 128) :
    k0_pay34 v37 v169 (ix3 p q k) = hid (fun k => v169 (ix2 p k)) (fun k => v37 (ix2 q k)) k := by
  unfold k0_pay34
  refine (hid_cube _ _ _ _ _ _ p q k).trans ?_
  rw [truncf_apply, shapeCast_self]
  rfl

/-- The first 17-class head at (p, q). -/
theorem pay33_apply (v36 : FVec Ideal S128x128 .bf16) (v41 : FVec Ideal S128x17 .bf16) (v46 : FVec Ideal S1x17 .f32)
    (v50 : FVec Ideal S128x128 .f32) (v52 : FVec Ideal S1x128 .f32) (v167 : Vec Ideal S128x128 .f32) (p q : Fin 128) :
    k0_pay33 v36 v41 v46 v50 v52 v167 (ix2 p q)
      = kFull (hid (fun k => v167 (ix2 p k)) (fun k => v36 (ix2 q k))) (fun v k => v41 (ix2 k v)) (fun v => v46 (ix2 0 v))
          (fun k => v50 (ix2 q k)) (v52 (ix2 0 q)) := by
  have hH : ∀ k : Fin 128, k0_pay34 v36 v167 (ix3 p q k) = hid (fun k => v167 (ix2 p k)) (fun k => v36 (ix2 q k)) k :=
    fun k => pay34_apply v36 v167 p q k
  unfold k0_pay34 at hH
  unfold k0_pay33
  rw [subf_apply]
  unfold kFull
  refine congrArg₂ (fun a b => a - b) ((logit_gathered _ _ _ _ _ _ _ _ _ _ p q).trans ?_)
    ((lse_c17 _ _ _ _ _ _ _ _ p q).trans (congrArg lse (funext fun v => (logits17 _ _ _ _ _ _ _ p q v).trans ?_)))
  · exact congrArg (fun h => logit h (fun k => v50 (ix2 q k)) (v52 (ix2 0 q))) (funext hH)
  · exact congrArg (fun h => logit h (fun k => v41 (ix2 k v)) (v46 (ix2 0 v))) (funext hH)

/-- The 2-class head's scaled logit at (p, q): the sign times (the hidden fibre against the difference row, plus the
    difference bias). -/
theorem two_logit (H : FVec Ideal S128x128x128 .bf16) (S : FVec Ideal S1x128 .f32) (DW : FVec Ideal S1x1x128 .f32)
    (db : Ideal .f32) (hb : FTy.bits .bf16 < FTy.bits .f32) (b : S1x1x128.Broadcasts S128x128x128)
    (hr : S128x128x128.Reduces [2] S128x128) (hφ : FKind.Formats .f32)
    (hA : (0x00000000#32 : BitVec 32) = FKind.add.neutral .f32 hφ) (bb : S1x128.Broadcasts S128x128) (p q : Fin 128) :
    mulf (broadcastTo S128x128 S bb)
        (addf (multiReduction .add [2] S128x128 (mulf (extf .f32 H hb) (broadcastTo S128x128x128 DW b)) 0x00000000#32 hr hφ hA)
          (broadcast S128x128 db)) (ix2 p q)
      = S (ix2 0 q) * logit (fun k => H (ix3 p q k)) (fun k => DW (ix3 0 0 k)) db := by
  rw [mulf_apply, broadcastTo_1b_ab_apply, addf_apply, sum_cube, broadcast_apply]
  unfold logit
  refine congrArg (fun s => S (ix2 0 q) * (s + db)) (Finset.sum_congr rfl fun k _ => ?_)
  rw [mulf_apply, extf_apply, bcast_11b]

/-- The lowered minus-softplus of a block, entry by entry: the comparison of a value with itself never holds, so the
    select keeps the softplus branch. -/
theorem neg_softplus_apply (Z : FVec Ideal S128x128 .f32) (i : S128x128.Idx) :
    subf (broadcast S128x128 (Scalar.ofBits .f32 0x00000000#32))
        (select
          (cmpf .one (subf Z (broadcast S128x128 (Scalar.ofBits .f32 0x00000000#32)))
            (subf Z (broadcast S128x128 (Scalar.ofBits .f32 0x00000000#32))))
          (addf Z (broadcast S128x128 (Scalar.ofBits .f32 0x00000000#32)))
          (addf (maximumf Z (broadcast S128x128 (Scalar.ofBits .f32 0x00000000#32)))
            (log1p (exp (subf (broadcast S128x128 (Scalar.ofBits .f32 0x00000000#32))
              (absf (subf Z (broadcast S128x128 (Scalar.ofBits .f32 0x00000000#32))))))))) i
      = 0 - softplus (Z i) := by
  rw [subf_apply, select_apply, cmpf_apply, cmp_one_self, select_zero, addf_apply, maximumf_apply, log1p_apply, exp_apply,
    subf_apply, absf_apply, subf_apply, broadcast_apply, f32_zero]
  rfl

/-- The 2-class head at (p, q). -/
theorem pay37_apply (v38 : FVec Ideal S128x128 .bf16) (v58 : FVec Ideal S1x128 .f32) (v61 : FVec Ideal S1x1x128 .f32)
    (v63 : Ideal .f32) (v172 : FVec Ideal S128x128 .f32) (p q : Fin 128) :
    k0_pay37 v38 v58 v61 v63 v172 (ix2 p q)
      = kImm (hid (fun k => v172 (ix2 p k)) (fun k => v38 (ix2 q k))) (fun k => v61 (ix3 0 0 k)) v63 (v58 (ix2 0 q)) := by
  unfold k0_pay37
  refine (neg_softplus_apply _ (ix2 p q)).trans ?_
  unfold kImm
  refine congrArg (fun z => 0 - softplus z) ((two_logit _ _ _ _ _ _ _ _ _ _ p q).trans ?_)
  refine congrArg (fun h => v58 (ix2 0 q) * logit h (fun k => v61 (ix3 0 0 k)) v63) (funext fun k => ?_)
  refine (hid_cube _ _ _ _ _ _ p q k).trans ?_
  rw [truncf_apply]
  rfl

/-- The second 17-class head's logits before the bias, at (p, q, v). -/
theorem pay35_apply (v37 : FVec Ideal S128x128 .bf16) (v44 : FVec Ideal S128x17 .bf16) (v169 : Vec Ideal S128x128 .f32)
    (p q : Fin 128) (v : Fin 17) :
    k0_pay35 v37 v44 v169 (ix3 p q v) = ∑ k : Fin 128, k0_pay34 v37 v169 (ix3 p q k) * v44 (ix2 k v) := by
  have hr : ((⟨128 * p.val + q.val, by omega⟩ : Fin 16384)).val = 128 * p.val + q.val := rfl
  unfold k0_pay35
  rw [cast_flat_cube17 _ _ p q v ⟨128 * p.val + q.val, by omega⟩ hr, mm17_apply]
  refine Finset.sum_congr rfl fun k _ => ?_
  rw [cast_cube_flat _ _ p q k ⟨128 * p.val + q.val, by omega⟩ hr]

/-- The second head's bias row with two unit axes in front. -/
theorem pay36_apply (v48 : FVec Ideal S1x17 .f32) (u u' : Fin 1) (v : Fin 17) :
    k0_pay36 v48 (ix3 u u' v) = v48 (ix2 u' v) := by
  unfold k0_pay36
  rw [shapeCast_ab_1ab_apply]

/-- What the last payload adds to the first head's value at (p, q): the second 17-class head. -/
theorem pay38_apply (v54 : FVec Ideal S128x128 .f32) (v56 : FVec Ideal S1x128 .f32) (v203 : FVec Ideal S128x128 .f32)
    (v37 : FVec Ideal S128x128 .bf16) (v44 : FVec Ideal S128x17 .bf16) (v48 : FVec Ideal S1x17 .f32)
    (v169 : Vec Ideal S128x128 .f32) (p q : Fin 128) :
    k0_pay38 v54 v56 v203 (k0_pay34 v37 v169) (k0_pay35 v37 v44 v169) (k0_pay36 v48) (ix2 p q)
      = v203 (ix2 p q)
        + kFull (hid (fun k => v169 (ix2 p k)) (fun k => v37 (ix2 q k))) (fun v k => v44 (ix2 k v)) (fun v => v48 (ix2 0 v))
            (fun k => v54 (ix2 q k)) (v56 (ix2 0 q)) := by
  unfold k0_pay38
  rw [addf_apply, subf_apply]
  unfold kFull
  refine congrArg (fun t => v203 (ix2 p q) + t) (congrArg₂ (fun a b => a - b)
    ((logit_gathered _ _ _ _ _ _ _ _ _ _ p q).trans ?_)
    ((lse_c17 _ _ _ _ _ _ _ _ p q).trans (congrArg lse (funext fun v => ?_))))
  · exact congrArg (fun h => logit h (fun k => v54 (ix2 q k)) (v56 (ix2 0 q)))
      (funext fun k => pay34_apply v37 v169 p q k)
  · rw [addf_apply, bcast_11v, pay35_apply, pay36_apply]
    unfold logit
    exact congrArg (fun s => s + v48 (ix2 0 v))
      (Finset.sum_congr rfl fun k _ => congrArg (fun h => h * v44 (ix2 k v)) (pay34_apply v37 v169 p q k))

/-! ## The payloads that only retype or reshape a block -/

theorem pay8_apply (x : FVec Ideal S128x128 .f32) (i : S128x128.Idx) : k0_pay8 x i = x i := by
  unfold k0_pay8; rfl
theorem pay9_apply (x : FVec Ideal S128x128 .f32) (i : S128x128.Idx) : k0_pay9 x i = x i := by
  unfold k0_pay9; rfl
theorem pay10_apply (x y : FVec Ideal S128x128 .f32) (i : S128x128.Idx) : k0_pay10 x y i = x i + y i := by
  unfold k0_pay10; rfl
theorem pay11_apply (y : Vec Ideal S128x17 .f32) (i : S128x17.Idx) : k0_pay11 y i = y i := by
  unfold k0_pay11; rw [truncf_apply, shapeCast_self]
theorem pay12_apply (y : Vec Ideal S128x17 .f32) (i : S128x17.Idx) : k0_pay12 y i = y i := by
  unfold k0_pay12; rw [truncf_apply, shapeCast_self]
theorem pay13_apply (y : Vec Ideal S1x17 .f32) (i : S1x17.Idx) : k0_pay13 y i = y i := by
  unfold k0_pay13; rw [shapeCast_self]
theorem pay14_apply (y : Vec Ideal S1x17 .f32) (i : S1x17.Idx) : k0_pay14 y i = y i := by
  unfold k0_pay14; rw [shapeCast_self]
theorem pay15_apply (y : Vec Ideal S128x128 .f32) (i : S128x128.Idx) : k0_pay15 y i = y i := by
  unfold k0_pay15; rw [shapeCast_self]
theorem pay16_apply (y : Vec Ideal S1x128 .f32) (i : S1x128.Idx) : k0_pay16 y i = y i := by
  unfold k0_pay16; rw [shapeCast_self]
theorem pay17_apply (y : Vec Ideal S128x128 .f32) (i : S128x128.Idx) : k0_pay17 y i = y i := by
  unfold k0_pay17; rw [shapeCast_self]
theorem pay18_apply (y : Vec Ideal S1x128 .f32) (i : S1x128.Idx) : k0_pay18 y i = y i := by
  unfold k0_pay18; rw [shapeCast_self]
theorem pay19_apply (y : Vec Ideal S1x128 .f32) (i : S1x128.Idx) : k0_pay19 y i = y i := by
  unfold k0_pay19; rw [shapeCast_self]
theorem pay32_apply (y : Vec Ideal S128x128 .f32) (i : S128x128.Idx) : k0_pay32 y i = y i := by
  unfold k0_pay32; rw [shapeCast_self]
theorem pay20_apply (y : Vec Ideal S1x128 .f32) (u u' : Fin 1) (k : Fin 128) : k0_pay20 y (ix3 u u' k) = y (ix2 u' k) := by
  unfold k0_pay20; rw [shapeCast_ab_1ab_apply, shapeCast_self]
theorem pay21_eq (y : Vec Ideal S1x1 .f32) : k0_pay21 y = y (ix2 0 0) := by
  unfold k0_pay21 extractAt
  exact congrArg y (funext fun a => match a with | ⟨0, _⟩ => rfl | ⟨1, _⟩ => rfl)

end Cert.KernelIdeal.Body.Chunk1

namespace Cert.KernelIdeal.Body

open Cert.KernelIdeal Cert.KernelIdeal.Gen Idealize.ShloMosaic Idealize.ShloMosaic.ValueIdx Cert.Spec
open scoped BigOperators
open Cert.KernelIdeal.Body.Chunk1

/-- Entry (p, q) of the second chunk's stored value. -/
theorem chunk1_apply (y0 : Vec Ideal S128x64 .f32) (y1 : Vec Ideal S128x64 .f32) (y2 : Vec Ideal S128x64 .f32) (y3 : Vec Ideal S128x128 .f32) (y4 : Vec Ideal S1x128 .f32) (y5 : Vec Ideal S128x128 .f32) (y6 : Vec Ideal S1x128 .f32) (y7 : Vec Ideal S1x128 .f32) (y8 : Vec Ideal S128x128 .f32) (y9 : Vec Ideal S128x128 .f32) (y10 : Vec Ideal S128x128 .f32) (y11 : Vec Ideal S64x128 .f32) (y12 : Vec Ideal S64x128 .f32) (y13 : Vec Ideal S64x128 .f32) (y14 : Vec Ideal S64x128 .f32) (y15 : Vec Ideal S64x128 .f32) (y16 : Vec Ideal S64x128 .f32) (y17 : Vec Ideal S128x17 .f32) (y18 : Vec Ideal S1x17 .f32) (y19 : Vec Ideal S128x17 .f32) (y20 : Vec Ideal S1x17 .f32) (y21 : Vec Ideal S1x128 .f32) (y22 : Vec Ideal S1x1 .f32) (p q : Fin 128) :
    (k0_pay1 (k0_pay37 (k0_pay10 (k0_pay6 y0 y1 y14 y15) (k0_pay7 y2 y16)) (k0_pay19 y7) (k0_pay20 y21) (k0_pay21 y22) (k0_pay32 y10)) (k0_pay38 (k0_pay17 y5) (k0_pay18 y6) (k0_pay33 (k0_pay8 (k0_pay4 y0 y11)) (k0_pay11 y17) (k0_pay13 y18) (k0_pay15 y3) (k0_pay16 y4) y8) (k0_pay34 (k0_pay9 (k0_pay5 y0 y1 y12 y13)) y9) (k0_pay35 (k0_pay9 (k0_pay5 y0 y1 y12 y13)) (k0_pay12 y19) y9) (k0_pay36 (k0_pay14 y20)))) (ix2 p q)
      = kOutRow (fun e => y0 (ix2 q e)) (fun e => y1 (ix2 q e)) (fun e => y2 (ix2 q e))
        (fun k => y3 (ix2 q k)) (y4 (ix2 0 q)) (fun k => y5 (ix2 q k)) (y6 (ix2 0 q)) (y7 (ix2 0 q))
        (fun k => y8 (ix2 p k)) (fun k => y9 (ix2 p k)) (fun k => y10 (ix2 p k))
        (fun e k => y11 (ix2 e k)) (fun e k => y12 (ix2 e k)) (fun e k => y13 (ix2 e k))
        (fun e k => y14 (ix2 e k)) (fun e k => y15 (ix2 e k)) (fun e k => y16 (ix2 e k))
        (fun v k => y17 (ix2 k v)) (fun v => y18 (ix2 0 v)) (fun v k => y19 (ix2 k v)) (fun v => y20 (ix2 0 v))
        (fun k => y21 (ix2 0 k)) (y22 (ix2 0 0)) := by
  unfold k0_pay1
  rw [addf_apply, pay38_apply, pay33_apply, pay37_apply]
  unfold kOutRow
  simp only [pay8_apply, pay9_apply, pay10_apply, pay4_apply, pay5_apply, pay6_apply, pay7_apply, pay11_apply,
    pay12_apply, pay13_apply, pay14_apply, pay15_apply, pay16_apply, pay17_apply, pay18_apply, pay19_apply, pay32_apply,
    pay20_apply, pay21_eq]
  rfl

end Cert.KernelIdeal.Body

end
-- ==== Proof.KBody.lean ====
/-
  What the body leaves in the output block, entry by entry.

  The body stores the block in two halves, rows 0..127 and rows 128..255, each the same arithmetic on its own half of the
  three feature-projection blocks; a row r of the block therefore holds the entry formula at the feature rows r, whichever
  half it lies in.
-/
import proofs.«411827_j42236708388866_3_alg».proof.Proof.Gen.KernelIdeal.Frame
import proofs.«411827_j42236708388866_3_alg».proof.Proof.Spec
import proofs.«411827_j42236708388866_3_alg».proof.Proof.KBody0
import proofs.«411827_j42236708388866_3_alg».proof.Proof.KBody1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Spec
open scoped BigOperators

/-- The zero offsets, as the constant function. -/
theorem hz : (![0, 0] : Fin 2 → Nat) = fun _ => 0 := funext fun a => by fin_cases a <;> rfl

/-- The rectangle of rows 0..127 places its entry (p, k) at (p, k). -/
theorem idx7 (p k : Fin 128) : r0_7.idx (ix2 p k) = ix2 (⟨p.val, by omega⟩ : Fin 256) k := by
  funext d
  match d with
  | ⟨0, _⟩ => apply Fin.ext; show 0 + 1 * p.val = p.val; omega
  | ⟨1, _⟩ => apply Fin.ext; show 0 + 1 * k.val = k.val; omega

/-- The rectangle of rows 128..255 places its entry (p, k) at (128 + p, k). -/
theorem idx8 (p k : Fin 128) : r0_8.idx (ix2 p k) = ix2 (⟨128 + p.val, by omega⟩ : Fin 256) k := by
  funext d
  match d with
  | ⟨0, _⟩ => apply Fin.ext; show 128 + 1 * p.val = 128 + p.val; omega
  | ⟨1, _⟩ => apply Fin.ext; show 0 + 1 * k.val = k.val; omega

/-- Entry (r, q) of the output block after the body, from the input blocks. -/
theorem out_apply (x0 : Vec Ideal S128x64 .f32) (x1 : Vec Ideal S128x64 .f32) (x2 : Vec Ideal S128x64 .f32) (x3 : Vec Ideal S128x128 .f32) (x4 : Vec Ideal S1x128 .f32) (x5 : Vec Ideal S128x128 .f32) (x6 : Vec Ideal S1x128 .f32) (x7 : Vec Ideal S1x128 .f32) (x8 : Vec Ideal S256x128 .f32) (x9 : Vec Ideal S256x128 .f32) (x10 : Vec Ideal S256x128 .f32) (x11 : Vec Ideal S64x128 .f32) (x12 : Vec Ideal S64x128 .f32) (x13 : Vec Ideal S64x128 .f32) (x14 : Vec Ideal S64x128 .f32) (x15 : Vec Ideal S64x128 .f32) (x16 : Vec Ideal S64x128 .f32) (x17 : Vec Ideal S128x17 .f32) (x18 : Vec Ideal S1x17 .f32) (x19 : Vec Ideal S128x17 .f32) (x20 : Vec Ideal S1x17 .f32) (x21 : Vec Ideal S1x128 .f32) (x22 : Vec Ideal S1x1 .f32) (r : Fin 256) (q : Fin 128) :
    out0_23 (F := Ideal) x0 x1 x2 x3 x4 x5 x6 x7 x8 x9 x10 x11 x12 x13 x14 x15 x16 x17 x18 x19 x20 x21 x22 (ix2 r q)
      = kOutRow (fun e => x0 (ix2 q e)) (fun e => x1 (ix2 q e)) (fun e => x2 (ix2 q e))
        (fun k => x3 (ix2 q k)) (x4 (ix2 0 q)) (fun k => x5 (ix2 q k)) (x6 (ix2 0 q)) (x7 (ix2 0 q))
        (fun k => x8 (ix2 r k)) (fun k => x9 (ix2 r k)) (fun k => x10 (ix2 r k))
        (fun e k => x11 (ix2 e k)) (fun e k => x12 (ix2 e k)) (fun e k => x13 (ix2 e k))
        (fun e k => x14 (ix2 e k)) (fun e k => x15 (ix2 e k)) (fun e k => x16 (ix2 e k))
        (fun v k => x17 (ix2 k v)) (fun v => x18 (ix2 0 v)) (fun v k => x19 (ix2 k v)) (fun v => x20 (ix2 0 v))
        (fun k => x21 (ix2 0 k)) (x22 (ix2 0 0)) := by
  have e0 : View.ld x0 r0_0 = x0 := View.ld_unit_zero (S := S128x64) hz _ x0
  have e1 : View.ld x1 r0_0 = x1 := View.ld_unit_zero (S := S128x64) hz _ x1
  have e2 : View.ld x2 r0_0 = x2 := View.ld_unit_zero (S := S128x64) hz _ x2
  have e3 : View.ld x3 r0_4 = x3 := View.ld_unit_zero (S := S128x128) hz _ x3
  have e4 : View.ld x4 r0_5 = x4 := View.ld_unit_zero (S := S1x128) hz _ x4
  have e5 : View.ld x5 r0_4 = x5 := View.ld_unit_zero (S := S128x128) hz _ x5
  have e6 : View.ld x6 r0_5 = x6 := View.ld_unit_zero (S := S1x128) hz _ x6
  have e7 : View.ld x7 r0_5 = x7 := View.ld_unit_zero (S := S1x128) hz _ x7
  have e11 : View.ld x11 r0_1 = x11 := View.ld_unit_zero (S := S64x128) hz _ x11
  have e12 : View.ld x12 r0_1 = x12 := View.ld_unit_zero (S := S64x128) hz _ x12
  have e13 : View.ld x13 r0_1 = x13 := View.ld_unit_zero (S := S64x128) hz _ x13
  have e14 : View.ld x14 r0_1 = x14 := View.ld_unit_zero (S := S64x128) hz _ x14
  have e15 : View.ld x15 r0_1 = x15 := View.ld_unit_zero (S := S64x128) hz _ x15
  have e16 : View.ld x16 r0_1 = x16 := View.ld_unit_zero (S := S64x128) hz _ x16
  have e17 : View.ld x17 r0_2 = x17 := View.ld_unit_zero (S := S128x17) hz _ x17
  have e18 : View.ld x18 r0_3 = x18 := View.ld_unit_zero (S := S1x17) hz _ x18
  have e19 : View.ld x19 r0_2 = x19 := View.ld_unit_zero (S := S128x17) hz _ x19
  have e20 : View.ld x20 r0_3 = x20 := View.ld_unit_zero (S := S1x17) hz _ x20
  have e21 : View.ld x21 r0_5 = x21 := View.ld_unit_zero (S := S1x128) hz _ x21
  have e22 : View.ld x22 r0_6 = x22 := View.ld_unit_zero (S := S1x1) hz _ x22
  unfold out0_23
  rw [e0, e1, e2, e3, e4, e5, e6, e7, e11, e12, e13, e14, e15, e16, e17, e18, e19, e20, e21, e22]
  refine (View.canon_apply_of_pieces (Val := Elt Ideal) (S := S256x128) (e := .f32)
    (fun y : S256x128.Idx => kOutRow (fun e => x0 (ix2 (y 1) e)) (fun e => x1 (ix2 (y 1) e)) (fun e => x2 (ix2 (y 1) e))
        (fun k => x3 (ix2 (y 1) k)) (x4 (ix2 0 (y 1))) (fun k => x5 (ix2 (y 1) k)) (x6 (ix2 0 (y 1))) (x7 (ix2 0 (y 1)))
        (fun k => x8 (ix2 (y 0) k)) (fun k => x9 (ix2 (y 0) k)) (fun k => x10 (ix2 (y 0) k))
        (fun e k => x11 (ix2 e k)) (fun e k => x12 (ix2 e k)) (fun e k => x13 (ix2 e k))
        (fun e k => x14 (ix2 e k)) (fun e k => x15 (ix2 e k)) (fun e k => x16 (ix2 e k))
        (fun v k => x17 (ix2 k v)) (fun v => x18 (ix2 0 v)) (fun v k => x19 (ix2 k v)) (fun v => x20 (ix2 0 v))
        (fun k => x21 (ix2 0 k)) (x22 (ix2 0 0))) _ ?_ (ix2 r q) (cover0_23 _ _ _))
  intro pc hpc x
  simp only [List.mem_cons, List.not_mem_nil, or_false] at hpc
  rcases hpc with rfl | rfl
  · -- rows 128..255: the second chunk, read at the feature rows 128 + p
    obtain ⟨p, k, rfl⟩ : ∃ a b, x = ix2 (n0 := 128) (n1 := 128) a b := ⟨x 0, x 1, eq_ix2 x⟩
    dsimp only
    rw [chunk1_apply, show r0_8.emb (ix2 p k) = ix2 (⟨128 + p.val, by omega⟩ : Fin 256) k from idx8 p k]
    simp only [View.ld, idx8]
  · -- rows 0..127: the first chunk, read at the feature rows p
    obtain ⟨p, k, rfl⟩ : ∃ a b, x = ix2 (n0 := 128) (n1 := 128) a b := ⟨x 0, x 1, eq_ix2 x⟩
    dsimp only
    rw [chunk0_apply, show r0_7.emb (ix2 p k) = ix2 (⟨p.val, by omega⟩ : Fin 256) k from idx7 p k]
    simp only [View.ld, idx7]

end Cert.KernelIdeal.Body

end
-- ==== Proof.KValue.lean ====
/-
  The kernel's run with its result named, and that result entry by entry.

  Grid point t of the one-dimensional grid of 8 points stages rows 128 t .. 128 t + 127 of the per-action arrays (the embedding
  rows, the gathered weight rows) and columns 128 t .. 128 t + 127 of the per-action row vectors (the gathered biases, the sign),
  the whole of every other array, and writes back columns 128 t .. 128 t + 127 of the 256 x 1024 output. The eight written
  blocks tile the output, so entry (b, a) of the output array after the run is the body's entry (b, a mod 128) at point
  a / 128, which reads row a of the per-action arrays. The program then adds the opcode head's array to it.
-/
import proofs.«411827_j42236708388866_3_alg».proof.Proof.Gen.KernelIdeal.Frame
import proofs.«411827_j42236708388866_3_alg».proof.Proof.Spec
import proofs.«411827_j42236708388866_3_alg».proof.Proof.KBody
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The block indices of the windows staged by rows, at point t: block row t, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_5.index t (0 : Fin 2) = t.val ∧ win0_5.index t (1 : Fin 2) = 0 :=
  (by decide +kernel : ∀ t : Fin grid0.N, _)

/-- The block indices of the windows staged by columns and of the output window, at point t: block row 0, block column t. -/
theorem idx_cols : ∀ t : Fin cfg0.N,
    win0_4.index t (0 : Fin 2) = 0 ∧ win0_4.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_23.index t (0 : Fin 2) = 0 ∧ win0_23.index t (1 : Fin 2) = t.val :=
  (by decide +kernel : ∀ t : Fin grid0.N, _)

/-- Every other window is its whole array at every point: block index (0, 0). -/
theorem idx_whole : ∀ t : Fin cfg0.N,
    win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_19.index t (0 : Fin 2) = 0 ∧ win0_19.index t (1 : Fin 2) = 0
    ∧ win0_20.index t (0 : Fin 2) = 0 ∧ win0_20.index t (1 : Fin 2) = 0
    ∧ win0_21.index t (0 : Fin 2) = 0 ∧ win0_21.index t (1 : Fin 2) = 0
    ∧ win0_22.index t (0 : Fin 2) = 0 ∧ win0_22.index t (1 : Fin 2) = 0 :=
  (by decide +kernel : ∀ t : Fin grid0.N, _)

/-- Row q of window 0's block at point t, read off any contents of its array, is row 128 t + q of those contents. -/
theorem read0 (t : Fin cfg0.N) (A : S1024x64.Idx → Elt Ideal .f32) (q : Fin 128) (a : Fin 1024) (ha : a.val = 128 * t.val + q.val) :
    (fun e : Fin 64 => (((cfg0.win 0).blk t).view.read (Elt Ideal) A : Vec Ideal S128x64 .f32) (ix2 q e)) = fun e => A (ix2 a e) := by
  obtain ⟨h0, h1, -⟩ := idx_rows t
  funext e
  rw [View.read_apply]
  show A _ = A _
  refine congrArg A ?_
  funext d
  apply Fin.ext
  match d with
  | ⟨0, _⟩ => show win0_0.index t (0 : Fin 2) * 128 + 1 * q.val = a.val; omega
  | ⟨1, _⟩ => show win0_0.index t (1 : Fin 2) * 64 + 1 * e.val = e.val; omega

theorem blk0 (c : Dev nD) (t : Fin cfg0.N) (q : Fin 128) (a : Fin 1024) (ha : a.val = 128 * t.val + q.val) :
    (fun e : Fin 64 => (iblk m c 0 t : Vec Ideal S128x64 .f32) (ix2 q e)) = fun e => (V m c main_v10 : S1024x64.Idx → Elt Ideal .f32) (ix2 a e) :=
  read0 t (V m c main_v10) q a ha

/-- Row q of window 1's block at point t, read off any contents of its array, is row 128 t + q of those contents. -/
theorem read1 (t : Fin cfg0.N) (A : S1024x64.Idx → Elt Ideal .f32) (q : Fin 128) (a : Fin 1024) (ha : a.val = 128 * t.val + q.val) :
    (fun e : Fin 64 => (((cfg0.win 1).blk t).view.read (Elt Ideal) A : Vec Ideal S128x64 .f32) (ix2 q e)) = fun e => A (ix2 a e) := by
  obtain ⟨-, -, h0, h1, -⟩ := idx_rows t
  funext e
  rw [View.read_apply]
  show A _ = A _
  refine congrArg A ?_
  funext d
  apply Fin.ext
  match d with
  | ⟨0, _⟩ => show win0_1.index t (0 : Fin 2) * 128 + 1 * q.val = a.val; omega
  | ⟨1, _⟩ => show win0_1.index t (1 : Fin 2) * 64 + 1 * e.val = e.val; omega

theorem blk1 (c : Dev nD) (t : Fin cfg0.N) (q : Fin 128) (a : Fin 1024) (ha : a.val = 128 * t.val + q.val) :
    (fun e : Fin 64 => (iblk m c 1 t : Vec Ideal S128x64 .f32) (ix2 q e)) = fun e => (V m c main_v17 : S1024x64.Idx → Elt Ideal .f32) (ix2 a e) :=
  read1 t (V m c main_v17) q a ha

/-- Row q of window 2's block at point t, read off any contents of its array, is row 128 t + q of those contents. -/
theorem read2 (t : Fin cfg0.N) (A : S1024x64.Idx → Elt Ideal .f32) (q : Fin 128) (a : Fin 1024) (ha : a.val = 128 * t.val + q.val) :
    (fun e : Fin 64 => (((cfg0.win 2).blk t).view.read (Elt Ideal) A : Vec Ideal S128x64 .f32) (ix2 q e)) = fun e => A (ix2 a e) := by
  obtain ⟨-, -, -, -, h0, h1, -⟩ := idx_rows t
  funext e
  rw [View.read_apply]
  show A _ = A _
  refine congrArg A ?_
  funext d
  apply Fin.ext
  match d with
  | ⟨0, _⟩ => show win0_2.index t (0 : Fin 2) * 128 + 1 * q.val = a.val; omega
  | ⟨1, _⟩ => show win0_2.index t (1 : Fin 2) * 64 + 1 * e.val = e.val; omega

theorem blk2 (c : Dev nD) (t : Fin cfg0.N) (q : Fin 128) (a : Fin 1024) (ha : a.val = 128 * t.val + q.val) :
    (fun e : Fin 64 => (iblk m c 2 t : Vec Ideal S128x64 .f32) (ix2 q e)) = fun e => (V m c main_v24 : S1024x64.Idx → Elt Ideal .f32) (ix2 a e) :=
  read2 t (V m c main_v24) q a ha

/-- Row q of window 3's block at point t, read off any contents of its array, is row 128 t + q of those contents. -/
theorem read3 (t : Fin cfg0.N) (A : S1024x128.Idx → Elt Ideal .f32) (q : Fin 128) (a : Fin 1024) (ha : a.val = 128 * t.val + q.val) :
    (fun e : Fin 128 => (((cfg0.win 3).blk t).view.read (Elt Ideal) A : Vec Ideal S128x128 .f32) (ix2 q e)) = fun e => A (ix2 a e) := by
  obtain ⟨-, -, -, -, -, -, h0, h1, -⟩ := idx_rows t
  funext e
  rw [View.read_apply]
  show A _ = A _
  refine congrArg A ?_
  funext d
  apply Fin.ext
  match d with
  | ⟨0, _⟩ => show win0_3.index t (0 : Fin 2) * 128 + 1 * q.val = a.val; omega
  | ⟨1, _⟩ => show win0_3.index t (1 : Fin 2) * 128 + 1 * e.val = e.val; omega

theorem blk3 (c : Dev nD) (t : Fin cfg0.N) (q : Fin 128) (a : Fin 1024) (ha : a.val = 128 * t.val + q.val) :
    (fun e : Fin 128 => (iblk m c 3 t : Vec Ideal S128x128 .f32) (ix2 q e)) = fun e => (V m c main_v84 : S1024x128.Idx → Elt Ideal .f32) (ix2 a e) :=
  read3 t (V m c main_v84) q a ha

/-- Entry q of window 4's block at point t, read off any contents of its row vector, is entry 128 t + q of those contents. -/
theorem read4 (t : Fin cfg0.N) (A : S1x1024.Idx → Elt Ideal .f32) (q : Fin 128) (a : Fin 1024) (ha : a.val = 128 * t.val + q.val) :
    (((cfg0.win 4).blk t).view.read (Elt Ideal) A : Vec Ideal S1x128 .f32) (ix2 0 q) = A (ix2 0 a) := by
  obtain ⟨h0, h1, -⟩ := idx_cols t
  rw [View.read_apply]
  show A _ = A _
  refine congrArg A ?_
  funext d
  apply Fin.ext
  match d with
  | ⟨0, _⟩ => show win0_4.index t (0 : Fin 2) * 1 + 1 * 0 = 0; omega
  | ⟨1, _⟩ => show win0_4.index t (1 : Fin 2) * 128 + 1 * q.val = a.val; omega

theorem blk4 (c : Dev nD) (t : Fin cfg0.N) (q : Fin 128) (a : Fin 1024) (ha : a.val = 128 * t.val + q.val) :
    (iblk m c 4 t : Vec Ideal S1x128 .f32) (ix2 0 q) = (V m c main_v124 : S1x1024.Idx → Elt Ideal .f32) (ix2 0 a) :=
  read4 t (V m c main_v124) q a ha

/-- Row q of window 5's block at point t, read off any contents of its array, is row 128 t + q of those contents. -/
theorem read5 (t : Fin cfg0.N) (A : S1024x128.Idx → Elt Ideal .f32) (q : Fin 128) (a : Fin 1024) (ha : a.val = 128 * t.val + q.val) :
    (fun e : Fin 128 => (((cfg0.win 5).blk t).view.read (Elt Ideal) A : Vec Ideal S128x128 .f32) (ix2 q e)) = fun e => A (ix2 a e) := by
  obtain ⟨-, -, -, -, -, -, -, -, h0, h1⟩ := idx_rows t
  funext e
  rw [View.read_apply]
  show A _ = A _
  refine congrArg A ?_
  funext d
  apply Fin.ext
  match d with
  | ⟨0, _⟩ => show win0_5.index t (0 : Fin 2) * 128 + 1 * q.val = a.val; omega
  | ⟨1, _⟩ => show win0_5.index t (1 : Fin 2) * 128 + 1 * e.val = e.val; omega

theorem blk5 (c : Dev nD) (t : Fin cfg0.N) (q : Fin 128) (a : Fin 1024) (ha : a.val = 128 * t.val + q.val) :
    (fun e : Fin 128 => (iblk m c 5 t : Vec Ideal S128x128 .f32) (ix2 q e)) = fun e => (V m c main_v98 : S1024x128.Idx → Elt Ideal .f32) (ix2 a e) :=
  read5 t (V m c main_v98) q a ha

/-- Entry q of window 6's block at point t, read off any contents of its row vector, is entry 128 t + q of those contents. -/
theorem read6 (t : Fin cfg0.N) (A : S1x1024.Idx → Elt Ideal .f32) (q : Fin 128) (a : Fin 1024) (ha : a.val = 128 * t.val + q.val) :
    (((cfg0.win 6).blk t).view.read (Elt Ideal) A : Vec Ideal S1x128 .f32) (ix2 0 q) = A (ix2 0 a) := by
  obtain ⟨-, -, h0, h1, -⟩ := idx_cols t
  rw [View.read_apply]
  show A _ = A _
  refine congrArg A ?_
  funext d
  apply Fin.ext
  match d with
  | ⟨0, _⟩ => show win0_6.index t (0 : Fin 2) * 1 + 1 * 0 = 0; omega
  | ⟨1, _⟩ => show win0_6.index t (1 : Fin 2) * 128 + 1 * q.val = a.val; omega

theorem blk6 (c : Dev nD) (t : Fin cfg0.N) (q : Fin 128) (a : Fin 1024) (ha : a.val = 128 * t.val + q.val) :
    (iblk m c 6 t : Vec Ideal S1x128 .f32) (ix2 0 q) = (V m c main_v125 : S1x1024.Idx → Elt Ideal .f32) (ix2 0 a) :=
  read6 t (V m c main_v125) q a ha

/-- Entry q of window 7's block at point t, read off any contents of its row vector, is entry 128 t + q of those contents. -/
theorem read7 (t : Fin cfg0.N) (A : S1x1024.Idx → Elt Ideal .f32) (q : Fin 128) (a : Fin 1024) (ha : a.val = 128 * t.val + q.val) :
    (((cfg0.win 7).blk t).view.read (Elt Ideal) A : Vec Ideal S1x128 .f32) (ix2 0 q) = A (ix2 0 a) := by
  obtain ⟨-, -, -, -, h0, h1, -⟩ := idx_cols t
  rw [View.read_apply]
  show A _ = A _
  refine congrArg A ?_
  funext d
  apply Fin.ext
  match d with
  | ⟨0, _⟩ => show win0_7.index t (0 : Fin 2) * 1 + 1 * 0 = 0; omega
  | ⟨1, _⟩ => show win0_7.index t (1 : Fin 2) * 128 + 1 * q.val = a.val; omega

theorem blk7 (c : Dev nD) (t : Fin cfg0.N) (q : Fin 128) (a : Fin 1024) (ha : a.val = 128 * t.val + q.val) :
    (iblk m c 7 t : Vec Ideal S1x128 .f32) (ix2 0 q) = (V m c main_v123 : S1x1024.Idx → Elt Ideal .f32) (ix2 0 a) :=
  read7 t (V m c main_v123) q a ha

/-- Window 8's block at every point, read off any contents of its array, is those contents. -/
theorem read8 (t : Fin cfg0.N) (A : S256x128.Idx → Elt Ideal .f32) :
    (((cfg0.win 8).blk t).view.read (Elt Ideal) A : Vec Ideal S256x128 .f32) = A := by
  obtain ⟨h0, h1, -⟩ := idx_whole t
  funext j
  rw [View.read_apply]
  show A _ = A j
  refine congrArg A ?_
  funext d
  apply Fin.ext
  match d with
  | ⟨0, _⟩ => show win0_8.index t (0 : Fin 2) * 256 + 1 * (j 0).val = (j 0).val; omega
  | ⟨1, _⟩ => show win0_8.index t (1 : Fin 2) * 128 + 1 * (j 1).val = (j 1).val; omega

theorem blk8 (c : Dev nD) (t : Fin cfg0.N) :
    (iblk m c 8 t : Vec Ideal S256x128 .f32) = (V m c main_v49 : S256x128.Idx → Elt Ideal .f32) :=
  read8 t (V m c main_v49)

/-- Window 9's block at every point, read off any contents of its array, is those contents. -/
theorem read9 (t : Fin cfg0.N) (A : S256x128.Idx → Elt Ideal .f32) :
    (((cfg0.win 9).blk t).view.read (Elt Ideal) A : Vec Ideal S256x128 .f32) = A := by
  obtain ⟨-, -, h0, h1, -⟩ := idx_whole t
  funext j
  rw [View.read_apply]
  show A _ = A j
  refine congrArg A ?_
  funext d
  apply Fin.ext
  match d with
  | ⟨0, _⟩ => show win0_9.index t (0 : Fin 2) * 256 + 1 * (j 0).val = (j 0).val; omega
  | ⟨1, _⟩ => show win0_9.index t (1 : Fin 2) * 128 + 1 * (j 1).val = (j 1).val; omega

theorem blk9 (c : Dev nD) (t : Fin cfg0.N) :
    (iblk m c 9 t : Vec Ideal S256x128 .f32) = (V m c main_v55 : S256x128.Idx → Elt Ideal .f32) :=
  read9 t (V m c main_v55)

/-- Window 10's block at every point, read off any contents of its array, is those contents. -/
theorem read10 (t : Fin cfg0.N) (A : S256x128.Idx → Elt Ideal .f32) :
    (((cfg0.win 10).blk t).view.read (Elt Ideal) A : Vec Ideal S256x128 .f32) = A := by
  obtain ⟨-, -, -, -, h0, h1, -⟩ := idx_whole t
  funext j
  rw [View.read_apply]
  show A _ = A j
  refine congrArg A ?_
  funext d
  apply Fin.ext
  match d with
  | ⟨0, _⟩ => show win0_10.index t (0 : Fin 2) * 256 + 1 * (j 0).val = (j 0).val; omega
  | ⟨1, _⟩ => show win0_10.index t (1 : Fin 2) * 128 + 1 * (j 1).val = (j 1).val; omega

theorem blk10 (c : Dev nD) (t : Fin cfg0.N) :
    (iblk m c 10 t : Vec Ideal S256x128 .f32) = (V m c main_v61 : S256x128.Idx → Elt Ideal .f32) :=
  read10 t (V m c main_v61)

/-- Window 11's block at every point, read off any contents of its array, is those contents. -/
theorem read11 (t : Fin cfg0.N) (A : S64x128.Idx → Elt Ideal .f32) :
    (((cfg0.win 11).blk t).view.read (Elt Ideal) A : Vec Ideal S64x128 .f32) = A := by
  obtain ⟨-, -, -, -, -, -, h0, h1, -⟩ := idx_whole t
  funext j
  rw [View.read_apply]
  show A _ = A j
  refine congrArg A ?_
  funext d
  apply Fin.ext
  match d with
  | ⟨0, _⟩ => show win0_11.index t (0 : Fin 2) * 64 + 1 * (j 0).val = (j 0).val; omega
  | ⟨1, _⟩ => show win0_11.index t (1 : Fin 2) * 128 + 1 * (j 1).val = (j 1).val; omega

theorem blk11 (c : Dev nD) (t : Fin cfg0.N) :
    (iblk m c 11 t : Vec Ideal S64x128 .f32) = (V m c main_v63 : S64x128.Idx → Elt Ideal .f32) :=
  read11 t (V m c main_v63)

/-- Window 12's block at every point, read off any contents of its array, is those contents. -/
theorem read12 (t : Fin cfg0.N) (A : S64x128.Idx → Elt Ideal .f32) :
    (((cfg0.win 12).blk t).view.read (Elt Ideal) A : Vec Ideal S64x128 .f32) = A := by
  obtain ⟨-, -, -, -, -, -, -, -, h0, h1, -⟩ := idx_whole t
  funext j
  rw [View.read_apply]
  show A _ = A j
  refine congrArg A ?_
  funext d
  apply Fin.ext
  match d with
  | ⟨0, _⟩ => show win0_12.index t (0 : Fin 2) * 64 + 1 * (j 0).val = (j 0).val; omega
  | ⟨1, _⟩ => show win0_12.index t (1 : Fin 2) * 128 + 1 * (j 1).val = (j 1).val; omega

theorem blk12 (c : Dev nD) (t : Fin cfg0.N) :
    (iblk m c 12 t : Vec Ideal S64x128 .f32) = (V m c main_v65 : S64x128.Idx → Elt Ideal .f32) :=
  read12 t (V m c main_v65)

/-- Window 13's block at every point, read off any contents of its array, is those contents. -/
theorem read13 (t : Fin cfg0.N) (A : S64x128.Idx → Elt Ideal .f32) :
    (((cfg0.win 13).blk t).view.read (Elt Ideal) A : Vec Ideal S64x128 .f32) = A := by
  obtain ⟨-, -, -, -, -, -, -, -, -, -, h0, h1, -⟩ := idx_whole t
  funext j
  rw [View.read_apply]
  show A _ = A j
  refine congrArg A ?_
  funext d
  apply Fin.ext
  match d with
  | ⟨0, _⟩ => show win0_13.index t (0 : Fin 2) * 64 + 1 * (j 0).val = (j 0).val; omega
  | ⟨1, _⟩ => show win0_13.index t (1 : Fin 2) * 128 + 1 * (j 1).val = (j 1).val; omega

theorem blk13 (c : Dev nD) (t : Fin cfg0.N) :
    (iblk m c 13 t : Vec Ideal S64x128 .f32) = (V m c main_v67 : S64x128.Idx → Elt Ideal .f32) :=
  read13 t (V m c main_v67)

/-- Window 14's block at every point, read off any contents of its array, is those contents. -/
theorem read14 (t : Fin cfg0.N) (A : S64x128.Idx → Elt Ideal .f32) :
    (((cfg0.win 14).blk t).view.read (Elt Ideal) A : Vec Ideal S64x128 .f32) = A := by
  obtain ⟨-, -, -, -, -, -, -, -, -, -, -, -, h0, h1, -⟩ := idx_whole t
  funext j
  rw [View.read_apply]
  show A _ = A j
  refine congrArg A ?_
  funext d
  apply Fin.ext
  match d with
  | ⟨0, _⟩ => show win0_14.index t (0 : Fin 2) * 64 + 1 * (j 0).val = (j 0).val; omega
  | ⟨1, _⟩ => show win0_14.index t (1 : Fin 2) * 128 + 1 * (j 1).val = (j 1).val; omega

theorem blk14 (c : Dev nD) (t : Fin cfg0.N) :
    (iblk m c 14 t : Vec Ideal S64x128 .f32) = (V m c main_v69 : S64x128.Idx → Elt Ideal .f32) :=
  read14 t (V m c main_v69)

/-- Window 15's block at every point, read off any contents of its array, is those contents. -/
theorem read15 (t : Fin cfg0.N) (A : S64x128.Idx → Elt Ideal .f32) :
    (((cfg0.win 15).blk t).view.read (Elt Ideal) A : Vec Ideal S64x128 .f32) = A := by
  obtain ⟨-, -, -, -, -, -, -, -, -, -, -, -, -, -, h0, h1, -⟩ := idx_whole t
  funext j
  rw [View.read_apply]
  show A _ = A j
  refine congrArg A ?_
  funext d
  apply Fin.ext
  match d with
  | ⟨0, _⟩ => show win0_15.index t (0 : Fin 2) * 64 + 1 * (j 0).val = (j 0).val; omega
  | ⟨1, _⟩ => show win0_15.index t (1 : Fin 2) * 128 + 1 * (j 1).val = (j 1).val; omega

theorem blk15 (c : Dev nD) (t : Fin cfg0.N) :
    (iblk m c 15 t : Vec Ideal S64x128 .f32) = (V m c main_v71 : S64x128.Idx → Elt Ideal .f32) :=
  read15 t (V m c main_v71)

/-- Window 16's block at every point, read off any contents of its array, is those contents. -/
theorem read16 (t : Fin cfg0.N) (A : S64x128.Idx → Elt Ideal .f32) :
    (((cfg0.win 16).blk t).view.read (Elt Ideal) A : Vec Ideal S64x128 .f32) = A := by
  obtain ⟨-, -, -, -, -, -, -, -, -, -, -, -, -, -, -, -, h0, h1, -⟩ := idx_whole t
  funext j
  rw [View.read_apply]
  show A _ = A j
  refine congrArg A ?_
  funext d
  apply Fin.ext
  match d with
  | ⟨0, _⟩ => show win0_16.index t (0 : Fin 2) * 64 + 1 * (j 0).val = (j 0).val; omega
  | ⟨1, _⟩ => show win0_16.index t (1 : Fin 2) * 128 + 1 * (j 1).val = (j 1).val; omega

theorem blk16 (c : Dev nD) (t : Fin cfg0.N) :
    (iblk m c 16 t : Vec Ideal S64x128 .f32) = (V m c main_v73 : S64x128.Idx → Elt Ideal .f32) :=
  read16 t (V m c main_v73)

/-- Window 17's block at every point, read off any contents of its array, is those contents. -/
theorem read17 (t : Fin cfg0.N) (A : S128x17.Idx → Elt Ideal .f32) :
    (((cfg0.win 17).blk t).view.read (Elt Ideal) A : Vec Ideal S128x17 .f32) = A := by
  obtain ⟨-, -, -, -, -, -, -, -, -, -, -, -, -, -, -, -, -, -, h0, h1, -⟩ := idx_whole t
  funext j
  rw [View.read_apply]
  show A _ = A j
  refine congrArg A ?_
  funext d
  apply Fin.ext
  match d with
  | ⟨0, _⟩ => show win0_17.index t (0 : Fin 2) * 128 + 1 * (j 0).val = (j 0).val; omega
  | ⟨1, _⟩ => show win0_17.index t (1 : Fin 2) * 17 + 1 * (j 1).val = (j 1).val; omega

theorem blk17 (c : Dev nD) (t : Fin cfg0.N) :
    (iblk m c 17 t : Vec Ideal S128x17 .f32) = (V m c main_v74 : S128x17.Idx → Elt Ideal .f32) :=
  read17 t (V m c main_v74)

/-- Window 18's block at every point, read off any contents of its array, is those contents. -/
theorem read18 (t : Fin cfg0.N) (A : S1x17.Idx → Elt Ideal .f32) :
    (((cfg0.win 18).blk t).view.read (Elt Ideal) A : Vec Ideal S1x17 .f32) = A := by
  obtain ⟨-, -, -, -, -, -, -, -, -, -, -, -, -, -, -, -, -, -, -, -, h0, h1, -⟩ := idx_whole t
  funext j
  rw [View.read_apply]
  show A _ = A j
  refine congrArg A ?_
  funext d
  apply Fin.ext
  match d with
  | ⟨0, _⟩ => show win0_18.index t (0 : Fin 2) * 1 + 1 * (j 0).val = (j 0).val; omega
  | ⟨1, _⟩ => show win0_18.index t (1 : Fin 2) * 17 + 1 * (j 1).val = (j 1).val; omega

theorem blk18 (c : Dev nD) (t : Fin cfg0.N) :
    (iblk m c 18 t : Vec Ideal S1x17 .f32) = (V m c main_v76 : S1x17.Idx → Elt Ideal .f32) :=
  read18 t (V m c main_v76)

/-- Window 19's block at every point, read off any contents of its array, is those contents. -/
theorem read19 (t : Fin cfg0.N) (A : S128x17.Idx → Elt Ideal .f32) :
    (((cfg0.win 19).blk t).view.read (Elt Ideal) A : Vec Ideal S128x17 .f32) = A := by
  obtain ⟨-, -, -, -, -, -, -, -, -, -, -, -, -, -, -, -, -, -, -, -, -, -, h0, h1, -⟩ := idx_whole t
  funext j
  rw [View.read_apply]
  show A _ = A j
  refine congrArg A ?_
  funext d
  apply Fin.ext
  match d with
  | ⟨0, _⟩ => show win0_19.index t (0 : Fin 2) * 128 + 1 * (j 0).val = (j 0).val; omega
  | ⟨1, _⟩ => show win0_19.index t (1 : Fin 2) * 17 + 1 * (j 1).val = (j 1).val; omega

theorem blk19 (c : Dev nD) (t : Fin cfg0.N) :
    (iblk m c 19 t : Vec Ideal S128x17 .f32) = (V m c main_v75 : S128x17.Idx → Elt Ideal .f32) :=
  read19 t (V m c main_v75)

/-- Window 20's block at every point, read off any contents of its array, is those contents. -/
theorem read20 (t : Fin cfg0.N) (A : S1x17.Idx → Elt Ideal .f32) :
    (((cfg0.win 20).blk t).view.read (Elt Ideal) A : Vec Ideal S1x17 .f32) = A := by
  obtain ⟨-, -, -, -, -, -, -, -, -, -, -, -, -, -, -, -, -, -, -, -, -, -, -, -, h0, h1, -⟩ := idx_whole t
  funext j
  rw [View.read_apply]
  show A _ = A j
  refine congrArg A ?_
  funext d
  apply Fin.ext
  match d with
  | ⟨0, _⟩ => show win0_20.index t (0 : Fin 2) * 1 + 1 * (j 0).val = (j 0).val; omega
  | ⟨1, _⟩ => show win0_20.index t (1 : Fin 2) * 17 + 1 * (j 1).val = (j 1).val; omega

theorem blk20 (c : Dev nD) (t : Fin cfg0.N) :
    (iblk m c 20 t : Vec Ideal S1x17 .f32) = (V m c main_v77 : S1x17.Idx → Elt Ideal .f32) :=
  read20 t (V m c main_v77)

/-- Window 21's block at every point, read off any contents of its array, is those contents. -/
theorem read21 (t : Fin cfg0.N) (A : S1x128.Idx → Elt Ideal .f32) :
    (((cfg0.win 21).blk t).view.read (Elt Ideal) A : Vec Ideal S1x128 .f32) = A := by
  obtain ⟨-, -, -, -, -, -, -, -, -, -, -, -, -, -, -, -, -, -, -, -, -, -, -, -, -, -, h0, h1, -⟩ := idx_whole t
  funext j
  rw [View.read_apply]
  show A _ = A j
  refine congrArg A ?_
  funext d
  apply Fin.ext
  match d with
  | ⟨0, _⟩ => show win0_21.index t (0 : Fin 2) * 1 + 1 * (j 0).val = (j 0).val; omega
  | ⟨1, _⟩ => show win0_21.index t (1 : Fin 2) * 128 + 1 * (j 1).val = (j 1).val; omega

theorem blk21 (c : Dev nD) (t : Fin cfg0.N) :
    (iblk m c 21 t : Vec Ideal S1x128 .f32) = (V m c main_v111 : S1x128.Idx → Elt Ideal .f32) :=
  read21 t (V m c main_v111)

/-- Window 22's block at every point, read off any contents of its array, is those contents. -/
theorem read22 (t : Fin cfg0.N) (A : S1x1.Idx → Elt Ideal .f32) :
    (((cfg0.win 22).blk t).view.read (Elt Ideal) A : Vec Ideal S1x1 .f32) = A := by
  obtain ⟨-, -, -, -, -, -, -, -, -, -, -, -, -, -, -, -, -, -, -, -, -, -, -, -, -, -, -, -, h0, h1⟩ := idx_whole t
  funext j
  rw [View.read_apply]
  show A _ = A j
  refine congrArg A ?_
  funext d
  apply Fin.ext
  match d with
  | ⟨0, _⟩ => show win0_22.index t (0 : Fin 2) * 1 + 1 * (j 0).val = (j 0).val; omega
  | ⟨1, _⟩ => show win0_22.index t (1 : Fin 2) * 1 + 1 * (j 1).val = (j 1).val; omega

theorem blk22 (c : Dev nD) (t : Fin cfg0.N) :
    (iblk m c 22 t : Vec Ideal S1x1 .f32) = (V m c main_v117 : S1x1.Idx → Elt Ideal .f32) :=
  read22 t (V m c main_v117)

/-- The entry formula read at equal rows is equal. -/
theorem kOutRow_congr {e0 e0' : Fin 64 → EReal} {e1 e1' : Fin 64 → EReal} {e2 e2' : Fin 64 → EReal} {wg1 wg1' : Fin 128 → EReal} {bg1 bg1' : EReal} {wg2 wg2' : Fin 128 → EReal} {bg2 bg2' : EReal} {sg sg' : EReal} {f1 f1' : Fin 128 → EReal} {f2 f2' : Fin 128 → EReal} {f3 f3' : Fin 128 → EReal} {U11 U11' : Fin 64 → Fin 128 → EReal} {U12 U12' : Fin 64 → Fin 128 → EReal} {U13 U13' : Fin 64 → Fin 128 → EReal} {U14 U14' : Fin 64 → Fin 128 → EReal} {U15 U15' : Fin 64 → Fin 128 → EReal} {U16 U16' : Fin 64 → Fin 128 → EReal} {W2a W2a' : Fin 17 → Fin 128 → EReal} {B2a B2a' : Fin 17 → EReal} {W2b W2b' : Fin 17 → Fin 128 → EReal} {B2b B2b' : Fin 17 → EReal} {dw dw' : Fin 128 → EReal} {db db' : EReal}
    (h0 : e0 = e0') (h1 : e1 = e1') (h2 : e2 = e2') (h3 : wg1 = wg1') (h4 : bg1 = bg1') (h5 : wg2 = wg2') (h6 : bg2 = bg2') (h7 : sg = sg') (h8 : f1 = f1') (h9 : f2 = f2') (h10 : f3 = f3') (h11 : U11 = U11') (h12 : U12 = U12') (h13 : U13 = U13') (h14 : U14 = U14') (h15 : U15 = U15') (h16 : U16 = U16') (h17 : W2a = W2a') (h18 : B2a = B2a') (h19 : W2b = W2b') (h20 : B2b = B2b') (h21 : dw = dw') (h22 : db = db') :
    kOutRow e0 e1 e2 wg1 bg1 wg2 bg2 sg f1 f2 f3 U11 U12 U13 U14 U15 U16 W2a B2a W2b B2b dw db = kOutRow e0' e1' e2' wg1' bg1' wg2' bg2' sg' f1' f2' f3' U11' U12' U13' U14' U15' U16' W2a' B2a' W2b' B2b' dw' db' := by
  subst h0 h1 h2 h3 h4 h5 h6 h7 h8 h9 h10 h11 h12 h13 h14 h15 h16 h17 h18 h19 h20 h21 h22
  rfl

/-- Entry (b, a) of the region's output array, from the rows of the arrays the region found. -/
def entry (c : Dev nD) (b : Fin 256) (a : Fin 1024) : Elt Ideal .f32 :=
  kOutRow (fun e => (V m c main_v10 : S1024x64.Idx → Elt Ideal .f32) (ix2 a e)) (fun e => (V m c main_v17 : S1024x64.Idx → Elt Ideal .f32) (ix2 a e)) (fun e => (V m c main_v24 : S1024x64.Idx → Elt Ideal .f32) (ix2 a e))
        (fun k => (V m c main_v84 : S1024x128.Idx → Elt Ideal .f32) (ix2 a k)) ((V m c main_v124 : S1x1024.Idx → Elt Ideal .f32) (ix2 0 a)) (fun k => (V m c main_v98 : S1024x128.Idx → Elt Ideal .f32) (ix2 a k)) ((V m c main_v125 : S1x1024.Idx → Elt Ideal .f32) (ix2 0 a)) ((V m c main_v123 : S1x1024.Idx → Elt Ideal .f32) (ix2 0 a))
        (fun k => (V m c main_v49 : S256x128.Idx → Elt Ideal .f32) (ix2 b k)) (fun k => (V m c main_v55 : S256x128.Idx → Elt Ideal .f32) (ix2 b k)) (fun k => (V m c main_v61 : S256x128.Idx → Elt Ideal .f32) (ix2 b k))
        (fun e k => (V m c main_v63 : S64x128.Idx → Elt Ideal .f32) (ix2 e k)) (fun e k => (V m c main_v65 : S64x128.Idx → Elt Ideal .f32) (ix2 e k)) (fun e k => (V m c main_v67 : S64x128.Idx → Elt Ideal .f32) (ix2 e k))
        (fun e k => (V m c main_v69 : S64x128.Idx → Elt Ideal .f32) (ix2 e k)) (fun e k => (V m c main_v71 : S64x128.Idx → Elt Ideal .f32) (ix2 e k)) (fun e k => (V m c main_v73 : S64x128.Idx → Elt Ideal .f32) (ix2 e k))
        (fun v k => (V m c main_v74 : S128x17.Idx → Elt Ideal .f32) (ix2 k v)) (fun v => (V m c main_v76 : S1x17.Idx → Elt Ideal .f32) (ix2 0 v)) (fun v k => (V m c main_v75 : S128x17.Idx → Elt Ideal .f32) (ix2 k v)) (fun v => (V m c main_v77 : S1x17.Idx → Elt Ideal .f32) (ix2 0 v))
        (fun k => (V m c main_v111 : S1x128.Idx → Elt Ideal .f32) (ix2 0 k)) ((V m c main_v117 : S1x1.Idx → Elt Ideal .f32) (ix2 0 0))

/-- What the body leaves at entry (r, q) of the output block at point t: the entry formula at batch row r and action 128 t + q. -/
theorem after_apply (c : Dev nD) (t : Fin cfg0.N) (r : Fin 256) (q : Fin 128) (a : Fin 1024) (ha : a.val = 128 * t.val + q.val) :
    ((dats m 0 c).after 23 t : Vec Ideal S256x128 .f32) (ix2 r q) = entry m c r a := by
  rw [after0_23]
  refine (Body.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) r q).trans ?_
  unfold entry
  exact kOutRow_congr (blk0 m c t q a ha)
    (blk1 m c t q a ha)
    (blk2 m c t q a ha)
    (blk3 m c t q a ha)
    (blk4 m c t q a ha)
    (blk5 m c t q a ha)
    (blk6 m c t q a ha)
    (blk7 m c t q a ha)
    (congrArg (fun (X : Vec Ideal S256x128 .f32) (k : Fin 128) => X (ix2 r k)) (blk8 m c t))
    (congrArg (fun (X : Vec Ideal S256x128 .f32) (k : Fin 128) => X (ix2 r k)) (blk9 m c t))
    (congrArg (fun (X : Vec Ideal S256x128 .f32) (k : Fin 128) => X (ix2 r k)) (blk10 m c t))
    (congrArg (fun (X : Vec Ideal S64x128 .f32) (e : Fin 64) (k : Fin 128) => X (ix2 e k)) (blk11 m c t))
    (congrArg (fun (X : Vec Ideal S64x128 .f32) (e : Fin 64) (k : Fin 128) => X (ix2 e k)) (blk12 m c t))
    (congrArg (fun (X : Vec Ideal S64x128 .f32) (e : Fin 64) (k : Fin 128) => X (ix2 e k)) (blk13 m c t))
    (congrArg (fun (X : Vec Ideal S64x128 .f32) (e : Fin 64) (k : Fin 128) => X (ix2 e k)) (blk14 m c t))
    (congrArg (fun (X : Vec Ideal S64x128 .f32) (e : Fin 64) (k : Fin 128) => X (ix2 e k)) (blk15 m c t))
    (congrArg (fun (X : Vec Ideal S64x128 .f32) (e : Fin 64) (k : Fin 128) => X (ix2 e k)) (blk16 m c t))
    (congrArg (fun (X : Vec Ideal S128x17 .f32) (v : Fin 17) (k : Fin 128) => X (ix2 k v)) (blk17 m c t))
    (congrArg (fun (X : Vec Ideal S1x17 .f32) (v : Fin 17) => X (ix2 0 v)) (blk18 m c t))
    (congrArg (fun (X : Vec Ideal S128x17 .f32) (v : Fin 17) (k : Fin 128) => X (ix2 k v)) (blk19 m c t))
    (congrArg (fun (X : Vec Ideal S1x17 .f32) (v : Fin 17) => X (ix2 0 v)) (blk20 m c t))
    (congrArg (fun (X : Vec Ideal S1x128 .f32) (k : Fin 128) => X (ix2 0 k)) (blk21 m c t))
    (congrArg (fun (X : Vec Ideal S1x1 .f32) => X (ix2 0 0)) (blk22 m c t))

/-- What point t writes back is its block of the entry formula. -/
theorem flushed_eq (c : Dev nD) (t : Fin cfg0.N) :
    (dats m 0 c).flushed 23 t = ((cfg0.win 23).blk t).view.read (Elt Ideal) (fun i : S256x1024.Idx => entry m c (i 0) (i 1)) := by
  obtain ⟨-, -, -, -, -, -, h0, h1⟩ := idx_cols t
  have ht : t.val < 8 := lt_of_lt_of_eq t.isLt N_0
  funext y
  have hr : (y 0).val < 256 := (y 0).isLt
  have hq : (y 1).val < 128 := (y 1).isLt
  have key := after_apply m c t ⟨(y 0).val, hr⟩ ⟨(y 1).val, hq⟩ ⟨128 * t.val + (y 1).val, by omega⟩ rfl
  have hy : (ix2 (⟨(y 0).val, hr⟩ : Fin 256) (⟨(y 1).val, hq⟩ : Fin 128) : S256x128.Idx) = y := by
    funext d; match d with | ⟨0, _⟩ => rfl | ⟨1, _⟩ => rfl
  rw [hy] at key
  refine key.trans ?_
  show entry m c _ _ = entry m c (((cfg0.win 23).blk t).view.emb y 0) (((cfg0.win 23).blk t).view.emb y 1)
  refine congrArg₂ (entry m c) (Fin.ext ?_) (Fin.ext ?_)
  · show (y 0).val = win0_23.index t (0 : Fin 2) * 256 + 1 * (y 0).val; omega
  · show 128 * t.val + (y 1).val = win0_23.index t (1 : Fin 2) * 128 + 1 * (y 1).val; omega

/-- An index of the output array is in point t's block iff each coordinate is in the block's range on its axis. -/
theorem mem_blk (t : Fin cfg0.N) (i : S256x1024.Idx) :
    i ∈ ((cfg0.win 23).blk t).view.set ↔ ∀ a : Fin 2, win0_23.index t a * S256x128.size a ≤ (i a).val ∧ (i a).val < win0_23.index t a * S256x128.size a + S256x128.size a := by
  show i ∈ ((View.whole main_v126).slice (win0_23.rect t)).set ↔ _
  rw [View.set_slice_whole, Rect.mem_set_unit]
  exact Iff.rfl

/-- The eight column blocks tile the output array: column a lies in point a / 128's block. -/
theorem cover (i : S256x1024.Idx) : ∃ t : Fin cfg0.N, (cfg0.win 23).flush t = true ∧ i ∈ ((cfg0.win 23).blk t).view.set := by
  have hi0 : (i 0).val < 256 := (i 0).isLt
  have hi1 : (i 1).val < 1024 := (i 1).isLt
  have hN : cfg0.N = 8 := N_0
  have ht8 : (i 1).val / 128 < cfg0.N := by rw [hN]; omega
  obtain ⟨-, -, -, -, -, -, h0, h1⟩ := idx_cols ⟨(i 1).val / 128, ht8⟩
  refine ⟨⟨(i 1).val / 128, ht8⟩, flush0_23 _, ?_⟩
  rw [mem_blk]
  intro a
  match a with
  | ⟨0, _⟩ =>
    show win0_23.index ⟨(i 1).val / 128, ht8⟩ (0 : Fin 2) * 256 ≤ (i 0).val ∧ (i 0).val < win0_23.index ⟨(i 1).val / 128, ht8⟩ (0 : Fin 2) * 256 + 256
    rw [h0]; omega
  | ⟨1, _⟩ =>
    show win0_23.index ⟨(i 1).val / 128, ht8⟩ (1 : Fin 2) * 128 ≤ (i 1).val ∧ (i 1).val < win0_23.index ⟨(i 1).val / 128, ht8⟩ (1 : Fin 2) * 128 + 128
    rw [h1]; show (i 1).val / 128 * 128 ≤ (i 1).val ∧ (i 1).val < (i 1).val / 128 * 128 + 128; omega

/-- The output array after the run is the entry formula at every index. -/
theorem final (c : Dev nD) : (dats m 0 c).arrAt 23 cfg0.N = (fun i : S256x1024.Idx => entry m c (i 0) (i 1)) :=
  (dats m 0 c).arrAt_eq_of_cover 23 _ (fun t _ => flushed_eq m c t) cover

/-- Entry (b, a) of the output array after the region, from the arrays the region found. -/
theorem arr_apply (c : Dev nD) (b : Fin 256) (a : Fin 1024) :
    ((dats m 0 c).arrAt 23 cfg0.N : S256x1024.Idx → Elt Ideal .f32) (ix2 b a)
      = kOutRow (fun e => (V m c main_v10 : S1024x64.Idx → Elt Ideal .f32) (ix2 a e)) (fun e => (V m c main_v17 : S1024x64.Idx → Elt Ideal .f32) (ix2 a e)) (fun e => (V m c main_v24 : S1024x64.Idx → Elt Ideal .f32) (ix2 a e))
        (fun k => (V m c main_v84 : S1024x128.Idx → Elt Ideal .f32) (ix2 a k)) ((V m c main_v124 : S1x1024.Idx → Elt Ideal .f32) (ix2 0 a)) (fun k => (V m c main_v98 : S1024x128.Idx → Elt Ideal .f32) (ix2 a k)) ((V m c main_v125 : S1x1024.Idx → Elt Ideal .f32) (ix2 0 a)) ((V m c main_v123 : S1x1024.Idx → Elt Ideal .f32) (ix2 0 a))
        (fun k => (V m c main_v49 : S256x128.Idx → Elt Ideal .f32) (ix2 b k)) (fun k => (V m c main_v55 : S256x128.Idx → Elt Ideal .f32) (ix2 b k)) (fun k => (V m c main_v61 : S256x128.Idx → Elt Ideal .f32) (ix2 b k))
        (fun e k => (V m c main_v63 : S64x128.Idx → Elt Ideal .f32) (ix2 e k)) (fun e k => (V m c main_v65 : S64x128.Idx → Elt Ideal .f32) (ix2 e k)) (fun e k => (V m c main_v67 : S64x128.Idx → Elt Ideal .f32) (ix2 e k))
        (fun e k => (V m c main_v69 : S64x128.Idx → Elt Ideal .f32) (ix2 e k)) (fun e k => (V m c main_v71 : S64x128.Idx → Elt Ideal .f32) (ix2 e k)) (fun e k => (V m c main_v73 : S64x128.Idx → Elt Ideal .f32) (ix2 e k))
        (fun v k => (V m c main_v74 : S128x17.Idx → Elt Ideal .f32) (ix2 k v)) (fun v => (V m c main_v76 : S1x17.Idx → Elt Ideal .f32) (ix2 0 v)) (fun v k => (V m c main_v75 : S128x17.Idx → Elt Ideal .f32) (ix2 k v)) (fun v => (V m c main_v77 : S1x17.Idx → Elt Ideal .f32) (ix2 0 v))
        (fun k => (V m c main_v111 : S1x128.Idx → Elt Ideal .f32) (ix2 0 k)) ((V m c main_v117 : S1x1.Idx → Elt Ideal .f32) (ix2 0 0)) := by
  exact congrFun (final m c) (ix2 b a)

/-- The program's result: the opcode head's array plus the region's output array. -/
def res (c : Dev nD) : Buf (Elt Ideal) ((c.tc : Thread nD τ).loc main_v127) :=
  (addf (F := Ideal) (V m c main_v43 : FVec Ideal S256x1024 .f32)
    ((dats m 0 c).arrAt 23 cfg0.N : FVec Ideal S256x1024 .f32) : FVec Ideal S256x1024 .f32)

/-- The one line after the region leaves, in the result's buffer, the sum of the opcode head's array as the region found it
    and the region's output array. -/
theorem tail_res (c : Dev nD) : Pipeline.afterTail₀ cfgs (dats m) 0 (V0 m) [hostOps1] c main_v127 = res m c := by
  unfold Pipeline.afterTail₀
  simp only [List.flatten_cons, List.flatten_nil, List.append_nil]
  after_results
  rw [Pipeline.withArrays_of_ne _ c (V0 m c) _ main_v43 (by exact (by decide : ∀ w, Pipeline.arrRef spec0 w ≠ main_v43)),
    Pipeline.withArrays_arr spec0 launch0.win.arr_inj c _ _ 23]
  rfl

/-- Every weakly fair execution terminates with the result at res and the arguments unchanged. -/
theorem run : θ_run defs (onTc (τ := τ) (main (F := Ideal))) ⟨m, fun _ => 0, ρ⟩ (fun r => ∀ c : Dev nD,
      r.2.mem ((c.tc : Thread nD τ).loc main_v127) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).2 main_v127 (Pipeline.mem_restRefs_of main_v127 (by decide) (by decide))).trans (tail_res m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c)⟩)
    (run_main m ρ)

end Cert.KernelIdeal.KVal

end
-- ==== Proof.Algebra.lean ====
/-
  The two ways of computing one head's log-probability agree on real data.

  For real logits lg (finitely many, at least one) let M be their maximum and L = log (sum over v of exp (lg v - M)); M is one of
  the logits, so it is real, and the sum is a sum of positive reals, so L is real. Then
      lg j - (M + L) = (lg j - M) - L
  is an identity of real numbers; the reference's extra max with minus infinity and its sum's initial 0 change nothing.
  For two classes the closed form is the identity, for real l0 l1 and d = l1 - l0, s = 1 - 2 j:
      -(max (s d) 0 + log (1 + exp (-|s d|))) = l_j - max l0 l1 - log (exp (l0 - max) + exp (l1 - max)),
  and d itself is the logit of the difference row because a finite sum of real products distributes.
-/
import proofs.«411827_j42236708388866_3_alg».proof.Proof.Spec

noncomputable section

namespace Cert.Spec

open Idealize.ShloMosaic
open scoped BigOperators

/-- Sums, products, differences and maxima of real numbers are real. -/
theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- The coercion of reals into extended reals commutes with the maximum. -/
theorem coe_max' (a b : ℝ) : ((max a b : ℝ) : EReal) = max (a : EReal) (b : EReal) :=
  EReal.coe_strictMono.monotone.map_max

/-- The coercion commutes with finite sums. -/
theorem coe_sum' {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsR.sum {ι : Type*} (s : Finset ι) (f : ι → EReal) (h : ∀ i, IsR (f i)) : IsR (∑ i ∈ s, f i) := by
  choose g hg using h
  exact ⟨∑ i ∈ s, g i, by rw [← coe_sum']; exact Finset.sum_congr rfl (fun i _ => hg i)⟩

theorem hid_real (f ep : Fin 128 → EReal) (hf : ∀ k, IsR (f k)) (hep : ∀ k, IsR (ep k)) (k : Fin 128) :
    IsR (hid f ep k) := by
  obtain ⟨a, ha⟩ := hf k
  obtain ⟨b, hb⟩ := hep k
  refine ⟨max (a + b) 0, ?_⟩
  rw [hid, ha, hb, coe_max', EReal.coe_add, EReal.coe_zero]

theorem dot64_real (x w : Fin 64 → EReal) (hx : ∀ e, IsR (x e)) (hw : ∀ e, IsR (w e)) : IsR (dot64 x w) :=
  IsR.sum _ _ (fun e => (hx e).mul (hw e))

theorem logit_real (h w : Fin 128 → EReal) (b : EReal) (hh : ∀ k, IsR (h k)) (hw : ∀ k, IsR (w k)) (hb : IsR b) :
    IsR (logit h w b) :=
  (IsR.sum _ _ (fun k => (hh k).mul (hw k))).add hb

/-- A logit of real data, with the coercions pushed out. -/
theorem logit_coe (a c : Fin 128 → ℝ) (b : ℝ) :
    logit (fun k => (a k : EReal)) (fun k => (c k : EReal)) (b : EReal) = ((∑ k, a k * c k + b : ℝ) : EReal) := by
  rw [logit, EReal.coe_add, ← coe_sum']
  simp only [EReal.coe_mul]

/-- The running maximum from minus infinity over a finite set of reals is minus infinity or a real. -/
theorem fold_max_real {ι : Type*} (s : Finset ι) (f : ι → ℝ) :
    s.fold max (⊥ : EReal) (fun i => (f i : EReal)) = ⊥
      ∨ ∃ M : ℝ, s.fold max (⊥ : EReal) (fun i => (f i : EReal)) = (M : EReal) := by
  classical
  induction s using Finset.induction_on with
  | empty => left; rfl
  | insert a s ha ih =>
    right
    rw [Finset.fold_insert ha]
    rcases ih with h | ⟨M, h⟩
    · exact ⟨f a, by rw [h, max_bot_right]⟩
    · exact ⟨max (f a) M, by rw [h, coe_max']⟩

/-- Over a nonempty index type the running maximum of reals is a real. -/
theorem vmax_real {V : ℕ} (l : Fin V → ℝ) (j : Fin V) : ∃ M : ℝ, vmax (fun v => (l v : EReal)) = (M : EReal) := by
  classical
  unfold vmax
  rw [← Finset.insert_erase (Finset.mem_univ j), Finset.fold_insert (Finset.notMem_erase j _)]
  rcases fold_max_real (Finset.univ.erase j) l with h | ⟨M, h⟩
  · exact ⟨l j, by rw [h, max_bot_right]⟩
  · exact ⟨max (l j) M, by rw [h, coe_max']⟩

/-- The sum of the shifted exponentials of reals is the coercion of a real sum. -/
theorem sum_exp_coe {V : ℕ} (l : Fin V → ℝ) (M : ℝ) :
    (∑ v, Ideal.exp ((l v : EReal) - (M : EReal))) = ((∑ v, Real.exp (l v - M) : ℝ) : EReal) := by
  rw [← coe_sum']
  refine Finset.sum_congr rfl (fun v _ => ?_)
  rw [← EReal.coe_sub, Ideal.exp_coe]

theorem sum_exp_pos {V : ℕ} (l : Fin V → ℝ) (M : ℝ) (j : Fin V) : 0 < ∑ v, Real.exp (l v - M) :=
  Finset.sum_pos (fun v _ => Real.exp_pos _) ⟨j, Finset.mem_univ j⟩

theorem log_coe_pos {S : ℝ} (hS : 0 < S) : Ideal.log (S : EReal) = (Real.log S : EReal) := by
  rw [Ideal.log_coe, if_neg (not_le.2 hS)]

/-- The kernel's normalizer on real logits, for the real M that the running maximum is. -/
theorem lse_coe {V : ℕ} (l : Fin V → ℝ) (j : Fin V) {M : ℝ} (hM : vmax (fun v => (l v : EReal)) = (M : EReal)) :
    lse (fun v => (l v : EReal)) = ((M + Real.log (∑ v, Real.exp (l v - M)) : ℝ) : EReal) := by
  unfold lse
  rw [hM, sum_exp_coe, log_coe_pos (sum_exp_pos l M j), EReal.coe_add]

/-- The reference's log-softmax entry on real logits, for the real M that the running maximum is. -/
theorem logSoftmax_coe {V : ℕ} (l : Fin V → ℝ) (j : Fin V) {M : ℝ} (hM : vmax (fun v => (l v : EReal)) = (M : EReal)) :
    logSoftmax (fun v => (l v : EReal)) j = (((l j - M) - Real.log (∑ v, Real.exp (l v - M)) : ℝ) : EReal) := by
  unfold logSoftmax
  rw [hM, max_bot_left, zero_add, sum_exp_coe, log_coe_pos (sum_exp_pos l M j), EReal.coe_sub, EReal.coe_sub]

/-- Shifting all logits by M does not change the log-softmax: the entry is l j - log (sum of exp l v). -/
theorem shift_inv {V : ℕ} (l : Fin V → ℝ) (j : Fin V) (M : ℝ) :
    (l j - M) - Real.log (∑ v, Real.exp (l v - M)) = l j - Real.log (∑ v, Real.exp (l v)) := by
  have h1 : (∑ v, Real.exp (l v - M)) = (∑ v, Real.exp (l v)) * Real.exp (-M) := by
    rw [Finset.sum_mul]
    refine Finset.sum_congr rfl (fun v _ => ?_)
    rw [← Real.exp_add, sub_eq_add_neg]
  have h2 : (0 : ℝ) < ∑ v, Real.exp (l v) := by
    have := sum_exp_pos l 0 j
    simpa using this
  rw [h1, Real.log_mul h2.ne' (Real.exp_pos _).ne', Real.log_exp]
  ring

/-- A 17-class (or any nonempty) head: the kernel's gathered-logit-minus-normalizer is the reference's log-softmax entry. -/
theorem full_eq {V : ℕ} (h : Fin 128 → EReal) (W : Fin V → Fin 128 → EReal) (B : Fin V → EReal) (j : Fin V)
    (hh : ∀ k, IsR (h k)) (hW : ∀ v k, IsR (W v k)) (hB : ∀ v, IsR (B v)) :
    kFull h W B (W j) (B j) = rFull h W B j := by
  have hl : ∀ v, IsR (logit h (W v) (B v)) := fun v => logit_real h (W v) (B v) hh (hW v) (hB v)
  choose l hl using hl
  have hfun : (fun v => logit h (W v) (B v)) = fun v => (l v : EReal) := funext hl
  obtain ⟨M, hM⟩ := vmax_real l j
  unfold kFull rFull
  rw [hfun, hl j, lse_coe l j hM, logSoftmax_coe l j hM, ← EReal.coe_sub]
  congr 1
  ring

/-- softplus of a real z, as it is lowered, is log (1 + exp z). -/
theorem softplus_coe (z : ℝ) : softplus (z : EReal) = ((Real.log (1 + Real.exp z) : ℝ) : EReal) := by
  have hpos : (0 : ℝ) < 1 + Real.exp (0 - max (z - 0) (-(z - 0))) := by positivity
  have key : max z 0 + Real.log (1 + Real.exp (0 - max (z - 0) (-(z - 0)))) = Real.log (1 + Real.exp z) := by
    simp only [sub_zero, zero_sub]
    rcases le_total 0 z with hz | hz
    · rw [max_eq_left hz, max_eq_left (by linarith : -z ≤ z)]
      have : (1 : ℝ) + Real.exp z = Real.exp z * (1 + Real.exp (-z)) := by
        rw [mul_add, mul_one, ← Real.exp_add, add_neg_cancel, Real.exp_zero, add_comm]
      rw [this, Real.log_mul (Real.exp_pos _).ne' (by positivity), Real.log_exp]
    · rw [max_eq_right hz, max_eq_right (by linarith : z ≤ -z), neg_neg, zero_add]
  unfold softplus Ideal.log1p
  rw [← EReal.coe_zero, ← EReal.coe_sub, ← EReal.coe_neg, ← coe_max', ← coe_max', ← EReal.coe_sub, Ideal.exp_coe,
    ← EReal.coe_one, ← EReal.coe_add, log_coe_pos hpos, ← EReal.coe_add, key]

/-- The closed form for two classes: minus softplus of the signed difference is the log-softmax entry. -/
theorem two_class (l0 l1 : ℝ) :
    -Real.log (1 + Real.exp (l1 - l0)) = l0 - Real.log (Real.exp l0 + Real.exp l1) := by
  have : Real.exp l0 + Real.exp l1 = Real.exp l0 * (1 + Real.exp (l1 - l0)) := by
    rw [mul_add, mul_one, ← Real.exp_add]
    congr 2
    ring
  rw [this, Real.log_mul (Real.exp_pos _).ne' (by positivity), Real.log_exp]
  ring

/-- The 2-class head: the kernel's closed form is the reference's log-softmax entry. -/
theorem imm_eq (h : Fin 128 → EReal) (W : Fin 2 → Fin 128 → EReal) (B : Fin 2 → EReal) (j : Fin 2)
    (hh : ∀ k, IsR (h k)) (hW : ∀ v k, IsR (W v k)) (hB : ∀ v, IsR (B v)) :
    kImm h (fun k => W 1 k - W 0 k) (B 1 - B 0) (sgn j) = rFull h W B j := by
  choose a ha using hh
  choose w hw using hW
  choose b hb using hB
  obtain rfl : h = fun k => (a k : EReal) := funext ha
  obtain rfl : W = fun v k => (w v k : EReal) := funext (fun v => funext (hw v))
  obtain rfl : B = fun v => (b v : EReal) := funext hb
  -- the real logits
  set l : Fin 2 → ℝ := fun v => ∑ k, a k * w v k + b v with hl
  have hlg : (fun v : Fin 2 => logit (fun k => (a k : EReal)) (fun k => (w v k : EReal)) (b v : EReal))
      = fun v => (l v : EReal) := funext (fun v => logit_coe a (w v) (b v))
  -- the logit of the difference row is the difference of the logits
  have hd : logit (fun k => (a k : EReal)) (fun k => (w 1 k : EReal) - (w 0 k : EReal)) ((b 1 : EReal) - (b 0 : EReal))
      = ((l 1 - l 0 : ℝ) : EReal) := by
    simp only [← EReal.coe_sub]
    rw [logit_coe a (fun k => w 1 k - w 0 k) (b 1 - b 0)]
    congr 1
    simp only [hl, mul_sub, Finset.sum_sub_distrib]
    ring
  obtain ⟨M, hM⟩ := vmax_real l j
  unfold kImm rFull
  rw [hd, hlg, logSoftmax_coe l j hM, shift_inv l j M, Fin.sum_univ_two, sgn, ← EReal.coe_mul, softplus_coe,
    ← EReal.coe_zero, ← EReal.coe_sub]
  congr 1
  fin_cases j
  · simp only [Fin.zero_eta, Fin.val_zero, Nat.cast_zero, mul_zero, sub_zero, one_mul, zero_sub]
    exact two_class (l 0) (l 1)
  · simp only [Fin.mk_one, Fin.val_one, Nat.cast_one, mul_one, zero_sub]
    have h2 := two_class (l 1) (l 0)
    rw [add_comm (Real.exp (l 1))] at h2
    have h3 : ((1 : ℝ) - 2) * (l 1 - l 0) = l 0 - l 1 := by ring
    rw [h3]
    exact h2

/-- One whole entry: the opcode number plus the kernel's three head contributions is the reference's running sum. -/
theorem out_eq (op : EReal) (e0 e1 e2 : Fin 64 → EReal) (f1 f2 f3 : Fin 128 → EReal)
    (U11 U12 U13 U14 U15 U16 : Fin 64 → Fin 128 → EReal)
    (W2a : Fin 17 → Fin 128 → EReal) (B2a : Fin 17 → EReal) (j1 : Fin 17)
    (W2b : Fin 17 → Fin 128 → EReal) (B2b : Fin 17 → EReal) (j2 : Fin 17)
    (W2c : Fin 2 → Fin 128 → EReal) (B2c : Fin 2 → EReal) (j3 : Fin 2)
    (he0 : ∀ e, IsR (e0 e)) (he1 : ∀ e, IsR (e1 e)) (he2 : ∀ e, IsR (e2 e))
    (hf1 : ∀ k, IsR (f1 k)) (hf2 : ∀ k, IsR (f2 k)) (hf3 : ∀ k, IsR (f3 k))
    (hU11 : ∀ e k, IsR (U11 e k)) (hU12 : ∀ e k, IsR (U12 e k)) (hU13 : ∀ e k, IsR (U13 e k))
    (hU14 : ∀ e k, IsR (U14 e k)) (hU15 : ∀ e k, IsR (U15 e k)) (hU16 : ∀ e k, IsR (U16 e k))
    (hW2a : ∀ v k, IsR (W2a v k)) (hB2a : ∀ v, IsR (B2a v)) (hW2b : ∀ v k, IsR (W2b v k)) (hB2b : ∀ v, IsR (B2b v))
    (hW2c : ∀ v k, IsR (W2c v k)) (hB2c : ∀ v, IsR (B2c v)) :
    op + kOutRow e0 e1 e2 (W2a j1) (B2a j1) (W2b j2) (B2b j2) (sgn j3) f1 f2 f3 U11 U12 U13 U14 U15 U16
        W2a B2a W2b B2b (fun k => W2c 1 k - W2c 0 k) (B2c 1 - B2c 0)
      = rOutRow op e0 e1 e2 f1 f2 f3 U11 U12 U13 U14 U15 U16 W2a B2a j1 W2b B2b j2 W2c B2c j3 := by
  have hep1 : ∀ k, IsR (ep1 e0 U11 k) := fun k => dot64_real _ _ he0 (fun e => hU11 e k)
  have hep2 : ∀ k, IsR (ep2 e0 e1 U12 U13 k) := fun k =>
    (dot64_real _ _ he0 (fun e => hU12 e k)).add (dot64_real _ _ he1 (fun e => hU13 e k))
  have hep3 : ∀ k, IsR (ep3 e0 e1 e2 U14 U15 U16 k) := fun k =>
    ((dot64_real _ _ he0 (fun e => hU14 e k)).add (dot64_real _ _ he1 (fun e => hU15 e k))).add
      (dot64_real _ _ he2 (fun e => hU16 e k))
  unfold kOutRow rOutRow
  rw [full_eq _ W2a B2a j1 (hid_real f1 _ hf1 hep1) hW2a hB2a,
    full_eq _ W2b B2b j2 (hid_real f2 _ hf2 hep2) hW2b hB2b,
    imm_eq _ W2c B2c j3 (hid_real f3 _ hf3 hep3) hW2c hB2c, ← add_assoc, ← add_assoc]

end Cert.Spec

end
-- ==== Proof.KPrefixA.lean ====
/-
  The arrays the region finds, as the reference's own stages.

  Before its one kernel launch the program clips the four id vectors, gathers the embedding rows, computes the opcode head
  whole, projects the features through the first 512 columns of each head's first weight matrix, and slices and transposes
  the embedding-side columns. The reference does the same operations in the same order, so each of these arrays is, as a
  function of the arguments, the reference's stage of the same name: nothing is computed here, the two spellings of one term
  are compared.

  Each proof reads the array off the fold of the host operations over the launch memory — every operation's result at its own
  buffer is its function applied to its operands' contents, and any other buffer keeps what it held — which leaves the composed
  term over the arguments; the reference's stage unfolds to the same term, the two differing only in the namespace in which
  the shapes and dimension records are spelt. The statements are over an arbitrary float carrier `F`.
-/
import proofs.«411827_j42236708388866_3_alg».proof.Proof.Gen.KernelIdeal.Frame
import proofs.«411827_j42236708388866_3_alg».proof.Proof.RefStages
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The rows of the 65-row table (argument 5) gathered by argument 1's ids, clipped to [0, 64] and wrapped when negative. -/
theorem V_main_v10 (c : Dev nD) : V m c main_v10 = Cert.ReferenceIdeal.Read.val_main_v10 (m ((c.tc : Thread nD τ).loc main_arg1)) (m ((c.tc : Thread nD τ).loc main_arg5)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The rows of the 17-row table (argument 6) gathered by argument 2's ids, clipped to [0, 16] and wrapped when negative. -/
theorem V_main_v17 (c : Dev nD) : V m c main_v17 = Cert.ReferenceIdeal.Read.val_main_v17 (m ((c.tc : Thread nD τ).loc main_arg2)) (m ((c.tc : Thread nD τ).loc main_arg6)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The rows of the same 17-row table gathered by argument 3's ids, clipped to [0, 16] and wrapped when negative. -/
theorem V_main_v24 (c : Dev nD) : V m c main_v24 = Cert.ReferenceIdeal.Read.val_main_v24 (m ((c.tc : Thread nD τ).loc main_arg3)) (m ((c.tc : Thread nD τ).loc main_arg6)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The features (argument 0) times the transposed first 512 columns of argument 11, plus argument 12 broadcast along the rows. -/
theorem V_main_v49 (c : Dev nD) : V m c main_v49 = Cert.ReferenceIdeal.Read.val_main_v49 (m ((c.tc : Thread nD τ).loc main_arg0)) (m ((c.tc : Thread nD τ).loc main_arg11)) (m ((c.tc : Thread nD τ).loc main_arg12)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The same projection through the first 512 columns of argument 15, plus argument 16. -/
theorem V_main_v55 (c : Dev nD) : V m c main_v55 = Cert.ReferenceIdeal.Read.val_main_v74 (m ((c.tc : Thread nD τ).loc main_arg0)) (m ((c.tc : Thread nD τ).loc main_arg15)) (m ((c.tc : Thread nD τ).loc main_arg16)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The same projection through the first 512 columns of argument 19, plus argument 20. -/
theorem V_main_v61 (c : Dev nD) : V m c main_v61 = Cert.ReferenceIdeal.Read.val_main_v103 (m ((c.tc : Thread nD τ).loc main_arg0)) (m ((c.tc : Thread nD τ).loc main_arg19)) (m ((c.tc : Thread nD τ).loc main_arg20)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- Columns 512 to 575 of argument 11, transposed. -/
theorem V_main_v63 (c : Dev nD) : V m c main_v63 = Cert.ReferenceIdeal.Read.val_main_v51 (m ((c.tc : Thread nD τ).loc main_arg11)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- Columns 512 to 575 of argument 15, transposed. -/
theorem V_main_v65 (c : Dev nD) : V m c main_v65 = Cert.ReferenceIdeal.Read.val_main_v76 (m ((c.tc : Thread nD τ).loc main_arg15)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- Columns 576 to 639 of argument 15, transposed. -/
theorem V_main_v67 (c : Dev nD) : V m c main_v67 = Cert.ReferenceIdeal.Read.val_main_v79 (m ((c.tc : Thread nD τ).loc main_arg15)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- Columns 512 to 575 of argument 19, transposed. -/
theorem V_main_v69 (c : Dev nD) : V m c main_v69 = Cert.ReferenceIdeal.Read.val_main_v105 (m ((c.tc : Thread nD τ).loc main_arg19)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- Columns 576 to 639 of argument 19, transposed. -/
theorem V_main_v71 (c : Dev nD) : V m c main_v71 = Cert.ReferenceIdeal.Read.val_main_v108 (m ((c.tc : Thread nD τ).loc main_arg19)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- Columns 640 to 703 of argument 19, transposed. -/
theorem V_main_v73 (c : Dev nD) : V m c main_v73 = Cert.ReferenceIdeal.Read.val_main_v112 (m ((c.tc : Thread nD τ).loc main_arg19)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

set_option maxHeartbeats 4000000 in
/-- The first head whole: the features through argument 7's projection and bias, the rectifier, argument 9's projection and
    bias, the log-softmax along the 65 classes, and of each row the columns picked by argument 1's clipped and wrapped ids.
    Forty operations; the values of the called functions pass through the identity transport between a buffer's type and its
    value's type, which is removed before the two terms are compared. -/
theorem V_main_v43 (c : Dev nD) : V m c main_v43 = Cert.ReferenceIdeal.Read.val_main_v43 (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  simp only [TRef.ofBuf, TRef.toBuf, cast_eq]
  rfl

/-- Argument 2's ids clipped to [0, 16]. -/
theorem V_main_v1 (c : Dev nD) : V m c main_v1 = Cert.ReferenceIdeal.Read.val_main_v1 (m ((c.tc : Thread nD τ).loc main_arg2)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- Argument 3's ids clipped to [0, 16]. -/
theorem V_main_v2 (c : Dev nD) : V m c main_v2 = Cert.ReferenceIdeal.Read.val_main_v2 (m ((c.tc : Thread nD τ).loc main_arg3)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- Argument 4's ids clipped to [0, 1]. -/
theorem V_main_v3 (c : Dev nD) : V m c main_v3 = Cert.ReferenceIdeal.Read.val_main_v3 (m ((c.tc : Thread nD τ).loc main_arg4)) := by
  dsimp only [Gen.V, Gen.V0]
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

end Cert.KernelIdeal.Prefix

end
-- ==== Proof.IdxRange.lean ====
/-
  The clipped id words are in range.

  Each id vector is clipped entry by entry, min (hi, max (0, x)) on signed 32-bit words with hi = 16 for the two register
  ids and hi = 1 for the immediate id (64 for the opcode id). So the clipped word, read signed, lies in [0, hi]; its unsigned
  value is then the same number, below the class count, and reducing it modulo the class count changes nothing.
-/
import proofs.«411827_j42236708388866_3_alg».proof.Proof.RefStages
import proofs.«411827_j42236708388866_3_alg».proof.Proof.Spec
import Idealize.ShloMosaic.Lib.ValueIdx

noncomputable section

namespace Cert.IdxRange

open Cert.ReferenceIdeal Cert.ReferenceIdeal.Read Idealize.ShloMosaic Idealize.ShloMosaic.ValueIdx Cert.Spec

variable {F : FTy → Type} [FloatOps F]

/-- A signed word clipped to [0, hi] (the larger of it and 0, then the smaller of that and hi) lies in [0, hi]. -/
theorem clip_range (hi x : BitVec 32) (hhi : 0 ≤ hi.toInt) :
    0 ≤ (IntOp.minsi hi (IntOp.maxsi 0#32 x)).toInt ∧ (IntOp.minsi hi (IntOp.maxsi 0#32 x)).toInt ≤ hi.toInt := by
  simp only [IntOp.minsi, IntOp.maxsi, BitVec.slt]
  have h0 : (0#32).toInt = 0 := by decide
  split_ifs with h1 h2 h2 <;> simp only [decide_eq_true_eq, h0] at * <;> omega

theorem v1_range (x2 : (⟨S1024, .i32⟩ : BufTy).Contents (Elt F)) (a : Fin 1024) :
    0 ≤ (val_main_v1 (F := F) x2 (ix1 a)).toInt ∧ (val_main_v1 (F := F) x2 (ix1 a)).toInt ≤ 16 := by
  rw [val_main_v1_apply, val_main_call1_v4_apply, val_main_call1_v3_apply, val_main_c_2_apply, val_main_call1_v2_apply,
    val_main_call1_v1_apply, val_main_call1_v0_apply, val_main_c_1_apply]
  exact clip_range 16#32 (x2 (ix1 a)) (by decide)

theorem v2_range (x3 : (⟨S1024, .i32⟩ : BufTy).Contents (Elt F)) (a : Fin 1024) :
    0 ≤ (val_main_v2 (F := F) x3 (ix1 a)).toInt ∧ (val_main_v2 (F := F) x3 (ix1 a)).toInt ≤ 16 := by
  rw [val_main_v2_apply, val_main_call2_v4_apply, val_main_call2_v3_apply, val_main_c_4_apply, val_main_call2_v2_apply,
    val_main_call2_v1_apply, val_main_call2_v0_apply, val_main_c_3_apply]
  exact clip_range 16#32 (x3 (ix1 a)) (by decide)

theorem v3_range (x4 : (⟨S1024, .i32⟩ : BufTy).Contents (Elt F)) (a : Fin 1024) :
    0 ≤ (val_main_v3 (F := F) x4 (ix1 a)).toInt ∧ (val_main_v3 (F := F) x4 (ix1 a)).toInt ≤ 1 := by
  rw [val_main_v3_apply, val_main_call3_v4_apply, val_main_call3_v3_apply, val_main_c_6_apply, val_main_call3_v2_apply,
    val_main_call3_v1_apply, val_main_call3_v0_apply, val_main_c_5_apply]
  exact clip_range 1#32 (x4 (ix1 a)) (by decide)

/-- A word whose signed value is not negative has its sign bit clear, so its unsigned value is the same number. -/
theorem toNat_of_toInt_nonneg (w : BitVec 32) (h0 : 0 ≤ w.toInt) : (w.toNat : ℤ) = w.toInt := by
  have hm : w.msb = false := by
    by_contra h
    have hm' : w.msb = true := by simpa using h
    have := BitVec.toInt_neg_of_msb_true hm'
    omega
  exact (BitVec.toInt_eq_toNat_of_msb hm).symm

/-- For a word whose signed value lies in [0, n) the class is the word: its unsigned value is its signed value. -/
theorem cls_val (n : ℕ) [NeZero n] (w : BitVec 32) (h0 : 0 ≤ w.toInt) (h1 : w.toInt < n) :
    ((cls n w).val : ℤ) = w.toInt := by
  have e := toNat_of_toInt_nonneg w h0
  unfold cls
  rw [Fin.val_ofNat, Nat.mod_eq_of_lt (by omega)]
  exact e

theorem cls_toNat (n : ℕ) [NeZero n] (w : BitVec 32) (h0 : 0 ≤ w.toInt) (h1 : w.toInt < n) :
    (cls n w).val = w.toNat := by
  have e := toNat_of_toInt_nonneg w h0
  unfold cls
  rw [Fin.val_ofNat]
  exact Nat.mod_eq_of_lt (by omega)

end Cert.IdxRange

end
-- ==== Proof.LibGatherRows.lean ====
/-
  Rows of a table taken at a column of start indices (the table indexed by a one-axis array of row numbers, the
  start indices as an [N, 1] array): the result's entry (n, k) is the table's entry at row  idx[n, 0]  (that word read
  as a signed integer and clamped into the table's rows) and column k. Operand axis 0 is collapsed and indexed, operand
  axis 1 is an offset axis taken whole, and the index vector lies on axis 1 of the start indices.
  When the word reads as a row number of the table the clamp does nothing, and the entry is the table's at that row.
-/
import Idealize.ShloMosaic.PureOps
import Idealize.ShloMosaic.Lib.ValueIdx

noncomputable section

open Idealize.ShloMosaic Idealize.ShloMosaic.ValueIdx

namespace Cert.GatherRows

variable {α : Type}

/-- The dimension numbers of the row gather for a [T, C] table and an [N, 1] column of start indices: axis 0 collapsed
    and indexed, axis 1 an offset axis taken whole; the result is [N, C]. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather read at (n, k), at dimension numbers given by their literals: the table at row  idx[n, 0]
    (signed, clamped into [0, T − 1]) and column k. -/
theorem gather_rows_lit {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (n : Fin N) (k : Fin C) :
    Host.gather (rowsDims T C N wf) x idx (ix2 n k)
      = x (ix2 ⟨min (idx (ix2 n 0)).toInt.toNat (T - 1), by omega⟩ k) := by
  unfold Host.gather
  congr 1
  funext a
  refine Fin.ext ?_
  match a with
  | ⟨0, _⟩ =>
    show (rowsDims T C N wf).start (ix2 n k) idx 0 + (rowsDims T C N wf).batchCoord (ix2 n k) 0
      + (rowsDims T C N wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 n k) ⟨List.idxOf (0 : Fin 2) (rowsDims T C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 n k) idx 1 + (rowsDims T C N wf).batchCoord (ix2 n k) 1
      + (rowsDims T C N wf).offCoord (ix2 n k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- The row gather read at (n, k), for any record with these dimension numbers (each hypothesis is `rfl` for a record
    defined by the seven literals): the table at row  idx[n, 0]  (signed, clamped into [0, T − 1]) and column k. -/
theorem gather_rows_apply {T C N w : ℕ} (hT : 0 < T)
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C) :
    Host.gather d x idx (ix2 n k) = x (ix2 ⟨min (idx (ix2 n 0)).toInt.toNat (T - 1), by omega⟩ k) := by
  obtain ⟨od, cs, ob, sb, sm, iv, ss, wf⟩ := d
  dsimp only at h1 h2 h3 h4 h5 h6 h7
  subst h1 h2 h3 h4 h5 h6 h7
  exact gather_rows_lit hT wf x idx n k

/-- The same when the start index, read signed, is a row number of the table: the clamp does nothing. -/
theorem gather_rows_apply_of_lt {T C N w : ℕ}
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C)
    (h0 : 0 ≤ (idx (ix2 n 0)).toInt) (hlt : (idx (ix2 n 0)).toInt < (T : ℤ)) :
    Host.gather d x idx (ix2 n k) = x (ix2 ⟨(idx (ix2 n 0)).toInt.toNat, by omega⟩ k) := by
  have hT : 0 < T := by omega
  rw [gather_rows_apply hT d h1 h2 h3 h4 h5 h6 h7 x idx n k]
  congr 2
  exact Fin.ext (Nat.min_eq_left (by omega))

end Cert.GatherRows

end
-- ==== Proof.KPrefixB.lean ====
/-
  The arrays only the kernel's program builds, entry by entry.

  For its two 17-class heads the program gathers, per action a, row j(a) of the second weight matrix and entry j(a) of its
  bias, j(a) the action's clipped register id (a clipped id is in range, so the negative-index wrap and the gather's own
  clamp do nothing); it hands the kernel the two weight matrices transposed and the two biases as 1 x 17 rows; for the
  2-class head it hands the difference of the weight matrix's two rows, the difference of the two biases, and the sign
  1 - 2 j(a) of the clipped immediate id (an integer 0 or 1 converted exactly).
-/
import proofs.«411827_j42236708388866_3_alg».proof.Proof.Gen.KernelIdeal.Frame
import proofs.«411827_j42236708388866_3_alg».proof.Proof.RefStages
import proofs.«411827_j42236708388866_3_alg».proof.Proof.Spec
import proofs.«411827_j42236708388866_3_alg».proof.Proof.IdxRange
import proofs.«411827_j42236708388866_3_alg».proof.Proof.KPrefixA
import proofs.«411827_j42236708388866_3_alg».proof.Proof.LibGatherRows
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

set_option maxRecDepth 16384

noncomputable section

namespace Cert.KernelIdeal.Prefix

open Cert.KernelIdeal Cert.KernelIdeal.Gen Idealize.ShloMosaic Idealize.ShloMosaic.TcCoe Idealize.SL.Sem Idealize.ShloMosaic.StableHlo
open Idealize.ShloMosaic.ValueIdx Cert.Spec

/-! ## Literals -/

/-- The single-precision pattern 0x3F800000 is the real number 1. -/
private theorem one_f32 : Ideal.ofBits .f32 0x3F800000#32 = (1 : EReal) := by
  simp [Ideal.ofBits, Ideal.ieee]
  rw [← EReal.coe_mul]
  norm_num

/-- The single-precision pattern 0x40000000 is the real number 2. -/
private theorem two_f32 : Ideal.ofBits .f32 0x40000000#32 = (2 : EReal) := by
  simp [Ideal.ofBits, Ideal.ieee]
  rw [← EReal.coe_mul]
  norm_num
  first | rfl | norm_cast | simp

/-! ## The operations at an entry, over any vectors -/

/-- The negative-index wrap of a vector of class ids, laid out as a column of start indices: where the id is negative,
    17 is added. -/
abbrev wrap17 (v : (⟨S1024, .i32⟩ : BufTy).Contents (Elt Ideal)) : (⟨S1024x1, .i32⟩ : BufTy).Contents (Elt Ideal) :=
  broadcastInDim S1024x1 ![0] bcast_S1024_S1024x1_0
    (select (cmpi .slt v (broadcastInDim S1024 ![] bcast_S_S1024 (constantI S_ 32 0#32)))
      (addi v (broadcastInDim S1024 ![] bcast_S_S1024 (constantI S_ 32 17#32))) v)

/-- On an id that is not negative the wrap does nothing. -/
private theorem wrap17_apply (v : (⟨S1024, .i32⟩ : BufTy).Contents (Elt Ideal)) (a : Fin 1024) (h0 : 0 ≤ (v (ix1 a)).toInt) :
    wrap17 v (ix2 a 0) = v (ix1 a) := by
  unfold wrap17
  rw [broadcastInDim_apply _ _ _ (ix2 a 0) (ix1 a) (fun b => match b with | ⟨0, _⟩ => rfl)]
  rw [select_apply]
  have hc : cmpi .slt v (broadcastInDim S1024 ![] bcast_S_S1024 (constantI S_ 32 0#32)) (ix1 a) = 0#1 := by
    show IntOp.cmpi .slt (v (ix1 a)) (broadcastInDim S1024 ![] bcast_S_S1024 (constantI S_ 32 0#32) (ix1 a)) = 0#1
    rw [broadcastInDim_apply _ _ _ (ix1 a) (fun b => b.elim0) (fun b => b.elim0)]
    show BitVec.ofBool ((v (ix1 a)).slt 0#32) = 0#1
    have : (v (ix1 a)).slt 0#32 = false := by
      simp only [BitVec.slt, decide_eq_false_iff_not, not_lt]
      exact h0
    rw [this]; rfl
  rw [hc]
  rfl

/-- Rows of a 17-row table gathered at the wrapped ids: at an id in [0, 16] the row is the id's own. -/
private theorem rows_read (x : S17x128.Idx → Elt Ideal .f32) (v : (⟨S1024, .i32⟩ : BufTy).Contents (Elt Ideal)) (a : Fin 1024) (k : Fin 128)
    (h0 : 0 ≤ (v (ix1 a)).toInt) (h1 : (v (ix1 a)).toInt ≤ 16) :
    Host.gather gather_S17x128_S1024x1_S1024x128_1_0_n_n_0_1_1128 x (wrap17 v) (ix2 a k) = x (ix2 (cls 17 (v (ix1 a))) k) := by
  have hw := wrap17_apply v a h0
  rw [Cert.GatherRows.gather_rows_apply_of_lt gather_S17x128_S1024x1_S1024x128_1_0_n_n_0_1_1128 rfl rfl rfl rfl rfl rfl rfl
    x (wrap17 v) a k (by rw [hw]; exact h0) (by rw [hw]; omega)]
  refine congrArg x (congrArg (fun r => ix2 r k) (Fin.ext ?_))
  show (wrap17 v (ix2 a 0)).toInt.toNat = (cls 17 (v (ix1 a))).val
  rw [hw]
  have := Cert.IdxRange.cls_val 17 (v (ix1 a)) h0 (by omega)
  omega

/-- Entries of a 17-entry vector gathered at the wrapped ids: at an id in [0, 16] the entry is the id's own. -/
private theorem vec_read (x : S17.Idx → Elt Ideal .f32) (v : (⟨S1024, .i32⟩ : BufTy).Contents (Elt Ideal)) (a : Fin 1024)
    (h0 : 0 ≤ (v (ix1 a)).toInt) (h1 : (v (ix1 a)).toInt ≤ 16) :
    Host.gather gather_S17_S1024x1_S1024_n_0_n_n_0_1_1 x (wrap17 v) (ix1 a) = x (ix1 (cls 17 (v (ix1 a)))) := by
  have hw := wrap17_apply v a h0
  have e1 : (ix1 a : S1024.Idx) = Shape.Idx.ofFin a := Shape.Idx.eq_ofFin (ix1 a)
  have e2 : (Predicate.ixP a : S1024x1.Idx) = ix2 a 0 := by
    funext b
    match b with
    | ⟨0, _⟩ => rfl
    | ⟨1, _⟩ => rfl
  have hg := Predicate.gather_take gather_S17_S1024x1_S1024_n_0_n_n_0_1_1 rfl rfl rfl rfl x (wrap17 v) a (by decide)
  rw [← e1] at hg
  rw [hg]
  refine congrArg x ((congrArg Shape.Idx.ofFin (Fin.ext ?_)).trans (Shape.Idx.eq_ofFin (ix1 (cls 17 (v (ix1 a))))).symm)
  show min (wrap17 v (Predicate.ixP a)).toInt.toNat (17 - 1) = (cls 17 (v (ix1 a))).val
  rw [e2, hw]
  have := Cert.IdxRange.cls_val 17 (v (ix1 a)) h0 (by omega)
  omega

/-- One minus twice a real number, computed among the extended reals, is that real number. -/
private theorem sgn_eq (t : ℝ) : (1 : EReal) - 2 * ((t : ℝ) : EReal) = ((1 - 2 * t : ℝ) : EReal) := by
  norm_cast

/-- The sign 1 - 2 j of an id j in {0, 1}, computed in the reals from the id converted exactly. -/
private theorem sign_read (v : (⟨S1024, .i32⟩ : BufTy).Contents (Elt Ideal)) (a : Fin 1024)
    (h0 : 0 ≤ (v (ix1 a)).toInt) (h1 : (v (ix1 a)).toInt ≤ 1) :
    subf (broadcastInDim S1024 ![] bcast_S_S1024 (constant (F := Ideal) S_ .f32 0x3F800000#32))
        (mulf (broadcastInDim S1024 ![] bcast_S_S1024 (constant (F := Ideal) S_ .f32 0x40000000#32)) (sitofp .f32 v)) (ix1 a)
      = sgn (cls 2 (v (ix1 a))) := by
  rw [subf_apply, mulf_apply, broadcastInDim_apply _ _ _ (ix1 a) (fun b => b.elim0) (fun b => b.elim0),
    broadcastInDim_apply _ _ _ (ix1 a) (fun b => b.elim0) (fun b => b.elim0), constant_apply, constant_apply, sitofp_apply,
    one_f32, two_f32]
  show (1 : EReal) - 2 * (((v (ix1 a)).toInt : ℝ) : EReal) = sgn (cls 2 (v (ix1 a)))
  unfold sgn
  have hc := Cert.IdxRange.cls_val 2 (v (ix1 a)) h0 (by omega)
  have e : (((cls 2 (v (ix1 a))).val : ℝ)) = (((v (ix1 a)).toInt : ℤ) : ℝ) := by
    have := congrArg (fun z : ℤ => (z : ℝ)) hc
    simpa using this
  rw [e]
  exact sgn_eq _

/-! ## The program's arrays as terms of its arguments -/

variable (m : (ℓ : Loc nD τ sig) → Buf (Elt Ideal) ℓ)

local macro "host_term" : tactic =>
  `(tactic| (dsimp only [V, V0]
             simp only [hostOps0, hostOps0_1, hostOps0_2, hostOps0_3, hostOps0_4, hostOps0_5, hostOps0_6, hostOps0_7, hostOps0_8,
               hostOps0_9, hostOps0_10, hostOps0_11, hostOps0_12, List.flatten_cons, List.flatten_nil, List.append_nil,
               List.cons_append, List.nil_append]
             after_results_simp))

set_option maxHeartbeats 4000000 in
theorem V_main_v84_term (c : Dev nD) :
    (V m c main_v84 : S1024x128.Idx → Elt Ideal .f32)
      = Host.gather gather_S17x128_S1024x1_S1024x128_1_0_n_n_0_1_1128 (m ((c.tc : Thread nD τ).loc main_arg13) : S17x128.Idx → Elt Ideal .f32)
          (wrap17 (Cert.ReferenceIdeal.Read.val_main_v1 (F := Ideal) (m ((c.tc : Thread nD τ).loc main_arg2)))) := by
  host_term <;> rfl

set_option maxHeartbeats 4000000 in
theorem V_main_v124_term (c : Dev nD) :
    (V m c main_v124 : S1x1024.Idx → Elt Ideal .f32)
      = shapeCast S1x1024 (Host.gather gather_S17_S1024x1_S1024_n_0_n_n_0_1_1 (m ((c.tc : Thread nD τ).loc main_arg14) : S17.Idx → Elt Ideal .f32)
          (wrap17 (Cert.ReferenceIdeal.Read.val_main_v1 (F := Ideal) (m ((c.tc : Thread nD τ).loc main_arg2))))) shapeCasts_S1024_S1x1024 := by
  host_term <;> rfl

set_option maxHeartbeats 4000000 in
theorem V_main_v98_term (c : Dev nD) :
    (V m c main_v98 : S1024x128.Idx → Elt Ideal .f32)
      = Host.gather gather_S17x128_S1024x1_S1024x128_1_0_n_n_0_1_1128 (m ((c.tc : Thread nD τ).loc main_arg17) : S17x128.Idx → Elt Ideal .f32)
          (wrap17 (Cert.ReferenceIdeal.Read.val_main_v2 (F := Ideal) (m ((c.tc : Thread nD τ).loc main_arg3)))) := by
  host_term <;> rfl

set_option maxHeartbeats 4000000 in
theorem V_main_v125_term (c : Dev nD) :
    (V m c main_v125 : S1x1024.Idx → Elt Ideal .f32)
      = shapeCast S1x1024 (Host.gather gather_S17_S1024x1_S1024_n_0_n_n_0_1_1 (m ((c.tc : Thread nD τ).loc main_arg18) : S17.Idx → Elt Ideal .f32)
          (wrap17 (Cert.ReferenceIdeal.Read.val_main_v2 (F := Ideal) (m ((c.tc : Thread nD τ).loc main_arg3))))) shapeCasts_S1024_S1x1024 := by
  host_term <;> rfl

set_option maxHeartbeats 4000000 in
theorem V_main_v123_term (c : Dev nD) :
    (V m c main_v123 : S1x1024.Idx → Elt Ideal .f32)
      = shapeCast S1x1024 (subf (broadcastInDim S1024 ![] bcast_S_S1024 (constant (F := Ideal) S_ .f32 0x3F800000#32))
          (mulf (broadcastInDim S1024 ![] bcast_S_S1024 (constant (F := Ideal) S_ .f32 0x40000000#32))
            (sitofp .f32 (Cert.ReferenceIdeal.Read.val_main_v3 (F := Ideal) (m ((c.tc : Thread nD τ).loc main_arg4)))))) shapeCasts_S1024_S1x1024 := by
  host_term <;> rfl

set_option maxHeartbeats 4000000 in
theorem V_main_v74_term (c : Dev nD) :
    (V m c main_v74 : S128x17.Idx → Elt Ideal .f32)
      = transpose S128x17 [1, 0] (m ((c.tc : Thread nD τ).loc main_arg13) : S17x128.Idx → Elt Ideal .f32) transposes_S17x128_S128x17_1_0 := by
  host_term <;> rfl

set_option maxHeartbeats 4000000 in
theorem V_main_v75_term (c : Dev nD) :
    (V m c main_v75 : S128x17.Idx → Elt Ideal .f32)
      = transpose S128x17 [1, 0] (m ((c.tc : Thread nD τ).loc main_arg17) : S17x128.Idx → Elt Ideal .f32) transposes_S17x128_S128x17_1_0 := by
  host_term <;> rfl

set_option maxHeartbeats 4000000 in
theorem V_main_v76_term (c : Dev nD) :
    (V m c main_v76 : S1x17.Idx → Elt Ideal .f32)
      = shapeCast S1x17 (m ((c.tc : Thread nD τ).loc main_arg14) : S17.Idx → Elt Ideal .f32) shapeCasts_S17_S1x17 := by
  host_term <;> rfl

set_option maxHeartbeats 4000000 in
theorem V_main_v77_term (c : Dev nD) :
    (V m c main_v77 : S1x17.Idx → Elt Ideal .f32)
      = shapeCast S1x17 (m ((c.tc : Thread nD τ).loc main_arg18) : S17.Idx → Elt Ideal .f32) shapeCasts_S17_S1x17 := by
  host_term <;> rfl

set_option maxHeartbeats 4000000 in
theorem V_main_v111_term (c : Dev nD) :
    (V m c main_v111 : S1x128.Idx → Elt Ideal .f32)
      = shapeCast S1x128 (subf (F := Ideal) (φ := .f32)
          (shapeCast S128 (extractStridedSlice S1x128 ![1, 0] (m ((c.tc : Thread nD τ).loc main_arg21) : S2x128.Idx → Elt Ideal .f32) slices_S2x128_S1x128_1_0) shapeCasts_S1x128_S128)
          (shapeCast S128 (extractStridedSlice S1x128 ![0, 0] (m ((c.tc : Thread nD τ).loc main_arg21) : S2x128.Idx → Elt Ideal .f32) slices_S2x128_S1x128_0_0) shapeCasts_S1x128_S128))
        shapeCasts_S128_S1x128 := by
  host_term <;> rfl

set_option maxHeartbeats 4000000 in
theorem V_main_v117_term (c : Dev nD) :
    (V m c main_v117 : S1x1.Idx → Elt Ideal .f32)
      = shapeCast S1x1 (subf (F := Ideal) (φ := .f32)
          (shapeCast S_ (extractStridedSlice S1 ![1] (m ((c.tc : Thread nD τ).loc main_arg22) : S2.Idx → Elt Ideal .f32) slices_S2_S1_1) shapeCasts_S1_S_)
          (shapeCast S_ (extractStridedSlice S1 ![0] (m ((c.tc : Thread nD τ).loc main_arg22) : S2.Idx → Elt Ideal .f32) slices_S2_S1_0) shapeCasts_S1_S_))
        shapeCasts_S_S1x1 := by
  host_term <;> rfl

/-! ## The arrays at an entry -/

theorem V_main_v84_apply (c : Dev nD) (a : Fin 1024) (k : Fin 128) :
    (V m c main_v84 : S1024x128.Idx → Elt Ideal .f32) (ix2 a k) = (m ((c.tc : Thread nD τ).loc main_arg13) : S17x128.Idx → Elt Ideal .f32) (ix2 (cls 17 (Cert.ReferenceIdeal.Read.val_main_v1 (F := Ideal) (m ((c.tc : Thread nD τ).loc main_arg2)) (ix1 a))) k) := by
  have hr := Cert.IdxRange.v1_range (F := Ideal) (m ((c.tc : Thread nD τ).loc main_arg2)) a
  rw [V_main_v84_term]
  exact rows_read _ _ a k hr.1 hr.2

theorem V_main_v124_apply (c : Dev nD) (a : Fin 1024) :
    (V m c main_v124 : S1x1024.Idx → Elt Ideal .f32) (ix2 0 a) = (m ((c.tc : Thread nD τ).loc main_arg14) : S17.Idx → Elt Ideal .f32) (ix1 (cls 17 (Cert.ReferenceIdeal.Read.val_main_v1 (F := Ideal) (m ((c.tc : Thread nD τ).loc main_arg2)) (ix1 a)))) := by
  have hr := Cert.IdxRange.v1_range (F := Ideal) (m ((c.tc : Thread nD τ).loc main_arg2)) a
  rw [V_main_v124_term, shapeCast_a_1a_apply _ _ 0 a]
  exact vec_read _ _ a hr.1 hr.2

theorem V_main_v98_apply (c : Dev nD) (a : Fin 1024) (k : Fin 128) :
    (V m c main_v98 : S1024x128.Idx → Elt Ideal .f32) (ix2 a k) = (m ((c.tc : Thread nD τ).loc main_arg17) : S17x128.Idx → Elt Ideal .f32) (ix2 (cls 17 (Cert.ReferenceIdeal.Read.val_main_v2 (F := Ideal) (m ((c.tc : Thread nD τ).loc main_arg3)) (ix1 a))) k) := by
  have hr := Cert.IdxRange.v2_range (F := Ideal) (m ((c.tc : Thread nD τ).loc main_arg3)) a
  rw [V_main_v98_term]
  exact rows_read _ _ a k hr.1 hr.2

theorem V_main_v125_apply (c : Dev nD) (a : Fin 1024) :
    (V m c main_v125 : S1x1024.Idx → Elt Ideal .f32) (ix2 0 a) = (m ((c.tc : Thread nD τ).loc main_arg18) : S17.Idx → Elt Ideal .f32) (ix1 (cls 17 (Cert.ReferenceIdeal.Read.val_main_v2 (F := Ideal) (m ((c.tc : Thread nD τ).loc main_arg3)) (ix1 a)))) := by
  have hr := Cert.IdxRange.v2_range (F := Ideal) (m ((c.tc : Thread nD τ).loc main_arg3)) a
  rw [V_main_v125_term, shapeCast_a_1a_apply _ _ 0 a]
  exact vec_read _ _ a hr.1 hr.2

theorem V_main_v123_apply (c : Dev nD) (a : Fin 1024) :
    (V m c main_v123 : S1x1024.Idx → Elt Ideal .f32) (ix2 0 a) = sgn (cls 2 (Cert.ReferenceIdeal.Read.val_main_v3 (F := Ideal) (m ((c.tc : Thread nD τ).loc main_arg4)) (ix1 a))) := by
  have hr := Cert.IdxRange.v3_range (F := Ideal) (m ((c.tc : Thread nD τ).loc main_arg4)) a
  rw [V_main_v123_term, shapeCast_a_1a_apply _ _ 0 a]
  exact sign_read _ a hr.1 hr.2

theorem V_main_v74_apply (c : Dev nD) (k : Fin 128) (v : Fin 17) :
    (V m c main_v74 : S128x17.Idx → Elt Ideal .f32) (ix2 k v) = (m ((c.tc : Thread nD τ).loc main_arg13) : S17x128.Idx → Elt Ideal .f32) (ix2 v k) := by
  rw [V_main_v74_term]
  exact transpose_ix2_apply _ _ k v

theorem V_main_v76_apply (c : Dev nD) (v : Fin 17) :
    (V m c main_v76 : S1x17.Idx → Elt Ideal .f32) (ix2 0 v) = (m ((c.tc : Thread nD τ).loc main_arg14) : S17.Idx → Elt Ideal .f32) (ix1 v) := by
  rw [V_main_v76_term]
  exact shapeCast_a_1a_apply _ _ 0 v

theorem V_main_v75_apply (c : Dev nD) (k : Fin 128) (v : Fin 17) :
    (V m c main_v75 : S128x17.Idx → Elt Ideal .f32) (ix2 k v) = (m ((c.tc : Thread nD τ).loc main_arg17) : S17x128.Idx → Elt Ideal .f32) (ix2 v k) := by
  rw [V_main_v75_term]
  exact transpose_ix2_apply _ _ k v

theorem V_main_v77_apply (c : Dev nD) (v : Fin 17) :
    (V m c main_v77 : S1x17.Idx → Elt Ideal .f32) (ix2 0 v) = (m ((c.tc : Thread nD τ).loc main_arg18) : S17.Idx → Elt Ideal .f32) (ix1 v) := by
  rw [V_main_v77_term]
  exact shapeCast_a_1a_apply _ _ 0 v

theorem V_main_v111_apply (c : Dev nD) (k : Fin 128) :
    (V m c main_v111 : S1x128.Idx → Elt Ideal .f32) (ix2 0 k) = (fun w : S2x128.Idx → Elt Ideal .f32 => w (ix2 1 k) - w (ix2 0 k)) (m ((c.tc : Thread nD τ).loc main_arg21)) := by
  beta_reduce
  rw [V_main_v111_term, shapeCast_a_1a_apply _ _ 0 k, subf_apply, shapeCast_1a_a_apply, shapeCast_1a_a_apply,
    slice2_axis0_apply 1 _ _ 0 k 1 rfl, slice2_axis0_apply 0 _ _ 0 k 0 rfl]

theorem V_main_v117_apply (c : Dev nD) :
    (V m c main_v117 : S1x1.Idx → Elt Ideal .f32) (ix2 0 0) = (fun w : S2.Idx → Elt Ideal .f32 => w (ix1 1) - w (ix1 0)) (m ((c.tc : Thread nD τ).loc main_arg22)) := by
  have z0 : ∀ j : S_.Idx, (S_.rowMajor j).val = 0 := fun j => by
    show (Shape.rowMajorPi _ j).val = 0
    exact Shape.rowMajorPi_zero _ _
  beta_reduce
  rw [V_main_v117_term,
    shapeCast_apply _ _ (ix2 0 0) (fun b => b.elim0) (by rw [z0, Shape.rowMajor_val_two]; rfl),
    subf_apply,
    shapeCast_apply _ shapeCasts_S1_S_ (fun b => b.elim0) (ix1 0) (by rw [z0, Shape.rowMajor_val_one]; rfl),
    shapeCast_apply _ shapeCasts_S1_S_ (fun b => b.elim0) (ix1 0) (by rw [z0, Shape.rowMajor_val_one]; rfl),
    extractStridedSlice_apply ![1] _ slices_S2_S1_1 (ix1 0) (ix1 1) (fun b => match b with | ⟨0, _⟩ => rfl),
    extractStridedSlice_apply ![0] _ slices_S2_S1_0 (ix1 0) (ix1 0) (fun b => match b with | ⟨0, _⟩ => rfl)]

end Cert.KernelIdeal.Prefix

end
-- ==== Proof.RefOps.lean ====
/-
  The reference's operations read at one entry, shared by the three heads: the class-axis reductions of a
  log-softmax (maximum from minus infinity, sum from zero) at (b, a); the and-reduction of the bounds mask over its
  unit axis; the batched gather that take_along_axis lowers to, which at (b, a) reads the class its start index names;
  and, for an index word in range, what the index plumbing around that gather computes (no wrap, a true mask).
-/
import proofs.«411827_j42236708388866_3_alg».proof.ReferenceIdeal
import proofs.«411827_j42236708388866_3_alg».proof.Proof.Spec
import Idealize.ShloMosaic.Lib.ValueIdx
import Idealize.ShloMosaic.Lib.Pipeline.Value
import Idealize.ShloMosaic.PureOps.Reduce
import Idealize.ShloMosaic.PureOps.Ideal.Laws

set_option maxRecDepth 16384

noncomputable section

namespace Cert.ReferenceIdeal.Ops

open Cert.ReferenceIdeal Idealize.ShloMosaic Idealize.ShloMosaic.ValueIdx Cert.Spec
open scoped BigOperators

variable [Facts₀]
open Facts₀

variable {α : Type}

/-! ## Two words -/

/-- The word 0xFF800000 denotes minus infinity. -/
theorem ofBits_neg_inf : Ideal.ofBits .f32 0xFF800000#32 = (⊥ : EReal) := by
  simp [Ideal.ofBits, Ideal.ieee]

/-- The word 0x00000000 denotes zero. -/
theorem ofBits_zero : Ideal.ofBits .f32 0x00000000#32 = (0 : EReal) := Ideal.ofBits_zero_f32

/-- The same two facts about the instance's field, as a constant's element is written. -/
theorem floatOps_ofBits_neg_inf : FloatOps.ofBits (F := Ideal) .f32 0xFF800000#32 = (⊥ : EReal) := ofBits_neg_inf
theorem floatOps_ofBits_zero : FloatOps.ofBits (F := Ideal) .f32 0x00000000#32 = (0 : EReal) := ofBits_zero

/-- A constant of the word 0xFF800000 is minus infinity at every index, one of the word 0 is zero. -/
theorem constant_neg_inf_apply {s : Shape} (i : s.Idx) : constant (F := Ideal) s .f32 0xFF800000#32 i = (⊥ : EReal) :=
  ofBits_neg_inf
theorem constant_zero_apply {s : Shape} (i : s.Idx) : constant (F := Ideal) s .f32 0x00000000#32 i = (0 : EReal) :=
  ofBits_zero

/-! ## The class-axis reductions of a log-softmax at (b, a) -/

/-- The inserted index of the class-axis reduction of the 256 x 1024 x 17 block. -/
theorem lift_c17 (h : S256x1024x17.Reduces [2] S256x1024) (b : Fin 256) (a : Fin 1024) (v : Fin 17) :
    h.lift (ix2 b a) v = ix3 b a v :=
  funext fun c => Fin.ext (match c with
    | ⟨0, _⟩ => rfl
    | ⟨1, _⟩ => rfl
    | ⟨2, _⟩ => rfl)

/-- The maximum over the 17 classes at (b, a), from any initial value that is minus infinity: the running maximum. -/
theorem reduce_max17_of_init (x : FVec Ideal S256x1024x17 .f32) (init : S_.Idx → Ideal .f32)
    (hinit : init (Shape.Idx.first h_S_) = (⊥ : EReal)) (b : Fin 256) (a : Fin 1024) :
    Host.reduce FloatOps.maximumf x init reducesTo_S256x1024x17_S256x1024_d2 h_S_ (ix2 b a) = vmax (fun v => x (ix3 b a v)) := by
  have h : S256x1024x17.Reduces [2] S256x1024 := by decide
  rw [Host.reduce_eq_fold_single FloatOps.maximumf x init reducesTo_S256x1024x17_S256x1024_d2 h h_S_, hinit]
  have e : (x ∘ h.lift (ix2 b a)) = fun v : Fin 17 => x (ix3 b a v) :=
    funext fun v => congrArg x (lift_c17 h b a v)
  rw [e]
  rfl

/-- The same with the initial value the program writes, the constant of the word 0xFF800000. -/
theorem reduce_max17_apply (x : FVec Ideal S256x1024x17 .f32) (b : Fin 256) (a : Fin 1024) :
    Host.reduce FloatOps.maximumf x (constant (F := Ideal) S_ .f32 0xFF800000#32) reducesTo_S256x1024x17_S256x1024_d2 h_S_ (ix2 b a)
      = vmax (fun v => x (ix3 b a v)) :=
  reduce_max17_of_init x _ ofBits_neg_inf b a

/-- The sum over the 17 classes at (b, a): the initial value's element plus the sum. -/
theorem reduceAdd17_of_init (x : FVec Ideal S256x1024x17 .f32) (init : S_.Idx → Ideal .f32) (b : Fin 256) (a : Fin 1024) :
    Host.reduceAdd x init reducesTo_S256x1024x17_S256x1024_d2 h_S_ (ix2 b a) = init (Shape.Idx.first h_S_) + ∑ v : Fin 17, x (ix3 b a v) := by
  have h : S256x1024x17.Reduces [2] S256x1024 := by decide
  unfold Host.reduceAdd
  rw [Ideal.hostReduceAdd_def, Ideal.hostReduceAdd_single reducesTo_S256x1024x17_S256x1024_d2 h]
  exact congrArg (fun s => init (Shape.Idx.first h_S_) + s) (Finset.sum_congr rfl fun v _ => congrArg x (lift_c17 h b a v))

/-- The same with the initial value the program writes, the constant zero. -/
theorem reduceAdd17_apply (x : FVec Ideal S256x1024x17 .f32) (b : Fin 256) (a : Fin 1024) :
    Host.reduceAdd x (constant (F := Ideal) S_ .f32 0x00000000#32) reducesTo_S256x1024x17_S256x1024_d2 h_S_ (ix2 b a)
      = 0 + ∑ v : Fin 17, x (ix3 b a v) := by
  rw [reduceAdd17_of_init]
  exact congrArg (fun z => z + ∑ v : Fin 17, x (ix3 b a v)) ofBits_zero

/-- The inserted index of the class-axis reduction of the 256 x 1024 x 2 block. -/
theorem lift_c2 (h : S256x1024x2.Reduces [2] S256x1024) (b : Fin 256) (a : Fin 1024) (v : Fin 2) :
    h.lift (ix2 b a) v = ix3 b a v :=
  funext fun c => Fin.ext (match c with
    | ⟨0, _⟩ => rfl
    | ⟨1, _⟩ => rfl
    | ⟨2, _⟩ => rfl)

/-- The maximum over the 2 classes at (b, a), from any initial value that is minus infinity: the running maximum. -/
theorem reduce_max2_of_init (x : FVec Ideal S256x1024x2 .f32) (init : S_.Idx → Ideal .f32)
    (hinit : init (Shape.Idx.first h_S_) = (⊥ : EReal)) (b : Fin 256) (a : Fin 1024) :
    Host.reduce FloatOps.maximumf x init reducesTo_S256x1024x2_S256x1024_d2 h_S_ (ix2 b a) = vmax (fun v => x (ix3 b a v)) := by
  have h : S256x1024x2.Reduces [2] S256x1024 := by decide
  rw [Host.reduce_eq_fold_single FloatOps.maximumf x init reducesTo_S256x1024x2_S256x1024_d2 h h_S_, hinit]
  have e : (x ∘ h.lift (ix2 b a)) = fun v : Fin 2 => x (ix3 b a v) :=
    funext fun v => congrArg x (lift_c2 h b a v)
  rw [e]
  rfl

/-- The same with the initial value the program writes, the constant of the word 0xFF800000. -/
theorem reduce_max2_apply (x : FVec Ideal S256x1024x2 .f32) (b : Fin 256) (a : Fin 1024) :
    Host.reduce FloatOps.maximumf x (constant (F := Ideal) S_ .f32 0xFF800000#32) reducesTo_S256x1024x2_S256x1024_d2 h_S_ (ix2 b a)
      = vmax (fun v => x (ix3 b a v)) :=
  reduce_max2_of_init x _ ofBits_neg_inf b a

/-- The sum over the 2 classes at (b, a): the initial value's element plus the sum. -/
theorem reduceAdd2_of_init (x : FVec Ideal S256x1024x2 .f32) (init : S_.Idx → Ideal .f32) (b : Fin 256) (a : Fin 1024) :
    Host.reduceAdd x init reducesTo_S256x1024x2_S256x1024_d2 h_S_ (ix2 b a) = init (Shape.Idx.first h_S_) + ∑ v : Fin 2, x (ix3 b a v) := by
  have h : S256x1024x2.Reduces [2] S256x1024 := by decide
  unfold Host.reduceAdd
  rw [Ideal.hostReduceAdd_def, Ideal.hostReduceAdd_single reducesTo_S256x1024x2_S256x1024_d2 h]
  exact congrArg (fun s => init (Shape.Idx.first h_S_) + s) (Finset.sum_congr rfl fun v _ => congrArg x (lift_c2 h b a v))

/-- The same with the initial value the program writes, the constant zero. -/
theorem reduceAdd2_apply (x : FVec Ideal S256x1024x2 .f32) (b : Fin 256) (a : Fin 1024) :
    Host.reduceAdd x (constant (F := Ideal) S_ .f32 0x00000000#32) reducesTo_S256x1024x2_S256x1024_d2 h_S_ (ix2 b a)
      = 0 + ∑ v : Fin 2, x (ix3 b a v) := by
  rw [reduceAdd2_of_init]
  exact congrArg (fun z => z + ∑ v : Fin 2, x (ix3 b a v)) ofBits_zero

/-! ## The bounds mask's and-reduction over its unit axis -/

/-- The inserted index of the last-axis reduction of the 256 x 1024 x 1 x 1 block. -/
theorem lift_unit (h : S256x1024x1x1.Reduces [3] S256x1024x1) (b : Fin 256) (a : Fin 1024) (u : Fin 1) (k : Fin 1) :
    h.lift (ix3 b a u) k = ix4 b a u k :=
  funext fun c => Fin.ext (match c with
    | ⟨0, _⟩ => rfl
    | ⟨1, _⟩ => rfl
    | ⟨2, _⟩ => rfl
    | ⟨3, _⟩ => rfl)

/-- A one-bit word and-ed with the true bit is itself. -/
theorem and_true_bit (x : BitVec 1) : IntOp.andi x 1#1 = x := by
  revert x; decide

/-- And-ing the mask over its unit last axis, from the true bit, leaves the mask's one element there. -/
theorem reduce_and_of_init (y : IVec S256x1024x1x1 1) (init : S_.Idx → BitVec 1)
    (hinit : init (Shape.Idx.first h_S_) = 1#1) (b : Fin 256) (a : Fin 1024) (u : Fin 1) :
    Host.reduce IntOp.andi y init reducesTo_S256x1024x1x1_S256x1024x1_d3 h_S_ (ix3 b a u) = y (ix4 b a u (0 : Fin 1)) := by
  have h : S256x1024x1x1.Reduces [3] S256x1024x1 := by decide
  rw [Host.reduce_eq_fold_single IntOp.andi y init reducesTo_S256x1024x1x1_S256x1024x1_d3 h h_S_, hinit]
  have e : (y ∘ h.lift (ix3 b a u)) = fun k : Fin 1 => y (ix4 b a u k) :=
    funext fun k => congrArg y (lift_unit h b a u k)
  rw [e]
  show Finset.fold IntOp.andi 1#1 (fun k : Fin 1 => y (ix4 b a u k)) (Finset.univ : Finset (Fin 1)) = _
  rw [show (Finset.univ : Finset (Fin 1)) = {0} from rfl, Finset.fold_singleton, and_true_bit]

/-- The same with the initial value the program writes, the constant true. -/
theorem reduce_and_apply (y : IVec S256x1024x1x1 1) (b : Fin 256) (a : Fin 1024) (u : Fin 1) :
    Host.reduce IntOp.andi y (constantI S_ 1 1#1) reducesTo_S256x1024x1x1_S256x1024x1_d3 h_S_ (ix3 b a u)
      = y (ix4 b a u (0 : Fin 1)) :=
  reduce_and_of_init y _ rfl b a u

/-! ## An index word in range -/

/-- A 32-bit word whose signed value lies in [0, hi] has that value as its unsigned one. -/
theorem toNat_of_range (w : BitVec 32) (hi : Nat) (h0 : 0 ≤ w.toInt) (h1 : w.toInt ≤ hi) :
    w.toInt.toNat = w.toNat ∧ w.toNat ≤ hi := by
  have hc := BitVec.toInt_eq_toNat_cond w
  have hlt := w.isLt
  split at hc <;> omega

/-- The class a word in range names has the word's unsigned value. -/
theorem cls_val_of_range (n : ℕ) [NeZero n] (w : BitVec 32) (h0 : 0 ≤ w.toInt) (h1 : w.toInt < n) :
    (cls n w).val = w.toNat := by
  obtain ⟨_, e2⟩ := toNat_of_range w (n - 1) h0 (by omega)
  show w.toNat % n = w.toNat
  exact Nat.mod_eq_of_lt (by have := NeZero.pos n; omega)

/-! ## The batched gather of take_along_axis at (b, a) -/

theorem gather17_axis0 (idx : IVec S256x1024x1x1 32) (b : Fin 256) (a : Fin 1024) (u : Fin 1) :
    gather_S256x1024x17_S256x1024x1x1_S256x1024x1_n_2_01_01_2_3_111.start (ix3 b a u) idx 0 + gather_S256x1024x17_S256x1024x1x1_S256x1024x1_n_2_01_01_2_3_111.batchCoord (ix3 b a u) 0 + gather_S256x1024x17_S256x1024x1x1_S256x1024x1_n_2_01_01_2_3_111.offCoord (ix3 b a u) 0 = b.val := by
  have hm : (0 : Fin 3) ∈ gather_S256x1024x17_S256x1024x1x1_S256x1024x1_n_2_01_01_2_3_111.operandBatchingDims :=
    show (0 : Fin 3) ∈ ([0, 1] : List (Fin 3)) from by decide
  rw [GatherDims.start_batching _ _ _ _ hm,
    GatherDims.offCoord_eq_zero _ _ _ (fun h => ((GatherDims.mem_sKept _ _).mp h).2 hm)]
  unfold GatherDims.batchCoord
  rw [dif_pos hm, Nat.zero_add, Nat.add_zero]
  rfl
theorem gather17_axis1 (idx : IVec S256x1024x1x1 32) (b : Fin 256) (a : Fin 1024) (u : Fin 1) :
    gather_S256x1024x17_S256x1024x1x1_S256x1024x1_n_2_01_01_2_3_111.start (ix3 b a u) idx 1 + gather_S256x1024x17_S256x1024x1x1_S256x1024x1_n_2_01_01_2_3_111.batchCoord (ix3 b a u) 1 + gather_S256x1024x17_S256x1024x1x1_S256x1024x1_n_2_01_01_2_3_111.offCoord (ix3 b a u) 1 = a.val := by
  have hm : (1 : Fin 3) ∈ gather_S256x1024x17_S256x1024x1x1_S256x1024x1_n_2_01_01_2_3_111.operandBatchingDims :=
    show (1 : Fin 3) ∈ ([0, 1] : List (Fin 3)) from by decide
  rw [GatherDims.start_batching _ _ _ _ hm,
    GatherDims.offCoord_eq_zero _ _ _ (fun h => ((GatherDims.mem_sKept _ _).mp h).2 hm)]
  unfold GatherDims.batchCoord
  rw [dif_pos hm, Nat.zero_add, Nat.add_zero]
  rfl
theorem gather17_axis2 (idx : IVec S256x1024x1x1 32) (b : Fin 256) (a : Fin 1024) (u : Fin 1) :
    gather_S256x1024x17_S256x1024x1x1_S256x1024x1_n_2_01_01_2_3_111.start (ix3 b a u) idx 2 + gather_S256x1024x17_S256x1024x1x1_S256x1024x1_n_2_01_01_2_3_111.batchCoord (ix3 b a u) 2 + gather_S256x1024x17_S256x1024x1x1_S256x1024x1_n_2_01_01_2_3_111.offCoord (ix3 b a u) 2
      = min (idx (ix4 b a u (0 : Fin 1))).toInt.toNat 16 := by
  have hb : (2 : Fin 3) ∉ gather_S256x1024x17_S256x1024x1x1_S256x1024x1_n_2_01_01_2_3_111.operandBatchingDims :=
    show (2 : Fin 3) ∉ ([0, 1] : List (Fin 3)) from by decide
  have hc : (2 : Fin 3) ∈ gather_S256x1024x17_S256x1024x1x1_S256x1024x1_n_2_01_01_2_3_111.collapsedSliceDims :=
    show (2 : Fin 3) ∈ ([2] : List (Fin 3)) from by decide
  have hs : (2 : Fin 3) ∈ gather_S256x1024x17_S256x1024x1x1_S256x1024x1_n_2_01_01_2_3_111.startIndexMap :=
    show (2 : Fin 3) ∈ ([2] : List (Fin 3)) from by decide
  rw [GatherDims.batchCoord_eq_zero _ _ _ hb,
    GatherDims.offCoord_eq_zero _ _ _ (fun h => ((GatherDims.mem_sKept _ _).mp h).1 hc)]
  unfold GatherDims.start
  rw [dif_pos hs]
  have hsi : gather_S256x1024x17_S256x1024x1x1_S256x1024x1_n_2_01_01_2_3_111.siIdx (ix3 b a u) ⟨List.idxOf (2 : Fin 3) gather_S256x1024x17_S256x1024x1x1_S256x1024x1_n_2_01_01_2_3_111.startIndexMap,
      List.idxOf_lt_length_iff.2 hs⟩ = ix4 b a u (0 : Fin 1) := by
    funext d; refine Fin.ext ?_
    match d with
    | ⟨0, _⟩ => rfl
    | ⟨1, _⟩ => rfl
    | ⟨2, _⟩ => rfl
    | ⟨3, _⟩ => rfl
  rw [hsi]
  rfl

/-- The batched gather of take_along_axis over 17 classes at (b, a): the operand at (b, a, ·) at the start index read
    signed and clamped to the last class. -/
theorem gather17_clamped (x : S256x1024x17.Idx → α) (idx : IVec S256x1024x1x1 32) (b : Fin 256) (a : Fin 1024) (u : Fin 1) :
    Host.gather gather_S256x1024x17_S256x1024x1x1_S256x1024x1_n_2_01_01_2_3_111 x idx (ix3 b a u)
      = x (ix3 b a (⟨min (idx (ix4 b a u (0 : Fin 1))).toInt.toNat 16, by omega⟩ : Fin 17)) := by
  unfold Host.gather
  refine congrArg x (funext fun c => Fin.ext ?_)
  show gather_S256x1024x17_S256x1024x1x1_S256x1024x1_n_2_01_01_2_3_111.start (ix3 b a u) idx c + gather_S256x1024x17_S256x1024x1x1_S256x1024x1_n_2_01_01_2_3_111.batchCoord (ix3 b a u) c + gather_S256x1024x17_S256x1024x1x1_S256x1024x1_n_2_01_01_2_3_111.offCoord (ix3 b a u) c = _
  match c with
  | ⟨0, _⟩ => exact gather17_axis0 idx b a u
  | ⟨1, _⟩ => exact gather17_axis1 idx b a u
  | ⟨2, _⟩ => exact gather17_axis2 idx b a u

/-- For a start index in range the gather over 17 classes reads the class the index names. -/
theorem gather17_apply (x : S256x1024x17.Idx → α) (idx : IVec S256x1024x1x1 32) (b : Fin 256) (a : Fin 1024) (u : Fin 1)
    (h0 : 0 ≤ (idx (ix4 b a u (0 : Fin 1))).toInt) (h1 : (idx (ix4 b a u (0 : Fin 1))).toInt ≤ 16) :
    Host.gather gather_S256x1024x17_S256x1024x1x1_S256x1024x1_n_2_01_01_2_3_111 x idx (ix3 b a u) = x (ix3 b a (cls 17 (idx (ix4 b a u (0 : Fin 1))))) := by
  rw [gather17_clamped]
  refine congrArg (fun v => x (ix3 b a v)) (Fin.ext ?_)
  obtain ⟨e1, e2⟩ := toNat_of_range (idx (ix4 b a u (0 : Fin 1))) 16 h0 h1
  show min (idx (ix4 b a u (0 : Fin 1))).toInt.toNat 16 = (idx (ix4 b a u (0 : Fin 1))).toNat % 17
  rw [e1]; omega

theorem gather2_axis0 (idx : IVec S256x1024x1x1 32) (b : Fin 256) (a : Fin 1024) (u : Fin 1) :
    gather_S256x1024x2_S256x1024x1x1_S256x1024x1_n_2_01_01_2_3_111.start (ix3 b a u) idx 0 + gather_S256x1024x2_S256x1024x1x1_S256x1024x1_n_2_01_01_2_3_111.batchCoord (ix3 b a u) 0 + gather_S256x1024x2_S256x1024x1x1_S256x1024x1_n_2_01_01_2_3_111.offCoord (ix3 b a u) 0 = b.val := by
  have hm : (0 : Fin 3) ∈ gather_S256x1024x2_S256x1024x1x1_S256x1024x1_n_2_01_01_2_3_111.operandBatchingDims :=
    show (0 : Fin 3) ∈ ([0, 1] : List (Fin 3)) from by decide
  rw [GatherDims.start_batching _ _ _ _ hm,
    GatherDims.offCoord_eq_zero _ _ _ (fun h => ((GatherDims.mem_sKept _ _).mp h).2 hm)]
  unfold GatherDims.batchCoord
  rw [dif_pos hm, Nat.zero_add, Nat.add_zero]
  rfl
theorem gather2_axis1 (idx : IVec S256x1024x1x1 32) (b : Fin 256) (a : Fin 1024) (u : Fin 1) :
    gather_S256x1024x2_S256x1024x1x1_S256x1024x1_n_2_01_01_2_3_111.start (ix3 b a u) idx 1 + gather_S256x1024x2_S256x1024x1x1_S256x1024x1_n_2_01_01_2_3_111.batchCoord (ix3 b a u) 1 + gather_S256x1024x2_S256x1024x1x1_S256x1024x1_n_2_01_01_2_3_111.offCoord (ix3 b a u) 1 = a.val := by
  have hm : (1 : Fin 3) ∈ gather_S256x1024x2_S256x1024x1x1_S256x1024x1_n_2_01_01_2_3_111.operandBatchingDims :=
    show (1 : Fin 3) ∈ ([0, 1] : List (Fin 3)) from by decide
  rw [GatherDims.start_batching _ _ _ _ hm,
    GatherDims.offCoord_eq_zero _ _ _ (fun h => ((GatherDims.mem_sKept _ _).mp h).2 hm)]
  unfold GatherDims.batchCoord
  rw [dif_pos hm, Nat.zero_add, Nat.add_zero]
  rfl
theorem gather2_axis2 (idx : IVec S256x1024x1x1 32) (b : Fin 256) (a : Fin 1024) (u : Fin 1) :
    gather_S256x1024x2_S256x1024x1x1_S256x1024x1_n_2_01_01_2_3_111.start (ix3 b a u) idx 2 + gather_S256x1024x2_S256x1024x1x1_S256x1024x1_n_2_01_01_2_3_111.batchCoord (ix3 b a u) 2 + gather_S256x1024x2_S256x1024x1x1_S256x1024x1_n_2_01_01_2_3_111.offCoord (ix3 b a u) 2
      = min (idx (ix4 b a u (0 : Fin 1))).toInt.toNat 1 := by
  have hb : (2 : Fin 3) ∉ gather_S256x1024x2_S256x1024x1x1_S256x1024x1_n_2_01_01_2_3_111.operandBatchingDims :=
    show (2 : Fin 3) ∉ ([0, 1] : List (Fin 3)) from by decide
  have hc : (2 : Fin 3) ∈ gather_S256x1024x2_S256x1024x1x1_S256x1024x1_n_2_01_01_2_3_111.collapsedSliceDims :=
    show (2 : Fin 3) ∈ ([2] : List (Fin 3)) from by decide
  have hs : (2 : Fin 3) ∈ gather_S256x1024x2_S256x1024x1x1_S256x1024x1_n_2_01_01_2_3_111.startIndexMap :=
    show (2 : Fin 3) ∈ ([2] : List (Fin 3)) from by decide
  rw [GatherDims.batchCoord_eq_zero _ _ _ hb,
    GatherDims.offCoord_eq_zero _ _ _ (fun h => ((GatherDims.mem_sKept _ _).mp h).1 hc)]
  unfold GatherDims.start
  rw [dif_pos hs]
  have hsi : gather_S256x1024x2_S256x1024x1x1_S256x1024x1_n_2_01_01_2_3_111.siIdx (ix3 b a u) ⟨List.idxOf (2 : Fin 3) gather_S256x1024x2_S256x1024x1x1_S256x1024x1_n_2_01_01_2_3_111.startIndexMap,
      List.idxOf_lt_length_iff.2 hs⟩ = ix4 b a u (0 : Fin 1) := by
    funext d; refine Fin.ext ?_
    match d with
    | ⟨0, _⟩ => rfl
    | ⟨1, _⟩ => rfl
    | ⟨2, _⟩ => rfl
    | ⟨3, _⟩ => rfl
  rw [hsi]
  rfl

/-- The batched gather of take_along_axis over 2 classes at (b, a): the operand at (b, a, ·) at the start index read
    signed and clamped to the last class. -/
theorem gather2_clamped (x : S256x1024x2.Idx → α) (idx : IVec S256x1024x1x1 32) (b : Fin 256) (a : Fin 1024) (u : Fin 1) :
    Host.gather gather_S256x1024x2_S256x1024x1x1_S256x1024x1_n_2_01_01_2_3_111 x idx (ix3 b a u)
      = x (ix3 b a (⟨min (idx (ix4 b a u (0 : Fin 1))).toInt.toNat 1, by omega⟩ : Fin 2)) := by
  unfold Host.gather
  refine congrArg x (funext fun c => Fin.ext ?_)
  show gather_S256x1024x2_S256x1024x1x1_S256x1024x1_n_2_01_01_2_3_111.start (ix3 b a u) idx c + gather_S256x1024x2_S256x1024x1x1_S256x1024x1_n_2_01_01_2_3_111.batchCoord (ix3 b a u) c + gather_S256x1024x2_S256x1024x1x1_S256x1024x1_n_2_01_01_2_3_111.offCoord (ix3 b a u) c = _
  match c with
  | ⟨0, _⟩ => exact gather2_axis0 idx b a u
  | ⟨1, _⟩ => exact gather2_axis1 idx b a u
  | ⟨2, _⟩ => exact gather2_axis2 idx b a u

/-- For a start index in range the gather over 2 classes reads the class the index names. -/
theorem gather2_apply (x : S256x1024x2.Idx → α) (idx : IVec S256x1024x1x1 32) (b : Fin 256) (a : Fin 1024) (u : Fin 1)
    (h0 : 0 ≤ (idx (ix4 b a u (0 : Fin 1))).toInt) (h1 : (idx (ix4 b a u (0 : Fin 1))).toInt ≤ 1) :
    Host.gather gather_S256x1024x2_S256x1024x1x1_S256x1024x1_n_2_01_01_2_3_111 x idx (ix3 b a u) = x (ix3 b a (cls 2 (idx (ix4 b a u (0 : Fin 1))))) := by
  rw [gather2_clamped]
  refine congrArg (fun v => x (ix3 b a v)) (Fin.ext ?_)
  obtain ⟨e1, e2⟩ := toNat_of_range (idx (ix4 b a u (0 : Fin 1))) 1 h0 h1
  show min (idx (ix4 b a u (0 : Fin 1))).toInt.toNat 1 = (idx (ix4 b a u (0 : Fin 1))).toNat % 2
  rw [e1]; omega

/-! ## The index block given its unit fourth axis -/

/-- A 256 x 1024 x 1 block viewed as 256 x 1024 x 1 x 1 reads its (b, a, u) entry at (b, a, u, k). -/
theorem cast_unit4_apply (x : S256x1024x1.Idx → α) (h : S256x1024x1.ShapeCasts S256x1024x1x1)
    (b : Fin 256) (a : Fin 1024) (u k : Fin 1) : shapeCast S256x1024x1x1 x h (ix4 b a u k) = x (ix3 b a u) :=
  shapeCast_apply x h _ _ (by
    have hk : k.val = 0 := by omega
    rw [Shape.rowMajor_val_three, Shape.rowMajor_val_four]
    show (b.val * 1024 + a.val) * 1 + u.val = ((b.val * 1024 + a.val) * 1 + u.val) * 1 + k.val
    rw [hk]; omega)

/-! ## The index plumbing around the gather, word by word -/

theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = IntOp.addi (x i) (y i) := rfl
theorem andi_apply {s : Shape} {w : Nat} (x y : IVec s w) (i : s.Idx) : andi x y i = IntOp.andi (x i) (y i) := rfl

/-- A word at or above a bound is not below it. -/
theorem cmpi_slt_eq_zero (w c : BitVec 32) (h : c.toInt ≤ w.toInt) : IntOp.cmpi .slt w c = 0#1 := by
  have e : w.slt c = false := by
    rw [BitVec.slt, decide_eq_false_iff_not]; omega
  show BitVec.ofBool (w.slt c) = 0#1
  rw [e]; rfl

/-- A word at or above a bound compares greater-or-equal. -/
theorem cmpi_sge_eq_one (w c : BitVec 32) (h : c.toInt ≤ w.toInt) : IntOp.cmpi .sge w c = 1#1 := by
  have e : c.sle w = true := by
    rw [BitVec.sle, decide_eq_true_iff]; exact h
  show BitVec.ofBool (c.sle w) = 1#1
  rw [e]; rfl

/-- A word at or below a bound compares less-or-equal. -/
theorem cmpi_sle_eq_one (w c : BitVec 32) (h : w.toInt ≤ c.toInt) : IntOp.cmpi .sle w c = 1#1 := by
  have e : w.sle c = true := by
    rw [BitVec.sle, decide_eq_true_iff]; exact h
  show BitVec.ofBool (w.sle c) = 1#1
  rw [e]; rfl

theorem toInt_zero32 : (0#32 : BitVec 32).toInt = 0 := by decide
theorem toInt_one32 : (1#32 : BitVec 32).toInt = 1 := by decide
theorem toInt_sixteen32 : (16#32 : BitVec 32).toInt = 16 := by decide

/-- A non-negative index is not wrapped: the select on "below zero" keeps the word. -/
theorem wrap_of_nonneg (w n : BitVec 32) (h0 : 0 ≤ w.toInt) :
    Scalar.select (IntOp.cmpi .slt w 0#32) (IntOp.addi w n) w = w := by
  rw [cmpi_slt_eq_zero w 0#32 (by rw [toInt_zero32]; exact h0), select_zero]

/-- An index within [0, 16] passes the bounds test of the 17-class gather. -/
theorem mask17_of_range (w : BitVec 32) (h0 : 0 ≤ w.toInt) (h1 : w.toInt ≤ 16) :
    IntOp.andi (IntOp.cmpi .sge w 0#32) (IntOp.cmpi .sle w 16#32) = 1#1 := by
  rw [cmpi_sge_eq_one w 0#32 (by rw [toInt_zero32]; exact h0), cmpi_sle_eq_one w 16#32 (by rw [toInt_sixteen32]; exact h1)]
  rfl

/-- An index within [0, 1] passes the bounds test of the 2-class gather. -/
theorem mask2_of_range (w : BitVec 32) (h0 : 0 ≤ w.toInt) (h1 : w.toInt ≤ 1) :
    IntOp.andi (IntOp.cmpi .sge w 0#32) (IntOp.cmpi .sle w 1#32) = 1#1 := by
  rw [cmpi_sge_eq_one w 0#32 (by rw [toInt_zero32]; exact h0), cmpi_sle_eq_one w 1#32 (by rw [toInt_one32]; exact h1)]
  rfl

/-- Under a true mask the final select keeps the gathered value. -/
theorem select_true_mask (g nan : α) : Scalar.select 1#1 g nan = g := select_one g nan

/-! ## Broadcasts at explicit coordinates -/

/-- A scalar spread over the 256 x 1024 block. -/
theorem bcast_scalar2_apply (x : S_.Idx → α) (b : Fin 256) (a : Fin 1024) :
    broadcastInDim S256x1024 ![] bcast_S_S256x1024 x (ix2 b a) = x ix0 :=
  broadcastInDim_apply _ bcast_S_S256x1024 x (ix2 b a) ix0 (fun c => c.elim0)

/-- A scalar spread over the 256 x 1024 x 1 block. -/
theorem bcast_scalar3_apply (x : S_.Idx → α) (b : Fin 256) (a : Fin 1024) (u : Fin 1) :
    broadcastInDim S256x1024x1 ![] bcast_S_S256x1024x1 x (ix3 b a u) = x ix0 :=
  broadcastInDim_apply _ bcast_S_S256x1024x1 x (ix3 b a u) ix0 (fun c => c.elim0)

/-- A scalar spread over the 256 x 1024 x 1 x 1 block. -/
theorem bcast_scalar4_apply (x : S_.Idx → α) (b : Fin 256) (a : Fin 1024) (u k : Fin 1) :
    broadcastInDim S256x1024x1x1 ![] bcast_S_S256x1024x1x1 x (ix4 b a u k) = x ix0 :=
  broadcastInDim_apply _ bcast_S_S256x1024x1x1 x (ix4 b a u k) ix0 (fun c => c.elim0)

/-- A one-element vector given three unit axes in front. -/
theorem bcast_s1_apply (x : S1.Idx → α) (i : S1x1x1x1.Idx) :
    broadcastInDim S1x1x1x1 ![3] bcast_S1_S1x1x1x1_3 x i = x (ix1 (0 : Fin 1)) :=
  broadcastInDim_apply _ bcast_S1_S1x1x1x1_3 x i (ix1 (0 : Fin 1)) (fun c => match c with
    | ⟨0, _⟩ => by show 0 = if (1 : Nat) = 1 then 0 else (i 3).val; rw [if_pos rfl])

/-- A one-element block spread over the 256 x 1024 x 1 x 1 block. -/
theorem bcast_one4_apply (x : S1x1x1x1.Idx → α) (b : Fin 256) (a : Fin 1024) (u k : Fin 1) :
    broadcastInDim S256x1024x1x1 ![0, 1, 2, 3] bcast_S1x1x1x1_S256x1024x1x1_0_1_2_3 x (ix4 b a u k)
      = x (ix4 (0 : Fin 1) (0 : Fin 1) (0 : Fin 1) (0 : Fin 1)) :=
  broadcastInDim_apply _ bcast_S1x1x1x1_S256x1024x1x1_0_1_2_3 x (ix4 b a u k) (ix4 (0 : Fin 1) (0 : Fin 1) (0 : Fin 1) (0 : Fin 1))
    (fun c => match c with
    | ⟨0, _⟩ => by show 0 = if (1 : Nat) = 1 then 0 else b.val; rw [if_pos rfl]
    | ⟨1, _⟩ => by show 0 = if (1 : Nat) = 1 then 0 else a.val; rw [if_pos rfl]
    | ⟨2, _⟩ => by show 0 = if (1 : Nat) = 1 then 0 else u.val; rw [if_pos rfl]
    | ⟨3, _⟩ => by show 0 = if (1 : Nat) = 1 then 0 else k.val; rw [if_pos rfl])

/-- A 256 x 1024 block given a unit third axis. -/
theorem bcast_col_apply (y : S256x1024.Idx → α) (b : Fin 256) (a : Fin 1024) (u : Fin 1) :
    broadcastInDim S256x1024x1 ![0, 1] bcast_S256x1024_S256x1024x1_0_1 y (ix3 b a u) = y (ix2 b a) :=
  broadcastInDim_apply _ bcast_S256x1024_S256x1024x1_0_1 y (ix3 b a u) (ix2 b a) (fun c => match c with
    | ⟨0, _⟩ => by show b.val = if (256 : Nat) = 1 then 0 else b.val; rw [if_neg (by decide)]
    | ⟨1, _⟩ => by show a.val = if (1024 : Nat) = 1 then 0 else a.val; rw [if_neg (by decide)])

/-- The host's exponential and logarithm at an index. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- An integer constant at an index is its word. -/
theorem constI_apply {s : Shape} {w : ℕ} (c : BitVec w) (i : s.Idx) : constantI s w c i = c := rfl

/-! ## The whole log-softmax and the whole take_along_axis, over the printed operation chains -/

/-- A 256 x 1024 x 1 column spread over the 17 classes. -/
theorem bcast_classes17_apply (z : S256x1024x1.Idx → α) (b : Fin 256) (a : Fin 1024) (v : Fin 17) :
    broadcastInDim S256x1024x17 ![0, 1, 2] bcast_S256x1024x1_S256x1024x17_0_1_2 z (ix3 b a v) = z (ix3 b a (0 : Fin 1)) :=
  broadcastInDim_apply _ bcast_S256x1024x1_S256x1024x17_0_1_2 z (ix3 b a v) (ix3 b a (0 : Fin 1)) (fun c => match c with
    | ⟨0, _⟩ => by show b.val = if (256 : Nat) = 1 then 0 else b.val; rw [if_neg (by decide)]
    | ⟨1, _⟩ => by show a.val = if (1024 : Nat) = 1 then 0 else a.val; rw [if_neg (by decide)]
    | ⟨2, _⟩ => by show 0 = if (1 : Nat) = 1 then 0 else v.val; rw [if_pos rfl])

/-- The log-softmax over 17 classes as the program writes it: the block minus its row maximum (the maximum taken
    against minus infinity once more), … -/
def lsmShifted17 (x : FVec Ideal S256x1024x17 .f32) : FVec Ideal S256x1024x17 .f32 :=
  subf x (broadcastInDim S256x1024x17 ![0, 1, 2] bcast_S256x1024x1_S256x1024x17_0_1_2
    (broadcastInDim S256x1024x1 ![0, 1] bcast_S256x1024_S256x1024x1_0_1
      (maximumf (broadcastInDim S256x1024 ![] bcast_S_S256x1024 (constant (F := Ideal) S_ .f32 0xFF800000#32))
        (Host.reduce FloatOps.maximumf x (constant (F := Ideal) S_ .f32 0xFF800000#32) reducesTo_S256x1024x17_S256x1024_d2 h_S_))))

/-- … minus the log of the row sum of its exponentials. -/
def lsm17 (x : FVec Ideal S256x1024x17 .f32) : FVec Ideal S256x1024x17 .f32 :=
  subf (lsmShifted17 x) (broadcastInDim S256x1024x17 ![0, 1, 2] bcast_S256x1024x1_S256x1024x17_0_1_2
    (Host.log (broadcastInDim S256x1024x1 ![0, 1] bcast_S256x1024_S256x1024x1_0_1
      (Host.reduceAdd (Host.exp (lsmShifted17 x)) (constant (F := Ideal) S_ .f32 0x00000000#32) reducesTo_S256x1024x17_S256x1024_d2 h_S_))))

/-- The shifted block at (b, a, v). -/
theorem lsmShifted17_apply (x : FVec Ideal S256x1024x17 .f32) (b : Fin 256) (a : Fin 1024) (v : Fin 17) :
    lsmShifted17 x (ix3 b a v) = x (ix3 b a v) - max ⊥ (vmax (fun v => x (ix3 b a v))) := by
  unfold lsmShifted17
  rw [subf_apply, bcast_classes17_apply, bcast_col_apply, maximumf_apply, bcast_scalar2_apply, constant_neg_inf_apply,
    reduce_max17_apply]

/-- The whole log-softmax over 17 classes at (b, a, v) is the target's, of the row (b, a, ·). -/
theorem lsm17_apply (x : FVec Ideal S256x1024x17 .f32) (b : Fin 256) (a : Fin 1024) (v : Fin 17) :
    lsm17 x (ix3 b a v) = logSoftmax (fun v => x (ix3 b a v)) v := by
  unfold lsm17
  rw [subf_apply, lsmShifted17_apply, bcast_classes17_apply, hostLog_apply, bcast_col_apply, reduceAdd17_apply]
  unfold logSoftmax
  refine congrArg (fun s => _ - Ideal.log (0 + s)) (Finset.sum_congr rfl fun v' _ => ?_)
  rw [hostExp_apply, lsmShifted17_apply]

/-- take_along_axis over 17 classes as the program writes it: the index wrapped where negative, given a unit fourth
    axis, tested against [0, 16], the batched gather at it, and the select between the gathered value and NaN. -/
def takeIdx17 (idx : IVec S256x1024x1 32) : IVec S256x1024x1x1 32 :=
  shapeCast S256x1024x1x1
    (select (cmpi .slt idx (broadcastInDim S256x1024x1 ![] bcast_S_S256x1024x1 (constantI S_ 32 0#32)))
      (addi idx (broadcastInDim S256x1024x1 ![] bcast_S_S256x1024x1 (constantI S_ 32 17#32))) idx)
    shapeCasts_S256x1024x1_S256x1024x1x1

def takeMask17 (idx : IVec S256x1024x1 32) : IVec S256x1024x1 1 :=
  Host.reduce IntOp.andi
    (andi (cmpi .sge (takeIdx17 idx) (broadcastInDim S256x1024x1x1 ![] bcast_S_S256x1024x1x1 (constantI S_ 32 0#32)))
      (cmpi .sle (takeIdx17 idx) (broadcastInDim S256x1024x1x1 ![0, 1, 2, 3] bcast_S1x1x1x1_S256x1024x1x1_0_1_2_3
        (broadcastInDim S1x1x1x1 ![3] bcast_S1_S1x1x1x1_3 (constantI S1 32 16#32)))))
    (constantI S_ 1 1#1) reducesTo_S256x1024x1x1_S256x1024x1_d3 h_S_

def take17 (x : FVec Ideal S256x1024x17 .f32) (idx : IVec S256x1024x1 32) : FVec Ideal S256x1024x1 .f32 :=
  select (takeMask17 idx) (Host.gather gather_S256x1024x17_S256x1024x1x1_S256x1024x1_n_2_01_01_2_3_111 x (takeIdx17 idx))
    (broadcastInDim S256x1024x1 ![] bcast_S_S256x1024x1 (constant (F := Ideal) S_ .f32 0x7FC00000#32))

/-- For an index in range the wrapped and reshaped index block holds the index itself. -/
theorem takeIdx17_apply (idx : IVec S256x1024x1 32) (b : Fin 256) (a : Fin 1024) (u k : Fin 1)
    (h0 : 0 ≤ (idx (ix3 b a u)).toInt) : takeIdx17 idx (ix4 b a u k) = idx (ix3 b a u) := by
  unfold takeIdx17
  rw [cast_unit4_apply, select_apply, cmpi_apply, addi_apply, bcast_scalar3_apply, constI_apply]
  exact wrap_of_nonneg _ _ h0

/-- For an index in range the bounds mask is true. -/
theorem takeMask17_apply (idx : IVec S256x1024x1 32) (b : Fin 256) (a : Fin 1024) (u : Fin 1)
    (h0 : 0 ≤ (idx (ix3 b a u)).toInt) (h1 : (idx (ix3 b a u)).toInt ≤ 16) : takeMask17 idx (ix3 b a u) = 1#1 := by
  unfold takeMask17
  rw [reduce_and_apply, andi_apply, cmpi_apply, cmpi_apply, takeIdx17_apply idx b a u 0 h0, bcast_scalar4_apply,
    bcast_one4_apply, bcast_s1_apply, constI_apply, constI_apply]
  exact mask17_of_range _ h0 h1

/-- The whole take_along_axis over 17 classes at (b, a): for an index in range, the operand at the class it names. -/
theorem take17_apply (x : FVec Ideal S256x1024x17 .f32) (idx : IVec S256x1024x1 32) (b : Fin 256) (a : Fin 1024) (u : Fin 1)
    (h0 : 0 ≤ (idx (ix3 b a u)).toInt) (h1 : (idx (ix3 b a u)).toInt ≤ 16) :
    take17 x idx (ix3 b a u) = x (ix3 b a (cls 17 (idx (ix3 b a u)))) := by
  have e : takeIdx17 idx (ix4 b a u (0 : Fin 1)) = idx (ix3 b a u) := takeIdx17_apply idx b a u 0 h0
  unfold take17
  rw [select_apply, takeMask17_apply idx b a u h0 h1, select_one,
    gather17_apply x (takeIdx17 idx) b a u (by rw [e]; exact h0) (by rw [e]; exact h1), e]

/-- A 256 x 1024 x 1 column spread over the 2 classes. -/
theorem bcast_classes2_apply (z : S256x1024x1.Idx → α) (b : Fin 256) (a : Fin 1024) (v : Fin 2) :
    broadcastInDim S256x1024x2 ![0, 1, 2] bcast_S256x1024x1_S256x1024x2_0_1_2 z (ix3 b a v) = z (ix3 b a (0 : Fin 1)) :=
  broadcastInDim_apply _ bcast_S256x1024x1_S256x1024x2_0_1_2 z (ix3 b a v) (ix3 b a (0 : Fin 1)) (fun c => match c with
    | ⟨0, _⟩ => by show b.val = if (256 : Nat) = 1 then 0 else b.val; rw [if_neg (by decide)]
    | ⟨1, _⟩ => by show a.val = if (1024 : Nat) = 1 then 0 else a.val; rw [if_neg (by decide)]
    | ⟨2, _⟩ => by show 0 = if (1 : Nat) = 1 then 0 else v.val; rw [if_pos rfl])

/-- The log-softmax over 2 classes as the program writes it: the block minus its row maximum (the maximum taken
    against minus infinity once more), … -/
def lsmShifted2 (x : FVec Ideal S256x1024x2 .f32) : FVec Ideal S256x1024x2 .f32 :=
  subf x (broadcastInDim S256x1024x2 ![0, 1, 2] bcast_S256x1024x1_S256x1024x2_0_1_2
    (broadcastInDim S256x1024x1 ![0, 1] bcast_S256x1024_S256x1024x1_0_1
      (maximumf (broadcastInDim S256x1024 ![] bcast_S_S256x1024 (constant (F := Ideal) S_ .f32 0xFF800000#32))
        (Host.reduce FloatOps.maximumf x (constant (F := Ideal) S_ .f32 0xFF800000#32) reducesTo_S256x1024x2_S256x1024_d2 h_S_))))

/-- … minus the log of the row sum of its exponentials. -/
def lsm2 (x : FVec Ideal S256x1024x2 .f32) : FVec Ideal S256x1024x2 .f32 :=
  subf (lsmShifted2 x) (broadcastInDim S256x1024x2 ![0, 1, 2] bcast_S256x1024x1_S256x1024x2_0_1_2
    (Host.log (broadcastInDim S256x1024x1 ![0, 1] bcast_S256x1024_S256x1024x1_0_1
      (Host.reduceAdd (Host.exp (lsmShifted2 x)) (constant (F := Ideal) S_ .f32 0x00000000#32) reducesTo_S256x1024x2_S256x1024_d2 h_S_))))

/-- The shifted block at (b, a, v). -/
theorem lsmShifted2_apply (x : FVec Ideal S256x1024x2 .f32) (b : Fin 256) (a : Fin 1024) (v : Fin 2) :
    lsmShifted2 x (ix3 b a v) = x (ix3 b a v) - max ⊥ (vmax (fun v => x (ix3 b a v))) := by
  unfold lsmShifted2
  rw [subf_apply, bcast_classes2_apply, bcast_col_apply, maximumf_apply, bcast_scalar2_apply, constant_neg_inf_apply,
    reduce_max2_apply]

/-- The whole log-softmax over 2 classes at (b, a, v) is the target's, of the row (b, a, ·). -/
theorem lsm2_apply (x : FVec Ideal S256x1024x2 .f32) (b : Fin 256) (a : Fin 1024) (v : Fin 2) :
    lsm2 x (ix3 b a v) = logSoftmax (fun v => x (ix3 b a v)) v := by
  unfold lsm2
  rw [subf_apply, lsmShifted2_apply, bcast_classes2_apply, hostLog_apply, bcast_col_apply, reduceAdd2_apply]
  unfold logSoftmax
  refine congrArg (fun s => _ - Ideal.log (0 + s)) (Finset.sum_congr rfl fun v' _ => ?_)
  rw [hostExp_apply, lsmShifted2_apply]

/-- take_along_axis over 2 classes as the program writes it: the index wrapped where negative, given a unit fourth
    axis, tested against [0, 1], the batched gather at it, and the select between the gathered value and NaN. -/
def takeIdx2 (idx : IVec S256x1024x1 32) : IVec S256x1024x1x1 32 :=
  shapeCast S256x1024x1x1
    (select (cmpi .slt idx (broadcastInDim S256x1024x1 ![] bcast_S_S256x1024x1 (constantI S_ 32 0#32)))
      (addi idx (broadcastInDim S256x1024x1 ![] bcast_S_S256x1024x1 (constantI S_ 32 2#32))) idx)
    shapeCasts_S256x1024x1_S256x1024x1x1

def takeMask2 (idx : IVec S256x1024x1 32) : IVec S256x1024x1 1 :=
  Host.reduce IntOp.andi
    (andi (cmpi .sge (takeIdx2 idx) (broadcastInDim S256x1024x1x1 ![] bcast_S_S256x1024x1x1 (constantI S_ 32 0#32)))
      (cmpi .sle (takeIdx2 idx) (broadcastInDim S256x1024x1x1 ![0, 1, 2, 3] bcast_S1x1x1x1_S256x1024x1x1_0_1_2_3
        (broadcastInDim S1x1x1x1 ![3] bcast_S1_S1x1x1x1_3 (constantI S1 32 1#32)))))
    (constantI S_ 1 1#1) reducesTo_S256x1024x1x1_S256x1024x1_d3 h_S_

def take2 (x : FVec Ideal S256x1024x2 .f32) (idx : IVec S256x1024x1 32) : FVec Ideal S256x1024x1 .f32 :=
  select (takeMask2 idx) (Host.gather gather_S256x1024x2_S256x1024x1x1_S256x1024x1_n_2_01_01_2_3_111 x (takeIdx2 idx))
    (broadcastInDim S256x1024x1 ![] bcast_S_S256x1024x1 (constant (F := Ideal) S_ .f32 0x7FC00000#32))

/-- For an index in range the wrapped and reshaped index block holds the index itself. -/
theorem takeIdx2_apply (idx : IVec S256x1024x1 32) (b : Fin 256) (a : Fin 1024) (u k : Fin 1)
    (h0 : 0 ≤ (idx (ix3 b a u)).toInt) : takeIdx2 idx (ix4 b a u k) = idx (ix3 b a u) := by
  unfold takeIdx2
  rw [cast_unit4_apply, select_apply, cmpi_apply, addi_apply, bcast_scalar3_apply, constI_apply]
  exact wrap_of_nonneg _ _ h0

/-- For an index in range the bounds mask is true. -/
theorem takeMask2_apply (idx : IVec S256x1024x1 32) (b : Fin 256) (a : Fin 1024) (u : Fin 1)
    (h0 : 0 ≤ (idx (ix3 b a u)).toInt) (h1 : (idx (ix3 b a u)).toInt ≤ 1) : takeMask2 idx (ix3 b a u) = 1#1 := by
  unfold takeMask2
  rw [reduce_and_apply, andi_apply, cmpi_apply, cmpi_apply, takeIdx2_apply idx b a u 0 h0, bcast_scalar4_apply,
    bcast_one4_apply, bcast_s1_apply, constI_apply, constI_apply]
  exact mask2_of_range _ h0 h1

/-- The whole take_along_axis over 2 classes at (b, a): for an index in range, the operand at the class it names. -/
theorem take2_apply (x : FVec Ideal S256x1024x2 .f32) (idx : IVec S256x1024x1 32) (b : Fin 256) (a : Fin 1024) (u : Fin 1)
    (h0 : 0 ≤ (idx (ix3 b a u)).toInt) (h1 : (idx (ix3 b a u)).toInt ≤ 1) :
    take2 x idx (ix3 b a u) = x (ix3 b a (cls 2 (idx (ix3 b a u)))) := by
  have e : takeIdx2 idx (ix4 b a u (0 : Fin 1)) = idx (ix3 b a u) := takeIdx2_apply idx b a u 0 h0
  unfold take2
  rw [select_apply, takeMask2_apply idx b a u h0 h1, select_one,
    gather2_apply x (takeIdx2 idx) b a u (by rw [e]; exact h0) (by rw [e]; exact h1), e]

end Cert.ReferenceIdeal.Ops

end
-- ==== Proof.RefHead1.lean ====
/-
  The reference's source-register head, entry by entry.

  At batch row b and action a the reference forms the hidden row max (f b k + ep a k) 0 (f the feature projection, ep the
  embedding projection, one 64-term dot product of the opcode embedding row), the logits (sum over k of h k * W v k) + B v, their log-softmax along the classes (shift
  by the maximum, which the lowering takes once more against minus infinity, then subtract the log of the sum of
  exponentials, the sum starting from 0), and reads it at the action's clipped id: the clipped id is in range, so the
  negative-index wrap, the bounds mask and its fill value do nothing.
-/
import proofs.«411827_j42236708388866_3_alg».proof.Proof.RefStages
import proofs.«411827_j42236708388866_3_alg».proof.Proof.Spec
import proofs.«411827_j42236708388866_3_alg».proof.Proof.IdxRange
import proofs.«411827_j42236708388866_3_alg».proof.Proof.RefOps

import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Heads

open Cert.ReferenceIdeal Cert.ReferenceIdeal.Read Idealize.ShloMosaic Idealize.ShloMosaic.ValueIdx Cert.Spec
open scoped BigOperators

section Head1

variable (x0 : (⟨S256x512, .f32⟩ : BufTy).Contents (Elt Ideal)) (x1 : (⟨S1024, .i32⟩ : BufTy).Contents (Elt Ideal)) (x2 : (⟨S1024, .i32⟩ : BufTy).Contents (Elt Ideal)) (x5 : (⟨S65x64, .f32⟩ : BufTy).Contents (Elt Ideal)) (x11 : (⟨S128x576, .f32⟩ : BufTy).Contents (Elt Ideal)) (x12 : (⟨S128, .f32⟩ : BufTy).Contents (Elt Ideal)) (x13 : (⟨S17x128, .f32⟩ : BufTy).Contents (Elt Ideal)) (x14 : (⟨S17, .f32⟩ : BufTy).Contents (Elt Ideal))

/-- The hidden row of entry (b, a). -/
private abbrev hd1 (b : Fin 256) (a : Fin 1024) : Fin 128 → EReal :=
  hid (fun k => val_main_v49 x0 x11 x12 (ix2 b k)) (ep1 (fun e => val_main_v10 x1 x5 (ix2 a e)) (fun e k => val_main_v51 x11 (ix2 e k)))

/-- The logits of entry (b, a). -/
private abbrev lg1 (b : Fin 256) (a : Fin 1024) : Fin 17 → EReal :=
  fun v => logit (hd1 x0 x1 x5 x11 x12 b a) (fun k => x13 (ix2 v k)) (x14 (ix1 v))

/-! Index functions composed along the chain, at explicit coordinates. -/

private theorem e53 (b : Fin 256) (a : Fin 1024) (k : Fin 128) : idx_main_v53 (idx_main_v55 (ix3 b a k)) = ix2 b k :=
  funext fun c => Fin.ext (by match c with | ⟨0, _⟩ => rfl | ⟨1, _⟩ => rfl)

private theorem e52l (b : Fin 256) (a : Fin 1024) (k : Fin 128) (e : Fin 64) :
    lidx_main_v52 (idx_main_v54 (idx_main_v56 (ix3 b a k))) e = ix2 a e :=
  funext fun c => Fin.ext (by match c with | ⟨0, _⟩ => rfl | ⟨1, _⟩ => rfl)

private theorem e52r (b : Fin 256) (a : Fin 1024) (k : Fin 128) (e : Fin 64) :
    ridx_main_v52 (idx_main_v54 (idx_main_v56 (ix3 b a k))) e = ix2 e k :=
  funext fun c => Fin.ext (by match c with | ⟨0, _⟩ => rfl | ⟨1, _⟩ => rfl)

private theorem e59l (b : Fin 256) (a : Fin 1024) (v : Fin 17) (k : Fin 128) : lidx_main_v59 (ix3 b a v) k = ix3 b a k :=
  funext fun c => Fin.ext (by match c with | ⟨0, _⟩ => rfl | ⟨1, _⟩ => rfl | ⟨2, _⟩ => rfl)

private theorem e59r (b : Fin 256) (a : Fin 1024) (v : Fin 17) (k : Fin 128) : ridx_main_v59 (ix3 b a v) k = ix2 v k :=
  funext fun c => Fin.ext (by match c with | ⟨0, _⟩ => rfl | ⟨1, _⟩ => rfl)

private theorem e60 (b : Fin 256) (a : Fin 1024) (v : Fin 17) : idx_main_v60 (idx_main_v61 (ix3 b a v)) = ix1 v :=
  funext fun c => Fin.ext (by match c with | ⟨0, _⟩ => rfl)

private theorem e7m (b : Fin 256) (a : Fin 1024) (v : Fin 17) : idx_main_call7_v3 (idx_main_call7_v4 (ix3 b a v)) = ix2 b a :=
  funext fun c => Fin.ext (by match c with | ⟨0, _⟩ => rfl | ⟨1, _⟩ => rfl)

private theorem e7s (b : Fin 256) (a : Fin 1024) (k : Fin 17) : idx_main_call7_v7 (ix2 b a) k = ix3 b a k :=
  funext fun c => Fin.ext (by match c with | ⟨0, _⟩ => rfl | ⟨1, _⟩ => rfl | ⟨2, _⟩ => rfl)

private theorem e7l (b : Fin 256) (a : Fin 1024) (v : Fin 17) : idx_main_call7_v8 (idx_main_call7_v10 (ix3 b a v)) = ix2 b a :=
  funext fun c => Fin.ext (by match c with | ⟨0, _⟩ => rfl | ⟨1, _⟩ => rfl)

private theorem e67 (b : Fin 256) (a : Fin 1024) : idx_main_v67 (ix2 b a) = ix3 b a (0 : Fin 1) :=
  funext fun c => Fin.ext (by
    have hb := b.isLt
    have ha := a.isLt
    match c with
    | ⟨0, _⟩ => show (b.val * 1024 + a.val) / 1024 = b.val; omega
    | ⟨1, _⟩ => show (b.val * 1024 + a.val) / 1 % 1024 = a.val; omega
    | ⟨2, _⟩ => rfl)

/-- Minus infinity's word. -/
private theorem ofBits_ninf : Ideal.ofBits .f32 0xFF800000#32 = (⊥ : EReal) := by simp [Ideal.ofBits, Ideal.ieee]

/-! The stages, one group at a time. -/

/-- The hidden row at (b, a, k): relu of the feature projection of b plus the embedding projection of a. -/
private theorem hidden_apply (b : Fin 256) (a : Fin 1024) (k : Fin 128) :
    val_main_v58 x0 x1 x5 x11 x12 (ix3 b a k) = hd1 x0 x1 x5 x11 x12 b a k := by
  rw [val_main_v58_apply, val_main_v57_apply, val_main_v55_apply, val_main_v53_apply, val_main_v56_apply,
    val_main_v54_apply, val_main_v52_apply, val_main_call6_v0_apply, val_main_call6_cst_apply, e53]
  simp only [e52l, e52r]
  show max (_ + _) (Ideal.ofBits .f32 0x00000000#32) = _
  rw [Ideal.ofBits_zero_f32]
  rfl

/-- The logits at (b, a, v). -/
private theorem logits_apply (b : Fin 256) (a : Fin 1024) (v : Fin 17) :
    val_main_v62 x0 x1 x5 x11 x12 x13 x14 (ix3 b a v) = lg1 x0 x1 x5 x11 x12 x13 x14 b a v := by
  rw [val_main_v62_apply, val_main_v59_apply, val_main_v61_apply, val_main_v60_apply, e60]
  simp only [e59l, e59r, hidden_apply]
  rfl

/-! The index word of the gather, its bounds mask, and the gathered entry. -/

private theorem e8r (b : Fin 256) (a : Fin 1024) :
    idx_main_call8_v5 (ix4 b a (0 : Fin 1) (0 : Fin 1)) = ix3 b a (0 : Fin 1) :=
  funext fun c => Fin.ext (by
    have hb := b.isLt
    have ha := a.isLt
    match c with
    | ⟨0, _⟩ => show (((b.val * 1024 + a.val) * 1 + 0) * 1 + 0) / 1024 = b.val; omega
    | ⟨1, _⟩ => show (((b.val * 1024 + a.val) * 1 + 0) * 1 + 0) / 1 % 1024 = a.val; omega
    | ⟨2, _⟩ => rfl)

private theorem e65 (b : Fin 256) (a : Fin 1024) : idx_main_v64 (idx_main_v65 (ix3 b a (0 : Fin 1))) = ix1 a :=
  funext fun c => Fin.ext (by match c with | ⟨0, _⟩ => rfl)

/-- The start index word at (b, a): the clipped id of a, which is not negative and so is not wrapped. -/
private theorem word_at (b : Fin 256) (a : Fin 1024) :
    val_main_call8_v5 (F := Ideal) x2 (ix4 b a (0 : Fin 1) (0 : Fin 1)) = val_main_v1 (F := Ideal) x2 (ix1 a) := by
  rw [val_main_call8_v5_apply, e8r, val_main_call8_v4_apply, val_main_call8_v1_apply, val_main_call8_v3_apply,
    val_main_call8_v0_apply, val_main_call8_c_apply, val_main_v65_apply, val_main_v64_apply, e65]
  exact Ops.wrap_of_nonneg _ _ (Cert.IdxRange.v1_range x2 a).1

/-- The bounds mask at (b, a) is true: the clipped id lies in [0, 16]. -/
private theorem mask_at (b : Fin 256) (a : Fin 1024) : val_main_call8_v12 (F := Ideal) x2 (ix3 b a (0 : Fin 1)) = 1#1 := by
  refine (Ops.reduce_and_apply (val_main_call8_v11 (F := Ideal) x2) b a 0).trans ?_
  rw [val_main_call8_v11_apply, val_main_call8_v7_apply, val_main_call8_v10_apply, val_main_call8_v6_apply,
    val_main_call8_c_2_apply, val_main_call8_v9_apply, val_main_call8_v8_apply, val_main_call8_c_1_apply, word_at]
  exact Ops.mask17_of_range _ (Cert.IdxRange.v1_range x2 a).1 (Cert.IdxRange.v1_range x2 a).2

/-- The gather at (b, a) reads the class the clipped id names. -/
private theorem gather_at {α : Type} (X : S256x1024x17.Idx → α) (b : Fin 256) (a : Fin 1024) :
    Host.gather gather_S256x1024x17_S256x1024x1x1_S256x1024x1_n_2_01_01_2_3_111 X (val_main_call8_v5 (F := Ideal) x2) (ix3 b a (0 : Fin 1))
      = X (ix3 b a (cls 17 (val_main_v1 (F := Ideal) x2 (ix1 a)))) := by
  have hw := word_at x2 b a
  have hr := Cert.IdxRange.v1_range (F := Ideal) x2 a
  rw [Ops.gather17_apply X (val_main_call8_v5 (F := Ideal) x2) b a 0 (by rw [hw]; exact hr.1) (by rw [hw]; exact hr.2), hw]

/-- The row maximum at (b, a). -/
private theorem max_apply (b : Fin 256) (a : Fin 1024) :
    val_main_call7_v0 x0 x1 x5 x11 x12 x13 x14 (ix2 b a) = vmax (lg1 x0 x1 x5 x11 x12 x13 x14 b a) := by
  exact (Ops.reduce_max17_apply (val_main_v62 x0 x1 x5 x11 x12 x13 x14) b a).trans
    (congrArg vmax (funext fun v => logits_apply x0 x1 x5 x11 x12 x13 x14 b a v))

/-- The shifted logits at (b, a, v). -/
private theorem shifted_apply (b : Fin 256) (a : Fin 1024) (v : Fin 17) :
    val_main_call7_v5 x0 x1 x5 x11 x12 x13 x14 (ix3 b a v)
      = lg1 x0 x1 x5 x11 x12 x13 x14 b a v - max ⊥ (vmax (lg1 x0 x1 x5 x11 x12 x13 x14 b a)) := by
  rw [val_main_call7_v5_apply, val_main_call7_v4_apply, val_main_call7_v3_apply, val_main_call7_v2_apply,
    val_main_call7_v1_apply, val_main_call7_cst_0_apply, logits_apply, e7m, max_apply]
  show _ - max (Ideal.ofBits .f32 0xFF800000#32) _ = _
  rw [ofBits_ninf]

/-- The sum of exponentials at (b, a). -/
private theorem sum_apply (b : Fin 256) (a : Fin 1024) :
    val_main_call7_v7 x0 x1 x5 x11 x12 x13 x14 (ix2 b a)
      = 0 + ∑ v : Fin 17, Ideal.exp (lg1 x0 x1 x5 x11 x12 x13 x14 b a v - max ⊥ (vmax (lg1 x0 x1 x5 x11 x12 x13 x14 b a))) := by
  rw [val_main_call7_v7_apply, val_main_call7_cst_1_apply]
  simp only [e7s, val_main_call7_v6_apply, shifted_apply]
  show Ideal.ofBits .f32 0x00000000#32 + _ = _
  rw [Ideal.ofBits_zero_f32]
  rfl

/-- The log-softmax at (b, a, v). -/
private theorem logsm_apply (b : Fin 256) (a : Fin 1024) (v : Fin 17) :
    val_main_v63 x0 x1 x5 x11 x12 x13 x14 (ix3 b a v) = logSoftmax (lg1 x0 x1 x5 x11 x12 x13 x14 b a) v := by
  rw [val_main_v63_apply, val_main_call7_v10_apply, val_main_call7_v9_apply, val_main_call7_v8_apply, shifted_apply, e7l,
    sum_apply]
  rfl

end Head1

theorem head1_apply (x0 : (⟨S256x512, .f32⟩ : BufTy).Contents (Elt Ideal)) (x1 : (⟨S1024, .i32⟩ : BufTy).Contents (Elt Ideal)) (x2 : (⟨S1024, .i32⟩ : BufTy).Contents (Elt Ideal)) (x5 : (⟨S65x64, .f32⟩ : BufTy).Contents (Elt Ideal)) (x11 : (⟨S128x576, .f32⟩ : BufTy).Contents (Elt Ideal)) (x12 : (⟨S128, .f32⟩ : BufTy).Contents (Elt Ideal)) (x13 : (⟨S17x128, .f32⟩ : BufTy).Contents (Elt Ideal)) (x14 : (⟨S17, .f32⟩ : BufTy).Contents (Elt Ideal)) (b : Fin 256) (a : Fin 1024) :
    val_main_v67 x0 x1 x2 x5 x11 x12 x13 x14 (ix2 b a)
      = rFull (hid (fun k => val_main_v49 x0 x11 x12 (ix2 b k)) (ep1 (fun e => val_main_v10 x1 x5 (ix2 a e)) (fun e k => val_main_v51 x11 (ix2 e k)))) (fun v k => x13 (ix2 v k)) (fun v => x14 (ix1 v)) (cls 17 (val_main_v1 x2 (ix1 a))) := by
  rw [val_main_v67_apply, e67, val_main_v66_apply, mask_at, select_one]
  exact (gather_at x2 (val_main_v63 x0 x1 x5 x11 x12 x13 x14) b a).trans (logsm_apply x0 x1 x5 x11 x12 x13 x14 b a _)

end Cert.ReferenceIdeal.Heads

end
-- ==== Proof.RefHead2.lean ====
/-
  The reference's destination-register head, entry by entry.

  At batch row b and action a the reference forms the hidden row max (f b k + ep a k) 0 (f the feature projection, ep the
  embedding projection, two 64-term dot products, of the opcode and source-register embedding rows), the logits (sum over k of h k * W v k) + B v, their log-softmax along the classes (shift
  by the maximum, which the lowering takes once more against minus infinity, then subtract the log of the sum of
  exponentials, the sum starting from 0), and reads it at the action's clipped id: the clipped id is in range, so the
  negative-index wrap, the bounds mask and its fill value do nothing.
-/
import proofs.«411827_j42236708388866_3_alg».proof.Proof.RefStages
import proofs.«411827_j42236708388866_3_alg».proof.Proof.Spec
import proofs.«411827_j42236708388866_3_alg».proof.Proof.IdxRange
import proofs.«411827_j42236708388866_3_alg».proof.Proof.RefOps

import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Heads

open Cert.ReferenceIdeal Cert.ReferenceIdeal.Read Idealize.ShloMosaic Idealize.ShloMosaic.ValueIdx Cert.Spec
open scoped BigOperators

section Head2

variable (x0 : (⟨S256x512, .f32⟩ : BufTy).Contents (Elt Ideal)) (x1 x2 x3 : (⟨S1024, .i32⟩ : BufTy).Contents (Elt Ideal))
  (x5 : (⟨S65x64, .f32⟩ : BufTy).Contents (Elt Ideal)) (x6 : (⟨S17x64, .f32⟩ : BufTy).Contents (Elt Ideal))
  (x15 : (⟨S128x640, .f32⟩ : BufTy).Contents (Elt Ideal)) (x16 : (⟨S128, .f32⟩ : BufTy).Contents (Elt Ideal))
  (x17 : (⟨S17x128, .f32⟩ : BufTy).Contents (Elt Ideal)) (x18 : (⟨S17, .f32⟩ : BufTy).Contents (Elt Ideal))

/-- The feature projection row of batch element b. -/
abbrev h2F (b : Fin 256) : Fin 128 → EReal := fun k => val_main_v74 x0 x15 x16 (ix2 b k)

/-- The embedding projection row of action a: two 64-term dot products. -/
abbrev h2Ep (a : Fin 1024) : Fin 128 → EReal :=
  ep2 (fun e => val_main_v10 x1 x5 (ix2 a e)) (fun e => val_main_v17 x2 x6 (ix2 a e))
    (fun e k => val_main_v76 x15 (ix2 e k)) (fun e k => val_main_v79 x15 (ix2 e k))

/-- The 17 logits of the entry (b, a). -/
abbrev h2Lg (b : Fin 256) (a : Fin 1024) : Fin 17 → EReal :=
  fun v => logit (hid (h2F x0 x15 x16 b) (h2Ep x1 x2 x5 x6 x15 a)) (fun k => x17 (ix2 v k)) (x18 (ix1 v))

/-! ### The composed index functions at explicit coordinates -/

theorem h2_i82 (b : Fin 256) (a : Fin 1024) (k : Fin 128) :
    (idx_main_v82 (idx_main_v84 (ix3 b a k)) : S256x128.Idx) = ix2 b k := by
  funext d; match d with | ⟨0, _⟩ => rfl | ⟨1, _⟩ => rfl

theorem h2_i83 (b : Fin 256) (a : Fin 1024) (k : Fin 128) :
    (idx_main_v83 (idx_main_v85 (ix3 b a k)) : S1024x128.Idx) = ix2 a k := by
  funext d; match d with | ⟨0, _⟩ => rfl | ⟨1, _⟩ => rfl

theorem h2_l77 (a : Fin 1024) (k : Fin 128) (e : Fin 64) : (lidx_main_v77 (ix2 a k) e : S1024x64.Idx) = ix2 a e := by
  funext d; match d with | ⟨0, _⟩ => rfl | ⟨1, _⟩ => rfl

theorem h2_r77 (a : Fin 1024) (k : Fin 128) (e : Fin 64) : (ridx_main_v77 (ix2 a k) e : S64x128.Idx) = ix2 e k := by
  funext d; match d with | ⟨0, _⟩ => rfl | ⟨1, _⟩ => rfl

theorem h2_l80 (a : Fin 1024) (k : Fin 128) (e : Fin 64) : (lidx_main_v80 (ix2 a k) e : S1024x64.Idx) = ix2 a e := by
  funext d; match d with | ⟨0, _⟩ => rfl | ⟨1, _⟩ => rfl

theorem h2_r80 (a : Fin 1024) (k : Fin 128) (e : Fin 64) : (ridx_main_v80 (ix2 a k) e : S64x128.Idx) = ix2 e k := by
  funext d; match d with | ⟨0, _⟩ => rfl | ⟨1, _⟩ => rfl

theorem h2_l88 (b : Fin 256) (a : Fin 1024) (v : Fin 17) (k : Fin 128) :
    (lidx_main_v88 (ix3 b a v) k : S256x1024x128.Idx) = ix3 b a k := by
  funext d; match d with | ⟨0, _⟩ => rfl | ⟨1, _⟩ => rfl | ⟨2, _⟩ => rfl

theorem h2_r88 (b : Fin 256) (a : Fin 1024) (v : Fin 17) (k : Fin 128) :
    (ridx_main_v88 (ix3 b a v) k : S17x128.Idx) = ix2 v k := by
  funext d; match d with | ⟨0, _⟩ => rfl | ⟨1, _⟩ => rfl

theorem h2_i89 (b : Fin 256) (a : Fin 1024) (v : Fin 17) :
    (idx_main_v89 (idx_main_v90 (ix3 b a v)) : S17.Idx) = ix1 v := by
  funext d; match d with | ⟨0, _⟩ => rfl

theorem h2_i3 (b : Fin 256) (a : Fin 1024) (v : Fin 17) :
    (idx_main_call10_v3 (idx_main_call10_v4 (ix3 b a v)) : S256x1024.Idx) = ix2 b a := by
  funext d; match d with | ⟨0, _⟩ => rfl | ⟨1, _⟩ => rfl

theorem h2_i7 (b : Fin 256) (a : Fin 1024) (v : Fin 17) :
    (idx_main_call10_v7 (ix2 b a) v : S256x1024x17.Idx) = ix3 b a v := by
  funext d; match d with | ⟨0, _⟩ => rfl | ⟨1, _⟩ => rfl | ⟨2, _⟩ => rfl

theorem h2_i8 (b : Fin 256) (a : Fin 1024) (v : Fin 17) :
    (idx_main_call10_v8 (idx_main_call10_v10 (ix3 b a v)) : S256x1024.Idx) = ix2 b a := by
  funext d; match d with | ⟨0, _⟩ => rfl | ⟨1, _⟩ => rfl

/-! ### The hidden row -/

/-- The hidden activation at (b, a, k): relu of the feature projection plus the two embedding dot products. -/
theorem h2_hidden (b : Fin 256) (a : Fin 1024) (k : Fin 128) :
    val_main_v87 x0 x1 x2 x5 x6 x15 x16 (ix3 b a k) = hid (h2F x0 x15 x16 b) (h2Ep x1 x2 x5 x6 x15 a) k := by
  rw [val_main_v87_apply, val_main_v86_apply, val_main_v84_apply, val_main_v82_apply, val_main_v85_apply,
    val_main_v83_apply, val_main_v81_apply, h2_i82, h2_i83, val_main_v77_apply, val_main_v80_apply,
    val_main_call9_v0_apply, val_main_call9_cst_apply]
  simp only [h2_l77, h2_r77, h2_l80, h2_r80]
  show max (_ + (_ + _)) (Ideal.ofBits .f32 0x00000000#32) = _
  rw [Ideal.ofBits_zero_f32]
  rfl

/-! ### The logits -/

theorem h2_logit (b : Fin 256) (a : Fin 1024) (v : Fin 17) :
    val_main_v91 x0 x1 x2 x5 x6 x15 x16 x17 x18 (ix3 b a v) = h2Lg x0 x1 x2 x5 x6 x15 x16 x17 x18 b a v := by
  rw [val_main_v91_apply, val_main_v88_apply, val_main_v90_apply, val_main_v89_apply, h2_i89]
  simp only [h2_l88, h2_r88, h2_hidden]
  rfl

/-! ### The log-softmax along the classes -/

/-- The class maximum at (b, a): the running maximum of the 17 logits from minus infinity. -/
theorem h2_max0 (b : Fin 256) (a : Fin 1024) :
    val_main_call10_v0 x0 x1 x2 x5 x6 x15 x16 x17 x18 (ix2 b a) = vmax (h2Lg x0 x1 x2 x5 x6 x15 x16 x17 x18 b a) := by
  unfold val_main_call10_v0
  refine (Ops.reduce_max17_of_init _ _ Ops.ofBits_neg_inf b a).trans ?_
  exact congrArg vmax (funext fun v => h2_logit x0 x1 x2 x5 x6 x15 x16 x17 x18 b a v)

/-- The shifted logit at (b, a, v). -/
theorem h2_shift (b : Fin 256) (a : Fin 1024) (v : Fin 17) :
    val_main_call10_v5 x0 x1 x2 x5 x6 x15 x16 x17 x18 (ix3 b a v)
      = h2Lg x0 x1 x2 x5 x6 x15 x16 x17 x18 b a v - max ⊥ (vmax (h2Lg x0 x1 x2 x5 x6 x15 x16 x17 x18 b a)) := by
  rw [val_main_call10_v5_apply, val_main_call10_v4_apply, val_main_call10_v3_apply, h2_i3, val_main_call10_v2_apply,
    val_main_call10_v1_apply, val_main_call10_cst_0_apply, h2_max0, h2_logit]
  show _ - max (Ideal.ofBits .f32 0xFF800000#32) _ = _
  rw [Ops.ofBits_neg_inf]

/-- The sum of the shifted exponentials at (b, a), started from 0. -/
theorem h2_sum (b : Fin 256) (a : Fin 1024) :
    val_main_call10_v7 x0 x1 x2 x5 x6 x15 x16 x17 x18 (ix2 b a)
      = 0 + ∑ v : Fin 17, Ideal.exp (h2Lg x0 x1 x2 x5 x6 x15 x16 x17 x18 b a v
          - max ⊥ (vmax (h2Lg x0 x1 x2 x5 x6 x15 x16 x17 x18 b a))) := by
  rw [val_main_call10_v7_apply, val_main_call10_cst_1_apply]
  simp only [val_main_call10_v6_apply, h2_i7, h2_shift]
  show Ideal.ofBits .f32 0x00000000#32 + _ = _
  rw [Ops.ofBits_zero]
  rfl

/-- The log-softmax at (b, a, v). -/
theorem h2_lsm (b : Fin 256) (a : Fin 1024) (v : Fin 17) :
    val_main_v92 x0 x1 x2 x5 x6 x15 x16 x17 x18 (ix3 b a v) = logSoftmax (h2Lg x0 x1 x2 x5 x6 x15 x16 x17 x18 b a) v := by
  rw [val_main_v92_apply, val_main_call10_v10_apply, val_main_call10_v9_apply, val_main_call10_v8_apply, h2_i8, h2_sum,
    h2_shift]
  rfl

/-! ### The class index word: in range, so the wrap, the bounds mask and the clamp do nothing -/

theorem h2_i96 (b : Fin 256) (a : Fin 1024) : (idx_main_v96 (ix2 b a) : S256x1024x1.Idx) = ix3 b a (0 : Fin 1) := by
  have hb := b.isLt; have ha := a.isLt
  funext d; apply Fin.ext
  match d with
  | ⟨0, _⟩ => show (b.val * 1024 + a.val) / 1024 = b.val; omega
  | ⟨1, _⟩ => show (b.val * 1024 + a.val) / 1 % 1024 = a.val; omega
  | ⟨2, _⟩ => rfl

theorem h2_i5 (b : Fin 256) (a : Fin 1024) : idx_main_call11_v5 (ix4 b a (0 : Fin 1) (0 : Fin 1)) 1 = a := by
  have hb := b.isLt; have ha := a.isLt
  apply Fin.ext
  show (((b.val * 1024 + a.val) * 1 + 0) * 1 + 0) / 1 % 1024 = a.val
  omega

/-- The broadcast id word at any index is the clipped id of the index's action. -/
theorem h2_v94 (j : S256x1024x1.Idx) : val_main_v94 x3 j = val_main_v2 x3 (ix1 (j 1)) := by
  rw [val_main_v94_apply, val_main_v93_apply]
  refine congrArg (val_main_v2 x3) ?_
  funext d; match d with | ⟨0, _⟩ => rfl

/-- The negative-index wrap leaves the clipped id unchanged: it is not negative. -/
theorem h2_v4 (j : S256x1024x1.Idx) : val_main_call11_v4 x3 j = val_main_v2 x3 (ix1 (j 1)) := by
  rw [val_main_call11_v4_apply, val_main_call11_v1_apply, val_main_call11_v3_apply, val_main_call11_v0_apply,
    val_main_call11_c_apply, h2_v94]
  exact Ops.wrap_of_nonneg _ _ (Cert.IdxRange.v2_range x3 (j 1)).1

theorem h2_v5 (i : S256x1024x1x1.Idx) :
    val_main_call11_v5 x3 i = val_main_v2 x3 (ix1 (idx_main_call11_v5 i 1)) := by
  rw [val_main_call11_v5_apply, h2_v4]

/-- The start index of the entry (b, a) is the action's clipped id. -/
theorem h2_v5at (b : Fin 256) (a : Fin 1024) :
    val_main_call11_v5 x3 (ix4 b a (0 : Fin 1) (0 : Fin 1)) = val_main_v2 x3 (ix1 a) := by
  rw [h2_v5, h2_i5]

/-- The bounds test 0 ≤ id ∧ id ≤ 16 holds at every index. -/
theorem h2_mask (i : S256x1024x1x1.Idx) : val_main_call11_v11 x3 i = 1#1 := by
  rw [val_main_call11_v11_apply, val_main_call11_v7_apply, val_main_call11_v10_apply, h2_v5, val_main_call11_v6_apply,
    val_main_call11_c_2_apply, val_main_call11_v9_apply, val_main_call11_v8_apply, val_main_call11_c_1_apply]
  obtain ⟨h0, h1⟩ := Cert.IdxRange.v2_range x3 (idx_main_call11_v5 i 1)
  exact Ops.mask17_of_range _ h0 h1

/-- The bounds mask and-reduced over its unit axis is 1 at (b, a, 0). -/
theorem h2_v12 (b : Fin 256) (a : Fin 1024) : val_main_call11_v12 x3 (ix3 b a (0 : Fin 1)) = 1#1 := by
  unfold val_main_call11_v12
  exact (Ops.reduce_and_of_init _ _ rfl b a 0).trans (h2_mask x3 _)

end Head2

theorem head2_apply (x0 : (⟨S256x512, .f32⟩ : BufTy).Contents (Elt Ideal)) (x1 : (⟨S1024, .i32⟩ : BufTy).Contents (Elt Ideal)) (x2 : (⟨S1024, .i32⟩ : BufTy).Contents (Elt Ideal)) (x3 : (⟨S1024, .i32⟩ : BufTy).Contents (Elt Ideal)) (x5 : (⟨S65x64, .f32⟩ : BufTy).Contents (Elt Ideal)) (x6 : (⟨S17x64, .f32⟩ : BufTy).Contents (Elt Ideal)) (x15 : (⟨S128x640, .f32⟩ : BufTy).Contents (Elt Ideal)) (x16 : (⟨S128, .f32⟩ : BufTy).Contents (Elt Ideal)) (x17 : (⟨S17x128, .f32⟩ : BufTy).Contents (Elt Ideal)) (x18 : (⟨S17, .f32⟩ : BufTy).Contents (Elt Ideal)) (b : Fin 256) (a : Fin 1024) :
    val_main_v96 x0 x1 x2 x3 x5 x6 x15 x16 x17 x18 (ix2 b a)
      = rFull (hid (fun k => val_main_v74 x0 x15 x16 (ix2 b k)) (ep2 (fun e => val_main_v10 x1 x5 (ix2 a e)) (fun e => val_main_v17 x2 x6 (ix2 a e)) (fun e k => val_main_v76 x15 (ix2 e k)) (fun e k => val_main_v79 x15 (ix2 e k)))) (fun v k => x17 (ix2 v k)) (fun v => x18 (ix1 v)) (cls 17 (val_main_v2 x3 (ix1 a))) := by
  obtain ⟨h0, h1⟩ := Cert.IdxRange.v2_range x3 a
  rw [val_main_v96_apply, h2_i96, val_main_v95_apply, h2_v12, select_one]
  unfold val_main_call11_v13
  rw [Ops.gather17_apply _ _ b a 0 (by rw [h2_v5at]; exact h0) (by rw [h2_v5at]; exact h1), h2_v5at, h2_lsm]
  rfl

end Cert.ReferenceIdeal.Heads

end
-- ==== Proof.RefHead3.lean ====
/-
  The reference's immediate head, entry by entry.

  At batch row b and action a the reference forms the hidden row max (f b k + ep a k) 0 (f the feature projection, ep the
  embedding projection, three 64-term dot products, of the opcode and the two register embedding rows), the logits (sum over k of h k * W v k) + B v, their log-softmax along the classes (shift
  by the maximum, which the lowering takes once more against minus infinity, then subtract the log of the sum of
  exponentials, the sum starting from 0), and reads it at the action's clipped id: the clipped id is in range, so the
  negative-index wrap, the bounds mask and its fill value do nothing.
-/
import proofs.«411827_j42236708388866_3_alg».proof.Proof.RefStages
import proofs.«411827_j42236708388866_3_alg».proof.Proof.Spec
import proofs.«411827_j42236708388866_3_alg».proof.Proof.IdxRange
import proofs.«411827_j42236708388866_3_alg».proof.Proof.RefOps

import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Heads

open Cert.ReferenceIdeal Cert.ReferenceIdeal.Read Idealize.ShloMosaic Idealize.ShloMosaic.ValueIdx Cert.Spec
open scoped BigOperators

namespace H3

variable (x0 : (⟨S256x512, .f32⟩ : BufTy).Contents (Elt Ideal)) (x1 x2 x3 x4 : (⟨S1024, .i32⟩ : BufTy).Contents (Elt Ideal))
  (x5 : (⟨S65x64, .f32⟩ : BufTy).Contents (Elt Ideal)) (x6 : (⟨S17x64, .f32⟩ : BufTy).Contents (Elt Ideal))
  (x19 : (⟨S128x704, .f32⟩ : BufTy).Contents (Elt Ideal)) (x20 : (⟨S128, .f32⟩ : BufTy).Contents (Elt Ideal))
  (x21 : (⟨S2x128, .f32⟩ : BufTy).Contents (Elt Ideal)) (x22 : (⟨S2, .f32⟩ : BufTy).Contents (Elt Ideal))

/-- The feature projection's row of batch element b. -/
abbrev frow (b : Fin 256) : Fin 128 → EReal := fun k => val_main_v103 x0 x19 x20 (ix2 b k)

/-- The embedding projection's row of action a: three 64-term dot products. -/
abbrev eprow (a : Fin 1024) : Fin 128 → EReal :=
  ep3 (fun e => val_main_v10 x1 x5 (ix2 a e)) (fun e => val_main_v17 x2 x6 (ix2 a e)) (fun e => val_main_v24 x3 x6 (ix2 a e))
    (fun e k => val_main_v105 x19 (ix2 e k)) (fun e k => val_main_v108 x19 (ix2 e k)) (fun e k => val_main_v112 x19 (ix2 e k))

/-- The embedding projection at (a, k): the sum of the three dot products. -/
theorem embed_apply (a : Fin 1024) (k : Fin 128) :
    val_main_v114 x1 x2 x3 x5 x6 x19 (ix2 a k) = eprow x1 x2 x3 x5 x6 x19 a k := by
  rw [val_main_v114_apply, val_main_v110_apply, val_main_v106_apply, val_main_v109_apply, val_main_v113_apply]
  have l1 (e : Fin 64) : lidx_main_v106 (ix2 a k) e = ix2 a e := by
    funext d; match d with | ⟨0, _⟩ => rfl | ⟨1, _⟩ => rfl
  have r1 (e : Fin 64) : ridx_main_v106 (ix2 a k) e = ix2 e k := by
    funext d; match d with | ⟨0, _⟩ => rfl | ⟨1, _⟩ => rfl
  have l2 (e : Fin 64) : lidx_main_v109 (ix2 a k) e = ix2 a e := by
    funext d; match d with | ⟨0, _⟩ => rfl | ⟨1, _⟩ => rfl
  have r2 (e : Fin 64) : ridx_main_v109 (ix2 a k) e = ix2 e k := by
    funext d; match d with | ⟨0, _⟩ => rfl | ⟨1, _⟩ => rfl
  have l3 (e : Fin 64) : lidx_main_v113 (ix2 a k) e = ix2 a e := by
    funext d; match d with | ⟨0, _⟩ => rfl | ⟨1, _⟩ => rfl
  have r3 (e : Fin 64) : ridx_main_v113 (ix2 a k) e = ix2 e k := by
    funext d; match d with | ⟨0, _⟩ => rfl | ⟨1, _⟩ => rfl
  simp only [l1, r1, l2, r2, l3, r3]
  rfl

/-- The hidden entry at (b, a, k): relu of feature projection plus embedding projection. -/
theorem hidden_apply (b : Fin 256) (a : Fin 1024) (k : Fin 128) :
    val_main_v120 x0 x1 x2 x3 x5 x6 x19 x20 (ix3 b a k)
      = hid (frow x0 x19 x20 b) (eprow x1 x2 x3 x5 x6 x19 a) k := by
  rw [val_main_v120_apply, val_main_v119_apply, val_main_v117_apply, val_main_v115_apply, val_main_v118_apply,
    val_main_v116_apply, val_main_call12_v0_apply, val_main_call12_cst_apply]
  have e1 : idx_main_v115 (idx_main_v117 (ix3 b a k)) = ix2 b k := by
    funext d; match d with | ⟨0, _⟩ => rfl | ⟨1, _⟩ => rfl
  have e2 : idx_main_v116 (idx_main_v118 (ix3 b a k)) = ix2 a k := by
    funext d; match d with | ⟨0, _⟩ => rfl | ⟨1, _⟩ => rfl
  rw [e1, e2, embed_apply]
  show max (val_main_v103 x0 x19 x20 (ix2 b k) + eprow x1 x2 x3 x5 x6 x19 a k) (Ideal.ofBits .f32 0x00000000#32) = _
  rw [Ops.ofBits_zero]
  rfl

/-- The logits of (b, a): one per class. -/
abbrev lgrow (b : Fin 256) (a : Fin 1024) : Fin 2 → EReal :=
  fun v => logit (hid (frow x0 x19 x20 b) (eprow x1 x2 x3 x5 x6 x19 a)) (fun k => x21 (ix2 v k)) (x22 (ix1 v))

/-- The logit at (b, a, v): the hidden row against the class's weight row, plus the class's bias. -/
theorem logits_apply (b : Fin 256) (a : Fin 1024) (v : Fin 2) :
    val_main_v124 x0 x1 x2 x3 x5 x6 x19 x20 x21 x22 (ix3 b a v) = lgrow x0 x1 x2 x3 x5 x6 x19 x20 x21 x22 b a v := by
  rw [val_main_v124_apply, val_main_v121_apply, val_main_v123_apply, val_main_v122_apply]
  have l (k : Fin 128) : lidx_main_v121 (ix3 b a v) k = ix3 b a k := by
    funext d; match d with | ⟨0, _⟩ => rfl | ⟨1, _⟩ => rfl | ⟨2, _⟩ => rfl
  have r (k : Fin 128) : ridx_main_v121 (ix3 b a v) k = ix2 v k := by
    funext d; match d with | ⟨0, _⟩ => rfl | ⟨1, _⟩ => rfl
  have e : idx_main_v122 (idx_main_v123 (ix3 b a v)) = ix1 v := by
    funext d; match d with | ⟨0, _⟩ => rfl
  simp only [l, r, e, hidden_apply]
  rfl

/-- The row maximum at (b, a), taken once more against minus infinity. -/
theorem rowmax_apply (b : Fin 256) (a : Fin 1024) :
    val_main_call13_v2 x0 x1 x2 x3 x5 x6 x19 x20 x21 x22 (ix2 b a)
      = max ⊥ (vmax (lgrow x0 x1 x2 x3 x5 x6 x19 x20 x21 x22 b a)) := by
  rw [val_main_call13_v2_apply, val_main_call13_v1_apply, val_main_call13_cst_0_apply]
  unfold val_main_call13_v0 val_main_call13_cst
  rw [Ops.reduce_max2_apply]
  simp only [logits_apply]
  show max (Ideal.ofBits .f32 0xFF800000#32) _ = _
  rw [Ops.ofBits_neg_inf]

/-- The shifted logit at (b, a, v). -/
theorem shifted_apply (b : Fin 256) (a : Fin 1024) (v : Fin 2) :
    val_main_call13_v5 x0 x1 x2 x3 x5 x6 x19 x20 x21 x22 (ix3 b a v)
      = lgrow x0 x1 x2 x3 x5 x6 x19 x20 x21 x22 b a v - max ⊥ (vmax (lgrow x0 x1 x2 x3 x5 x6 x19 x20 x21 x22 b a)) := by
  rw [val_main_call13_v5_apply, val_main_call13_v4_apply, val_main_call13_v3_apply, logits_apply]
  have e : idx_main_call13_v3 (idx_main_call13_v4 (ix3 b a v)) = ix2 b a := by
    funext d; match d with | ⟨0, _⟩ => rfl | ⟨1, _⟩ => rfl
  rw [e, rowmax_apply]
  rfl

/-- The sum of the shifted exponentials at (b, a), from 0. -/
theorem expsum_apply (b : Fin 256) (a : Fin 1024) :
    val_main_call13_v7 x0 x1 x2 x3 x5 x6 x19 x20 x21 x22 (ix2 b a)
      = 0 + ∑ v : Fin 2, Ideal.exp (lgrow x0 x1 x2 x3 x5 x6 x19 x20 x21 x22 b a v
          - max ⊥ (vmax (lgrow x0 x1 x2 x3 x5 x6 x19 x20 x21 x22 b a))) := by
  rw [val_main_call13_v7_apply, val_main_call13_cst_1_apply]
  have e (v : Fin 2) : idx_main_call13_v7 (ix2 b a) v = ix3 b a v := by
    funext d; match d with | ⟨0, _⟩ => rfl | ⟨1, _⟩ => rfl | ⟨2, _⟩ => rfl
  simp only [e, val_main_call13_v6_apply, shifted_apply]
  show Ideal.ofBits .f32 0x00000000#32 + _ = _
  rw [Ops.ofBits_zero]
  rfl

/-- The log-softmax at (b, a, v). -/
theorem logsoftmax_apply (b : Fin 256) (a : Fin 1024) (v : Fin 2) :
    val_main_v125 x0 x1 x2 x3 x5 x6 x19 x20 x21 x22 (ix3 b a v)
      = logSoftmax (lgrow x0 x1 x2 x3 x5 x6 x19 x20 x21 x22 b a) v := by
  rw [val_main_v125_apply, val_main_call13_v10_apply, val_main_call13_v9_apply, val_main_call13_v8_apply, shifted_apply]
  have e : idx_main_call13_v8 (idx_main_call13_v10 (ix3 b a v)) = ix2 b a := by
    funext d; match d with | ⟨0, _⟩ => rfl | ⟨1, _⟩ => rfl
  rw [e, expsum_apply]
  rfl

/-- The clipped id of action a, as take_along_axis's index array holds it at (b, a, 0). -/
theorem idword_apply (b : Fin 256) (a : Fin 1024) :
    val_main_v127 x4 (ix3 b a (0 : Fin 1)) = val_main_v3 x4 (ix1 a) := by
  rw [val_main_v127_apply, val_main_v126_apply]
  have e : idx_main_v126 (idx_main_v127 (ix3 b a (0 : Fin 1))) = ix1 a := by
    funext d; match d with | ⟨0, _⟩ => rfl
  rw [e]

/-- The clipped id is not negative, so the negative-index wrap leaves it. -/
theorem wrapped_apply (b : Fin 256) (a : Fin 1024) :
    val_main_call14_v4 x4 (ix3 b a (0 : Fin 1)) = val_main_v3 x4 (ix1 a) := by
  rw [val_main_call14_v4_apply, val_main_call14_v1_apply, idword_apply, val_main_call14_v0_apply, val_main_call14_c_apply]
  have h0 := (Cert.IdxRange.v3_range x4 a).1
  rw [Ops.cmpi_slt_eq_zero _ _ (by rw [Ops.toInt_zero32]; exact h0), select_zero]

/-- The start word of the gather at (b, a, 0, 0) is the clipped id. -/
theorem startword_apply (b : Fin 256) (a : Fin 1024) :
    val_main_call14_v5 x4 (ix4 b a (0 : Fin 1) (0 : Fin 1)) = val_main_v3 x4 (ix1 a) := by
  rw [val_main_call14_v5_apply]
  have e : idx_main_call14_v5 (ix4 b a (0 : Fin 1) (0 : Fin 1)) = ix3 b a (0 : Fin 1) := by
    funext d; refine Fin.ext ?_
    have hb := b.isLt
    have ha := a.isLt
    match d with
    | ⟨0, _⟩ => show (((b.val * 1024 + a.val) * 1 + 0) * 1 + 0) / 1024 = b.val; omega
    | ⟨1, _⟩ => show (((b.val * 1024 + a.val) * 1 + 0) * 1 + 0) / 1 % 1024 = a.val; omega
    | ⟨2, _⟩ => rfl
  rw [e, wrapped_apply]

/-- The bounds mask at (b, a, 0) is the true bit: the clipped id lies in [0, 1]. -/
theorem mask_apply (b : Fin 256) (a : Fin 1024) :
    val_main_call14_v12 x4 (ix3 b a (0 : Fin 1)) = 1#1 := by
  unfold val_main_call14_v12 val_main_call14_c_3
  rw [Ops.reduce_and_apply, val_main_call14_v11_apply, val_main_call14_v7_apply, val_main_call14_v10_apply,
    startword_apply, val_main_call14_v6_apply, val_main_call14_c_2_apply, val_main_call14_v9_apply,
    val_main_call14_v8_apply, val_main_call14_c_1_apply]
  obtain ⟨h0, h1⟩ := Cert.IdxRange.v3_range x4 a
  exact Ops.mask2_of_range _ h0 h1

/-- The gathered entry at (b, a, 0): the log-softmax at the action's class. -/
theorem gathered_apply (b : Fin 256) (a : Fin 1024) :
    val_main_call14_v13 x0 x1 x2 x3 x4 x5 x6 x19 x20 x21 x22 (ix3 b a (0 : Fin 1))
      = logSoftmax (lgrow x0 x1 x2 x3 x5 x6 x19 x20 x21 x22 b a) (cls 2 (val_main_v3 x4 (ix1 a))) := by
  unfold val_main_call14_v13
  have hw := startword_apply x4 b a
  obtain ⟨h0, h1⟩ := Cert.IdxRange.v3_range x4 a
  rw [Ops.gather2_apply _ _ b a 0 (by rw [hw]; exact h0) (by rw [hw]; exact h1), hw, logsoftmax_apply]

end H3

theorem head3_apply (x0 : (⟨S256x512, .f32⟩ : BufTy).Contents (Elt Ideal)) (x1 : (⟨S1024, .i32⟩ : BufTy).Contents (Elt Ideal)) (x2 : (⟨S1024, .i32⟩ : BufTy).Contents (Elt Ideal)) (x3 : (⟨S1024, .i32⟩ : BufTy).Contents (Elt Ideal)) (x4 : (⟨S1024, .i32⟩ : BufTy).Contents (Elt Ideal)) (x5 : (⟨S65x64, .f32⟩ : BufTy).Contents (Elt Ideal)) (x6 : (⟨S17x64, .f32⟩ : BufTy).Contents (Elt Ideal)) (x19 : (⟨S128x704, .f32⟩ : BufTy).Contents (Elt Ideal)) (x20 : (⟨S128, .f32⟩ : BufTy).Contents (Elt Ideal)) (x21 : (⟨S2x128, .f32⟩ : BufTy).Contents (Elt Ideal)) (x22 : (⟨S2, .f32⟩ : BufTy).Contents (Elt Ideal)) (b : Fin 256) (a : Fin 1024) :
    val_main_v129 x0 x1 x2 x3 x4 x5 x6 x19 x20 x21 x22 (ix2 b a)
      = rFull (hid (fun k => val_main_v103 x0 x19 x20 (ix2 b k)) (ep3 (fun e => val_main_v10 x1 x5 (ix2 a e)) (fun e => val_main_v17 x2 x6 (ix2 a e)) (fun e => val_main_v24 x3 x6 (ix2 a e)) (fun e k => val_main_v105 x19 (ix2 e k)) (fun e k => val_main_v108 x19 (ix2 e k)) (fun e k => val_main_v112 x19 (ix2 e k)))) (fun v k => x21 (ix2 v k)) (fun v => x22 (ix1 v)) (cls 2 (val_main_v3 x4 (ix1 a))) := by
  rw [val_main_v129_apply]
  have e : idx_main_v129 (ix2 b a) = ix3 b a (0 : Fin 1) := by
    funext d; refine Fin.ext ?_
    have hb := b.isLt
    have ha := a.isLt
    match d with
    | ⟨0, _⟩ => show (b.val * 1024 + a.val) / 1024 = b.val; omega
    | ⟨1, _⟩ => show (b.val * 1024 + a.val) / 1 % 1024 = a.val; omega
    | ⟨2, _⟩ => rfl
  rw [e, val_main_v128_apply, H3.mask_apply, select_one, H3.gathered_apply]
  rfl

end Cert.ReferenceIdeal.Heads

end
-- ==== Proof.RefRead.lean ====
/-
  The reference's result, entry by entry: the opcode head's entry plus the three heads' entries, added in order.
-/
import proofs.«411827_j42236708388866_3_alg».proof.Proof.RefStages
import proofs.«411827_j42236708388866_3_alg».proof.Proof.Spec
import proofs.«411827_j42236708388866_3_alg».proof.Proof.IdxRange
import proofs.«411827_j42236708388866_3_alg».proof.Proof.RefHead1
import proofs.«411827_j42236708388866_3_alg».proof.Proof.RefHead2
import proofs.«411827_j42236708388866_3_alg».proof.Proof.RefHead3
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Heads

open Cert.ReferenceIdeal Cert.ReferenceIdeal.Read Idealize.ShloMosaic Idealize.ShloMosaic.ValueIdx Cert.Spec
open scoped BigOperators

theorem out_apply (x0 : (⟨S256x512, .f32⟩ : BufTy).Contents (Elt Ideal)) (x1 : (⟨S1024, .i32⟩ : BufTy).Contents (Elt Ideal)) (x2 : (⟨S1024, .i32⟩ : BufTy).Contents (Elt Ideal)) (x3 : (⟨S1024, .i32⟩ : BufTy).Contents (Elt Ideal)) (x4 : (⟨S1024, .i32⟩ : BufTy).Contents (Elt Ideal)) (x5 : (⟨S65x64, .f32⟩ : BufTy).Contents (Elt Ideal)) (x6 : (⟨S17x64, .f32⟩ : BufTy).Contents (Elt Ideal)) (x7 : (⟨S128x512, .f32⟩ : BufTy).Contents (Elt Ideal)) (x8 : (⟨S128, .f32⟩ : BufTy).Contents (Elt Ideal)) (x9 : (⟨S65x128, .f32⟩ : BufTy).Contents (Elt Ideal)) (x10 : (⟨S65, .f32⟩ : BufTy).Contents (Elt Ideal)) (x11 : (⟨S128x576, .f32⟩ : BufTy).Contents (Elt Ideal)) (x12 : (⟨S128, .f32⟩ : BufTy).Contents (Elt Ideal)) (x13 : (⟨S17x128, .f32⟩ : BufTy).Contents (Elt Ideal)) (x14 : (⟨S17, .f32⟩ : BufTy).Contents (Elt Ideal)) (x15 : (⟨S128x640, .f32⟩ : BufTy).Contents (Elt Ideal)) (x16 : (⟨S128, .f32⟩ : BufTy).Contents (Elt Ideal)) (x17 : (⟨S17x128, .f32⟩ : BufTy).Contents (Elt Ideal)) (x18 : (⟨S17, .f32⟩ : BufTy).Contents (Elt Ideal)) (x19 : (⟨S128x704, .f32⟩ : BufTy).Contents (Elt Ideal)) (x20 : (⟨S128, .f32⟩ : BufTy).Contents (Elt Ideal)) (x21 : (⟨S2x128, .f32⟩ : BufTy).Contents (Elt Ideal)) (x22 : (⟨S2, .f32⟩ : BufTy).Contents (Elt Ideal)) (b : Fin 256) (a : Fin 1024) :
    val_main_v130 x0 x1 x2 x3 x4 x5 x6 x7 x8 x9 x10 x11 x12 x13 x14 x15 x16 x17 x18 x19 x20 x21 x22 (ix2 b a)
      = rOutRow (val_main_v43 x0 x1 x7 x8 x9 x10 (ix2 b a)) (fun e => val_main_v10 x1 x5 (ix2 a e)) (fun e => val_main_v17 x2 x6 (ix2 a e)) (fun e => val_main_v24 x3 x6 (ix2 a e)) (fun k => val_main_v49 x0 x11 x12 (ix2 b k)) (fun k => val_main_v74 x0 x15 x16 (ix2 b k)) (fun k => val_main_v103 x0 x19 x20 (ix2 b k))
          (fun e k => val_main_v51 x11 (ix2 e k)) (fun e k => val_main_v76 x15 (ix2 e k)) (fun e k => val_main_v79 x15 (ix2 e k)) (fun e k => val_main_v105 x19 (ix2 e k)) (fun e k => val_main_v108 x19 (ix2 e k)) (fun e k => val_main_v112 x19 (ix2 e k))
          (fun v k => x13 (ix2 v k)) (fun v => x14 (ix1 v)) (cls 17 (val_main_v1 x2 (ix1 a))) (fun v k => x17 (ix2 v k)) (fun v => x18 (ix1 v)) (cls 17 (val_main_v2 x3 (ix1 a))) (fun v k => x21 (ix2 v k)) (fun v => x22 (ix1 v)) (cls 2 (val_main_v3 x4 (ix1 a))) := by
  rw [val_main_v130_apply, val_main_v97_apply, val_main_v68_apply,
    head1_apply x0 x1 x2 x5 x11 x12 x13 x14 b a,
    head2_apply x0 x1 x2 x3 x5 x6 x15 x16 x17 x18 b a,
    head3_apply x0 x1 x2 x3 x4 x5 x6 x19 x20 x21 x22 b a]
  simp only [Ideal.addf_def]
  unfold rOutRow
  rfl

end Cert.ReferenceIdeal.Heads

end
-- ==== Proof.FinitePre.lean ====
/-
  Under the precondition every float argument entry is a real number.

  The precondition is one scalar bit: the conjunction, over the float arguments, of "every entry has absolute value below
  plus infinity" reduced by and over the whole array. At the extended reals an entry with |x| < +inf is neither infinity,
  that is, a real number.
-/
import proofs.«411827_j42236708388866_3_alg».proof.Defs
import proofs.«411827_j42236708388866_3_alg».proof.Proof.Gen.Pre_finite_inputs
import proofs.«411827_j42236708388866_3_alg».proof.Proof.Spec
import Idealize.ShloMosaic.Lib.ValueIdx
import Idealize.ShloMosaic.Lib.ReduceAll

set_option maxRecDepth 16384

noncomputable section

namespace Cert.Finite

open Idealize.ShloMosaic Idealize.ShloMosaic.TcCoe Idealize.SL.Sem Idealize.ShloMosaic.ValueIdx Cert.Spec
open Cert.KernelIdeal

/-- The shape of a scalar: rank zero, one entry. -/
abbrev Sscalar : Shape := ⟨0, ![]⟩

/-- A scalar has exactly one index. -/
instance subsingleton_scalar_idx : Subsingleton Sscalar.Idx := ⟨fun a b => funext fun d => d.elim0⟩

/-- The pattern with all exponent bits set and zero fraction denotes plus infinity. -/
theorem inf_lit : Ideal.ofBits .f32 0x7F800000#32 = (⊤ : EReal) := by
  simp [Ideal.ofBits, Ideal.ieee]

/-- An extended real whose absolute value max x (-x) lies strictly below plus infinity is neither of the two
    infinities: for x = ⊤ the maximum is ⊤ itself, for x = ⊥ it is -⊥ = ⊤. -/
theorem isR_of_abs_lt_top (x : EReal) (h : max x (-x) < ⊤) : IsR x := by
  induction x using EReal.rec with
  | bot => simp at h
  | coe r => exact ⟨r, rfl⟩
  | top => simp at h

/-- A one-bit word made from a boolean is 1 only when the boolean is true. -/
theorem ofBool_one {b : Bool} (h : BitVec.ofBool b = 1#1) : b = true := by
  cases b
  · exact absurd h (by decide)
  · rfl

/-- The ordered less-than comparison at the extended reals answers 1 only when its left operand is below its right. -/
theorem lt_of_cmp_olt {a b : EReal} (h : Ideal.cmp .olt a b = 1#1) : a < b := by
  have h' : BitVec.ofBool (decide (a < b)) = 1#1 := h
  exact of_decide_eq_true (ofBool_one h')

/-- One float argument's share of the precondition: if the and-reduction over the whole array of the entrywise test
    |x i| < +inf is 1, then every entry passes the test, hence is a real number. -/
theorem all_real {s : Shape} {axes : List (Fin s.rank)} (hb : Sscalar.BroadcastsInDim s (![] : Fin 0 → Fin s.rank))
    (hr : s.ReducesTo axes Sscalar) (hu : 0 < Sscalar.numel) (x : FVec Ideal s .f32) (init : IVec Sscalar 1)
    (e : Host.reduce IntOp.andi
          (cmpf .olt (Host.absf x) (broadcastInDim s ![] hb (constant Sscalar .f32 0x7F800000#32))) init hr hu ix0 = 1#1)
    (i : s.Idx) : IsR (x i) := by
  have h := Host.reduce_andi_all _ init hr hu ix0 e i
  have h2 : Ideal.cmp .olt (max (x i) (-(x i))) (Ideal.ofBits .f32 0x7F800000#32) = 1#1 := h
  rw [inf_lit] at h2
  exact isR_of_abs_lt_top (x i) (lt_of_cmp_olt h2)

/-- Every entry of every float argument the three heads read is a real number. -/
theorem args_real (m : (ℓ : Loc nD τ sig) → Buf (Elt Ideal) ℓ)
    (hpre : Cert.Pre_KernelIdeal (hPre_finite_inputs := Cert.Pre_finite_inputs.Gen.facts) m) (c : Dev nD) :
    (∀ i, IsR ((m ((c.tc : Thread nD τ).loc main_arg0) : S256x512.Idx → Elt Ideal .f32) i))
    ∧ (∀ i, IsR ((m ((c.tc : Thread nD τ).loc main_arg5) : S65x64.Idx → Elt Ideal .f32) i))
    ∧ (∀ i, IsR ((m ((c.tc : Thread nD τ).loc main_arg6) : S17x64.Idx → Elt Ideal .f32) i))
    ∧ (∀ i, IsR ((m ((c.tc : Thread nD τ).loc main_arg11) : S128x576.Idx → Elt Ideal .f32) i))
    ∧ (∀ i, IsR ((m ((c.tc : Thread nD τ).loc main_arg12) : S128.Idx → Elt Ideal .f32) i))
    ∧ (∀ i, IsR ((m ((c.tc : Thread nD τ).loc main_arg13) : S17x128.Idx → Elt Ideal .f32) i))
    ∧ (∀ i, IsR ((m ((c.tc : Thread nD τ).loc main_arg14) : S17.Idx → Elt Ideal .f32) i))
    ∧ (∀ i, IsR ((m ((c.tc : Thread nD τ).loc main_arg15) : S128x640.Idx → Elt Ideal .f32) i))
    ∧ (∀ i, IsR ((m ((c.tc : Thread nD τ).loc main_arg16) : S128.Idx → Elt Ideal .f32) i))
    ∧ (∀ i, IsR ((m ((c.tc : Thread nD τ).loc main_arg17) : S17x128.Idx → Elt Ideal .f32) i))
    ∧ (∀ i, IsR ((m ((c.tc : Thread nD τ).loc main_arg18) : S17.Idx → Elt Ideal .f32) i))
    ∧ (∀ i, IsR ((m ((c.tc : Thread nD τ).loc main_arg19) : S128x704.Idx → Elt Ideal .f32) i))
    ∧ (∀ i, IsR ((m ((c.tc : Thread nD τ).loc main_arg20) : S128.Idx → Elt Ideal .f32) i))
    ∧ (∀ i, IsR ((m ((c.tc : Thread nD τ).loc main_arg21) : S2x128.Idx → Elt Ideal .f32) i))
    ∧ (∀ i, IsR ((m ((c.tc : Thread nD τ).loc main_arg22) : S2.Idx → Elt Ideal .f32) i)) := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Idealize.ShloMosaic.andi] at h
  simp only [IntOp.andi_eq_one] at h
  obtain ⟨⟨⟨⟨⟨⟨⟨⟨⟨⟨⟨⟨⟨⟨⟨⟨⟨⟨h0, h5⟩, h6⟩, h7⟩, h8⟩, h9⟩, h10⟩, h11⟩, h12⟩, h13⟩, h14⟩, h15⟩, h16⟩, h17⟩, h18⟩, h19⟩, h20⟩,
    h21⟩, h22⟩ := h
  exact ⟨all_real _ _ _ _ _ h0, all_real _ _ _ _ _ h5, all_real _ _ _ _ _ h6, all_real _ _ _ _ _ h11,
    all_real _ _ _ _ _ h12, all_real _ _ _ _ _ h13, all_real _ _ _ _ _ h14, all_real _ _ _ _ _ h15,
    all_real _ _ _ _ _ h16, all_real _ _ _ _ _ h17, all_real _ _ _ _ _ h18, all_real _ _ _ _ _ h19,
    all_real _ _ _ _ _ h20, all_real _ _ _ _ _ h21, all_real _ _ _ _ _ h22⟩

end Cert.Finite

end
-- ==== Proof.FiniteStages.lean ====
/-
  Real arguments give real stages.

  A gathered row is a row of the table; a slice, a transpose and a broadcast only move entries; a matrix product's entry is
  a finite sum of products and a bias is added to it: each of these keeps "every entry is a real number".
-/
import proofs.«411827_j42236708388866_3_alg».proof.Proof.RefStages
import proofs.«411827_j42236708388866_3_alg».proof.Proof.Spec
import proofs.«411827_j42236708388866_3_alg».proof.Proof.Algebra
import Idealize.ShloMosaic.Lib.ValueIdx
import Idealize.ShloMosaic.Lib.Pipeline.Value
import Idealize.ShloMosaic.PureOps.Ideal.Laws

set_option maxRecDepth 16384

noncomputable section

namespace Cert.Finite

open Cert.ReferenceIdeal Cert.ReferenceIdeal.Read Idealize.ShloMosaic Idealize.ShloMosaic.ValueIdx Cert.Spec
open scoped BigOperators

theorem stages_real (x0 : (⟨S256x512, .f32⟩ : BufTy).Contents (Elt Ideal)) (x1 : (⟨S1024, .i32⟩ : BufTy).Contents (Elt Ideal)) (x2 : (⟨S1024, .i32⟩ : BufTy).Contents (Elt Ideal)) (x3 : (⟨S1024, .i32⟩ : BufTy).Contents (Elt Ideal)) (x5 : (⟨S65x64, .f32⟩ : BufTy).Contents (Elt Ideal)) (x6 : (⟨S17x64, .f32⟩ : BufTy).Contents (Elt Ideal)) (x11 : (⟨S128x576, .f32⟩ : BufTy).Contents (Elt Ideal)) (x12 : (⟨S128, .f32⟩ : BufTy).Contents (Elt Ideal)) (x15 : (⟨S128x640, .f32⟩ : BufTy).Contents (Elt Ideal)) (x16 : (⟨S128, .f32⟩ : BufTy).Contents (Elt Ideal)) (x19 : (⟨S128x704, .f32⟩ : BufTy).Contents (Elt Ideal)) (x20 : (⟨S128, .f32⟩ : BufTy).Contents (Elt Ideal))
    (h0 : ∀ i, IsR (x0 i)) (h5 : ∀ i, IsR (x5 i)) (h6 : ∀ i, IsR (x6 i)) (h11 : ∀ i, IsR (x11 i)) (h12 : ∀ i, IsR (x12 i)) (h15 : ∀ i, IsR (x15 i)) (h16 : ∀ i, IsR (x16 i)) (h19 : ∀ i, IsR (x19 i)) (h20 : ∀ i, IsR (x20 i)) :
    (∀ i, IsR (val_main_v10 x1 x5 i))
    ∧ (∀ i, IsR (val_main_v17 x2 x6 i))
    ∧ (∀ i, IsR (val_main_v24 x3 x6 i))
    ∧ (∀ i, IsR (val_main_v49 x0 x11 x12 i))
    ∧ (∀ i, IsR (val_main_v74 x0 x15 x16 i))
    ∧ (∀ i, IsR (val_main_v103 x0 x19 x20 i))
    ∧ (∀ i, IsR (val_main_v51 x11 i))
    ∧ (∀ i, IsR (val_main_v76 x15 i))
    ∧ (∀ i, IsR (val_main_v79 x15 i))
    ∧ (∀ i, IsR (val_main_v105 x19 i))
    ∧ (∀ i, IsR (val_main_v108 x19 i))
    ∧ (∀ i, IsR (val_main_v112 x19 i)) := by
  refine ⟨?_, ?_, ?_, ?_, ?_, ?_, ?_, ?_, ?_, ?_, ?_, ?_⟩
  -- a gathered entry is the table's entry at the index the gather computes
  · intro i
    unfold val_main_v10 Host.gather
    exact h5 _
  · intro i
    unfold val_main_v17 Host.gather
    exact h6 _
  · intro i
    unfold val_main_v24 Host.gather
    exact h6 _
  -- a feature projection's entry: a 512-term sum of products of entries of x0 and of the weight block, plus a bias entry
  · intro i
    rw [val_main_v49_apply, Ideal.addf_def, val_main_v46_apply, val_main_v48_apply, val_main_v47_apply]
    refine IsR.add (IsR.sum _ _ (fun k => IsR.mul (h0 _) ?_)) (h12 _)
    rw [val_main_v45_apply, val_main_v44_apply]
    exact h11 _
  · intro i
    rw [val_main_v74_apply, Ideal.addf_def, val_main_v71_apply, val_main_v73_apply, val_main_v72_apply]
    refine IsR.add (IsR.sum _ _ (fun k => IsR.mul (h0 _) ?_)) (h16 _)
    rw [val_main_v70_apply, val_main_v69_apply]
    exact h15 _
  · intro i
    rw [val_main_v103_apply, Ideal.addf_def, val_main_v100_apply, val_main_v102_apply, val_main_v101_apply]
    refine IsR.add (IsR.sum _ _ (fun k => IsR.mul (h0 _) ?_)) (h20 _)
    rw [val_main_v99_apply, val_main_v98_apply]
    exact h19 _
  -- an embedding-side weight block's entry is an entry of the weight matrix
  · intro i
    rw [val_main_v51_apply, val_main_v50_apply]
    exact h11 _
  · intro i
    rw [val_main_v76_apply, val_main_v75_apply]
    exact h15 _
  · intro i
    rw [val_main_v79_apply, val_main_v78_apply]
    exact h15 _
  · intro i
    rw [val_main_v105_apply, val_main_v104_apply]
    exact h19 _
  · intro i
    rw [val_main_v108_apply, val_main_v107_apply]
    exact h19 _
  · intro i
    rw [val_main_v112_apply, val_main_v111_apply]
    exact h19 _

end Cert.Finite

end
-- ==== Proof.Bridge.lean ====
/-
  The kernel's result is the reference's, entry by entry.

  Entry (b, a) of the kernel program's result is the opcode head's entry plus the region's entry, which is the per-entry
  kernel formula on the rows the region finds; those rows are the reference's own stages (the shared host prefix) or, for
  the arrays only the kernel's program builds, rows of the second-layer weights and biases picked by the clipped ids, the
  difference row and bias of the 2-class head, and the sign of the clipped immediate id. Under the precondition all of
  these are real numbers, and on real data the kernel's per-entry formula plus the opcode entry is the reference's
  per-entry formula, which is what the reference's result reads at (b, a).
-/
import proofs.«411827_j42236708388866_3_alg».proof.Proof.Gen.KernelIdeal.Frame
import proofs.«411827_j42236708388866_3_alg».proof.Proof.RefStages
import proofs.«411827_j42236708388866_3_alg».proof.Proof.Spec
import proofs.«411827_j42236708388866_3_alg».proof.Proof.Algebra
import proofs.«411827_j42236708388866_3_alg».proof.Proof.KValue
import proofs.«411827_j42236708388866_3_alg».proof.Proof.KPrefixA
import proofs.«411827_j42236708388866_3_alg».proof.Proof.KPrefixB
import proofs.«411827_j42236708388866_3_alg».proof.Proof.RefRead
import proofs.«411827_j42236708388866_3_alg».proof.Proof.FinitePre
import proofs.«411827_j42236708388866_3_alg».proof.Proof.FiniteStages
import Idealize.ShloMosaic.Lib.ValueIdx

set_option maxRecDepth 16384

noncomputable section

namespace Cert.Bridge

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- The reference's result stage at the kernel program's arguments. -/
def refOf (c : Dev nD) : S256x1024.Idx → Elt Ideal .f32 :=
  Cert.ReferenceIdeal.Read.val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

theorem entry_eq (hpre : Cert.Pre_KernelIdeal m) (c : Dev nD) (b : Fin 256) (a : Fin 1024) :
    (Cert.KernelIdeal.KVal.res m c : S256x1024.Idx → Elt Ideal .f32) (ix2 b a) = refOf m c (ix2 b a) := by
  obtain ⟨h0, h5, h6, h11, h12, h13, h14, h15, h16, h17, h18, h19, h20, h21, h22⟩ := Cert.Finite.args_real m hpre c
  obtain ⟨s10, s17, s24, s49, s74, s103, s51, s76, s79, s105, s108, s112⟩ :=
    Cert.Finite.stages_real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg19)) (m ((c.tc : Thread nD τ).loc main_arg20)) h0 h5 h6 h11 h12 h15 h16 h19 h20
  unfold refOf
  rw [Cert.ReferenceIdeal.Heads.out_apply]
  unfold Cert.KernelIdeal.KVal.res
  rw [ValueIdx.addf_apply, Cert.KernelIdeal.KVal.arr_apply m c b a]
  rw [Cert.KernelIdeal.Prefix.V_main_v43 m c, Cert.KernelIdeal.Prefix.V_main_v10 m c, Cert.KernelIdeal.Prefix.V_main_v17 m c,
    Cert.KernelIdeal.Prefix.V_main_v24 m c, Cert.KernelIdeal.Prefix.V_main_v49 m c, Cert.KernelIdeal.Prefix.V_main_v55 m c,
    Cert.KernelIdeal.Prefix.V_main_v61 m c, Cert.KernelIdeal.Prefix.V_main_v63 m c, Cert.KernelIdeal.Prefix.V_main_v65 m c,
    Cert.KernelIdeal.Prefix.V_main_v67 m c, Cert.KernelIdeal.Prefix.V_main_v69 m c, Cert.KernelIdeal.Prefix.V_main_v71 m c,
    Cert.KernelIdeal.Prefix.V_main_v73 m c]
  simp only [Cert.KernelIdeal.Prefix.V_main_v84_apply m c, Cert.KernelIdeal.Prefix.V_main_v124_apply m c,
    Cert.KernelIdeal.Prefix.V_main_v98_apply m c, Cert.KernelIdeal.Prefix.V_main_v125_apply m c,
    Cert.KernelIdeal.Prefix.V_main_v123_apply m c, Cert.KernelIdeal.Prefix.V_main_v74_apply m c,
    Cert.KernelIdeal.Prefix.V_main_v76_apply m c, Cert.KernelIdeal.Prefix.V_main_v75_apply m c,
    Cert.KernelIdeal.Prefix.V_main_v77_apply m c, Cert.KernelIdeal.Prefix.V_main_v111_apply m c,
    Cert.KernelIdeal.Prefix.V_main_v117_apply m c]
  exact Cert.Spec.out_eq _ _ _ _ _ _ _ _ _ _ _ _ _
    (fun v k => (m ((c.tc : Thread nD τ).loc main_arg13) : S17x128.Idx → Elt Ideal .f32) (ix2 v k)) (fun v => (m ((c.tc : Thread nD τ).loc main_arg14) : S17.Idx → Elt Ideal .f32) (ix1 v)) _
    (fun v k => (m ((c.tc : Thread nD τ).loc main_arg17) : S17x128.Idx → Elt Ideal .f32) (ix2 v k)) (fun v => (m ((c.tc : Thread nD τ).loc main_arg18) : S17.Idx → Elt Ideal .f32) (ix1 v)) _
    (fun v k => (m ((c.tc : Thread nD τ).loc main_arg21) : S2x128.Idx → Elt Ideal .f32) (ix2 v k)) (fun v => (m ((c.tc : Thread nD τ).loc main_arg22) : S2.Idx → Elt Ideal .f32) (ix1 v)) _
    (fun e => s10 _) (fun e => s17 _) (fun e => s24 _) (fun k => s49 _) (fun k => s74 _) (fun k => s103 _)
    (fun e k => s51 _) (fun e k => s76 _) (fun e k => s79 _) (fun e k => s105 _) (fun e k => s108 _) (fun e k => s112 _)
    (fun v k => h13 _) (fun v => h14 _) (fun v k => h17 _) (fun v => h18 _) (fun v k => h21 _) (fun v => h22 _)

theorem res_eq (hpre : Cert.Pre_KernelIdeal m) (c : Dev nD) :
    (Cert.KernelIdeal.KVal.res m c : S256x1024.Idx → Elt Ideal .f32) = refOf m c :=
  funext fun i => by rw [eq_ix2 i]; exact entry_eq m hpre c _ _

end Cert.Bridge

end
-- ==== Proof.lean ====
/-
  The certificate: the two kernel programs run and keep their arguments (the generated frames), the reference runs and
  keeps its arguments (its generated run), the idealization rewrote nothing, and at the extended reals, under finite
  float inputs, the kernel program's result is the reference's.

  The kernel splits each of the three per-action heads differently from the reference: the opcode head is computed on
  the host by both in the same way; for the two 17-class heads the kernel reads the gathered logit directly and subtracts
  max + log-sum-exp where the reference forms the log-softmax and then reads the entry; for the 2-class head the kernel uses
  minus softplus of the signed logit difference. On real numbers these agree entry by entry (Algebra); the rest is reading
  both programs at an entry (the kernel body over its blocks, the blocks as rows of the arrays, the host prefix shared with
  the reference, the reference's stages).
-/
import proofs.«411827_j42236708388866_3_alg».proof.Defs
import proofs.«411827_j42236708388866_3_alg».proof.Proof.Gen.Kernel
import proofs.«411827_j42236708388866_3_alg».proof.Proof.Gen.Kernel.Skeleton
import proofs.«411827_j42236708388866_3_alg».proof.Proof.Gen.Kernel.Launch
import proofs.«411827_j42236708388866_3_alg».proof.Proof.Gen.Kernel.Points
import proofs.«411827_j42236708388866_3_alg».proof.Proof.Gen.Kernel.Frame
import proofs.«411827_j42236708388866_3_alg».proof.Proof.Gen.KernelIdeal
import proofs.«411827_j42236708388866_3_alg».proof.Proof.Gen.KernelIdeal.Skeleton
import proofs.«411827_j42236708388866_3_alg».proof.Proof.Gen.KernelIdeal.Launch
import proofs.«411827_j42236708388866_3_alg».proof.Proof.Gen.KernelIdeal.Points
import proofs.«411827_j42236708388866_3_alg».proof.Proof.Gen.KernelIdeal.Frame
import proofs.«411827_j42236708388866_3_alg».proof.Proof.Gen.ReferenceIdeal
import proofs.«411827_j42236708388866_3_alg».proof.Proof.Gen.Pre_finite_inputs
import proofs.«411827_j42236708388866_3_alg».proof.Proof.RefStages
import proofs.«411827_j42236708388866_3_alg».proof.Proof.RefRun
import proofs.«411827_j42236708388866_3_alg».proof.Proof.KValue
import proofs.«411827_j42236708388866_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- Both idealized programs end with the reference's result stage at the kernel program's arguments. -/
theorem algebraic : Cert.algebraic_KernelIdeal_ReferenceIdeal := by
  intro m ρ m' ρ' hpre hagree
  refine ⟨fun c => Cert.KernelIdeal.KVal.res m c, Cert.KernelIdeal.KVal.run m ρ, ?_⟩
  refine (θ_run Cert.ReferenceIdeal.defs _ _).mono (fun r h c => ⟨(h c).1.trans ?_, (h c).2⟩)
    (Cert.ReferenceIdeal.HandRun.run (F := Ideal) m' ρ')
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact (Cert.Bridge.res_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
